-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x512 : Shape := ⟨2, ![2000, 512]⟩
abbrev S2x64000 : Shape := ⟨2, ![2, 64000]⟩
abbrev S200000x2 : Shape := ⟨2, ![200000, 2]⟩
abbrev S4000000x64 : Shape := ⟨2, ![4000000, 64]⟩
abbrev S64000 : Shape := ⟨1, ![64000]⟩
abbrev S2x512x64 : Shape := ⟨3, ![2, 512, 64]⟩
abbrev S2x64x64 : Shape := ⟨3, ![2, 64, 64]⟩
abbrev S320x2 : Shape := ⟨2, ![320, 2]⟩
abbrev S2 : Shape := ⟨1, ![2]⟩
abbrev S_ : Shape := ⟨0, ![]⟩

class Facts : Prop where
  bcast_S_S2000x512 : S_.BroadcastsInDim S2000x512 (![] : Fin 0 → Fin S2000x512.rank)
  reducesTo_S2000x512_S_d0_1 : S2000x512.ReducesTo [0, 1] S_
  h_S_ : 0 < S_.numel
  bcast_S_S4000000x64 : S_.BroadcastsInDim S4000000x64 (![] : Fin 0 → Fin S4000000x64.rank)
  reducesTo_S4000000x64_S_d0_1 : S4000000x64.ReducesTo [0, 1] S_
  bcast_S_S64000 : S_.BroadcastsInDim S64000 (![] : Fin 0 → Fin S64000.rank)
  reducesTo_S64000_S_d0 : S64000.ReducesTo [0] S_
  bcast_S_S2x512x64 : S_.BroadcastsInDim S2x512x64 (![] : Fin 0 → Fin S2x512x64.rank)
  reducesTo_S2x512x64_S_d0_1_2 : S2x512x64.ReducesTo [0, 1, 2] S_
  bcast_S_S2x64x64 : S_.BroadcastsInDim S2x64x64 (![] : Fin 0 → Fin S2x64x64.rank)
  reducesTo_S2x64x64_S_d0_1_2 : S2x64x64.ReducesTo [0, 1, 2] S_
  bcast_S_S320x2 : S_.BroadcastsInDim S320x2 (![] : Fin 0 → Fin S320x2.rank)
  reducesTo_S320x2_S_d0_1 : S320x2.ReducesTo [0, 1] S_
  bcast_S_S2 : S_.BroadcastsInDim S2 (![] : Fin 0 → Fin S2.rank)
  reducesTo_S2_S_d0 : S2.ReducesTo [0] S_
  bcast_S_S2x64000 : S_.BroadcastsInDim S2x64000 (![] : Fin 0 → Fin S2x64000.rank)
  reducesTo_S2x64000_S_d0_1 : S2x64000.ReducesTo [0, 1] S_

variable [Facts]

def fn_part2 {F : FTy → Type} [FloatOps F] (main_arg2 : IVec S2x64000 32) (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_c_14 : IVec S_ 32 := constantI S_ 32 0#32
  let main_v39 : IVec S2x64000 32 := broadcastInDim S2x64000 ![] bcast_S_S2x64000 main_c_14
  let main_v40 : IVec S2x64000 1 := cmpi .sge main_arg2 main_v39
  let main_c_15 : IVec S_ 32 := constantI S_ 32 2000#32
  let main_v41 : IVec S2x64000 32 := broadcastInDim S2x64000 ![] bcast_S_S2x64000 main_c_15
  let main_v42 : IVec S2x64000 1 := cmpi .slt main_arg2 main_v41
  let main_v43 : IVec S2x64000 1 := andi main_v40 main_v42
  let main_c_16 : IVec S_ 1 := constantI S_ 1 1#1
  let main_v44 : IVec S_ 1 := (fun x v => Host.reduce IntOp.andi x v reducesTo_S2x64000_S_d0_1 h_S_) main_v43 main_c_16
  let main_v45 : IVec S_ 1 := andi main_v38 main_v44
  main_v45

def fn_part1 {F : FTy → Type} [FloatOps F] (main_arg2 : IVec S2x64000 32) (main_arg6 : FVec F S2x512x64 .f32) (main_arg7 : FVec F S2x64x64 .f32) (main_arg8 : FVec F S320x2 .f32) (main_arg9 : FVec F S2 .f32) (main_v13 : IVec S_ 1) (main_v16 : IVec S64000 1) : IVec S_ 1 :=
  let main_c_5 : IVec S_ 1 := constantI S_ 1 1#1
  let main_v17 : IVec S_ 1 := (fun x v => Host.reduce IntOp.andi x v reducesTo_S64000_S_d0 h_S_) main_v16 main_c_5
  let main_v18 : IVec S_ 1 := andi main_v13 main_v17
  let main_v19 : FVec F S2x512x64 .f32 := Host.absf main_arg6
  let main_cst_6 : FVec F S_ .f32 := constant S_ .f32 0x7F800000#32
  let main_v20 : FVec F S2x512x64 .f32 := broadcastInDim S2x512x64 ![] bcast_S_S2x512x64 main_cst_6
  let main_v21 : IVec S2x512x64 1 := cmpf .olt main_v19 main_v20
  let main_c_7 : IVec S_ 1 := constantI S_ 1 1#1
  let main_v22 : IVec S_ 1 := (fun x v => Host.reduce IntOp.andi x v reducesTo_S2x512x64_S_d0_1_2 h_S_) main_v21 main_c_7
  let main_v23 : IVec S_ 1 := andi main_v18 main_v22
  let main_v24 : FVec F S2x64x64 .f32 := Host.absf main_arg7
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S320x2 .f32 := Host.absf main_arg8
  let main_cst_10 : FVec F S_ .f32 := constant S_ .f32 0x7F800000#32
  let main_v30 : FVec F S320x2 .f32 := broadcastInDim S320x2 ![] bcast_S_S320x2 main_cst_10
  let main_v31 : IVec S320x2 1 := cmpf .olt main_v29 main_v30
  let main_c_11 : IVec S_ 1 := constantI S_ 1 1#1
  let main_v32 : IVec S_ 1 := (fun x v => Host.reduce IntOp.andi x v reducesTo_S320x2_S_d0_1 h_S_) main_v31 main_c_11
  let main_v33 : IVec S_ 1 := andi main_v28 main_v32
  fn_part2 (F := F) main_arg2 main_arg9 main_v33

def fn {F : FTy → Type} [FloatOps F] (main_arg0 : FVec F S2000x512 .f32) (main_arg1 : FVec F S2000x512 .f32) (main_arg2 : IVec S2x64000 32) (main_arg3 : IVec S200000x2 32) (main_arg4 : FVec F S4000000x64 .f32) (main_arg5 : FVec F S64000 .f32) (main_arg6 : FVec F S2x512x64 .f32) (main_arg7 : FVec F S2x64x64 .f32) (main_arg8 : FVec F S320x2 .f32) (main_arg9 : FVec F S2 .f32) : IVec S_ 1 :=
  let main_v0 : FVec F S2000x512 .f32 := Host.absf main_arg0
  let main_cst : FVec F S_ .f32 := constant S_ .f32 0x7F800000#32
  let main_v1 : FVec F S2000x512 .f32 := broadcastInDim S2000x512 ![] bcast_S_S2000x512 main_cst
  let main_v2 : IVec S2000x512 1 := cmpf .olt main_v0 main_v1
  let main_c : IVec S_ 1 := constantI S_ 1 1#1
  let main_v3 : IVec S_ 1 := (fun x v => Host.reduce IntOp.andi x v reducesTo_S2000x512_S_d0_1 h_S_) main_v2 main_c
  let main_v4 : FVec F S2000x512 .f32 := Host.absf main_arg1
  let main_cst_0 : FVec F S_ .f32 := constant S_ .f32 0x7F800000#32
  let main_v5 : FVec F S2000x512 .f32 := broadcastInDim S2000x512 ![] bcast_S_S2000x512 main_cst_0
  let main_v6 : IVec S2000x512 1 := cmpf .olt main_v4 main_v5
  let main_c_1 : IVec S_ 1 := constantI S_ 1 1#1
  let main_v7 : IVec S_ 1 := (fun x v => Host.reduce IntOp.andi x v reducesTo_S2000x512_S_d0_1 h_S_) main_v6 main_c_1
  let main_v8 : IVec S_ 1 := andi main_v3 main_v7
  let main_v9 : FVec F S4000000x64 .f32 := Host.absf main_arg4
  let main_cst_2 : FVec F S_ .f32 := constant S_ .f32 0x7F800000#32
  let main_v10 : FVec F S4000000x64 .f32 := broadcastInDim S4000000x64 ![] bcast_S_S4000000x64 main_cst_2
  let main_v11 : IVec S4000000x64 1 := cmpf .olt main_v9 main_v10
  let main_c_3 : IVec S_ 1 := constantI S_ 1 1#1
  let main_v12 : IVec S_ 1 := (fun x v => Host.reduce IntOp.andi x v reducesTo_S4000000x64_S_d0_1 h_S_) main_v11 main_c_3
  let main_v13 : IVec S_ 1 := andi main_v8 main_v12
  let main_v14 : FVec F S64000 .f32 := Host.absf main_arg5
  let main_cst_4 : FVec F S_ .f32 := constant S_ .f32 0x7F800000#32
  let main_v15 : FVec F S64000 .f32 := broadcastInDim S64000 ![] bcast_S_S64000 main_cst_4
  let main_v16 : IVec S64000 1 := cmpf .olt main_v14 main_v15
  fn_part1 (F := F) main_arg2 main_arg6 main_arg7 main_arg8 main_arg9 main_v13 main_v16
-- ==== Kernel.lean ====
abbrev S2000x512 : Shape := ⟨2, ![2000, 512]⟩
abbrev S2x64000 : Shape := ⟨2, ![2, 64000]⟩
abbrev S200000x2 : Shape := ⟨2, ![200000, 2]⟩
abbrev S4000000x64 : Shape := ⟨2, ![4000000, 64]⟩
abbrev S64000 : Shape := ⟨1, ![64000]⟩
abbrev S2x512x64 : Shape := ⟨3, ![2, 512, 64]⟩
abbrev S2x64x64 : Shape := ⟨3, ![2, 64, 64]⟩
abbrev S320x2 : Shape := ⟨2, ![320, 2]⟩
abbrev S2 : Shape := ⟨1, ![2]⟩
abbrev S1x64000 : Shape := ⟨2, ![1, 64000]⟩
abbrev S128000 : Shape := ⟨1, ![128000]⟩
abbrev S_ : Shape := ⟨0, ![]⟩
abbrev S2000 : Shape := ⟨1, ![2000]⟩
abbrev S128000x1 : Shape := ⟨2, ![128000, 1]⟩
abbrev S2000x2000 : Shape := ⟨2, ![2000, 2000]⟩
abbrev S128000x2 : Shape := ⟨2, ![128000, 2]⟩
abbrev S1x512x64 : Shape := ⟨3, ![1, 512, 64]⟩
abbrev S512x64 : Shape := ⟨2, ![512, 64]⟩
abbrev S2000x64 : Shape := ⟨2, ![2000, 64]⟩
abbrev S200x2000 : Shape := ⟨2, ![200, 2000]⟩
abbrev S200x512 : Shape := ⟨2, ![200, 512]⟩
abbrev S200x64 : Shape := ⟨2, ![200, 64]⟩
abbrev S1x64x64 : Shape := ⟨3, ![1, 64, 64]⟩
abbrev S64x64 : Shape := ⟨2, ![64, 64]⟩
abbrev S200000x1 : Shape := ⟨2, ![200000, 1]⟩
abbrev S200000 : Shape := ⟨1, ![200000]⟩
abbrev S200000x64 : Shape := ⟨2, ![200000, 64]⟩
abbrev S64x2 : Shape := ⟨2, ![64, 2]⟩
abbrev S2000x2 : Shape := ⟨2, ![2000, 2]⟩
abbrev S1x2 : Shape := ⟨2, ![1, 2]⟩
abbrev S4000x64 : Shape := ⟨2, ![4000, 64]⟩
abbrev S4000x2 : Shape := ⟨2, ![4000, 2]⟩
abbrev S4000 : Shape := ⟨1, ![4000]⟩
abbrev S4000x1 : Shape := ⟨2, ![4000, 1]⟩

abbrev nBuf : Space → Nat
  | .hbm => 186
  | .vmem => 39
  | .smem => 0
  | _ => 0

abbrev hbmTy0_0 (i : Nat) : BufTy := match i % 128 with
  | 0 => ⟨S2000x512, .f32⟩
  | 1 => ⟨S2000x512, .f32⟩
  | 2 => ⟨S2x64000, .i32⟩
  | 3 => ⟨S200000x2, .i32⟩
  | 4 => ⟨S4000000x64, .f32⟩
  | 5 => ⟨S64000, .f32⟩
  | 6 => ⟨S2x512x64, .f32⟩
  | 7 => ⟨S2x64x64, .f32⟩
  | 8 => ⟨S320x2, .f32⟩
  | 9 => ⟨S2, .f32⟩
  | 10 => ⟨S1x64000, .i32⟩
  | 11 => ⟨S64000, .i32⟩
  | 12 => ⟨S1x64000, .i32⟩
  | 13 => ⟨S64000, .i32⟩
  | 14 => ⟨S128000, .i32⟩
  | 15 => ⟨S128000, .i32⟩
  | 16 => ⟨S128000, .f32⟩
  | 17 => ⟨S_, .f32⟩
  | 18 => ⟨S128000, .f32⟩
  | 19 => ⟨S128000, .f32⟩
  | 20 => ⟨S64000, .f32⟩
  | 21 => ⟨S128000, .f32⟩
  | 22 => ⟨S_, .f32⟩
  | 23 => ⟨S128000, .f32⟩
  | 24 => ⟨S128000, .f32⟩
  | 25 => ⟨S128000, .f32⟩
  | 26 => ⟨S_, .f32⟩
  | 27 => ⟨S2000, .f32⟩
  | 28 => ⟨S128000x1, .i32⟩
  | 29 => ⟨S2000, .f32⟩
  | 30 => ⟨S_, .f32⟩
  | 31 => ⟨S2000, .f32⟩
  | 32 => ⟨S2000, .i1⟩
  | 33 => ⟨S_, .f32⟩
  | 34 => ⟨S_, .f32⟩
  | 35 => ⟨S2000, .f32⟩
  | 36 => ⟨S2000, .f32⟩
  | 37 => ⟨S_, .f32⟩
  | 38 => ⟨S2000, .f32⟩
  | 39 => ⟨S2000, .i1⟩
  | 40 => ⟨S2000, .f32⟩
  | 41 => ⟨S_, .f32⟩
  | 42 => ⟨S_, .f32⟩
  | 43 => ⟨S2000, .f32⟩
  | 44 => ⟨S2000, .f32⟩
  | 45 => ⟨S_, .i32⟩
  | 46 => ⟨S128000, .i32⟩
  | 47 => ⟨S128000, .i1⟩
  | 48 => ⟨S_, .i32⟩
  | 49 => ⟨S128000, .i32⟩
  | 50 => ⟨S128000, .i32⟩
  | 51 => ⟨S128000, .i32⟩
  | 52 => ⟨S128000x1, .i32⟩
  | 53 => ⟨S128000, .f32⟩
  | 54 => ⟨S128000, .f32⟩
  | 55 => ⟨S_, .i32⟩
  | 56 => ⟨S128000, .i32⟩
  | 57 => ⟨S128000, .i1⟩
  | 58 => ⟨S_, .i32⟩
  | 59 => ⟨S128000, .i32⟩
  | 60 => ⟨S128000, .i32⟩
  | 61 => ⟨S128000, .i32⟩
  | 62 => ⟨S128000x1, .i32⟩
  | 63 => ⟨S128000, .f32⟩
  | 64 => ⟨S128000, .f32⟩
  | 65 => ⟨S128000, .f32⟩
  | 66 => ⟨S128000, .f32⟩
  | 67 => ⟨S128000, .f32⟩
  | 68 => ⟨S128000, .f32⟩
  | 69 => ⟨S128000, .f32⟩
  | 70 => ⟨S128000, .f32⟩
  | 71 => ⟨S_, .f32⟩
  | 72 => ⟨S2000x2000, .f32⟩
  | 73 => ⟨S_, .i32⟩
  | 74 => ⟨S128000, .i32⟩
  | 75 => ⟨S128000, .i1⟩
  | 76 => ⟨S_, .i32⟩
  | 77 => ⟨S128000, .i32⟩
  | 78 => ⟨S128000, .i32⟩
  | 79 => ⟨S128000, .i32⟩
  | 80 => ⟨S_, .i32⟩
  | 81 => ⟨S128000, .i32⟩
  | 82 => ⟨S128000, .i1⟩
  | 83 => ⟨S_, .i32⟩
  | 84 => ⟨S128000, .i32⟩
  | 85 => ⟨S128000, .i32⟩
  | 86 => ⟨S128000, .i32⟩
  | 87 => ⟨S128000x1, .i32⟩
  | 88 => ⟨S128000x1, .i32⟩
  | 89 => ⟨S128000x2, .i32⟩
  | 90 => ⟨S2000x2000, .f32⟩
  | 91 => ⟨S_, .f32⟩
  | 92 => ⟨S2000x2000, .f32⟩
  | 93 => ⟨S_, .i32⟩
  | 94 => ⟨S128000, .i32⟩
  | 95 => ⟨S128000, .i1⟩
  | 96 => ⟨S_, .i32⟩
  | 97 => ⟨S128000, .i32⟩
  | 98 => ⟨S128000, .i32⟩
  | 99 => ⟨S128000, .i32⟩
  | 100 => ⟨S_, .i32⟩
  | 101 => ⟨S128000, .i32⟩
  | 102 => ⟨S128000, .i1⟩
  | 103 => ⟨S_, .i32⟩
  | 104 => ⟨S128000, .i32⟩
  | 105 => ⟨S128000, .i32⟩
  | 106 => ⟨S128000, .i32⟩
  | 107 => ⟨S128000x1, .i32⟩
  | 108 => ⟨S128000x1, .i32⟩
  | 109 => ⟨S128000x2, .i32⟩
  | 110 => ⟨S2000x2000, .f32⟩
  | 111 => ⟨S2000x2000, .bf16⟩
  | 112 => ⟨S2000x2000, .bf16⟩
  | 113 => ⟨S2000x512, .bf16⟩
  | 114 => ⟨S2000x512, .bf16⟩
  | 115 => ⟨S1x512x64, .f32⟩
  | 116 => ⟨S512x64, .f32⟩
  | 117 => ⟨S512x64, .bf16⟩
  | 118 => ⟨S1x512x64, .f32⟩
  | 119 => ⟨S512x64, .f32⟩
  | 120 => ⟨S512x64, .bf16⟩
  | 121 => ⟨S2000x64, .f32⟩
  | 122 => ⟨S2000x64, .f32⟩
  | 123 => ⟨S2000x64, .bf16⟩
  | 124 => ⟨S2000x64, .bf16⟩
  | 125 => ⟨S1x64x64, .f32⟩
  | 126 => ⟨S64x64, .f32⟩
  | 127 => ⟨S64x64, .bf16⟩
  | _ => ⟨S2000x512, .f32⟩

abbrev hbmTy0_1 (i : Nat) : BufTy := match i % 128 with
  | 0 => ⟨S1x64x64, .f32⟩
  | 1 => ⟨S64x64, .f32⟩
  | 2 => ⟨S64x64, .bf16⟩
  | 3 => ⟨S2000x64, .f32⟩
  | 4 => ⟨S2000x64, .f32⟩
  | 5 => ⟨S200000x1, .i32⟩
  | 6 => ⟨S200000, .i32⟩
  | 7 => ⟨S200000x1, .i32⟩
  | 8 => ⟨S200000, .i32⟩
  | 9 => ⟨S_, .i32⟩
  | 10 => ⟨S200000, .i32⟩
  | 11 => ⟨S200000, .i32⟩
  | 12 => ⟨S200000, .i32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S200000x64, .f32⟩
  | 22 => ⟨S64x2, .f32⟩
  | 23 => ⟨S64x2, .f32⟩
  | 24 => ⟨S64x2, .f32⟩
  | 25 => ⟨S64x2, .f32⟩
  | 26 => ⟨S64x2, .f32⟩
  | 27 => ⟨S2000x2, .f32⟩
  | 28 => ⟨S2000x2, .f32⟩
  | 29 => ⟨S2000x2, .f32⟩
  | 30 => ⟨S2000x2, .f32⟩
  | 31 => ⟨S2000x2, .f32⟩
  | 32 => ⟨S2000x2, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x2, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x2, .f32⟩
  | 51 => ⟨S200000x2, .f32⟩
  | 52 => ⟨S1x2, .f32⟩
  | 53 => ⟨S200000x2, .f32⟩
  | 54 => ⟨S200000x2, .f32⟩
  | 55 => ⟨S200000x64, .bf16⟩
  | 56 => ⟨S64x2, .bf16⟩
  | 57 => ⟨S200000x2, .f32⟩
  | _ => ⟨S2000x512, .f32⟩

abbrev hbmTy (i : Nat) : BufTy := match i / 128 with
  | 0 => hbmTy0_0 i
  | 1 => hbmTy0_1 i
  | _ => ⟨S2000x512, .f32⟩

abbrev bufTy : (tb : Table) → Fin (tcTables nBuf tb) → BufTy
  | .hbm, ⟨i, _⟩ => hbmTy i
  | .local _ .vmem, ⟨0, _⟩ => ⟨S200x2000, .bf16⟩
  | .local _ .vmem, ⟨1, _⟩ => ⟨S200x2000, .bf16⟩
  | .local _ .vmem, ⟨2, _⟩ => ⟨S200x2000, .bf16⟩
  | .local _ .vmem, ⟨3, _⟩ => ⟨S200x2000, .bf16⟩
  | .local _ .vmem, ⟨4, _⟩ => ⟨S2000x512, .bf16⟩
  | .local _ .vmem, ⟨5, _⟩ => ⟨S2000x512, .bf16⟩
  | .local _ .vmem, ⟨6, _⟩ => ⟨S200x512, .bf16⟩
  | .local _ .vmem, ⟨7, _⟩ => ⟨S200x512, .bf16⟩
  | .local _ .vmem, ⟨8, _⟩ => ⟨S200x512, .bf16⟩
  | .local _ .vmem, ⟨9, _⟩ => ⟨S200x512, .bf16⟩
  | .local _ .vmem, ⟨10, _⟩ => ⟨S512x64, .bf16⟩
  | .local _ .vmem, ⟨11, _⟩ => ⟨S512x64, .bf16⟩
  | .local _ .vmem, ⟨12, _⟩ => ⟨S200x64, .f32⟩
  | .local _ .vmem, ⟨13, _⟩ => ⟨S200x64, .f32⟩
  | .local _ .vmem, ⟨14, _⟩ => ⟨S200x64, .f32⟩
  | .local _ .vmem, ⟨15, _⟩ => ⟨S200x64, .f32⟩
  | .local _ .vmem, ⟨16, _⟩ => ⟨S200x2000, .bf16⟩
  | .local _ .vmem, ⟨17, _⟩ => ⟨S200x2000, .bf16⟩
  | .local _ .vmem, ⟨18, _⟩ => ⟨S200x2000, .bf16⟩
  | .local _ .vmem, ⟨19, _⟩ => ⟨S200x2000, .bf16⟩
  | .local _ .vmem, ⟨20, _⟩ => ⟨S2000x64, .bf16⟩
  | .local _ .vmem, ⟨21, _⟩ => ⟨S2000x64, .bf16⟩
  | .local _ .vmem, ⟨22, _⟩ => ⟨S200x64, .bf16⟩
  | .local _ .vmem, ⟨23, _⟩ => ⟨S200x64, .bf16⟩
  | .local _ .vmem, ⟨24, _⟩ => ⟨S200x64, .bf16⟩
  | .local _ .vmem, ⟨25, _⟩ => ⟨S200x64, .bf16⟩
  | .local _ .vmem, ⟨26, _⟩ => ⟨S64x64, .bf16⟩
  | .local _ .vmem, ⟨27, _⟩ => ⟨S64x64, .bf16⟩
  | .local _ .vmem, ⟨28, _⟩ => ⟨S200x64, .f32⟩
  | .local _ .vmem, ⟨29, _⟩ => ⟨S200x64, .f32⟩
  | .local _ .vmem, ⟨30, _⟩ => ⟨S200x64, .f32⟩
  | .local _ .vmem, ⟨31, _⟩ => ⟨S200x64, .f32⟩
  | .local _ .vmem, ⟨32, _⟩ => ⟨S4000x64, .bf16⟩
  | .local _ .vmem, ⟨33, _⟩ => ⟨S4000x64, .bf16⟩
  | .local _ .vmem, ⟨34, _⟩ => ⟨S4000x2, .f32⟩
  | .local _ .vmem, ⟨35, _⟩ => ⟨S4000x2, .f32⟩
  | .local _ .vmem, ⟨36, _⟩ => ⟨S64x2, .bf16⟩
  | .local _ .vmem, ⟨37, _⟩ => ⟨S4000x2, .f32⟩
  | .local _ .vmem, ⟨38, _⟩ => ⟨S4000x2, .f32⟩
  | _, _ => ⟨S2000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_c_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_c_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_17 : Ref sig .tc := ⟨.hbm, 100, rfl⟩
abbrev main_v67 : Ref sig .tc := ⟨.hbm, 101, rfl⟩
abbrev main_v68 : Ref sig .tc := ⟨.hbm, 102, rfl⟩
abbrev main_c_18 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86_0 : Ref sig .tc := ⟨.hbm, 121, rfl⟩
abbrev main_v86_1 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95_0 : Ref sig .tc := ⟨.hbm, 131, rfl⟩
abbrev main_v95_1 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_19 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_20 : Ref sig .tc := ⟨.hbm, 141, rfl⟩
abbrev main_v103 : Ref sig .tc := ⟨.hbm, 142, rfl⟩
abbrev main_v104 : Ref sig .tc := ⟨.hbm, 143, rfl⟩
abbrev main_c_21 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_22 : Ref sig .tc := ⟨.hbm, 161, rfl⟩
abbrev main_v121 : Ref sig .tc := ⟨.hbm, 162, rfl⟩
abbrev main_v122 : Ref sig .tc := ⟨.hbm, 163, rfl⟩
abbrev main_c_23 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_c_24 : Ref sig .tc := ⟨.hbm, 170, rfl⟩
abbrev main_v128 : Ref sig .tc := ⟨.hbm, 171, rfl⟩
abbrev main_v129 : Ref sig .tc := ⟨.hbm, 172, rfl⟩
abbrev main_c_25 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem3_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x2000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x2000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2000x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2000x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S200x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S200x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x2000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x2000 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2000x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2000x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S64x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S200x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S200x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x2 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x64000_S1x64000_0_0 : S2x64000.Slices ![0, 0] S1x64000
  shapeCasts_S1x64000_S64000 : S1x64000.ShapeCasts S64000
  slices_S2x64000_S1x64000_1_0 : S2x64000.Slices ![1, 0] S1x64000
  concatenates_S64000_S64000_S128000_d0 : Shape.Concatenates [S64000, S64000] S128000 0
  bcast_S_S128000 : S_.BroadcastsInDim S128000 (![] : Fin 0 → Fin S128000.rank)
  bcast_S_S2000 : S_.BroadcastsInDim S2000 (![] : Fin 0 → Fin S2000.rank)
  bcast_S128000_S128000x1_0 : S128000.BroadcastsInDim S128000x1 (![0] : Fin 1 → Fin S128000x1.rank)
  bcast_S_S2000x2000 : S_.BroadcastsInDim S2000x2000 (![] : Fin 0 → Fin S2000x2000.rank)
  concatenates_S128000x1_S128000x1_S128000x2_d1 : Shape.Concatenates [S128000x1, S128000x1] S128000x2 1
  bitsLt_bf16_f32 : FTy.bits .bf16 < FTy.bits .f32
  slices_S2x512x64_S1x512x64_0_0_0 : S2x512x64.Slices ![0, 0, 0] S1x512x64
  shapeCasts_S1x512x64_S512x64 : S1x512x64.ShapeCasts S512x64
  slices_S2x512x64_S1x512x64_1_0_0 : S2x512x64.Slices ![1, 0, 0] S1x512x64
  inb_S200x2000_S200x2000_0_0 : ∀ a, (![0, 0] : Fin 2 → Nat) a + S200x2000.size a ≤ S200x2000.size a
  h_S200x2000 : 0 < S200x2000.numel
  shapeCasts_S200x2000_S200x2000 : S200x2000.ShapeCasts S200x2000
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S200x512_S200x512_0_0 : ∀ a, (![0, 0] : Fin 2 → Nat) a + S200x512.size a ≤ S200x512.size a
  h_S200x512 : 0 < S200x512.numel
  shapeCasts_S200x512_S200x512 : S200x512.ShapeCasts S200x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  natLt_1_32 : 1 < 32
  inb_S200x64_S200x64_0_0 : ∀ a, (![0, 0] : Fin 2 → Nat) a + S200x64.size a ≤ S200x64.size a
  h_S200x64 : 0 < S200x64.numel
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S200x64_S200x64 : S200x64.ShapeCasts S200x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  slices_S320x2_S64x2_0_0 : S320x2.Slices ![0, 0] S64x2
  slices_S320x2_S64x2_64_0 : S320x2.Slices ![64, 0] S64x2
  slices_S320x2_S64x2_128_0 : S320x2.Slices ![128, 0] S64x2
  slices_S320x2_S64x2_192_0 : S320x2.Slices ![192, 0] S64x2
  slices_S320x2_S64x2_256_0 : S320x2.Slices ![256, 0] S64x2
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  reduces_S4000x2_S4000 : S4000x2.Reduces [1] S4000
  shapeCasts_S4000_S4000x1 : S4000.ShapeCasts S4000x1
  broadcasts_S4000x1_S4000x2 : S4000x1.Broadcasts S4000x2
  scatter_S2000_S128000x1_S128000_n_0_0_1_wf : ScatterDims.WF S2000 S128000x1 S128000 [] [0] [0] 1
  gather_S2000_S128000x1_S128000_n_0_n_n_0_1_1_wf : GatherDims.WF S2000 S128000x1 S128000 [] [0] [] [0] [] 1 ![1]
  scatter_S2000x2000_S128000x2_S128000_n_01_01_1_wf : ScatterDims.WF S2000x2000 S128000x2 S128000 [] [0, 1] [0, 1] 1
  dot_S200x2000_S2000x512_S200x512_1_0_0_1_n_n_wf : DotDims.WF S200x2000 S2000x512 S200x512 [1] [0] [0] [1] [] []
  dot_S200x512_S512x64_S200x64_1_0_0_1_n_n_wf : DotDims.WF S200x512 S512x64 S200x64 [1] [0] [0] [1] [] []
  dot_S200x2000_S2000x64_S200x64_1_0_0_1_n_n_wf : DotDims.WF S200x2000 S2000x64 S200x64 [1] [0] [0] [1] [] []
  dot_S200x64_S64x64_S200x64_1_0_0_1_n_n_wf : DotDims.WF S200x64 S64x64 S200x64 [1] [0] [0] [1] [] []
  gather_S4000000x64_S200000x1_S200000x64_1_0_n_n_0_1_164_wf : GatherDims.WF S4000000x64 S200000x1 S200000x64 [1] [0] [] [0] [] 1 ![1, 64]
  dot_S2000x64_S64x2_S2000x2_1_0_0_1_n_n_wf : DotDims.WF S2000x64 S64x2 S2000x2 [1] [0] [0] [1] [] []
  gather_S2000x2_S200000x1_S200000x2_1_0_n_n_0_1_12_wf : GatherDims.WF S2000x2 S200000x1 S200000x2 [1] [0] [] [0] [] 1 ![1, 2]
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x2000.size a ≤ S2000x2000.size a
  hwx0_0 : ∀ i : grid0.Coords, EltTy.bits .bf16 = 32 ∨ (Rect.block (s := S2000x2000) S200x2000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x2000.size a ≤ S2000x2000.size a
  hwx0_1 : ∀ i : grid0.Coords, EltTy.bits .bf16 = 32 ∨ (Rect.block (s := S2000x2000) S200x2000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S2000x512.size a
  hwx0_2 : ∀ i : grid0.Coords, EltTy.bits .bf16 = 32 ∨ (Rect.block (s := S2000x512) S2000x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S2000x512.size a
  hwx0_3 : ∀ i : grid0.Coords, EltTy.bits .bf16 = 32 ∨ (Rect.block (s := S2000x512) S2000x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x512.size a ≤ S2000x512.size a
  hwx0_4 : ∀ i : grid0.Coords, EltTy.bits .bf16 = 32 ∨ (Rect.block (s := S2000x512) S200x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x512.size a ≤ S2000x512.size a
  hwx0_5 : ∀ i : grid0.Coords, EltTy.bits .bf16 = 32 ∨ (Rect.block (s := S2000x512) S200x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .bf16 = 32 ∨ (Rect.block (s := S512x64) S512x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S512x64.size a
  hwx0_7 : ∀ i : grid0.Coords, EltTy.bits .bf16 = 32 ∨ (Rect.block (s := S512x64) S512x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x64.size a ≤ S2000x64.size a
  hwx0_8 : ∀ i : grid0.Coords, EltTy.bits .f32 = 32 ∨ (Rect.block (s := S2000x64) S200x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x64.size a ≤ S2000x64.size a
  hwx0_9 : ∀ i : grid0.Coords, EltTy.bits .f32 = 32 ∨ (Rect.block (s := S2000x64) S200x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x2000.size a ≤ S2000x2000.size a
  hwx1_0 : ∀ i : grid1.Coords, EltTy.bits .bf16 = 32 ∨ (Rect.block (s := S2000x2000) S200x2000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x2000.size a ≤ S2000x2000.size a
  hwx1_1 : ∀ i : grid1.Coords, EltTy.bits .bf16 = 32 ∨ (Rect.block (s := S2000x2000) S200x2000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S2000x64.size a
  hwx1_2 : ∀ i : grid1.Coords, EltTy.bits .bf16 = 32 ∨ (Rect.block (s := S2000x64) S2000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S2000x64.size a
  hwx1_3 : ∀ i : grid1.Coords, EltTy.bits .bf16 = 32 ∨ (Rect.block (s := S2000x64) S2000x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S2000x64.size a
  hwx1_4 : ∀ i : grid1.Coords, EltTy.bits .bf16 = 32 ∨ (Rect.block (s := S2000x64) S200x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x64.size a ≤ S2000x64.size a
  hwx1_5 : ∀ i : grid1.Coords, EltTy.bits .bf16 = 32 ∨ (Rect.block (s := S2000x64) S200x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .bf16 = 32 ∨ (Rect.block (s := S64x64) S64x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .bf16 = 32 ∨ (Rect.block (s := S64x64) S64x64.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S200x64.size a ≤ S2000x64.size a
  hwx1_8 : ∀ i : grid1.Coords, EltTy.bits .f32 = 32 ∨ (Rect.block (s := S2000x64) S200x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S200x64.size a ≤ S2000x64.size a
  hwx1_9 : ∀ i : grid1.Coords, EltTy.bits .f32 = 32 ∨ (Rect.block (s := S2000x64) S200x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .bf16 = 32 ∨ (Rect.block (s := S200000x64) S4000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x2.size a ≤ S200000x2.size a
  hwx2_1 : ∀ i : grid2.Coords, EltTy.bits .f32 = 32 ∨ (Rect.block (s := S200000x2) S4000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .bf16 = 32 ∨ (Rect.block (s := S64x2) S64x2.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x2.size a ≤ S200000x2.size a
  hwx2_3 : ∀ i : grid2.Coords, EltTy.bits .f32 = 32 ∨ (Rect.block (s := S200000x2) S4000x2.size (cc2_transform_3 i) (hinb2_3 i)).WholeWords (EltTy.packing .f32)

variable [Facts₀]

def scatter_S2000_S128000x1_S128000_n_0_0_1 : ScatterDims S2000 S128000x1 S128000 where
  updateWindowDims := []
  insertedWindowDims := [0]
  scatterDimsToOperandDims := [0]
  indexVectorDim := 1
  wf := scatter_S2000_S128000x1_S128000_n_0_0_1_wf
def gather_S2000_S128000x1_S128000_n_0_n_n_0_1_1 : GatherDims S2000 S128000x1 S128000 where
  offsetDims := []
  collapsedSliceDims := [0]
  operandBatchingDims := []
  startIndicesBatchingDims := []
  startIndexMap := [0]
  indexVectorDim := 1
  sliceSizes := ![1]
  wf := gather_S2000_S128000x1_S128000_n_0_n_n_0_1_1_wf
def scatter_S2000x2000_S128000x2_S128000_n_01_01_1 : ScatterDims S2000x2000 S128000x2 S128000 where
  updateWindowDims := []
  insertedWindowDims := [0, 1]
  scatterDimsToOperandDims := [0, 1]
  indexVectorDim := 1
  wf := scatter_S2000x2000_S128000x2_S128000_n_01_01_1_wf
def dot_S200x2000_S2000x512_S200x512_1_0_0_1_n_n : DotDims S200x2000 S2000x512 S200x512 where
  lhsContracting := [1]
  rhsContracting := [0]
  lhsNonContracting := [0]
  rhsNonContracting := [1]
  lhsBatch := []
  rhsBatch := []
  wf := dot_S200x2000_S2000x512_S200x512_1_0_0_1_n_n_wf
def dot_S200x512_S512x64_S200x64_1_0_0_1_n_n : DotDims S200x512 S512x64 S200x64 where
  lhsContracting := [1]
  rhsContracting := [0]
  lhsNonContracting := [0]
  rhsNonContracting := [1]
  lhsBatch := []
  rhsBatch := []
  wf := dot_S200x512_S512x64_S200x64_1_0_0_1_n_n_wf
def dot_S200x2000_S2000x64_S200x64_1_0_0_1_n_n : DotDims S200x2000 S2000x64 S200x64 where
  lhsContracting := [1]
  rhsContracting := [0]
  lhsNonContracting := [0]
  rhsNonContracting := [1]
  lhsBatch := []
  rhsBatch := []
  wf := dot_S200x2000_S2000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def gather_S4000000x64_S200000x1_S200000x64_1_0_n_n_0_1_164 : GatherDims S4000000x64 S200000x1 S200000x64 where
  offsetDims := [1]
  collapsedSliceDims := [0]
  operandBatchingDims := []
  startIndicesBatchingDims := []
  startIndexMap := [0]
  indexVectorDim := 1
  sliceSizes := ![1, 64]
  wf := gather_S4000000x64_S200000x1_S200000x64_1_0_n_n_0_1_164_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def gather_S2000x2_S200000x1_S200000x2_1_0_n_n_0_1_12 : GatherDims S2000x2 S200000x1 S200000x2 where
  offsetDims := [1]
  collapsedSliceDims := [0]
  operandBatchingDims := []
  startIndicesBatchingDims := []
  startIndexMap := [0]
  indexVectorDim := 1
  sliceSizes := ![1, 2]
  wf := gather_S2000x2_S200000x1_S200000x2_1_0_n_n_0_1_12_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_v76) S200x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S200x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S2000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v79) S2000x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v78) S200x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v79) S200x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v82) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v85) S512x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v86_0) S200x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v86_1) S200x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v76) S200x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S200x2000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v87) S2000x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v88) S2000x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S200x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v88) S200x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v91) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v94) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v95_0) S200x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v95_1) S200x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v139) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v138) S4000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v140) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v141) S4000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2000x512 : Shape := ⟨2, ![2000, 512]⟩
abbrev S2x64000 : Shape := ⟨2, ![2, 64000]⟩
abbrev S200000x2 : Shape := ⟨2, ![200000, 2]⟩
abbrev S4000000x64 : Shape := ⟨2, ![4000000, 64]⟩
abbrev S64000 : Shape := ⟨1, ![64000]⟩
abbrev S2x512x64 : Shape := ⟨3, ![2, 512, 64]⟩
abbrev S2x64x64 : Shape := ⟨3, ![2, 64, 64]⟩
abbrev S320x2 : Shape := ⟨2, ![320, 2]⟩
abbrev S2 : Shape := ⟨1, ![2]⟩
abbrev S1x64000 : Shape := ⟨2, ![1, 64000]⟩
abbrev S128000 : Shape := ⟨1, ![128000]⟩
abbrev S_ : Shape := ⟨0, ![]⟩
abbrev S2000 : Shape := ⟨1, ![2000]⟩
abbrev S128000x1 : Shape := ⟨2, ![128000, 1]⟩
abbrev S128000x512 : Shape := ⟨2, ![128000, 512]⟩
abbrev S1x512x64 : Shape := ⟨3, ![1, 512, 64]⟩
abbrev S512x64 : Shape := ⟨2, ![512, 64]⟩
abbrev S2000x64 : Shape := ⟨2, ![2000, 64]⟩
abbrev S128000x64 : Shape := ⟨2, ![128000, 64]⟩
abbrev S1x64x64 : Shape := ⟨3, ![1, 64, 64]⟩
abbrev S64x64 : Shape := ⟨2, ![64, 64]⟩
abbrev S200000x1 : Shape := ⟨2, ![200000, 1]⟩
abbrev S200000 : Shape := ⟨1, ![200000]⟩
abbrev S200000x64 : Shape := ⟨2, ![200000, 64]⟩
abbrev S200000x320 : Shape := ⟨2, ![200000, 320]⟩
abbrev S1x2 : Shape := ⟨2, ![1, 2]⟩

abbrev nBuf : Space → Nat
  | .hbm => 313
  | .vmem => 0
  | .smem => 0
  | _ => 0

abbrev hbmTy0_0 (i : Nat) : BufTy := match i % 128 with
  | 0 => ⟨S2000x512, .f32⟩
  | 1 => ⟨S2000x512, .f32⟩
  | 2 => ⟨S2x64000, .i32⟩
  | 3 => ⟨S200000x2, .i32⟩
  | 4 => ⟨S4000000x64, .f32⟩
  | 5 => ⟨S64000, .f32⟩
  | 6 => ⟨S2x512x64, .f32⟩
  | 7 => ⟨S2x64x64, .f32⟩
  | 8 => ⟨S320x2, .f32⟩
  | 9 => ⟨S2, .f32⟩
  | 10 => ⟨S1x64000, .i32⟩
  | 11 => ⟨S64000, .i32⟩
  | 12 => ⟨S1x64000, .i32⟩
  | 13 => ⟨S64000, .i32⟩
  | 14 => ⟨S128000, .i32⟩
  | 15 => ⟨S128000, .i32⟩
  | 16 => ⟨S128000, .f32⟩
  | 17 => ⟨S_, .f32⟩
  | 18 => ⟨S128000, .f32⟩
  | 19 => ⟨S128000, .f32⟩
  | 20 => ⟨S64000, .f32⟩
  | 21 => ⟨S128000, .f32⟩
  | 22 => ⟨S_, .f32⟩
  | 23 => ⟨S128000, .f32⟩
  | 24 => ⟨S128000, .f32⟩
  | 25 => ⟨S128000, .f32⟩
  | 26 => ⟨S_, .f32⟩
  | 27 => ⟨S2000, .f32⟩
  | 28 => ⟨S128000x1, .i32⟩
  | 29 => ⟨S2000, .f32⟩
  | 30 => ⟨S_, .f32⟩
  | 31 => ⟨S2000, .f32⟩
  | 32 => ⟨S2000, .i1⟩
  | 33 => ⟨S2000, .f32⟩
  | 34 => ⟨S_, .f32⟩
  | 35 => ⟨S2000, .f32⟩
  | 36 => ⟨S2000, .f32⟩
  | 37 => ⟨S_, .f32⟩
  | 38 => ⟨S_, .f32⟩
  | 39 => ⟨S2000, .f32⟩
  | 40 => ⟨S2000, .f32⟩
  | 41 => ⟨S_, .i32⟩
  | 42 => ⟨S128000, .i32⟩
  | 43 => ⟨S128000, .i1⟩
  | 44 => ⟨S_, .i32⟩
  | 45 => ⟨S128000, .i32⟩
  | 46 => ⟨S128000, .i32⟩
  | 47 => ⟨S128000, .i32⟩
  | 48 => ⟨S128000x1, .i32⟩
  | 49 => ⟨S128000, .f32⟩
  | 50 => ⟨S128000, .f32⟩
  | 51 => ⟨S_, .i32⟩
  | 52 => ⟨S128000, .i32⟩
  | 53 => ⟨S128000, .i1⟩
  | 54 => ⟨S_, .i32⟩
  | 55 => ⟨S128000, .i32⟩
  | 56 => ⟨S128000, .i32⟩
  | 57 => ⟨S128000, .i32⟩
  | 58 => ⟨S128000x1, .i32⟩
  | 59 => ⟨S128000, .f32⟩
  | 60 => ⟨S128000, .f32⟩
  | 61 => ⟨S128000, .f32⟩
  | 62 => ⟨S128000, .f32⟩
  | 63 => ⟨S128000, .f32⟩
  | 64 => ⟨S128000, .f32⟩
  | 65 => ⟨S128000, .f32⟩
  | 66 => ⟨S128000, .f32⟩
  | 67 => ⟨S_, .i32⟩
  | 68 => ⟨S128000, .i32⟩
  | 69 => ⟨S128000, .i1⟩
  | 70 => ⟨S_, .i32⟩
  | 71 => ⟨S128000, .i32⟩
  | 72 => ⟨S128000, .i32⟩
  | 73 => ⟨S128000, .i32⟩
  | 74 => ⟨S128000x1, .i32⟩
  | 75 => ⟨S128000x512, .f32⟩
  | 76 => ⟨S_, .i32⟩
  | 77 => ⟨S128000, .i32⟩
  | 78 => ⟨S128000, .i1⟩
  | 79 => ⟨S_, .i32⟩
  | 80 => ⟨S128000, .i32⟩
  | 81 => ⟨S128000, .i32⟩
  | 82 => ⟨S128000, .i32⟩
  | 83 => ⟨S128000x1, .i32⟩
  | 84 => ⟨S128000x512, .f32⟩
  | 85 => ⟨S128000x1, .f32⟩
  | 86 => ⟨S128000x512, .f32⟩
  | 87 => ⟨S128000x512, .f32⟩
  | 88 => ⟨S128000x1, .f32⟩
  | 89 => ⟨S128000x512, .f32⟩
  | 90 => ⟨S128000x512, .f32⟩
  | 91 => ⟨S128000x512, .f32⟩
  | 92 => ⟨S_, .f32⟩
  | 93 => ⟨S2000x512, .f32⟩
  | 94 => ⟨S128000x1, .i32⟩
  | 95 => ⟨S2000x512, .f32⟩
  | 96 => ⟨S128000x1, .f32⟩
  | 97 => ⟨S128000x512, .f32⟩
  | 98 => ⟨S128000x512, .f32⟩
  | 99 => ⟨S128000x1, .f32⟩
  | 100 => ⟨S128000x512, .f32⟩
  | 101 => ⟨S128000x512, .f32⟩
  | 102 => ⟨S128000x512, .f32⟩
  | 103 => ⟨S_, .f32⟩
  | 104 => ⟨S2000x512, .f32⟩
  | 105 => ⟨S128000x1, .i32⟩
  | 106 => ⟨S2000x512, .f32⟩
  | 107 => ⟨S1x512x64, .f32⟩
  | 108 => ⟨S512x64, .f32⟩
  | 109 => ⟨S2000x64, .f32⟩
  | 110 => ⟨S1x512x64, .f32⟩
  | 111 => ⟨S512x64, .f32⟩
  | 112 => ⟨S2000x64, .f32⟩
  | 113 => ⟨S2000x64, .f32⟩
  | 114 => ⟨S1x512x64, .f32⟩
  | 115 => ⟨S512x64, .f32⟩
  | 116 => ⟨S2000x64, .f32⟩
  | 117 => ⟨S1x512x64, .f32⟩
  | 118 => ⟨S512x64, .f32⟩
  | 119 => ⟨S2000x64, .f32⟩
  | 120 => ⟨S2000x64, .f32⟩
  | 121 => ⟨S_, .f32⟩
  | 122 => ⟨S2000x64, .f32⟩
  | 123 => ⟨S2000x64, .i1⟩
  | 124 => ⟨S2000x64, .f32⟩
  | 125 => ⟨S2000x64, .f32⟩
  | 126 => ⟨S2000x64, .f32⟩
  | 127 => ⟨S128000, .i32⟩
  | _ => ⟨S2000x512, .f32⟩

abbrev hbmTy0_1 (i : Nat) : BufTy := match i % 128 with
  | 0 => ⟨S128000, .i32⟩
  | 1 => ⟨S128000, .f32⟩
  | 2 => ⟨S_, .f32⟩
  | 3 => ⟨S128000, .f32⟩
  | 4 => ⟨S128000, .f32⟩
  | 5 => ⟨S64000, .f32⟩
  | 6 => ⟨S128000, .f32⟩
  | 7 => ⟨S_, .f32⟩
  | 8 => ⟨S128000, .f32⟩
  | 9 => ⟨S128000, .f32⟩
  | 10 => ⟨S128000, .f32⟩
  | 11 => ⟨S_, .f32⟩
  | 12 => ⟨S2000, .f32⟩
  | 13 => ⟨S128000x1, .i32⟩
  | 14 => ⟨S2000, .f32⟩
  | 15 => ⟨S_, .f32⟩
  | 16 => ⟨S2000, .f32⟩
  | 17 => ⟨S2000, .i1⟩
  | 18 => ⟨S2000, .f32⟩
  | 19 => ⟨S_, .f32⟩
  | 20 => ⟨S2000, .f32⟩
  | 21 => ⟨S2000, .f32⟩
  | 22 => ⟨S_, .f32⟩
  | 23 => ⟨S_, .f32⟩
  | 24 => ⟨S2000, .f32⟩
  | 25 => ⟨S2000, .f32⟩
  | 26 => ⟨S_, .i32⟩
  | 27 => ⟨S128000, .i32⟩
  | 28 => ⟨S128000, .i1⟩
  | 29 => ⟨S_, .i32⟩
  | 30 => ⟨S128000, .i32⟩
  | 31 => ⟨S128000, .i32⟩
  | 32 => ⟨S128000, .i32⟩
  | 33 => ⟨S128000x1, .i32⟩
  | 34 => ⟨S128000, .f32⟩
  | 35 => ⟨S128000, .f32⟩
  | 36 => ⟨S_, .i32⟩
  | 37 => ⟨S128000, .i32⟩
  | 38 => ⟨S128000, .i1⟩
  | 39 => ⟨S_, .i32⟩
  | 40 => ⟨S128000, .i32⟩
  | 41 => ⟨S128000, .i32⟩
  | 42 => ⟨S128000, .i32⟩
  | 43 => ⟨S128000x1, .i32⟩
  | 44 => ⟨S128000, .f32⟩
  | 45 => ⟨S128000, .f32⟩
  | 46 => ⟨S128000, .f32⟩
  | 47 => ⟨S128000, .f32⟩
  | 48 => ⟨S128000, .f32⟩
  | 49 => ⟨S128000, .f32⟩
  | 50 => ⟨S128000, .f32⟩
  | 51 => ⟨S128000, .f32⟩
  | 52 => ⟨S_, .i32⟩
  | 53 => ⟨S128000, .i32⟩
  | 54 => ⟨S128000, .i1⟩
  | 55 => ⟨S_, .i32⟩
  | 56 => ⟨S128000, .i32⟩
  | 57 => ⟨S128000, .i32⟩
  | 58 => ⟨S128000, .i32⟩
  | 59 => ⟨S128000x1, .i32⟩
  | 60 => ⟨S128000x64, .f32⟩
  | 61 => ⟨S_, .i32⟩
  | 62 => ⟨S128000, .i32⟩
  | 63 => ⟨S128000, .i1⟩
  | 64 => ⟨S_, .i32⟩
  | 65 => ⟨S128000, .i32⟩
  | 66 => ⟨S128000, .i32⟩
  | 67 => ⟨S128000, .i32⟩
  | 68 => ⟨S128000x1, .i32⟩
  | 69 => ⟨S128000x64, .f32⟩
  | 70 => ⟨S128000x1, .f32⟩
  | 71 => ⟨S128000x64, .f32⟩
  | 72 => ⟨S128000x64, .f32⟩
  | 73 => ⟨S128000x1, .f32⟩
  | 74 => ⟨S128000x64, .f32⟩
  | 75 => ⟨S128000x64, .f32⟩
  | 76 => ⟨S128000x64, .f32⟩
  | 77 => ⟨S_, .f32⟩
  | 78 => ⟨S2000x64, .f32⟩
  | 79 => ⟨S128000x1, .i32⟩
  | 80 => ⟨S2000x64, .f32⟩
  | 81 => ⟨S128000x1, .f32⟩
  | 82 => ⟨S128000x64, .f32⟩
  | 83 => ⟨S128000x64, .f32⟩
  | 84 => ⟨S128000x1, .f32⟩
  | 85 => ⟨S128000x64, .f32⟩
  | 86 => ⟨S128000x64, .f32⟩
  | 87 => ⟨S128000x64, .f32⟩
  | 88 => ⟨S_, .f32⟩
  | 89 => ⟨S2000x64, .f32⟩
  | 90 => ⟨S128000x1, .i32⟩
  | 91 => ⟨S2000x64, .f32⟩
  | 92 => ⟨S1x64x64, .f32⟩
  | 93 => ⟨S64x64, .f32⟩
  | 94 => ⟨S2000x64, .f32⟩
  | 95 => ⟨S1x64x64, .f32⟩
  | 96 => ⟨S64x64, .f32⟩
  | 97 => ⟨S2000x64, .f32⟩
  | 98 => ⟨S2000x64, .f32⟩
  | 99 => ⟨S1x64x64, .f32⟩
  | 100 => ⟨S64x64, .f32⟩
  | 101 => ⟨S2000x64, .f32⟩
  | 102 => ⟨S1x64x64, .f32⟩
  | 103 => ⟨S64x64, .f32⟩
  | 104 => ⟨S2000x64, .f32⟩
  | 105 => ⟨S2000x64, .f32⟩
  | 106 => ⟨S_, .f32⟩
  | 107 => ⟨S2000x64, .f32⟩
  | 108 => ⟨S2000x64, .i1⟩
  | 109 => ⟨S2000x64, .f32⟩
  | 110 => ⟨S2000x64, .f32⟩
  | 111 => ⟨S2000x64, .f32⟩
  | 112 => ⟨S200000x1, .i32⟩
  | 113 => ⟨S200000, .i32⟩
  | 114 => ⟨S200000x1, .i32⟩
  | 115 => ⟨S200000, .i32⟩
  | 116 => ⟨S_, .i32⟩
  | 117 => ⟨S200000, .i32⟩
  | 118 => ⟨S200000, .i32⟩
  | 119 => ⟨S200000, .i32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S2000x512, .f32⟩

abbrev hbmTy0_2 (i : Nat) : BufTy := match i % 128 with
  | 0 => ⟨S200000x64, .f32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x64, .f32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000x64, .f32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S200000x64, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x64, .f32⟩
  | 37 => ⟨S200000x320, .f32⟩
  | 38 => ⟨S200000x2, .f32⟩
  | 39 => ⟨S1x2, .f32⟩
  | 40 => ⟨S200000x2, .f32⟩
  | 41 => ⟨S200000x2, .f32⟩
  | 42 => ⟨S_, .f32⟩
  | 43 => ⟨S200000, .f32⟩
  | 44 => ⟨S_, .f32⟩
  | 45 => ⟨S200000, .f32⟩
  | 46 => ⟨S200000, .f32⟩
  | 47 => ⟨S200000x1, .f32⟩
  | 48 => ⟨S200000x2, .f32⟩
  | 49 => ⟨S200000x2, .f32⟩
  | 50 => ⟨S200000x2, .f32⟩
  | 51 => ⟨S_, .f32⟩
  | 52 => ⟨S200000, .f32⟩
  | 53 => ⟨S200000x1, .f32⟩
  | 54 => ⟨S200000x1, .f32⟩
  | 55 => ⟨S200000x2, .f32⟩
  | 56 => ⟨S200000x2, .f32⟩
  | _ => ⟨S2000x512, .f32⟩

abbrev hbmTy (i : Nat) : BufTy := match i / 128 with
  | 0 => hbmTy0_0 i
  | 1 => hbmTy0_1 i
  | 2 => hbmTy0_2 i
  | _ => ⟨S2000x512, .f32⟩

abbrev bufTy : (tb : Table) → Fin (tcTables nBuf tb) → BufTy
  | .hbm, ⟨i, _⟩ => hbmTy i
  | _, _ => ⟨S2000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_14 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_15 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_16 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_17 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_18 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_19 : Ref sig .tc := ⟨.hbm, 147, rfl⟩
abbrev main_v114 : Ref sig .tc := ⟨.hbm, 148, rfl⟩
abbrev main_v115 : Ref sig .tc := ⟨.hbm, 149, rfl⟩
abbrev main_cst_20 : Ref sig .tc := ⟨.hbm, 150, rfl⟩
abbrev main_call1_v0 : Ref sig .tc := ⟨.hbm, 151, rfl⟩
abbrev main_call1_v1 : Ref sig .tc := ⟨.hbm, 152, rfl⟩
abbrev main_v116 : Ref sig .tc := ⟨.hbm, 153, rfl⟩
abbrev main_c_21 : Ref sig .tc := ⟨.hbm, 154, rfl⟩
abbrev main_v117 : Ref sig .tc := ⟨.hbm, 155, rfl⟩
abbrev main_v118 : Ref sig .tc := ⟨.hbm, 156, rfl⟩
abbrev main_c_22 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_c_23 : Ref sig .tc := ⟨.hbm, 164, rfl⟩
abbrev main_v125 : Ref sig .tc := ⟨.hbm, 165, rfl⟩
abbrev main_v126 : Ref sig .tc := ⟨.hbm, 166, rfl⟩
abbrev main_c_24 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_c_25 : Ref sig .tc := ⟨.hbm, 180, rfl⟩
abbrev main_v139 : Ref sig .tc := ⟨.hbm, 181, rfl⟩
abbrev main_v140 : Ref sig .tc := ⟨.hbm, 182, rfl⟩
abbrev main_c_26 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_c_27 : Ref sig .tc := ⟨.hbm, 189, rfl⟩
abbrev main_v146 : Ref sig .tc := ⟨.hbm, 190, rfl⟩
abbrev main_v147 : Ref sig .tc := ⟨.hbm, 191, rfl⟩
abbrev main_c_28 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_29 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_30 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_31 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_c_32 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_c_33 : Ref sig .tc := ⟨.hbm, 248, rfl⟩
abbrev main_v199 : Ref sig .tc := ⟨.hbm, 249, rfl⟩
abbrev main_v200 : Ref sig .tc := ⟨.hbm, 250, rfl⟩
abbrev main_c_34 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_c_35 : Ref sig .tc := ⟨.hbm, 257, rfl⟩
abbrev main_v206 : Ref sig .tc := ⟨.hbm, 258, rfl⟩
abbrev main_v207 : Ref sig .tc := ⟨.hbm, 259, rfl⟩
abbrev main_c_36 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_c_37 : Ref sig .tc := ⟨.hbm, 266, rfl⟩
abbrev main_v213 : Ref sig .tc := ⟨.hbm, 267, rfl⟩
abbrev main_v214 : Ref sig .tc := ⟨.hbm, 268, rfl⟩
abbrev main_c_38 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_c_39 : Ref sig .tc := ⟨.hbm, 275, rfl⟩
abbrev main_v220 : Ref sig .tc := ⟨.hbm, 276, rfl⟩
abbrev main_v221 : Ref sig .tc := ⟨.hbm, 277, rfl⟩
abbrev main_c_40 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_c_41 : Ref sig .tc := ⟨.hbm, 284, rfl⟩
abbrev main_v227 : Ref sig .tc := ⟨.hbm, 285, rfl⟩
abbrev main_v228 : Ref sig .tc := ⟨.hbm, 286, rfl⟩
abbrev main_c_42 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_call2_cst : Ref sig .tc := ⟨.hbm, 298, rfl⟩
abbrev main_call2_v0 : Ref sig .tc := ⟨.hbm, 299, rfl⟩
abbrev main_call2_cst_0 : Ref sig .tc := ⟨.hbm, 300, rfl⟩
abbrev main_call2_v1 : Ref sig .tc := ⟨.hbm, 301, rfl⟩
abbrev main_call2_v2 : Ref sig .tc := ⟨.hbm, 302, rfl⟩
abbrev main_call2_v3 : Ref sig .tc := ⟨.hbm, 303, rfl⟩
abbrev main_call2_v4 : Ref sig .tc := ⟨.hbm, 304, rfl⟩
abbrev main_call2_v5 : Ref sig .tc := ⟨.hbm, 305, rfl⟩
abbrev main_call2_v6 : Ref sig .tc := ⟨.hbm, 306, rfl⟩
abbrev main_call2_cst_1 : Ref sig .tc := ⟨.hbm, 307, rfl⟩
abbrev main_call2_v7 : Ref sig .tc := ⟨.hbm, 308, rfl⟩
abbrev main_call2_v8 : Ref sig .tc := ⟨.hbm, 309, rfl⟩
abbrev main_call2_v9 : Ref sig .tc := ⟨.hbm, 310, rfl⟩
abbrev main_call2_v10 : Ref sig .tc := ⟨.hbm, 311, rfl⟩
abbrev main_v239 : Ref sig .tc := ⟨.hbm, 312, rfl⟩

abbrev nD : Nat := 1
abbrev τ : Topo := Topo.v7x

variable {F : FTy → Type} [FloatOps F]

class Facts₀ : Prop where
  slices_S2x64000_S1x64000_0_0 : S2x64000.Slices ![0, 0] S1x64000
  shapeCasts_S1x64000_S64000 : S1x64000.ShapeCasts S64000
  slices_S2x64000_S1x64000_1_0 : S2x64000.Slices ![1, 0] S1x64000
  concatenates_S64000_S64000_S128000_d0 : Shape.Concatenates [S64000, S64000] S128000 0
  bcast_S_S128000 : S_.BroadcastsInDim S128000 (![] : Fin 0 → Fin S128000.rank)
  bcast_S_S2000 : S_.BroadcastsInDim S2000 (![] : Fin 0 → Fin S2000.rank)
  bcast_S128000_S128000x1_0 : S128000.BroadcastsInDim S128000x1 (![0] : Fin 1 → Fin S128000x1.rank)
  bcast_S128000x1_S128000x512_0_1 : S128000x1.BroadcastsInDim S128000x512 (![0, 1] : Fin 2 → Fin S128000x512.rank)
  bcast_S_S2000x512 : S_.BroadcastsInDim S2000x512 (![] : Fin 0 → Fin S2000x512.rank)
  slices_S2x512x64_S1x512x64_0_0_0 : S2x512x64.Slices ![0, 0, 0] S1x512x64
  shapeCasts_S1x512x64_S512x64 : S1x512x64.ShapeCasts S512x64
  slices_S2x512x64_S1x512x64_1_0_0 : S2x512x64.Slices ![1, 0, 0] S1x512x64
  bcast_S_S2000x64 : S_.BroadcastsInDim S2000x64 (![] : Fin 0 → Fin S2000x64.rank)
  bcast_S128000x1_S128000x64_0_1 : S128000x1.BroadcastsInDim S128000x64 (![0, 1] : Fin 2 → Fin S128000x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x64_S200000x64_S200000x64_S200000x320_d1 : Shape.Concatenates [S200000x64, S200000x64, S200000x64, S200000x64, S200000x64] S200000x320 1
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000x1_S200000x2_0_1 : S200000x1.BroadcastsInDim S200000x2 (![0, 1] : Fin 2 → Fin S200000x2.rank)
  scatter_S2000_S128000x1_S128000_n_0_0_1_wf : ScatterDims.WF S2000 S128000x1 S128000 [] [0] [0] 1
  gather_S2000_S128000x1_S128000_n_0_n_n_0_1_1_wf : GatherDims.WF S2000 S128000x1 S128000 [] [0] [] [0] [] 1 ![1]
  gather_S2000x512_S128000x1_S128000x512_1_0_n_n_0_1_1512_wf : GatherDims.WF S2000x512 S128000x1 S128000x512 [1] [0] [] [0] [] 1 ![1, 512]
  scatter_S2000x512_S128000x1_S128000x512_1_0_0_1_wf : ScatterDims.WF S2000x512 S128000x1 S128000x512 [1] [0] [0] 1
  dot_S2000x512_S512x64_S2000x64_1_0_0_1_n_n_wf : DotDims.WF S2000x512 S512x64 S2000x64 [1] [0] [0] [1] [] []
  gather_S2000x64_S128000x1_S128000x64_1_0_n_n_0_1_164_wf : GatherDims.WF S2000x64 S128000x1 S128000x64 [1] [0] [] [0] [] 1 ![1, 64]
  scatter_S2000x64_S128000x1_S128000x64_1_0_0_1_wf : ScatterDims.WF S2000x64 S128000x1 S128000x64 [1] [0] [0] 1
  dot_S2000x64_S64x64_S2000x64_1_0_0_1_n_n_wf : DotDims.WF S2000x64 S64x64 S2000x64 [1] [0] [0] [1] [] []
  gather_S4000000x64_S200000x1_S200000x64_1_0_n_n_0_1_164_wf : GatherDims.WF S4000000x64 S200000x1 S200000x64 [1] [0] [] [0] [] 1 ![1, 64]
  gather_S2000x64_S200000x1_S200000x64_1_0_n_n_0_1_164_wf : GatherDims.WF S2000x64 S200000x1 S200000x64 [1] [0] [] [0] [] 1 ![1, 64]
  dot_S200000x320_S320x2_S200000x2_1_0_0_1_n_n_wf : DotDims.WF S200000x320 S320x2 S200000x2 [1] [0] [0] [1] [] []

variable [Facts₀]

def scatter_S2000_S128000x1_S128000_n_0_0_1 : ScatterDims S2000 S128000x1 S128000 where
  updateWindowDims := []
  insertedWindowDims := [0]
  scatterDimsToOperandDims := [0]
  indexVectorDim := 1
  wf := scatter_S2000_S128000x1_S128000_n_0_0_1_wf
def gather_S2000_S128000x1_S128000_n_0_n_n_0_1_1 : GatherDims S2000 S128000x1 S128000 where
  offsetDims := []
  collapsedSliceDims := [0]
  operandBatchingDims := []
  startIndicesBatchingDims := []
  startIndexMap := [0]
  indexVectorDim := 1
  sliceSizes := ![1]
  wf := gather_S2000_S128000x1_S128000_n_0_n_n_0_1_1_wf
def gather_S2000x512_S128000x1_S128000x512_1_0_n_n_0_1_1512 : GatherDims S2000x512 S128000x1 S128000x512 where
  offsetDims := [1]
  collapsedSliceDims := [0]
  operandBatchingDims := []
  startIndicesBatchingDims := []
  startIndexMap := [0]
  indexVectorDim := 1
  sliceSizes := ![1, 512]
  wf := gather_S2000x512_S128000x1_S128000x512_1_0_n_n_0_1_1512_wf
def scatter_S2000x512_S128000x1_S128000x512_1_0_0_1 : ScatterDims S2000x512 S128000x1 S128000x512 where
  updateWindowDims := [1]
  insertedWindowDims := [0]
  scatterDimsToOperandDims := [0]
  indexVectorDim := 1
  wf := scatter_S2000x512_S128000x1_S128000x512_1_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S2000x64_S128000x1_S128000x64_1_0_n_n_0_1_164 : GatherDims S2000x64 S128000x1 S128000x64 where
  offsetDims := [1]
  collapsedSliceDims := [0]
  operandBatchingDims := []
  startIndicesBatchingDims := []
  startIndexMap := [0]
  indexVectorDim := 1
  sliceSizes := ![1, 64]
  wf := gather_S2000x64_S128000x1_S128000x64_1_0_n_n_0_1_164_wf
def scatter_S2000x64_S128000x1_S128000x64_1_0_0_1 : ScatterDims S2000x64 S128000x1 S128000x64 where
  updateWindowDims := [1]
  insertedWindowDims := [0]
  scatterDimsToOperandDims := [0]
  indexVectorDim := 1
  wf := scatter_S2000x64_S128000x1_S128000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S4000000x64_S200000x1_S200000x64_1_0_n_n_0_1_164 : GatherDims S4000000x64 S200000x1 S200000x64 where
  offsetDims := [1]
  collapsedSliceDims := [0]
  operandBatchingDims := []
  startIndicesBatchingDims := []
  startIndexMap := [0]
  indexVectorDim := 1
  sliceSizes := ![1, 64]
  wf := gather_S4000000x64_S200000x1_S200000x64_1_0_n_n_0_1_164_wf
def gather_S2000x64_S200000x1_S200000x64_1_0_n_n_0_1_164 : GatherDims S2000x64 S200000x1 S200000x64 where
  offsetDims := [1]
  collapsedSliceDims := [0]
  operandBatchingDims := []
  startIndicesBatchingDims := []
  startIndexMap := [0]
  indexVectorDim := 1
  sliceSizes := ![1, 64]
  wf := gather_S2000x64_S200000x1_S200000x64_1_0_n_n_0_1_164_wf
def dot_S200000x320_S320x2_S200000x2_1_0_0_1_n_n : DotDims S200000x320 S320x2 S200000x2 where
  lhsContracting := [1]
  rhsContracting := [0]
  lhsNonContracting := [0]
  rhsNonContracting := [1]
  lhsBatch := []
  rhsBatch := []
  wf := dot_S200000x320_S320x2_S200000x2_1_0_0_1_n_n_wf

class Facts : Prop extends Facts₀ where

variable [Facts]
-- ==== Proof.KI.Region0.lean ====
/-
  Pallas call 0 of the program, the complex graph convolution `cc0__msconv_kernel` on a grid of 10 row tiles:
  what its body does to the ten windows' staging buffers, at ANY contents `V` of the TensorCore's buffers when the
  call is entered, and for any float instance.

  The body reads its eight input windows whole (the two adjacency tiles, the two full feature matrices, the two
  feature tiles, the two weight matrices) and stores each of its two output windows whole, once: the real and the
  imaginary part of  x·W₀ + bf16(A·x)·W₁  (complex product, the four real matrix products written out), each
  multiplied by the mask  [real part ≥ 0].  So what the body leaves in an output buffer is a closed function of the
  eight input blocks at the point (`out0_8`, `out0_9`), and what it finds in an input buffer is that
  window's block of the array at the point, whether the pipeline fetched it there or kept it from the first point
  (the full feature matrices and the weights have a constant block index).

  The two full feature matrices and the two feature tiles are windows of the SAME two arrays (windows 2 and 4 of
  one, 3 and 5 of the other): each window of such a pair holds half of the array's share (`q0`).
-/
import proofs.«405959_j54778012893400_3_alg».proof.Proof.Gen.KernelIdeal.Launch
import proofs.«405959_j54778012893400_3_alg».proof.Proof.Gen.KernelIdeal.Skeleton
import proofs.«405959_j54778012893400_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the call is entered
variable (V : (c : Dev nD) → (b : Ref sig .tc) → Buf (Elt F) ((c : Thread nD τ).loc b))

/-! ## The windows' blocks -/

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved, and the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): unfetched, the block index
    has not moved, and the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): unfetched, the block index
    has not moved, and the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): unfetched, the block index
    has not moved, and the buffer still holds the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): unfetched, the block index
    has not moved, and the buffer still holds the previous point's block, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): unfetched, the block index
    has not moved, and the buffer still holds the previous point's block, which is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): unfetched, the block index
    has not moved, and the buffer still holds the previous point's block, which is this point's. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): unfetched, the block index
    has not moved, and the buffer still holds the previous point's block, which is this point's. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S200x2000 := Rect.unit (s := S200x2000) ![0, 0] S200x2000.size inb_S200x2000_S200x2000_0_0
abbrev r0_1 : Rect S2000x512 := Rect.unit (s := S2000x512) ![0, 0] S2000x512.size inb_S2000x512_S2000x512_0_0
abbrev r0_2 : Rect S200x512 := Rect.unit (s := S200x512) ![0, 0] S200x512.size inb_S200x512_S200x512_0_0
abbrev r0_3 : Rect S512x64 := Rect.unit (s := S512x64) ![0, 0] S512x64.size inb_S512x64_S512x64_0_0
abbrev r0_4 : Rect S200x64 := Rect.unit (s := S200x64) ![0, 0] S200x64.size inb_S200x64_S200x64_0_0

/-! ## What the body leaves in each output window's buffer -/

/-- Window 8's staging buffer after the body, from the input windows' blocks: its one store, of the real part
    times the mask. -/
def out0_8 (x0 : Vec F S200x2000 .bf16) (x1 : Vec F S200x2000 .bf16) (x2 : Vec F S2000x512 .bf16) (x3 : Vec F S2000x512 .bf16) (x4 : Vec F S200x512 .bf16) (x5 : Vec F S200x512 .bf16) (x6 : Vec F S512x64 .bf16) (x7 : Vec F S512x64 .bf16) : Vec F S200x64 .f32 :=
  View.canon [⟨r0_4, k0_pay1 (k0_pay9 (View.ld x0 r0_0) (View.ld x1 r0_0) (View.ld x2 r0_1) (View.ld x3 r0_1) (View.ld x4 r0_2) (View.ld x6 r0_3) (View.ld x7 r0_3)) (k0_pay11 (View.ld x0 r0_0) (View.ld x1 r0_0) (View.ld x2 r0_1) (View.ld x3 r0_1) (View.ld x4 r0_2) (View.ld x6 r0_3) (View.ld x7 r0_3))⟩]

/-- Window 9's staging buffer after the body, from the input windows' blocks: its one store, of the imaginary part
    times the mask. -/
def out0_9 (x0 : Vec F S200x2000 .bf16) (x1 : Vec F S200x2000 .bf16) (x2 : Vec F S2000x512 .bf16) (x3 : Vec F S2000x512 .bf16) (x4 : Vec F S200x512 .bf16) (x5 : Vec F S200x512 .bf16) (x6 : Vec F S512x64 .bf16) (x7 : Vec F S512x64 .bf16) : Vec F S200x64 .f32 :=
  View.canon [⟨r0_4, k0_pay2 (k0_pay10 (View.ld x0 r0_0) (View.ld x1 r0_0) (View.ld x2 r0_1) (View.ld x3 r0_1) (View.ld x5 r0_2) (View.ld x6 r0_3) (View.ld x7 r0_3)) (k0_pay11 (View.ld x0 r0_0) (View.ld x1 r0_0) (View.ld x2 r0_1) (View.ld x3 r0_1) (View.ld x4 r0_2) (View.ld x6 r0_3) (View.ld x7 r0_3))⟩]

/-- The one store is of the whole buffer, so it covers it. -/
theorem cover0_8 (p0 : Vec F S200x64 .f32) (y : S200x64.Idx) :
    ∃ pc ∈ ([⟨r0_4, p0⟩] : List (View.Piece (Elt F) S200x64 .f32)), y ∈ pc.1.set :=
  View.cover_of_tiled [⟨r0_4, p0⟩] S200x64.size (by rfl) y

theorem cover0_9 (p0 : Vec F S200x64 .f32) (y : S200x64.Idx) :
    ∃ pc ∈ ([⟨r0_4, p0⟩] : List (View.Piece (Elt F) S200x64 .f32)), y ∈ pc.1.set :=
  cover0_8 p0 y

/-! ## The body's triple -/

set_option maxHeartbeats 1000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S200x2000 .bf16) (harg1 : arg1.IsWhole) (arg2 : Memref sig .tc .vmem S200x2000 .bf16) (harg2 : arg2.IsWhole) (arg3 : Memref sig .tc .vmem S2000x512 .bf16) (harg3 : arg3.IsWhole) (arg4 : Memref sig .tc .vmem S2000x512 .bf16) (harg4 : arg4.IsWhole) (arg5 : Memref sig .tc .vmem S200x512 .bf16) (harg5 : arg5.IsWhole) (arg6 : Memref sig .tc .vmem S200x512 .bf16) (harg6 : arg6.IsWhole) (arg7 : Memref sig .tc .vmem S512x64 .bf16) (harg7 : arg7.IsWhole) (arg8 : Memref sig .tc .vmem S512x64 .bf16) (harg8 : arg8.IsWhole) (arg9 : Memref sig .tc .vmem S200x64 .f32) (harg9 : arg9.IsWhole) (arg10 : Memref sig .tc .vmem S200x64 .f32) (harg10 : arg10.IsWhole)
    (x0 : Vec F S200x2000 .bf16) (x1 : Vec F S200x2000 .bf16) (x2 : Vec F S2000x512 .bf16) (x3 : Vec F S2000x512 .bf16) (x4 : Vec F S200x512 .bf16) (x5 : Vec F S200x512 .bf16) (x6 : Vec F S512x64 .bf16) (x7 : Vec F S512x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7)) -∗ K ⟨⟩))
      ⊢ wp frame (wpE (defs₀ (F := F)) Variants.none c none) E (cc0__msconv_kernel i arg1 harg1 arg2 harg2 arg3 harg3 arg4 harg4 arg5 harg5 arg6 harg6 arg7 harg7 arg8 harg8 arg9 harg9 arg10 harg10) K := by
  simp only [cc0__msconv_kernel_eq_skeleton]; unfold cc0__msconv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The share each window holds of its array: windows 2 and 4 read one array and windows 3 and 5 one array, half
    of its share each; every other window its array's whole share. -/
def q0 : Fin cfg0.W → PosShare TreeShare
  | ⟨0, _⟩ => fullShare
  | ⟨1, _⟩ => fullShare
  | ⟨2, _⟩ => fullShare.left
  | ⟨3, _⟩ => fullShare.left
  | ⟨4, _⟩ => fullShare.right
  | ⟨5, _⟩ => fullShare.right
  | ⟨6, _⟩ => fullShare
  | ⟨7, _⟩ => fullShare
  | ⟨8, _⟩ => fullShare
  | ⟨9, _⟩ => fullShare

/-- The proof data of the pipeline on core `c`: the arrays as the call finds them (`V`); after the body at point
    `t` each input's buffer at its block and each output's at `out0_W` of the input blocks; the invariant the
    scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q := q0
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region2.lean ====
/- The class-A half of TensorCore region 2 (kernel function `cc2__final_kernel`, pipeline `cfg2`), at a PARAMETER
   `V` — the TensorCore's buffer contents when the region is entered —, generic in the float instance: each window's
   block at a grid point, what the body leaves in the output window's buffer as a closed function of the three input
   blocks, the body's triple, the pipeline's proof data and its body obligation. -/
import proofs.«405959_j54778012893400_3_alg».proof.Proof.Gen.KernelIdeal.Launch
import proofs.«405959_j54778012893400_3_alg».proof.Proof.Gen.KernelIdeal.Skeleton
import proofs.«405959_j54778012893400_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for ANY proof data whose array is
    `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's, likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's, likewise: it is fetched at the first point only, its block index constant over the grid, so
    at every later point the buffer still holds the block, which is that point's too. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S4000x64 := Rect.unit (s := S4000x64) ![0, 0] S4000x64.size inb_S4000x64_S4000x64_0_0
abbrev r2_1 : Rect S64x2 := Rect.unit (s := S64x2) ![0, 0] S64x2.size inb_S64x2_S64x2_0_0
abbrev r2_2 : Rect S4000x2 := Rect.unit (s := S4000x2) ![0, 0] S4000x2.size inb_S4000x2_S4000x2_0_0

/-! ## What the body leaves in the output window's buffer -/

/-- Window 3's staging buffer after the body, from the input windows' blocks: its one store, whole, of the
    row-wise log-softmax of `x0 · x2 + x1`. -/
def out2_3 (x0 : Vec F S4000x64 .bf16) (x1 : Vec F S4000x2 .f32) (x2 : Vec F S64x2 .bf16) : Vec F S4000x2 .f32 :=
  View.canon [⟨r2_2, k2_pay1 (View.ld x0 r2_0) (View.ld x2 r2_1) (View.ld x1 r2_2)⟩]

/-- The one store is of the whole buffer, so it covers it. -/
theorem cover2_3 (p0 : Vec F S4000x2 .f32) (y : S4000x2.Idx) :
    ∃ pc ∈ ([⟨r2_2, p0⟩] : List (View.Piece (Elt F) S4000x2 .f32)), y ∈ pc.1.set :=
  View.cover_of_tiled [⟨r2_2, p0⟩] S4000x2.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords) (arg1 : Memref sig .tc .vmem S4000x64 .bf16) (harg1 : arg1.IsWhole) (arg2 : Memref sig .tc .vmem S4000x2 .f32) (harg2 : arg2.IsWhole) (arg3 : Memref sig .tc .vmem S64x2 .bf16) (harg3 : arg3.IsWhole) (arg4 : Memref sig .tc .vmem S4000x2 .f32) (harg4 : arg4.IsWhole)
    (x0 : Vec F S4000x64 .bf16) (x1 : Vec F S4000x2 .f32) (x2 : Vec F S64x2 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__final_kernel i arg1 harg1 arg2 harg2 arg3 harg3 arg4 harg4) K := by
  simp only [cc2__final_kernel_eq_skeleton]; unfold cc2__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Shared.lean ====
/- Two pipelines each of whose ten windows read eight buffers: the windowed arrays handed out of a core's unscoped
   buffers and back. A buffer read by two input windows is held by each at one half of the full share; the
   halves split off the buffer's full points-to at the pipeline's entry and join again at its exit. Stated at any
   float instance `F`. -/
import proofs.«405959_j54778012893400_3_alg».proof.Proof.Gen.KernelIdeal.Launch
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each window holds its array at: the two readers of a shared buffer (windows 2 and 4, windows 3 and 5)
    the left and the right half of the full share, every other window the full share. -/
def shares : Fin 10 → PosShare TreeShare
  | ⟨2, _⟩ => fullShare.left
  | ⟨4, _⟩ => fullShare.right
  | ⟨3, _⟩ => fullShare.left
  | ⟨5, _⟩ => fullShare.right
  | _ => fullShare

/-! ## Pipeline 0

Its ten windows read eight buffers: windows 2 and 4 read `main_v78`, windows 3 and 5 read `main_v79`, every other window
a buffer of its own (`main_v76`, `main_v77`, `main_v82`, `main_v85` read, `main_v86_0`, `main_v86_1` written). -/

/-- The distinct buffers behind the windows' arrays, one by one: eight points-tos at the full share. -/
theorem arrBufs0_eq (c : Dev nD) (V : (b : Ref sig .tc) → Buf (Elt F) ((c : Thread nD τ).loc b)) :
    (Pipeline.arrBufs spec0 c V : sProp 𝕄)
      = iprop((((c : Thread nD τ).loc main_v76) ↦{fullShare} V main_v76)
        ∗ (((c : Thread nD τ).loc main_v77) ↦{fullShare} V main_v77)
        ∗ (((c : Thread nD τ).loc main_v78) ↦{fullShare} V main_v78)
        ∗ (((c : Thread nD τ).loc main_v79) ↦{fullShare} V main_v79)
        ∗ (((c : Thread nD τ).loc main_v82) ↦{fullShare} V main_v82)
        ∗ (((c : Thread nD τ).loc main_v85) ↦{fullShare} V main_v85)
        ∗ (((c : Thread nD τ).loc main_v86_0) ↦{fullShare} V main_v86_0)
        ∗ (((c : Thread nD τ).loc main_v86_1) ↦{fullShare} V main_v86_1)) := by
  unfold Pipeline.arrBufs
  exact bigSep_eq_bigSepL_of_eq [main_v76, main_v77, main_v78, main_v79, main_v82, main_v85, main_v86_0, main_v86_1] (by decide) (by decide) _

/-- With the inputs' shares as `shares` names them, every window holds its array at `shares w`: an output window
    holds the full share whatever `q` says, and `shares` is full there. -/
theorem share0_eq (c : Dev nD) (dat : Pipeline.Dat τ (Elt F) Unit ℕ (UR sig nD τ) ℕ cfg0 c) (hq : ∀ w, dat.q w = shares w) :
    ∀ w, dat.share w = shares w := by
  intro w
  unfold Pipeline.Dat.share
  rw [hq]
  fin_cases w <;> rfl

/-- The windows' arrays at the contents `V` gives their buffers, one by one: ten points-tos of whole buffers, the
    two windows of a shared buffer holding its two halves. -/
theorem arrays0_eq (c : Dev nD) (dat : Pipeline.Dat τ (Elt F) Unit ℕ (UR sig nD τ) ℕ cfg0 c) (hq : ∀ w, dat.q w = shares w) (V : (b : Ref sig .tc) → Buf (Elt F) ((c : Thread nD τ).loc b)) :
    (dat.arrays (fun w => V (Pipeline.arrRef spec0 w)) : sProp 𝕄)
      = iprop((((c : Thread nD τ).loc main_v76) ↦{fullShare} V main_v76)
        ∗ (((c : Thread nD τ).loc main_v77) ↦{fullShare} V main_v77)
        ∗ (((c : Thread nD τ).loc main_v78) ↦{fullShare.left} V main_v78)
        ∗ (((c : Thread nD τ).loc main_v79) ↦{fullShare.left} V main_v79)
        ∗ (((c : Thread nD τ).loc main_v78) ↦{fullShare.right} V main_v78)
        ∗ (((c : Thread nD τ).loc main_v79) ↦{fullShare.right} V main_v79)
        ∗ (((c : Thread nD τ).loc main_v82) ↦{fullShare} V main_v82)
        ∗ (((c : Thread nD τ).loc main_v85) ↦{fullShare} V main_v85)
        ∗ (((c : Thread nD τ).loc main_v86_0) ↦{fullShare} V main_v86_0)
        ∗ (((c : Thread nD τ).loc main_v86_1) ↦{fullShare} V main_v86_1)) := by
  unfold Pipeline.Dat.arrays
  rw [bigSep_W0]
  simp only [share0_eq c dat hq, View.set_whole]
  rfl

/-- The eight buffers at the full share give the ten windows' arrays: each shared buffer's full share splits into
    its left half for the one window and its right half for the other (`fullShare ∈ fullShare.left ·? fullShare.right`). -/
theorem arrays_of_arrBufs0 (c : Dev nD) (dat : Pipeline.Dat τ (Elt F) Unit ℕ (UR sig nD τ) ℕ cfg0 c) (hq : ∀ w, dat.q w = shares w)
    (V : (b : Ref sig .tc) → Buf (Elt F) ((c : Thread nD τ).loc b))
    (Fa : (w : Fin cfg0.W) → Buf (Elt F) ((cfg0.win w).arr.view.loc (c : Thread nD τ))) (hF : ∀ w, Fa w = V (Pipeline.arrRef spec0 w)) :
    (Pipeline.arrBufs spec0 c V : sProp 𝕄) ⊢ dat.arrays Fa := by
  obtain rfl : Fa = fun w => V (Pipeline.arrRef spec0 w) := funext hF
  rw [arrBufs0_eq, arrays0_eq c dat hq V]
  iintro ⟨H0, H1, Hs, Ht, H6, H7, H8, H9⟩
  ihave Hs := (pointsTo_share (PosShare.mem_left_op_right fullShare)).1 $$ Hs
  icases Hs with ⟨Hsl, Hsr⟩
  ihave Ht := (pointsTo_share (PosShare.mem_left_op_right fullShare)).1 $$ Ht
  icases Ht with ⟨Htl, Htr⟩
  isplitl [H0]; · iexact H0
  isplitl [H1]; · iexact H1
  isplitl [Hsl]; · iexact Hsl
  isplitl [Htl]; · iexact Htl
  isplitl [Hsr]; · iexact Hsr
  isplitl [Htr]; · iexact Htr
  isplitl [H6]; · iexact H6
  isplitl [H7]; · iexact H7
  isplitl [H8]; · iexact H8
  iexact H9

/-- The ten windows' arrays give back the eight buffers at the full share: the two halves of each shared buffer,
    held at the same contents, join. -/
theorem arrBufs_of_arrays0 (c : Dev nD) (dat : Pipeline.Dat τ (Elt F) Unit ℕ (UR sig nD τ) ℕ cfg0 c) (hq : ∀ w, dat.q w = shares w)
    (V : (b : Ref sig .tc) → Buf (Elt F) ((c : Thread nD τ).loc b))
    (Fa : (w : Fin cfg0.W) → Buf (Elt F) ((cfg0.win w).arr.view.loc (c : Thread nD τ))) (hF : ∀ w, Fa w = V (Pipeline.arrRef spec0 w)) :
    dat.arrays Fa ⊢ (Pipeline.arrBufs spec0 c V : sProp 𝕄) := by
  obtain rfl : Fa = fun w => V (Pipeline.arrRef spec0 w) := funext hF
  rw [arrBufs0_eq, arrays0_eq c dat hq V]
  iintro ⟨H0, H1, Hsl, Htl, Hsr, Htr, H6, H7, H8, H9⟩
  ihave Hs := (pointsTo_share (PosShare.mem_left_op_right fullShare)).2 $$ [Hsl Hsr]
  · isplitl [Hsl] <;> iassumption
  ihave Ht := (pointsTo_share (PosShare.mem_left_op_right fullShare)).2 $$ [Htl Htr]
  · isplitl [Htl] <;> iassumption
  isplitl [H0]; · iexact H0
  isplitl [H1]; · iexact H1
  isplitl [Hs]; · iexact Hs
  isplitl [Ht]; · iexact Ht
  isplitl [H6]; · iexact H6
  isplitl [H7]; · iexact H7
  isplitl [H8]; · iexact H8
  iexact H9

/-- A core's unscoped buffers at contents `V` are the buffers behind the windows' arrays at `V` and the rest. -/
theorem unscopedBufs0_split (c : Dev nD) (V : (b : Ref sig .tc) → Buf (Elt F) ((c : Thread nD τ).loc b)) :
    (unscopedBufs c V : sProp 𝕄) = iprop((Pipeline.arrBufs spec0 c V : sProp 𝕄) ∗ Pipeline.unscopedRest spec0 c V) :=
  Pipeline.unscopedBufs_split₀ (fun _ : Unit => cfg0) () winFacts₀0.arr_unscoped c V

/-- ENTRY: a core's unscoped buffers at contents `V` are the pipeline's arrays at the proof data's entry contents —
    those being read off `V` (`hA`) — and the unscoped rest. -/
theorem arrays_of_unscopedBufs0 (c : Dev nD) (dat : Pipeline.Dat τ (Elt F) Unit ℕ (UR sig nD τ) ℕ cfg0 c) (hq : ∀ w, dat.q w = shares w)
    (V : (b : Ref sig .tc) → Buf (Elt F) ((c : Thread nD τ).loc b))
    (hA : ∀ w, dat.A w = V (Pipeline.arrRef spec0 w)) :
    (unscopedBufs c V : sProp 𝕄) ⊢ iprop(dat.arrays (dat.arrAt · 0) ∗ Pipeline.unscopedRest spec0 c V) := by
  rw [unscopedBufs0_split]
  exact sep_mono (arrays_of_arrBufs0 c dat hq V _ fun w => by rw [show dat.arrAt w 0 = dat.A w from rfl, hA]) .rfl

/-- EXIT: the pipeline's arrays at contents `Fa` and the unscoped rest at `V` are the core's unscoped buffers at any
    valuation `V'` that has the arrays at `Fa` and agrees with `V` off them. -/
theorem unscopedBufs_of_arrays0 (c : Dev nD) (dat : Pipeline.Dat τ (Elt F) Unit ℕ (UR sig nD τ) ℕ cfg0 c) (hq : ∀ w, dat.q w = shares w)
    (V V' : (b : Ref sig .tc) → Buf (Elt F) ((c : Thread nD τ).loc b))
    (Fa : (w : Fin cfg0.W) → Buf (Elt F) ((cfg0.win w).arr.view.loc (c : Thread nD τ))) (hF : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  rw [unscopedBufs0_split]
  refine sep_mono (arrBufs_of_arrays0 c dat hq V' Fa hF) (Entails.of_eq ?_)
  unfold Pipeline.unscopedRest
  exact bigSep_congr fun b hb => by rw [hrest b (Finset.mem_sdiff.mp hb).2]

/-! ## Pipeline 1

Its ten windows read eight buffers: windows 2 and 4 read `main_v87`, windows 3 and 5 read `main_v88`, every other window
a buffer of its own (`main_v76`, `main_v77`, `main_v91`, `main_v94` read, `main_v95_0`, `main_v95_1` written). -/

/-- The distinct buffers behind the windows' arrays, one by one: eight points-tos at the full share. -/
theorem arrBufs1_eq (c : Dev nD) (V : (b : Ref sig .tc) → Buf (Elt F) ((c : Thread nD τ).loc b)) :
    (Pipeline.arrBufs spec1 c V : sProp 𝕄)
      = iprop((((c : Thread nD τ).loc main_v76) ↦{fullShare} V main_v76)
        ∗ (((c : Thread nD τ).loc main_v77) ↦{fullShare} V main_v77)
        ∗ (((c : Thread nD τ).loc main_v87) ↦{fullShare} V main_v87)
        ∗ (((c : Thread nD τ).loc main_v88) ↦{fullShare} V main_v88)
        ∗ (((c : Thread nD τ).loc main_v91) ↦{fullShare} V main_v91)
        ∗ (((c : Thread nD τ).loc main_v94) ↦{fullShare} V main_v94)
        ∗ (((c : Thread nD τ).loc main_v95_0) ↦{fullShare} V main_v95_0)
        ∗ (((c : Thread nD τ).loc main_v95_1) ↦{fullShare} V main_v95_1)) := by
  unfold Pipeline.arrBufs
  exact bigSep_eq_bigSepL_of_eq [main_v76, main_v77, main_v87, main_v88, main_v91, main_v94, main_v95_0, main_v95_1] (by decide) (by decide) _

/-- With the inputs' shares as `shares` names them, every window holds its array at `shares w`: an output window
    holds the full share whatever `q` says, and `shares` is full there. -/
theorem share1_eq (c : Dev nD) (dat : Pipeline.Dat τ (Elt F) Unit ℕ (UR sig nD τ) ℕ cfg1 c) (hq : ∀ w, dat.q w = shares w) :
    ∀ w, dat.share w = shares w := by
  intro w
  unfold Pipeline.Dat.share
  rw [hq]
  fin_cases w <;> rfl

/-- The windows' arrays at the contents `V` gives their buffers, one by one: ten points-tos of whole buffers, the
    two windows of a shared buffer holding its two halves. -/
theorem arrays1_eq (c : Dev nD) (dat : Pipeline.Dat τ (Elt F) Unit ℕ (UR sig nD τ) ℕ cfg1 c) (hq : ∀ w, dat.q w = shares w) (V : (b : Ref sig .tc) → Buf (Elt F) ((c : Thread nD τ).loc b)) :
    (dat.arrays (fun w => V (Pipeline.arrRef spec1 w)) : sProp 𝕄)
      = iprop((((c : Thread nD τ).loc main_v76) ↦{fullShare} V main_v76)
        ∗ (((c : Thread nD τ).loc main_v77) ↦{fullShare} V main_v77)
        ∗ (((c : Thread nD τ).loc main_v87) ↦{fullShare.left} V main_v87)
        ∗ (((c : Thread nD τ).loc main_v88) ↦{fullShare.left} V main_v88)
        ∗ (((c : Thread nD τ).loc main_v87) ↦{fullShare.right} V main_v87)
        ∗ (((c : Thread nD τ).loc main_v88) ↦{fullShare.right} V main_v88)
        ∗ (((c : Thread nD τ).loc main_v91) ↦{fullShare} V main_v91)
        ∗ (((c : Thread nD τ).loc main_v94) ↦{fullShare} V main_v94)
        ∗ (((c : Thread nD τ).loc main_v95_0) ↦{fullShare} V main_v95_0)
        ∗ (((c : Thread nD τ).loc main_v95_1) ↦{fullShare} V main_v95_1)) := by
  unfold Pipeline.Dat.arrays
  rw [bigSep_W1]
  simp only [share1_eq c dat hq, View.set_whole]
  rfl

/-- The eight buffers at the full share give the ten windows' arrays: each shared buffer's full share splits into
    its left half for the one window and its right half for the other (`fullShare ∈ fullShare.left ·? fullShare.right`). -/
theorem arrays_of_arrBufs1 (c : Dev nD) (dat : Pipeline.Dat τ (Elt F) Unit ℕ (UR sig nD τ) ℕ cfg1 c) (hq : ∀ w, dat.q w = shares w)
    (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    (Pipeline.arrBufs spec1 c V : sProp 𝕄) ⊢ dat.arrays Fa := by
  obtain rfl : Fa = fun w => V (Pipeline.arrRef spec1 w) := funext hF
  rw [arrBufs1_eq, arrays1_eq c dat hq V]
  iintro ⟨H0, H1, Hs, Ht, H6, H7, H8, H9⟩
  ihave Hs := (pointsTo_share (PosShare.mem_left_op_right fullShare)).1 $$ Hs
  icases Hs with ⟨Hsl, Hsr⟩
  ihave Ht := (pointsTo_share (PosShare.mem_left_op_right fullShare)).1 $$ Ht
  icases Ht with ⟨Htl, Htr⟩
  isplitl [H0]; · iexact H0
  isplitl [H1]; · iexact H1
  isplitl [Hsl]; · iexact Hsl
  isplitl [Htl]; · iexact Htl
  isplitl [Hsr]; · iexact Hsr
  isplitl [Htr]; · iexact Htr
  isplitl [H6]; · iexact H6
  isplitl [H7]; · iexact H7
  isplitl [H8]; · iexact H8
  iexact H9

/-- The ten windows' arrays give back the eight buffers at the full share: the two halves of each shared buffer,
    held at the same contents, join. -/
theorem arrBufs_of_arrays1 (c : Dev nD) (dat : Pipeline.Dat τ (Elt F) Unit ℕ (UR sig nD τ) ℕ cfg1 c) (hq : ∀ w, dat.q w = shares w)
    (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    dat.arrays Fa ⊢ (Pipeline.arrBufs spec1 c V : sProp 𝕄) := by
  obtain rfl : Fa = fun w => V (Pipeline.arrRef spec1 w) := funext hF
  rw [arrBufs1_eq, arrays1_eq c dat hq V]
  iintro ⟨H0, H1, Hsl, Htl, Hsr, Htr, H6, H7, H8, H9⟩
  ihave Hs := (pointsTo_share (PosShare.mem_left_op_right fullShare)).2 $$ [Hsl Hsr]
  · isplitl [Hsl] <;> iassumption
  ihave Ht := (pointsTo_share (PosShare.mem_left_op_right fullShare)).2 $$ [Htl Htr]
  · isplitl [Htl] <;> iassumption
  isplitl [H0]; · iexact H0
  isplitl [H1]; · iexact H1
  isplitl [Hs]; · iexact Hs
  isplitl [Ht]; · iexact Ht
  isplitl [H6]; · iexact H6
  isplitl [H7]; · iexact H7
  isplitl [H8]; · iexact H8
  iexact H9

/-- A core's unscoped buffers at contents `V` are the buffers behind the windows' arrays at `V` and the rest. -/
theorem unscopedBufs1_split (c : Dev nD) (V : (b : Ref sig .tc) → Buf (Elt F) ((c : Thread nD τ).loc b)) :
    (unscopedBufs c V : sProp 𝕄) = iprop((Pipeline.arrBufs spec1 c V : sProp 𝕄) ∗ Pipeline.unscopedRest spec1 c V) :=
  Pipeline.unscopedBufs_split₀ (fun _ : Unit => cfg1) () winFacts₀1.arr_unscoped c V

/-- ENTRY: a core's unscoped buffers at contents `V` are the pipeline's arrays at the proof data's entry contents —
    those being read off `V` (`hA`) — and the unscoped rest. -/
theorem arrays_of_unscopedBufs1 (c : Dev nD) (dat : Pipeline.Dat τ (Elt F) Unit ℕ (UR sig nD τ) ℕ cfg1 c) (hq : ∀ w, dat.q w = shares w)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [unscopedBufs1_split]
  exact sep_mono (arrays_of_arrBufs1 c dat hq V _ fun w => by rw [show dat.arrAt w 0 = dat.A w from rfl, hA]) .rfl

/-- EXIT: the pipeline's arrays at contents `Fa` and the unscoped rest at `V` are the core's unscoped buffers at any
    valuation `V'` that has the arrays at `Fa` and agrees with `V` off them. -/
theorem unscopedBufs_of_arrays1 (c : Dev nD) (dat : Pipeline.Dat τ (Elt F) Unit ℕ (UR sig nD τ) ℕ cfg1 c) (hq : ∀ w, dat.q w = shares w)
    (V V' : (b : Ref sig .tc) → Buf (Elt F) ((c : Thread nD τ).loc b))
    (Fa : (w : Fin cfg1.W) → Buf (Elt F) ((cfg1.win w).arr.view.loc (c : Thread nD τ))) (hF : ∀ w, Fa w = V' (Pipeline.arrRef spec1 w))
    (hrest : ∀ b, b ∉ Finset.univ.image (Pipeline.arrRef spec1) → V' b = V b) :
    iprop(dat.arrays Fa ∗ Pipeline.unscopedRest spec1 c V) ⊢ (unscopedBufs c V' : sProp 𝕄) := by
  rw [unscopedBufs1_split]
  refine sep_mono (arrBufs_of_arrays1 c dat hq V' Fa hF) (Entails.of_eq ?_)
  unfold Pipeline.unscopedRest
  exact bigSep_congr fun b hb => by rw [hrest b (Finset.mem_sdiff.mp hb).2]

end Cert.KernelIdeal.Hand
-- ==== Proof.KI.Kept.lean ====
/-
  No host operation of the kernel program writes one of its ten argument arrays, and none allocates a buffer: each
  stretch of host operations leaves every argument array as it found it.
-/
import proofs.«405959_j54778012893400_3_alg».proof.Proof.Gen.KernelIdeal.Launch
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The ten argument arrays. -/
def argRefs : Finset (Ref sig .tc) :=
  {main_arg0, main_arg1, main_arg2, main_arg3, main_arg4, main_arg5, main_arg6, main_arg7, main_arg8, main_arg9}

set_option maxHeartbeats 4000000 in
/-- No operation of `main_part0_ops0` writes an argument array. -/
theorem kept_main_part0_ops0 (W : Valuation τ sig (Elt F)) (a : Ref sig .tc) (ha : a ∈ argRefs) :
    StableHlo.after (main_part0_ops0 : List (HloOp τ sig (Elt F))) W (Proc.devRef .tc a) = W (Proc.devRef .tc a) := by
  refine StableHlo.after_of_forall_not_mem (b := Proc.devRef .tc a) _ _ (List.forall_iff_forall_mem.mp ?_)
  simp only [argRefs, Finset.mem_insert, Finset.mem_singleton] at ha
  rcases ha with rfl | rfl | rfl | rfl | rfl | rfl | rfl | rfl | rfl | rfl <;>
  · simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 4000000 in
/-- No operation of `main_part0_ops1` writes an argument array. -/
theorem kept_main_part0_ops1 (W : Valuation τ sig (Elt F)) (a : Ref sig .tc) (ha : a ∈ argRefs) :
    StableHlo.after (main_part0_ops1 : List (HloOp τ sig (Elt F))) W (Proc.devRef .tc a) = W (Proc.devRef .tc a) := by
  refine StableHlo.after_of_forall_not_mem (b := Proc.devRef .tc a) _ _ (List.forall_iff_forall_mem.mp ?_)
  simp only [argRefs, Finset.mem_insert, Finset.mem_singleton] at ha
  rcases ha with rfl | rfl | rfl | rfl | rfl | rfl | rfl | rfl | rfl | rfl <;>
  · simp only [main_part0_ops1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 4000000 in
/-- No operation of `main_part0_ops2` writes an argument array. -/
theorem kept_main_part0_ops2 (W : Valuation τ sig (Elt F)) (a : Ref sig .tc) (ha : a ∈ argRefs) :
    StableHlo.after (main_part0_ops2 : List (HloOp τ sig (Elt F))) W (Proc.devRef .tc a) = W (Proc.devRef .tc a) := by
  refine StableHlo.after_of_forall_not_mem (b := Proc.devRef .tc a) _ _ (List.forall_iff_forall_mem.mp ?_)
  simp only [argRefs, Finset.mem_insert, Finset.mem_singleton] at ha
  rcases ha with rfl | rfl | rfl | rfl | rfl | rfl | rfl | rfl | rfl | rfl <;>
  · simp only [main_part0_ops2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 4000000 in
/-- No operation of `main_part0_ops3` writes an argument array. -/
theorem kept_main_part0_ops3 (W : Valuation τ sig (Elt F)) (a : Ref sig .tc) (ha : a ∈ argRefs) :
    StableHlo.after (main_part0_ops3 : List (HloOp τ sig (Elt F))) W (Proc.devRef .tc a) = W (Proc.devRef .tc a) := by
  refine StableHlo.after_of_forall_not_mem (b := Proc.devRef .tc a) _ _ (List.forall_iff_forall_mem.mp ?_)
  simp only [argRefs, Finset.mem_insert, Finset.mem_singleton] at ha
  rcases ha with rfl | rfl | rfl | rfl | rfl | rfl | rfl | rfl | rfl | rfl <;>
  · simp only [main_part0_ops3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 4000000 in
/-- No operation of `main_part0_ops4` writes an argument array. -/
theorem kept_main_part0_ops4 (W : Valuation τ sig (Elt F)) (a : Ref sig .tc) (ha : a ∈ argRefs) :
    StableHlo.after (main_part0_ops4 : List (HloOp τ sig (Elt F))) W (Proc.devRef .tc a) = W (Proc.devRef .tc a) := by
  refine StableHlo.after_of_forall_not_mem (b := Proc.devRef .tc a) _ _ (List.forall_iff_forall_mem.mp ?_)
  simp only [argRefs, Finset.mem_insert, Finset.mem_singleton] at ha
  rcases ha with rfl | rfl | rfl | rfl | rfl | rfl | rfl | rfl | rfl | rfl <;>
  · simp only [main_part0_ops4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 4000000 in
/-- No operation of `main_part1_ops0` writes an argument array. -/
theorem kept_main_part1_ops0 (W : Valuation τ sig (Elt F)) (a : Ref sig .tc) (ha : a ∈ argRefs) :
    StableHlo.after (main_part1_ops0 : List (HloOp τ sig (Elt F))) W (Proc.devRef .tc a) = W (Proc.devRef .tc a) := by
  refine StableHlo.after_of_forall_not_mem (b := Proc.devRef .tc a) _ _ (List.forall_iff_forall_mem.mp ?_)
  simp only [argRefs, Finset.mem_insert, Finset.mem_singleton] at ha
  rcases ha with rfl | rfl | rfl | rfl | rfl | rfl | rfl | rfl | rfl | rfl <;>
  · simp only [main_part1_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 4000000 in
/-- No operation of `main_part1_ops1` writes an argument array. -/
theorem kept_main_part1_ops1 (W : Valuation τ sig (Elt F)) (a : Ref sig .tc) (ha : a ∈ argRefs) :
    StableHlo.after (main_part1_ops1 : List (HloOp τ sig (Elt F))) W (Proc.devRef .tc a) = W (Proc.devRef .tc a) := by
  refine StableHlo.after_of_forall_not_mem (b := Proc.devRef .tc a) _ _ (List.forall_iff_forall_mem.mp ?_)
  simp only [argRefs, Finset.mem_insert, Finset.mem_singleton] at ha
  rcases ha with rfl | rfl | rfl | rfl | rfl | rfl | rfl | rfl | rfl | rfl <;>
  · simp only [main_part1_ops1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 4000000 in
/-- No operation of `main_part1_ops2` writes an argument array. -/
theorem kept_main_part1_ops2 (W : Valuation τ sig (Elt F)) (a : Ref sig .tc) (ha : a ∈ argRefs) :
    StableHlo.after (main_part1_ops2 : List (HloOp τ sig (Elt F))) W (Proc.devRef .tc a) = W (Proc.devRef .tc a) := by
  refine StableHlo.after_of_forall_not_mem (b := Proc.devRef .tc a) _ _ (List.forall_iff_forall_mem.mp ?_)
  simp only [argRefs, Finset.mem_insert, Finset.mem_singleton] at ha
  rcases ha with rfl | rfl | rfl | rfl | rfl | rfl | rfl | rfl | rfl | rfl <;>
  · simp only [main_part1_ops2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 4000000 in
/-- No operation of `main_part2_ops0` writes an argument array. -/
theorem kept_main_part2_ops0 (W : Valuation τ sig (Elt F)) (a : Ref sig .tc) (ha : a ∈ argRefs) :
    StableHlo.after (main_part2_ops0 : List (HloOp τ sig (Elt F))) W (Proc.devRef .tc a) = W (Proc.devRef .tc a) := by
  refine StableHlo.after_of_forall_not_mem (b := Proc.devRef .tc a) _ _ (List.forall_iff_forall_mem.mp ?_)
  simp only [argRefs, Finset.mem_insert, Finset.mem_singleton] at ha
  rcases ha with rfl | rfl | rfl | rfl | rfl | rfl | rfl | rfl | rfl | rfl <;>
  · simp only [main_part2_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

theorem main_part0_ops0_fresh : (main_part0_ops0 : List (HloOp τ sig (Elt F))).Forall fun op => op.fresh = ∅ := by
  simp only [List.Forall]; repeat' constructor

theorem main_part0_ops1_fresh : (main_part0_ops1 : List (HloOp τ sig (Elt F))).Forall fun op => op.fresh = ∅ := by
  simp only [List.Forall]; repeat' constructor

theorem main_part0_ops2_fresh : (main_part0_ops2 : List (HloOp τ sig (Elt F))).Forall fun op => op.fresh = ∅ := by
  simp only [List.Forall]; repeat' constructor

theorem main_part0_ops3_fresh : (main_part0_ops3 : List (HloOp τ sig (Elt F))).Forall fun op => op.fresh = ∅ := by
  simp only [List.Forall]; repeat' constructor

theorem main_part0_ops4_fresh : (main_part0_ops4 : List (HloOp τ sig (Elt F))).Forall fun op => op.fresh = ∅ := by
  simp only [List.Forall]; repeat' constructor

theorem main_part1_ops0_fresh : (main_part1_ops0 : List (HloOp τ sig (Elt F))).Forall fun op => op.fresh = ∅ := by
  simp only [List.Forall]; repeat' constructor

theorem main_part1_ops1_fresh : (main_part1_ops1 : List (HloOp τ sig (Elt F))).Forall fun op => op.fresh = ∅ := by
  simp only [List.Forall]; repeat' constructor

theorem main_part1_ops2_fresh : (main_part1_ops2 : List (HloOp τ sig (Elt F))).Forall fun op => op.fresh = ∅ := by
  simp only [List.Forall]; repeat' constructor

theorem main_part2_ops0_fresh : (main_part2_ops0 : List (HloOp τ sig (Elt F))).Forall fun op => op.fresh = ∅ := by
  simp only [List.Forall]; repeat' constructor

end Cert.KernelIdeal.Hand

end
-- ==== Proof.KI.Run.lean ====
/-
  The run of the kernel program from launch to return, at any float instance.

  @main is twelve segments: nine stretches of host operations and three kernel regions. The buffer contents at each
  segment boundary are a fold from the launch memory: a host stretch applies its operations in order; a kernel region
  leaves its output arrays at what its write-backs fold to and every other buffer as it found it. Two of the first two
  regions' input windows read one array; such a window holds half of the array's share, and the region's exit joins
  the halves again. The launch then says: every weakly fair execution terminates, nothing faults, the final memory is
  the last boundary's contents — so the result buffer holds that fold's value, and each argument array, which no
  operation and no region writes, holds its launch contents.
-/
import proofs.«405959_j54778012893400_3_alg».proof.Proof.KI.Region0
import proofs.«405959_j54778012893400_3_alg».proof.Proof.KI.Region1
import proofs.«405959_j54778012893400_3_alg».proof.Proof.KI.Region2
import proofs.«405959_j54778012893400_3_alg».proof.Proof.KI.Shared
import proofs.«405959_j54778012893400_3_alg».proof.Proof.KI.Kept

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's exit contents when only two buffers change -/

/-- The contents `V` with the two buffers `b₁`, `b₂` replaced by `o₁`, `o₂`. -/
def setTwo (c : Dev nD) (V : Valuation τ sig (Elt F)) (b₁ b₂ : Ref sig .tc)
    (o₁ : Buf (Elt F) ((c : Thread nD τ).loc b₁)) (o₂ : Buf (Elt F) ((c : Thread nD τ).loc b₂)) : Valuation τ sig (Elt F) := fun b =>
  if h : Proc.devRef .tc b₁ = b then cast (congrArg (fun b' : DevRef τ sig => b'.ty.Contents (Elt F)) h) o₁
  else if h : Proc.devRef .tc b₂ = b then cast (congrArg (fun b' : DevRef τ sig => b'.ty.Contents (Elt F)) h) o₂
  else V b

theorem setTwo_fst (c : Dev nD) (V : Valuation τ sig (Elt F)) (b₁ b₂ : Ref sig .tc) (o₁ o₂) :
    setTwo c V b₁ b₂ o₁ o₂ (Proc.devRef .tc b₁) = o₁ := by
  unfold setTwo; rw [dif_pos rfl]; rfl

theorem setTwo_snd (c : Dev nD) (V : Valuation τ sig (Elt F)) (b₁ b₂ : Ref sig .tc) (o₁ o₂) (hne : b₁ ≠ b₂) :
    setTwo c V b₁ b₂ o₁ o₂ (Proc.devRef .tc b₂) = o₂ := by
  unfold setTwo; rw [dif_neg (fun e => hne (Proc.devRef_injective _ e)), dif_pos rfl]; rfl

theorem setTwo_of_ne (c : Dev nD) (V : Valuation τ sig (Elt F)) (b₁ b₂ : Ref sig .tc) (o₁ o₂) (b : Ref sig .tc)
    (h₁ : b₁ ≠ b) (h₂ : b₂ ≠ b) : setTwo c V b₁ b₂ o₁ o₂ (Proc.devRef .tc b) = V (Proc.devRef .tc b) := by
  unfold setTwo
  rw [dif_neg (fun e => h₁ (Proc.devRef_injective _ e)), dif_neg (fun e => h₂ (Proc.devRef_injective _ e))]

/-! ## The buffer contents at each segment boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
abbrev W4 : Dev nD → Valuation τ sig (Elt F) := fun c => StableHlo.after main_part0_ops3 (W3 m ρ c)
abbrev W5 : Dev nD → Valuation τ sig (Elt F) := fun c => StableHlo.after main_part0_ops4 (W4 m ρ c)
/-- At the first region's entry. -/
abbrev W6 : Dev nD → Valuation τ sig (Elt F) := fun c => StableHlo.after main_part1_ops0 (W5 m ρ c)
abbrev V6 : (c : Dev nD) → (b : Ref sig .tc) → Buf (Elt F) ((c : Thread nD τ).loc b) := fun c b => W6 m ρ c b
/-- At the first region's exit: its two output arrays at what the write-backs fold to, every other buffer as entered. -/
def W7 (c : Dev nD) : Valuation τ sig (Elt F) :=
  setTwo c (W6 m ρ c) main_v86_0 main_v86_1 ((dat0 (V6 m ρ) c).arrAt 8 cfg0.N) ((dat0 (V6 m ρ) c).arrAt 9 cfg0.N)
abbrev V7 : (c : Dev nD) → (b : Ref sig .tc) → Buf (Elt F) ((c : Thread nD τ).loc b) := fun c b => W7 m ρ c b
/-- At the second region's entry. -/
abbrev W8 : Dev nD → Valuation τ sig (Elt F) := fun c => StableHlo.after main_part1_ops1 (W7 m ρ c)
abbrev V8 : (c : Dev nD) → (b : Ref sig .tc) → Buf (Elt F) ((c : Thread nD τ).loc b) := fun c b => W8 m ρ c b
def W9 (c : Dev nD) : Valuation τ sig (Elt F) :=
  setTwo c (W8 m ρ c) main_v95_0 main_v95_1 ((dat1 (V8 m ρ) c).arrAt 8 cfg1.N) ((dat1 (V8 m ρ) c).arrAt 9 cfg1.N)
abbrev V9 : (c : Dev nD) → (b : Ref sig .tc) → Buf (Elt F) ((c : Thread nD τ).loc b) := fun c b => W9 m ρ c b
abbrev W10 : Dev nD → Valuation τ sig (Elt F) := fun c => StableHlo.after main_part1_ops2 (W9 m ρ c)
/-- At the third region's entry. -/
abbrev W11 : Dev nD → Valuation τ sig (Elt F) := fun c => StableHlo.after main_part2_ops0 (W10 m ρ c)
abbrev V11 : (c : Dev nD) → (b : Ref sig .tc) → Buf (Elt F) ((c : Thread nD τ).loc b) := fun c b => W11 m ρ c b
/-- At the third region's exit, the end of @main. -/
def W12 (c : Dev nD) : Valuation τ sig (Elt F) :=
  Pipeline.withArrays spec2 c (W11 m ρ c) fun w => (dat2 (V11 m ρ) c).arrAt w cfg2.N
abbrev V12 : (c : Dev nD) → (b : Ref sig .tc) → Buf (Elt F) ((c : Thread nD τ).loc b) := fun c b => W12 m ρ c b

theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

theorem inputs0 : ∀ w : Fin cfg0.W, w ≠ 8 → w ≠ 9 →
    (cfg0.win w).isOut = false ∧ main_v86_0 ≠ Pipeline.arrRef spec0 w ∧ main_v86_1 ≠ Pipeline.arrRef spec0 w := by decide
set_option maxHeartbeats 1000000 in
/-- Region 0's arrays at its exit: an input array is never written, an output array is what was set. -/
theorem hF0 (c : Dev nD) (w : Fin cfg0.W) : (dat0 (V6 m ρ) c).arrAt w cfg0.N = V7 m ρ c (Pipeline.arrRef spec0 w) := by
  by_cases h8 : w = 8
  · subst h8
    exact (setTwo_fst c (W6 m ρ c) main_v86_0 main_v86_1 ((dat0 (V6 m ρ) c).arrAt 8 cfg0.N) ((dat0 (V6 m ρ) c).arrAt 9 cfg0.N)).symm
  by_cases h9 : w = 9
  · subst h9
    exact (setTwo_snd c (W6 m ρ c) main_v86_0 main_v86_1 ((dat0 (V6 m ρ) c).arrAt 8 cfg0.N) ((dat0 (V6 m ρ) c).arrAt 9 cfg0.N) (by decide)).symm
  obtain ⟨hw, h₁, h₂⟩ := inputs0 w h8 h9
  exact (((dat0 (V6 m ρ) c).arrAt_in w hw _).trans (A_eq0 (V6 m ρ) c w)).trans
    (setTwo_of_ne c (W6 m ρ c) main_v86_0 main_v86_1 _ _ _ h₁ h₂).symm
theorem hrest0 (c : Dev nD) : ∀ b, b ∉ Finset.univ.image (Pipeline.arrRef spec0) → V7 m ρ c b = V6 m ρ c b :=
  fun b hb => setTwo_of_ne c (W6 m ρ c) main_v86_0 main_v86_1 _ _ b
    (fun e => hb (Finset.mem_image.mpr ⟨8, Finset.mem_univ _, e⟩)) (fun e => hb (Finset.mem_image.mpr ⟨9, Finset.mem_univ _, e⟩))

theorem inputs1 : ∀ w : Fin cfg1.W, w ≠ 8 → w ≠ 9 →
    (cfg1.win w).isOut = false ∧ main_v95_0 ≠ Pipeline.arrRef spec1 w ∧ main_v95_1 ≠ Pipeline.arrRef spec1 w := by decide
set_option maxHeartbeats 1000000 in
/-- Region 1's arrays at its exit: an input array is never written, an output array is what was set. -/
theorem hF1 (c : Dev nD) (w : Fin cfg1.W) : (dat1 (V8 m ρ) c).arrAt w cfg1.N = V9 m ρ c (Pipeline.arrRef spec1 w) := by
  by_cases h8 : w = 8
  · subst h8
    exact (setTwo_fst c (W8 m ρ c) main_v95_0 main_v95_1 ((dat1 (V8 m ρ) c).arrAt 8 cfg1.N) ((dat1 (V8 m ρ) c).arrAt 9 cfg1.N)).symm
  by_cases h9 : w = 9
  · subst h9
    exact (setTwo_snd c (W8 m ρ c) main_v95_0 main_v95_1 ((dat1 (V8 m ρ) c).arrAt 8 cfg1.N) ((dat1 (V8 m ρ) c).arrAt 9 cfg1.N) (by decide)).symm
  obtain ⟨hw, h₁, h₂⟩ := inputs1 w h8 h9
  exact (((dat1 (V8 m ρ) c).arrAt_in w hw _).trans (A_eq1 (V8 m ρ) c w)).trans
    (setTwo_of_ne c (W8 m ρ c) main_v95_0 main_v95_1 _ _ _ h₁ h₂).symm
theorem hrest1 (c : Dev nD) : ∀ b, b ∉ Finset.univ.image (Pipeline.arrRef spec1) → V9 m ρ c b = V8 m ρ c b :=
  fun b hb => setTwo_of_ne c (W8 m ρ c) main_v95_0 main_v95_1 _ _ b
    (fun e => hb (Finset.mem_image.mpr ⟨8, Finset.mem_univ _, e⟩)) (fun e => hb (Finset.mem_image.mpr ⟨9, Finset.mem_univ _, e⟩))

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V6 m ρ) c
  | ⟨1, _⟩ => fun c => dat1 (V8 m ρ) c
  | ⟨2, _⟩ => fun c => dat2 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-! ## The regions as segments -/

-- unifying a library lemma stated over the pinned configuration with the printed one takes unfolding plain definitions in a metavariable's type
set_option backward.isDefEq.respectTransparency.types false in
/-- REGION 0: entered from every unscoped buffer at `W6`, left at `W7`. Its arrays are split out of the unscoped
    buffers, the two arrays that two input windows read each halved between them, and put back at the exit contents with
    the halves joined; the generator register goes into the class invariant and out; nothing is owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V6 m ρ) c).loose
  hwaits := Pipeline.hwaits_of_owed_zero _ _ _ _ L lv 0 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec0 c (V6 m ρ c)
  hentry c := by
    rw [Pipeline.ownSems0_none]
    have hsplit := arrays_of_unscopedBufs0 c (pdats m ρ 0 c) (fun w => by
      match w with
      | ⟨0, _⟩ => rfl | ⟨1, _⟩ => rfl | ⟨2, _⟩ => rfl | ⟨3, _⟩ => rfl | ⟨4, _⟩ => rfl
      | ⟨5, _⟩ => rfl | ⟨6, _⟩ => rfl | ⟨7, _⟩ => rfl | ⟨8, _⟩ => rfl | ⟨9, _⟩ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 c (pdats m ρ 0 c) (fun w => by
      match w with
      | ⟨0, _⟩ => rfl | ⟨1, _⟩ => rfl | ⟨2, _⟩ => rfl | ⟨3, _⟩ => rfl | ⟨4, _⟩ => rfl
      | ⟨5, _⟩ => rfl | ⟨6, _⟩ => rfl | ⟨7, _⟩ => rfl | ⟨8, _⟩ => rfl | ⟨9, _⟩ => rfl)
      (V6 m ρ c) (V7 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain definitions in a metavariable's type
set_option backward.isDefEq.respectTransparency.types false in
/-- REGION 1: entered from every unscoped buffer at `W8`, left at `W9`. Its arrays are split out of the unscoped
    buffers, the two arrays that two input windows read each halved between them, and put back at the exit contents with
    the halves joined; the generator register goes into the class invariant and out; nothing is owed. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := arrays_of_unscopedBufs1 c (pdats m ρ 1 c) (fun w => by
      match w with
      | ⟨0, _⟩ => rfl | ⟨1, _⟩ => rfl | ⟨2, _⟩ => rfl | ⟨3, _⟩ => rfl | ⟨4, _⟩ => rfl
      | ⟨5, _⟩ => rfl | ⟨6, _⟩ => rfl | ⟨7, _⟩ => rfl | ⟨8, _⟩ => rfl | ⟨9, _⟩ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m ρ 1 c) (fun w => by
      match w with
      | ⟨0, _⟩ => rfl | ⟨1, _⟩ => rfl | ⟨2, _⟩ => rfl | ⟨3, _⟩ => rfl | ⟨4, _⟩ => rfl
      | ⟨5, _⟩ => rfl | ⟨6, _⟩ => rfl | ⟨7, _⟩ => rfl | ⟨8, _⟩ => rfl | ⟨9, _⟩ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: entered from every unscoped buffer at `W11`, left at `W12`, what the launch reads at the end. Its arrays
    are distinct whole buffers held at the full share. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part0_ops3 main_part0_ops3_sub main_part0_ops3_fresh (W3 m ρ)),
    .host (hseg main_part0_ops4 main_part0_ops4_sub main_part0_ops4_fresh (W4 m ρ)),
    .host (hseg main_part1_ops0 main_part1_ops0_sub main_part1_ops0_fresh (W5 m ρ)),
    .region (reg0 m ρ),
    .host (hseg main_part1_ops1 main_part1_ops1_sub main_part1_ops1_fresh (W7 m ρ)),
    .region (reg1 m ρ),
    .host (hseg main_part1_ops2 main_part1_ops2_sub main_part1_ops2_fresh (W9 m ρ)),
    .host (hseg main_part2_ops0 main_part2_ops0_sub main_part2_ops0_fresh (W10 m ρ)),
    .region (reg2 m ρ) ]

set_option maxHeartbeats 4000000 in
/-- @main IS the run of the segments. -/
theorem main_run (c : Dev nD) : main (F := F) c = Pipeline.Seg.run (segs m ρ) := (main_chain_windows c).trans (by chain_rfl)

/-- An argument array at the end of @main holds its launch contents: no host operation writes it, and no region has it
    as an output array. -/
theorem W12_arg (c : Dev nD) (a : Ref sig .tc) (ha : a ∈ argRefs) (h0 : main_v86_0 ≠ a) (h0' : main_v86_1 ≠ a)
    (h1 : main_v95_0 ≠ a) (h1' : main_v95_1 ≠ a) (h2 : ∀ w, Pipeline.arrRef spec2 w ≠ a) :
    W12 m ρ c (Proc.devRef .tc a) = m ((c : Thread nD τ).loc a) :=
  calc W12 m ρ c (Proc.devRef .tc a)
    _ = W11 m ρ c (Proc.devRef .tc a) := W12_of_ne m ρ c a h2
    _ = W10 m ρ c (Proc.devRef .tc a) := kept_main_part2_ops0 _ a ha
    _ = W9 m ρ c (Proc.devRef .tc a) := kept_main_part1_ops2 _ a ha
    _ = W8 m ρ c (Proc.devRef .tc a) := setTwo_of_ne c _ _ _ _ _ a h1 h1'
    _ = W7 m ρ c (Proc.devRef .tc a) := kept_main_part1_ops1 _ a ha
    _ = W6 m ρ c (Proc.devRef .tc a) := setTwo_of_ne c _ _ _ _ _ a h0 h0'
    _ = W5 m ρ c (Proc.devRef .tc a) := kept_main_part1_ops0 _ a ha
    _ = W4 m ρ c (Proc.devRef .tc a) := kept_main_part0_ops4 _ a ha
    _ = W3 m ρ c (Proc.devRef .tc a) := kept_main_part0_ops3 _ a ha
    _ = W2 m ρ c (Proc.devRef .tc a) := kept_main_part0_ops2 _ a ha
    _ = W1 m ρ c (Proc.devRef .tc a) := kept_main_part0_ops1 _ a ha
    _ = W0 m ρ c (Proc.devRef .tc a) := kept_main_part0_ops0 _ a ha
    _ = m ((c : Thread nD τ).loc a) := rfl

set_option backward.isDefEq.respectTransparency.types false in
/-- THE RUN: from any memory with zero counters, every weakly fair execution of @main terminates, nothing faulting, and
    in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The run with the result buffer and the ten argument arrays named: the result at the last boundary's contents, each
    argument as launched. -/
theorem run_main : θ_run defs (onTc (τ := τ) (main (F := F))) ⟨m, fun _ => 0, ρ⟩ (fun r => ∀ c : Dev nD,
      r.2.mem ((c.tc : Thread nD τ).loc main_v141) = W12 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    have arg : ∀ (a : Ref sig .tc) (ha : a ∈ argRefs) (hu : ¬ (Proc.devRef .tc a : DevRef τ sig).isScoped)
        (h0 : main_v86_0 ≠ a) (h0' : main_v86_1 ≠ a) (h1 : main_v95_0 ≠ a) (h1' : main_v95_1 ≠ a)
        (h2 : ∀ w, Pipeline.arrRef spec2 w ≠ a), r.2.mem ((c.tc : Thread nD τ).loc a) = m ((c.tc : Thread nD τ).loc a) :=
      fun a ha hu h0 h0' h1 h1' h2 => (h c _ (mem_uc a hu)).trans (W12_arg m ρ c a ha h0 h0' h1 h1' h2)
    ⟨h c _ (mem_uc main_v141 (by decide)),
     arg main_arg0 (by decide) (by decide) (by decide) (by decide) (by decide) (by decide) (by decide),
     arg main_arg1 (by decide) (by decide) (by decide) (by decide) (by decide) (by decide) (by decide),
     arg main_arg2 (by decide) (by decide) (by decide) (by decide) (by decide) (by decide) (by decide),
     arg main_arg3 (by decide) (by decide) (by decide) (by decide) (by decide) (by decide) (by decide),
     arg main_arg4 (by decide) (by decide) (by decide) (by decide) (by decide) (by decide) (by decide),
     arg main_arg5 (by decide) (by decide) (by decide) (by decide) (by decide) (by decide) (by decide),
     arg main_arg6 (by decide) (by decide) (by decide) (by decide) (by decide) (by decide) (by decide),
     arg main_arg7 (by decide) (by decide) (by decide) (by decide) (by decide) (by decide) (by decide),
     arg main_arg8 (by decide) (by decide) (by decide) (by decide) (by decide) (by decide) (by decide),
     arg main_arg9 (by decide) (by decide) (by decide) (by decide) (by decide) (by decide) (by decide)⟩)
    (run_all m ρ)

end Cert.KernelIdeal.Hand

end
-- ==== Proof.RefRun.Stages.lean ====
/- The reference program's run, stated over stages: along @main's list of host operations, the buffers still to be read
   hold, after each stretch of operations, their values as functions of the ten argument arrays (the `val_` of each
   operation), and no operation writes an argument array. One proposition per stretch boundary. -/
import proofs.«405959_j54778012893400_3_alg».proof.Proof.RefReadP

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The contents after two lines of operations run one after the other: the second line's fold over the first's. -/
theorem run_after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, run_after_append l₁ l₂]

/-- At the launch: each argument array at its contents. -/
structure RunStIn (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9

/-- After operation 4 of @main: every buffer a later operation reads holds its value as a function of the argument arrays, and the argument arrays are as at the launch. -/
structure RunSt0 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2

/-- After operation 5 of @main: every buffer a later operation reads holds its value as a function of the argument arrays, and the argument arrays are as at the launch. -/
structure RunSt1 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2

/-- After operation 6 of @main: every buffer a later operation reads holds its value as a function of the argument arrays, and the argument arrays are as at the launch. -/
structure RunSt2 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2
  main_v5 : W (Proc.devRef .tc main_v5) = val_main_v5 (F := F) x2

/-- After operation 11 of @main: every buffer a later operation reads holds its value as a function of the argument arrays, and the argument arrays are as at the launch. -/
structure RunSt3 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2
  main_v5 : W (Proc.devRef .tc main_v5) = val_main_v5 (F := F) x2
  main_v8 : W (Proc.devRef .tc main_v8) = val_main_v8 (F := F) x5
  main_v9 : W (Proc.devRef .tc main_v9) = val_main_v9 (F := F) x5

/-- After operation 21 of @main: every buffer a later operation reads holds its value as a function of the argument arrays, and the argument arrays are as at the launch. -/
structure RunSt4 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2
  main_v5 : W (Proc.devRef .tc main_v5) = val_main_v5 (F := F) x2
  main_v8 : W (Proc.devRef .tc main_v8) = val_main_v8 (F := F) x5
  main_v12 : W (Proc.devRef .tc main_v12) = val_main_v12 (F := F) x5
  main_v16 : W (Proc.devRef .tc main_v16) = val_main_v16 (F := F) x2 x5
  main_cst_2 : W (Proc.devRef .tc main_cst_2) = val_main_cst_2 (F := F)

/-- After operation 31 of @main: every buffer a later operation reads holds its value as a function of the argument arrays, and the argument arrays are as at the launch. -/
structure RunSt5 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2
  main_v5 : W (Proc.devRef .tc main_v5) = val_main_v5 (F := F) x2
  main_v8 : W (Proc.devRef .tc main_v8) = val_main_v8 (F := F) x5
  main_v12 : W (Proc.devRef .tc main_v12) = val_main_v12 (F := F) x5
  main_v22 : W (Proc.devRef .tc main_v22) = val_main_v22 (F := F) x2 x5

/-- After operation 41 of @main: every buffer a later operation reads holds its value as a function of the argument arrays, and the argument arrays are as at the launch. -/
structure RunSt6 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2
  main_v5 : W (Proc.devRef .tc main_v5) = val_main_v5 (F := F) x2
  main_v12 : W (Proc.devRef .tc main_v12) = val_main_v12 (F := F) x5
  main_v22 : W (Proc.devRef .tc main_v22) = val_main_v22 (F := F) x2 x5
  main_v30 : W (Proc.devRef .tc main_v30) = val_main_v30 (F := F) x2 x5

/-- After operation 51 of @main: every buffer a later operation reads holds its value as a function of the argument arrays, and the argument arrays are as at the launch. -/
structure RunSt7 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2
  main_v5 : W (Proc.devRef .tc main_v5) = val_main_v5 (F := F) x2
  main_v12 : W (Proc.devRef .tc main_v12) = val_main_v12 (F := F) x5
  main_v38 : W (Proc.devRef .tc main_v38) = val_main_v38 (F := F) x2 x5

/-- After operation 61 of @main: every buffer a later operation reads holds its value as a function of the argument arrays, and the argument arrays are as at the launch. -/
structure RunSt8 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2
  main_v5 : W (Proc.devRef .tc main_v5) = val_main_v5 (F := F) x2
  main_v41 : W (Proc.devRef .tc main_v41) = val_main_v41 (F := F) x2 x5
  main_v44 : W (Proc.devRef .tc main_v44) = val_main_v44 (F := F) x2 x5
  main_v46 : W (Proc.devRef .tc main_v46) = val_main_v46 (F := F) x2
  main_c_9 : W (Proc.devRef .tc main_c_9) = val_main_c_9 (F := F)

/-- After operation 62 of @main: every buffer a later operation reads holds its value as a function of the argument arrays, and the argument arrays are as at the launch. -/
structure RunSt9 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2
  main_v5 : W (Proc.devRef .tc main_v5) = val_main_v5 (F := F) x2
  main_v41 : W (Proc.devRef .tc main_v41) = val_main_v41 (F := F) x2 x5
  main_v44 : W (Proc.devRef .tc main_v44) = val_main_v44 (F := F) x2 x5
  main_v46 : W (Proc.devRef .tc main_v46) = val_main_v46 (F := F) x2
  main_v47 : W (Proc.devRef .tc main_v47) = val_main_v47 (F := F)

/-- After operation 72 of @main: every buffer a later operation reads holds its value as a function of the argument arrays, and the argument arrays are as at the launch. -/
structure RunSt10 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v4 : W (Proc.devRef .tc main_v4) = val_main_v4 (F := F) x2
  main_v5 : W (Proc.devRef .tc main_v5) = val_main_v5 (F := F) x2
  main_v41 : W (Proc.devRef .tc main_v41) = val_main_v41 (F := F) x2 x5
  main_v44 : W (Proc.devRef .tc main_v44) = val_main_v44 (F := F) x2 x5
  main_v51 : W (Proc.devRef .tc main_v51) = val_main_v51 (F := F) x0 x2
  main_v53 : W (Proc.devRef .tc main_v53) = val_main_v53 (F := F) x2
  main_v55 : W (Proc.devRef .tc main_v55) = val_main_v55 (F := F) x2

/-- After operation 82 of @main: every buffer a later operation reads holds its value as a function of the argument arrays, and the argument arrays are as at the launch. -/
structure RunSt11 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v5 : W (Proc.devRef .tc main_v5) = val_main_v5 (F := F) x2
  main_v41 : W (Proc.devRef .tc main_v41) = val_main_v41 (F := F) x2 x5
  main_v44 : W (Proc.devRef .tc main_v44) = val_main_v44 (F := F) x2 x5
  main_v51 : W (Proc.devRef .tc main_v51) = val_main_v51 (F := F) x0 x2
  main_v58 : W (Proc.devRef .tc main_v58) = val_main_v58 (F := F) x1 x2
  main_v65 : W (Proc.devRef .tc main_v65) = val_main_v65 (F := F) x0 x1 x2 x5

/-- After operation 92 of @main: every buffer a later operation reads holds its value as a function of the argument arrays, and the argument arrays are as at the launch. -/
structure RunSt12 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v5 : W (Proc.devRef .tc main_v5) = val_main_v5 (F := F) x2
  main_v68 : W (Proc.devRef .tc main_v68) = val_main_v68 (F := F) x0 x1 x2 x5
  main_v71 : W (Proc.devRef .tc main_v71) = val_main_v71 (F := F) x1 x2 x5
  main_v74 : W (Proc.devRef .tc main_v74) = val_main_v74 (F := F) x0 x2 x5

/-- After operation 102 of @main: every buffer a later operation reads holds its value as a function of the argument arrays, and the argument arrays are as at the launch. -/
structure RunSt13 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v68 : W (Proc.devRef .tc main_v68) = val_main_v68 (F := F) x0 x1 x2 x5
  main_v78 : W (Proc.devRef .tc main_v78) = val_main_v78 (F := F) x0 x1 x2 x5
  main_v81 : W (Proc.devRef .tc main_v81) = val_main_v81 (F := F) x0 x6
  main_v83 : W (Proc.devRef .tc main_v83) = val_main_v83 (F := F) x6

/-- After operation 112 of @main: every buffer a later operation reads holds its value as a function of the argument arrays, and the argument arrays are as at the launch. -/
structure RunSt14 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v85 : W (Proc.devRef .tc main_v85) = val_main_v85 (F := F) x0 x1 x2 x5 x6
  main_v92 : W (Proc.devRef .tc main_v92) = val_main_v92 (F := F) x0 x1 x2 x5 x6
  main_cst_14 : W (Proc.devRef .tc main_cst_14) = val_main_cst_14 (F := F)

/-- After operation 117 of @main: every buffer a later operation reads holds its value as a function of the argument arrays, and the argument arrays are as at the launch. -/
structure RunSt15 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v96 : W (Proc.devRef .tc main_v96) = val_main_v96 (F := F) x0 x1 x2 x5 x6
  main_v97 : W (Proc.devRef .tc main_v97) = val_main_v97 (F := F) x0 x1 x2 x5 x6

/-- After operation 118 of @main: every buffer a later operation reads holds its value as a function of the argument arrays, and the argument arrays are as at the launch. -/
structure RunSt16 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v1 : W (Proc.devRef .tc main_v1) = val_main_v1 (F := F) x2
  main_v3 : W (Proc.devRef .tc main_v3) = val_main_v3 (F := F) x2
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2

/-- After operation 119 of @main: every buffer a later operation reads holds its value as a function of the argument arrays, and the argument arrays are as at the launch. -/
structure RunSt17 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2
  main_v99 : W (Proc.devRef .tc main_v99) = val_main_v99 (F := F) x2

/-- After operation 122 of @main: every buffer a later operation reads holds its value as a function of the argument arrays, and the argument arrays are as at the launch. -/
structure RunSt18 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2
  main_v99 : W (Proc.devRef .tc main_v99) = val_main_v99 (F := F) x2
  main_v100 : W (Proc.devRef .tc main_v100) = val_main_v100 (F := F) x5
  main_v101 : W (Proc.devRef .tc main_v101) = val_main_v101 (F := F)

/-- After operation 124 of @main: every buffer a later operation reads holds its value as a function of the argument arrays, and the argument arrays are as at the launch. -/
structure RunSt19 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2
  main_v99 : W (Proc.devRef .tc main_v99) = val_main_v99 (F := F) x2
  main_v102 : W (Proc.devRef .tc main_v102) = val_main_v102 (F := F) x5
  main_v103 : W (Proc.devRef .tc main_v103) = val_main_v103 (F := F) x5

/-- After operation 134 of @main: every buffer a later operation reads holds its value as a function of the argument arrays, and the argument arrays are as at the launch. -/
structure RunSt20 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2
  main_v99 : W (Proc.devRef .tc main_v99) = val_main_v99 (F := F) x2
  main_v102 : W (Proc.devRef .tc main_v102) = val_main_v102 (F := F) x5
  main_v106 : W (Proc.devRef .tc main_v106) = val_main_v106 (F := F) x5
  main_v110 : W (Proc.devRef .tc main_v110) = val_main_v110 (F := F) x2 x5
  main_cst_18 : W (Proc.devRef .tc main_cst_18) = val_main_cst_18 (F := F)

/-- After operation 144 of @main: every buffer a later operation reads holds its value as a function of the argument arrays, and the argument arrays are as at the launch. -/
structure RunSt21 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2
  main_v99 : W (Proc.devRef .tc main_v99) = val_main_v99 (F := F) x2
  main_v102 : W (Proc.devRef .tc main_v102) = val_main_v102 (F := F) x5
  main_v106 : W (Proc.devRef .tc main_v106) = val_main_v106 (F := F) x5
  main_v116 : W (Proc.devRef .tc main_v116) = val_main_v116 (F := F) x2 x5

/-- After operation 154 of @main: every buffer a later operation reads holds its value as a function of the argument arrays, and the argument arrays are as at the launch. -/
structure RunSt22 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2
  main_v99 : W (Proc.devRef .tc main_v99) = val_main_v99 (F := F) x2
  main_v106 : W (Proc.devRef .tc main_v106) = val_main_v106 (F := F) x5
  main_v116 : W (Proc.devRef .tc main_v116) = val_main_v116 (F := F) x2 x5
  main_v124 : W (Proc.devRef .tc main_v124) = val_main_v124 (F := F) x2 x5

/-- After operation 164 of @main: every buffer a later operation reads holds its value as a function of the argument arrays, and the argument arrays are as at the launch. -/
structure RunSt23 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2
  main_v99 : W (Proc.devRef .tc main_v99) = val_main_v99 (F := F) x2
  main_v106 : W (Proc.devRef .tc main_v106) = val_main_v106 (F := F) x5
  main_v132 : W (Proc.devRef .tc main_v132) = val_main_v132 (F := F) x2 x5

/-- After operation 174 of @main: every buffer a later operation reads holds its value as a function of the argument arrays, and the argument arrays are as at the launch. -/
structure RunSt24 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2
  main_v99 : W (Proc.devRef .tc main_v99) = val_main_v99 (F := F) x2
  main_v135 : W (Proc.devRef .tc main_v135) = val_main_v135 (F := F) x2 x5
  main_v138 : W (Proc.devRef .tc main_v138) = val_main_v138 (F := F) x2 x5
  main_v140 : W (Proc.devRef .tc main_v140) = val_main_v140 (F := F) x2
  main_c_26 : W (Proc.devRef .tc main_c_26) = val_main_c_26 (F := F)

/-- After operation 184 of @main: every buffer a later operation reads holds its value as a function of the argument arrays, and the argument arrays are as at the launch. -/
structure RunSt25 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v98 : W (Proc.devRef .tc main_v98) = val_main_v98 (F := F) x2
  main_v99 : W (Proc.devRef .tc main_v99) = val_main_v99 (F := F) x2
  main_v135 : W (Proc.devRef .tc main_v135) = val_main_v135 (F := F) x2 x5
  main_v138 : W (Proc.devRef .tc main_v138) = val_main_v138 (F := F) x2 x5
  main_v145 : W (Proc.devRef .tc main_v145) = val_main_v145 (F := F) x0 x1 x2 x5 x6
  main_v147 : W (Proc.devRef .tc main_v147) = val_main_v147 (F := F) x2
  main_v148 : W (Proc.devRef .tc main_v148) = val_main_v148 (F := F)

/-- After operation 194 of @main: every buffer a later operation reads holds its value as a function of the argument arrays, and the argument arrays are as at the launch. -/
structure RunSt26 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v99 : W (Proc.devRef .tc main_v99) = val_main_v99 (F := F) x2
  main_v135 : W (Proc.devRef .tc main_v135) = val_main_v135 (F := F) x2 x5
  main_v138 : W (Proc.devRef .tc main_v138) = val_main_v138 (F := F) x2 x5
  main_v145 : W (Proc.devRef .tc main_v145) = val_main_v145 (F := F) x0 x1 x2 x5 x6
  main_v152 : W (Proc.devRef .tc main_v152) = val_main_v152 (F := F) x0 x1 x2 x5 x6
  main_v155 : W (Proc.devRef .tc main_v155) = val_main_v155 (F := F) x0 x1 x2 x5 x6
  main_v158 : W (Proc.devRef .tc main_v158) = val_main_v158 (F := F) x0 x1 x2 x5 x6

/-- After operation 204 of @main: every buffer a later operation reads holds its value as a function of the argument arrays, and the argument arrays are as at the launch. -/
structure RunSt27 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v96 : W (Proc.devRef .tc main_v96) = val_main_v96 (F := F) x0 x1 x2 x5 x6
  main_v97 : W (Proc.devRef .tc main_v97) = val_main_v97 (F := F) x0 x1 x2 x5 x6
  main_v99 : W (Proc.devRef .tc main_v99) = val_main_v99 (F := F) x2
  main_v145 : W (Proc.devRef .tc main_v145) = val_main_v145 (F := F) x0 x1 x2 x5 x6
  main_v162 : W (Proc.devRef .tc main_v162) = val_main_v162 (F := F) x0 x1 x2 x5 x6
  main_v165 : W (Proc.devRef .tc main_v165) = val_main_v165 (F := F) x0 x1 x2 x5 x6
  main_v167 : W (Proc.devRef .tc main_v167) = val_main_v167 (F := F) x2 x5

/-- After operation 214 of @main: every buffer a later operation reads holds its value as a function of the argument arrays, and the argument arrays are as at the launch. -/
structure RunSt28 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v97 : W (Proc.devRef .tc main_v97) = val_main_v97 (F := F) x0 x1 x2 x5 x6
  main_v162 : W (Proc.devRef .tc main_v162) = val_main_v162 (F := F) x0 x1 x2 x5 x6
  main_v172 : W (Proc.devRef .tc main_v172) = val_main_v172 (F := F) x0 x1 x2 x5 x6
  main_v175 : W (Proc.devRef .tc main_v175) = val_main_v175 (F := F) x0 x1 x2 x5 x6 x7
  main_v176 : W (Proc.devRef .tc main_v176) = val_main_v176 (F := F) x7

/-- After operation 224 of @main: every buffer a later operation reads holds its value as a function of the argument arrays, and the argument arrays are as at the launch. -/
structure RunSt29 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v179 : W (Proc.devRef .tc main_v179) = val_main_v179 (F := F) x0 x1 x2 x5 x6 x7
  main_v186 : W (Proc.devRef .tc main_v186) = val_main_v186 (F := F) x0 x1 x2 x5 x6 x7

/-- After operation 234 of @main: every buffer a later operation reads holds its value as a function of the argument arrays, and the argument arrays are as at the launch. -/
structure RunSt30 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v190 : W (Proc.devRef .tc main_v190) = val_main_v190 (F := F) x0 x1 x2 x5 x6 x7
  main_v191 : W (Proc.devRef .tc main_v191) = val_main_v191 (F := F) x0 x1 x2 x5 x6 x7
  main_v193 : W (Proc.devRef .tc main_v193) = val_main_v193 (F := F) x3
  main_v195 : W (Proc.devRef .tc main_v195) = val_main_v195 (F := F) x3

/-- After operation 244 of @main: every buffer a later operation reads holds its value as a function of the argument arrays, and the argument arrays are as at the launch. -/
structure RunSt31 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v190 : W (Proc.devRef .tc main_v190) = val_main_v190 (F := F) x0 x1 x2 x5 x6 x7
  main_v191 : W (Proc.devRef .tc main_v191) = val_main_v191 (F := F) x0 x1 x2 x5 x6 x7
  main_v193 : W (Proc.devRef .tc main_v193) = val_main_v193 (F := F) x3
  main_v195 : W (Proc.devRef .tc main_v195) = val_main_v195 (F := F) x3
  main_v198 : W (Proc.devRef .tc main_v198) = val_main_v198 (F := F) x3
  main_v200 : W (Proc.devRef .tc main_v200) = val_main_v200 (F := F) x3
  main_v202 : W (Proc.devRef .tc main_v202) = val_main_v202 (F := F) x3

/-- After operation 254 of @main: every buffer a later operation reads holds its value as a function of the argument arrays, and the argument arrays are as at the launch. -/
structure RunSt32 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v190 : W (Proc.devRef .tc main_v190) = val_main_v190 (F := F) x0 x1 x2 x5 x6 x7
  main_v191 : W (Proc.devRef .tc main_v191) = val_main_v191 (F := F) x0 x1 x2 x5 x6 x7
  main_v193 : W (Proc.devRef .tc main_v193) = val_main_v193 (F := F) x3
  main_v195 : W (Proc.devRef .tc main_v195) = val_main_v195 (F := F) x3
  main_v205 : W (Proc.devRef .tc main_v205) = val_main_v205 (F := F) x3 x4
  main_v210 : W (Proc.devRef .tc main_v210) = val_main_v210 (F := F) x3

/-- After operation 264 of @main: every buffer a later operation reads holds its value as a function of the argument arrays, and the argument arrays are as at the launch. -/
structure RunSt33 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v190 : W (Proc.devRef .tc main_v190) = val_main_v190 (F := F) x0 x1 x2 x5 x6 x7
  main_v191 : W (Proc.devRef .tc main_v191) = val_main_v191 (F := F) x0 x1 x2 x5 x6 x7
  main_v193 : W (Proc.devRef .tc main_v193) = val_main_v193 (F := F) x3
  main_v195 : W (Proc.devRef .tc main_v195) = val_main_v195 (F := F) x3
  main_v205 : W (Proc.devRef .tc main_v205) = val_main_v205 (F := F) x3 x4
  main_v212 : W (Proc.devRef .tc main_v212) = val_main_v212 (F := F) x0 x1 x2 x3 x5 x6 x7
  main_v218 : W (Proc.devRef .tc main_v218) = val_main_v218 (F := F) x3

/-- After operation 274 of @main: every buffer a later operation reads holds its value as a function of the argument arrays, and the argument arrays are as at the launch. -/
structure RunSt34 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v191 : W (Proc.devRef .tc main_v191) = val_main_v191 (F := F) x0 x1 x2 x5 x6 x7
  main_v195 : W (Proc.devRef .tc main_v195) = val_main_v195 (F := F) x3
  main_v205 : W (Proc.devRef .tc main_v205) = val_main_v205 (F := F) x3 x4
  main_v212 : W (Proc.devRef .tc main_v212) = val_main_v212 (F := F) x0 x1 x2 x3 x5 x6 x7
  main_v219 : W (Proc.devRef .tc main_v219) = val_main_v219 (F := F) x0 x1 x2 x3 x5 x6 x7
  main_v226 : W (Proc.devRef .tc main_v226) = val_main_v226 (F := F) x0 x1 x2 x3 x5 x6 x7

/-- After operation 283 of @main: every buffer a later operation reads holds its value as a function of the argument arrays, and the argument arrays are as at the launch. -/
structure RunSt35 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v205 : W (Proc.devRef .tc main_v205) = val_main_v205 (F := F) x3 x4
  main_v212 : W (Proc.devRef .tc main_v212) = val_main_v212 (F := F) x0 x1 x2 x3 x5 x6 x7
  main_v219 : W (Proc.devRef .tc main_v219) = val_main_v219 (F := F) x0 x1 x2 x3 x5 x6 x7
  main_v226 : W (Proc.devRef .tc main_v226) = val_main_v226 (F := F) x0 x1 x2 x3 x5 x6 x7
  main_v233 : W (Proc.devRef .tc main_v233) = val_main_v233 (F := F) x0 x1 x2 x3 x5 x6 x7

/-- After operation 293 of @main: every buffer a later operation reads holds its value as a function of the argument arrays, and the argument arrays are as at the launch. -/
structure RunSt36 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v238 : W (Proc.devRef .tc main_v238) = val_main_v238 (F := F) x0 x1 x2 x3 x4 x5 x6 x7 x8 x9
  main_call2_v2 : W (Proc.devRef .tc main_call2_v2) = val_main_call2_v2 (F := F) x0 x1 x2 x3 x4 x5 x6 x7 x8 x9

/-- After operation 303 of @main: every buffer a later operation reads holds its value as a function of the argument arrays, and the argument arrays are as at the launch. -/
structure RunSt37 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_v239 : W (Proc.devRef .tc main_v239) = val_main_v239 (F := F) x0 x1 x2 x3 x4 x5 x6 x7 x8 x9

end Cert.ReferenceIdeal.Hand
-- ==== Proof.RefRun.Step0.lean ====
/- The reference program's run over window 0 of @main (operations 1 … 62): stretch by stretch, the values the
   buffers hold afterwards from the values they held before. -/
import proofs.«405959_j54778012893400_3_alg».proof.Proof.RefRun.Stages
import proofs.«405959_j54778012893400_3_alg».proof.Proof.RefRun.Ops0

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 1000000 in
/-- Operations 1 … 4: each buffer the stretch writes holds its operation's function of its operands' values, which
    is its `val_` by definition; every other buffer is as the stretch found it. -/
theorem runStep0 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunStIn W x0 x1 x2 x3 x4 x5 x6 x7 x8 x9) : RunSt0 (after runS0 W) x0 x1 x2 x3 x4 x5 x6 x7 x8 x9 where
  main_arg0 := by unfold runS0; after_results_simp; exact h.main_arg0
  main_arg1 := by unfold runS0; after_results_simp; exact h.main_arg1
  main_arg2 := by unfold runS0; after_results_simp; exact h.main_arg2
  main_arg3 := by unfold runS0; after_results_simp; exact h.main_arg3
  main_arg4 := by unfold runS0; after_results_simp; exact h.main_arg4
  main_arg5 := by unfold runS0; after_results_simp; exact h.main_arg5
  main_arg6 := by unfold runS0; after_results_simp; exact h.main_arg6
  main_arg7 := by unfold runS0; after_results_simp; exact h.main_arg7
  main_arg8 := by unfold runS0; after_results_simp; exact h.main_arg8
  main_arg9 := by unfold runS0; after_results_simp; exact h.main_arg9
  main_v1 := by unfold runS0; after_results_simp; rewrite [h.main_arg2]; rfl
  main_v3 := by unfold runS0; after_results_simp; rewrite [h.main_arg2]; rfl

set_option maxRecDepth 8192 in
set_option maxHeartbeats 1000000 in
/-- Operations 5 … 5: each buffer the stretch writes holds its operation's function of its operands' values, which
    is its `val_` by definition; every other buffer is as the stretch found it. -/
theorem runStep1 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt0 W x0 x1 x2 x3 x4 x5 x6 x7 x8 x9) : RunSt1 (after runS1 W) x0 x1 x2 x3 x4 x5 x6 x7 x8 x9 where
  main_arg0 := by unfold runS1; after_results_simp; exact h.main_arg0
  main_arg1 := by unfold runS1; after_results_simp; exact h.main_arg1
  main_arg2 := by unfold runS1; after_results_simp; exact h.main_arg2
  main_arg3 := by unfold runS1; after_results_simp; exact h.main_arg3
  main_arg4 := by unfold runS1; after_results_simp; exact h.main_arg4
  main_arg5 := by unfold runS1; after_results_simp; exact h.main_arg5
  main_arg6 := by unfold runS1; after_results_simp; exact h.main_arg6
  main_arg7 := by unfold runS1; after_results_simp; exact h.main_arg7
  main_arg8 := by unfold runS1; after_results_simp; exact h.main_arg8
  main_arg9 := by unfold runS1; after_results_simp; exact h.main_arg9
  main_v1 := by unfold runS1; after_results_simp; exact h.main_v1
  main_v3 := by unfold runS1; after_results_simp; exact h.main_v3
  main_v4 := by unfold runS1; after_results_simp; rewrite [h.main_v1, h.main_v3]; rfl

set_option maxRecDepth 8192 in
set_option maxHeartbeats 1000000 in
/-- Operations 6 … 6: each buffer the stretch writes holds its operation's function of its operands' values, which
    is its `val_` by definition; every other buffer is as the stretch found it. -/
theorem runStep2 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt1 W x0 x1 x2 x3 x4 x5 x6 x7 x8 x9) : RunSt2 (after runS2 W) x0 x1 x2 x3 x4 x5 x6 x7 x8 x9 where
  main_arg0 := by unfold runS2; after_results_simp; exact h.main_arg0
  main_arg1 := by unfold runS2; after_results_simp; exact h.main_arg1
  main_arg2 := by unfold runS2; after_results_simp; exact h.main_arg2
  main_arg3 := by unfold runS2; after_results_simp; exact h.main_arg3
  main_arg4 := by unfold runS2; after_results_simp; exact h.main_arg4
  main_arg5 := by unfold runS2; after_results_simp; exact h.main_arg5
  main_arg6 := by unfold runS2; after_results_simp; exact h.main_arg6
  main_arg7 := by unfold runS2; after_results_simp; exact h.main_arg7
  main_arg8 := by unfold runS2; after_results_simp; exact h.main_arg8
  main_arg9 := by unfold runS2; after_results_simp; exact h.main_arg9
  main_v1 := by unfold runS2; after_results_simp; exact h.main_v1
  main_v3 := by unfold runS2; after_results_simp; exact h.main_v3
  main_v4 := by unfold runS2; after_results_simp; exact h.main_v4
  main_v5 := by unfold runS2; after_results_simp; rewrite [h.main_v3, h.main_v1]; rfl

set_option maxRecDepth 8192 in
set_option maxHeartbeats 1000000 in
/-- Operations 7 … 11: each buffer the stretch writes holds its operation's function of its operands' values, which
    is its `val_` by definition; every other buffer is as the stretch found it. -/
theorem runStep3 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt2 W x0 x1 x2 x3 x4 x5 x6 x7 x8 x9) : RunSt3 (after runS3 W) x0 x1 x2 x3 x4 x5 x6 x7 x8 x9 where
  main_arg0 := by unfold runS3; after_results_simp; exact h.main_arg0
  main_arg1 := by unfold runS3; after_results_simp; exact h.main_arg1
  main_arg2 := by unfold runS3; after_results_simp; exact h.main_arg2
  main_arg3 := by unfold runS3; after_results_simp; exact h.main_arg3
  main_arg4 := by unfold runS3; after_results_simp; exact h.main_arg4
  main_arg5 := by unfold runS3; after_results_simp; exact h.main_arg5
  main_arg6 := by unfold runS3; after_results_simp; exact h.main_arg6
  main_arg7 := by unfold runS3; after_results_simp; exact h.main_arg7
  main_arg8 := by unfold runS3; after_results_simp; exact h.main_arg8
  main_arg9 := by unfold runS3; after_results_simp; exact h.main_arg9
  main_v1 := by unfold runS3; after_results_simp; exact h.main_v1
  main_v3 := by unfold runS3; after_results_simp; exact h.main_v3
  main_v4 := by unfold runS3; after_results_simp; exact h.main_v4
  main_v5 := by unfold runS3; after_results_simp; exact h.main_v5
  main_v8 := by unfold runS3; after_results_simp; rewrite [h.main_arg5]; rfl
  main_v9 := by unfold runS3; after_results_simp; rewrite [h.main_arg5]; rfl

set_option maxRecDepth 8192 in
set_option maxHeartbeats 1000000 in
/-- Operations 12 … 21: each buffer the stretch writes holds its operation's function of its operands' values, which
    is its `val_` by definition; every other buffer is as the stretch found it. -/
theorem runStep4 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt3 W x0 x1 x2 x3 x4 x5 x6 x7 x8 x9) : RunSt4 (after runS4 W) x0 x1 x2 x3 x4 x5 x6 x7 x8 x9 where
  main_arg0 := by unfold runS4; after_results_simp; exact h.main_arg0
  main_arg1 := by unfold runS4; after_results_simp; exact h.main_arg1
  main_arg2 := by unfold runS4; after_results_simp; exact h.main_arg2
  main_arg3 := by unfold runS4; after_results_simp; exact h.main_arg3
  main_arg4 := by unfold runS4; after_results_simp; exact h.main_arg4
  main_arg5 := by unfold runS4; after_results_simp; exact h.main_arg5
  main_arg6 := by unfold runS4; after_results_simp; exact h.main_arg6
  main_arg7 := by unfold runS4; after_results_simp; exact h.main_arg7
  main_arg8 := by unfold runS4; after_results_simp; exact h.main_arg8
  main_arg9 := by unfold runS4; after_results_simp; exact h.main_arg9
  main_v1 := by unfold runS4; after_results_simp; exact h.main_v1
  main_v3 := by unfold runS4; after_results_simp; exact h.main_v3
  main_v4 := by unfold runS4; after_results_simp; exact h.main_v4
  main_v5 := by unfold runS4; after_results_simp; exact h.main_v5
  main_v8 := by unfold runS4; after_results_simp; exact h.main_v8
  main_v12 := by unfold runS4; after_results_simp; rewrite [h.main_arg5, h.main_v9]; rfl
  main_v16 := by unfold runS4; after_results_simp; rewrite [h.main_v5, h.main_v8]; rfl
  main_cst_2 := by unfold runS4; after_results_simp; rfl

set_option maxRecDepth 8192 in
set_option maxHeartbeats 1000000 in
/-- Operations 22 … 31: each buffer the stretch writes holds its operation's function of its operands' values, which
    is its `val_` by definition; every other buffer is as the stretch found it. -/
theorem runStep5 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt4 W x0 x1 x2 x3 x4 x5 x6 x7 x8 x9) : RunSt5 (after runS5 W) x0 x1 x2 x3 x4 x5 x6 x7 x8 x9 where
  main_arg0 := by unfold runS5; after_results_simp; exact h.main_arg0
  main_arg1 := by unfold runS5; after_results_simp; exact h.main_arg1
  main_arg2 := by unfold runS5; after_results_simp; exact h.main_arg2
  main_arg3 := by unfold runS5; after_results_simp; exact h.main_arg3
  main_arg4 := by unfold runS5; after_results_simp; exact h.main_arg4
  main_arg5 := by unfold runS5; after_results_simp; exact h.main_arg5
  main_arg6 := by unfold runS5; after_results_simp; exact h.main_arg6
  main_arg7 := by unfold runS5; after_results_simp; exact h.main_arg7
  main_arg8 := by unfold runS5; after_results_simp; exact h.main_arg8
  main_arg9 := by unfold runS5; after_results_simp; exact h.main_arg9
  main_v1 := by unfold runS5; after_results_simp; exact h.main_v1
  main_v3 := by unfold runS5; after_results_simp; exact h.main_v3
  main_v4 := by unfold runS5; after_results_simp; exact h.main_v4
  main_v5 := by unfold runS5; after_results_simp; exact h.main_v5
  main_v8 := by unfold runS5; after_results_simp; exact h.main_v8
  main_v12 := by unfold runS5; after_results_simp; exact h.main_v12
  main_v22 := by unfold runS5; after_results_simp; rewrite [h.main_v16, h.main_cst_2]; rfl

set_option maxRecDepth 8192 in
set_option maxHeartbeats 1000000 in
/-- Operations 32 … 41: each buffer the stretch writes holds its operation's function of its operands' values, which
    is its `val_` by definition; every other buffer is as the stretch found it. -/
theorem runStep6 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt5 W x0 x1 x2 x3 x4 x5 x6 x7 x8 x9) : RunSt6 (after runS6 W) x0 x1 x2 x3 x4 x5 x6 x7 x8 x9 where
  main_arg0 := by unfold runS6; after_results_simp; exact h.main_arg0
  main_arg1 := by unfold runS6; after_results_simp; exact h.main_arg1
  main_arg2 := by unfold runS6; after_results_simp; exact h.main_arg2
  main_arg3 := by unfold runS6; after_results_simp; exact h.main_arg3
  main_arg4 := by unfold runS6; after_results_simp; exact h.main_arg4
  main_arg5 := by unfold runS6; after_results_simp; exact h.main_arg5
  main_arg6 := by unfold runS6; after_results_simp; exact h.main_arg6
  main_arg7 := by unfold runS6; after_results_simp; exact h.main_arg7
  main_arg8 := by unfold runS6; after_results_simp; exact h.main_arg8
  main_arg9 := by unfold runS6; after_results_simp; exact h.main_arg9
  main_v1 := by unfold runS6; after_results_simp; exact h.main_v1
  main_v3 := by unfold runS6; after_results_simp; exact h.main_v3
  main_v4 := by unfold runS6; after_results_simp; exact h.main_v4
  main_v5 := by unfold runS6; after_results_simp; exact h.main_v5
  main_v12 := by unfold runS6; after_results_simp; exact h.main_v12
  main_v22 := by unfold runS6; after_results_simp; exact h.main_v22
  main_v30 := by unfold runS6; after_results_simp; rewrite [h.main_v8, h.main_v22, h.main_v4]; rfl

set_option maxRecDepth 8192 in
set_option maxHeartbeats 1000000 in
/-- Operations 42 … 51: each buffer the stretch writes holds its operation's function of its operands' values, which
    is its `val_` by definition; every other buffer is as the stretch found it. -/
theorem runStep7 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt6 W x0 x1 x2 x3 x4 x5 x6 x7 x8 x9) : RunSt7 (after runS7 W) x0 x1 x2 x3 x4 x5 x6 x7 x8 x9 where
  main_arg0 := by unfold runS7; after_results_simp; exact h.main_arg0
  main_arg1 := by unfold runS7; after_results_simp; exact h.main_arg1
  main_arg2 := by unfold runS7; after_results_simp; exact h.main_arg2
  main_arg3 := by unfold runS7; after_results_simp; exact h.main_arg3
  main_arg4 := by unfold runS7; after_results_simp; exact h.main_arg4
  main_arg5 := by unfold runS7; after_results_simp; exact h.main_arg5
  main_arg6 := by unfold runS7; after_results_simp; exact h.main_arg6
  main_arg7 := by unfold runS7; after_results_simp; exact h.main_arg7
  main_arg8 := by unfold runS7; after_results_simp; exact h.main_arg8
  main_arg9 := by unfold runS7; after_results_simp; exact h.main_arg9
  main_v1 := by unfold runS7; after_results_simp; exact h.main_v1
  main_v3 := by unfold runS7; after_results_simp; exact h.main_v3
  main_v4 := by unfold runS7; after_results_simp; exact h.main_v4
  main_v5 := by unfold runS7; after_results_simp; exact h.main_v5
  main_v12 := by unfold runS7; after_results_simp; exact h.main_v12
  main_v38 := by unfold runS7; after_results_simp; rewrite [h.main_v30, h.main_v22, h.main_v5]; rfl

set_option maxRecDepth 8192 in
set_option maxHeartbeats 1000000 in
/-- Operations 52 … 61: each buffer the stretch writes holds its operation's function of its operands' values, which
    is its `val_` by definition; every other buffer is as the stretch found it. -/
theorem runStep8 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt7 W x0 x1 x2 x3 x4 x5 x6 x7 x8 x9) : RunSt8 (after runS8 W) x0 x1 x2 x3 x4 x5 x6 x7 x8 x9 where
  main_arg0 := by unfold runS8; after_results_simp; exact h.main_arg0
  main_arg1 := by unfold runS8; after_results_simp; exact h.main_arg1
  main_arg2 := by unfold runS8; after_results_simp; exact h.main_arg2
  main_arg3 := by unfold runS8; after_results_simp; exact h.main_arg3
  main_arg4 := by unfold runS8; after_results_simp; exact h.main_arg4
  main_arg5 := by unfold runS8; after_results_simp; exact h.main_arg5
  main_arg6 := by unfold runS8; after_results_simp; exact h.main_arg6
  main_arg7 := by unfold runS8; after_results_simp; exact h.main_arg7
  main_arg8 := by unfold runS8; after_results_simp; exact h.main_arg8
  main_arg9 := by unfold runS8; after_results_simp; exact h.main_arg9
  main_v1 := by unfold runS8; after_results_simp; exact h.main_v1
  main_v3 := by unfold runS8; after_results_simp; exact h.main_v3
  main_v4 := by unfold runS8; after_results_simp; exact h.main_v4
  main_v5 := by unfold runS8; after_results_simp; exact h.main_v5
  main_v41 := by unfold runS8; after_results_simp; rewrite [h.main_v38, h.main_v12]; rfl
  main_v44 := by unfold runS8; after_results_simp; rewrite [h.main_v38, h.main_v12]; rfl
  main_v46 := by unfold runS8; after_results_simp; rewrite [h.main_v4]; rfl
  main_c_9 := by unfold runS8; after_results_simp; rfl

set_option maxRecDepth 8192 in
set_option maxHeartbeats 1000000 in
/-- Operations 62 … 62: each buffer the stretch writes holds its operation's function of its operands' values, which
    is its `val_` by definition; every other buffer is as the stretch found it. -/
theorem runStep9 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt8 W x0 x1 x2 x3 x4 x5 x6 x7 x8 x9) : RunSt9 (after runS9 W) x0 x1 x2 x3 x4 x5 x6 x7 x8 x9 where
  main_arg0 := by unfold runS9; after_results_simp; exact h.main_arg0
  main_arg1 := by unfold runS9; after_results_simp; exact h.main_arg1
  main_arg2 := by unfold runS9; after_results_simp; exact h.main_arg2
  main_arg3 := by unfold runS9; after_results_simp; exact h.main_arg3
  main_arg4 := by unfold runS9; after_results_simp; exact h.main_arg4
  main_arg5 := by unfold runS9; after_results_simp; exact h.main_arg5
  main_arg6 := by unfold runS9; after_results_simp; exact h.main_arg6
  main_arg7 := by unfold runS9; after_results_simp; exact h.main_arg7
  main_arg8 := by unfold runS9; after_results_simp; exact h.main_arg8
  main_arg9 := by unfold runS9; after_results_simp; exact h.main_arg9
  main_v1 := by unfold runS9; after_results_simp; exact h.main_v1
  main_v3 := by unfold runS9; after_results_simp; exact h.main_v3
  main_v4 := by unfold runS9; after_results_simp; exact h.main_v4
  main_v5 := by unfold runS9; after_results_simp; exact h.main_v5
  main_v41 := by unfold runS9; after_results_simp; exact h.main_v41
  main_v44 := by unfold runS9; after_results_simp; exact h.main_v44
  main_v46 := by unfold runS9; after_results_simp; exact h.main_v46
  main_v47 := by unfold runS9; after_results_simp; rewrite [h.main_c_9]; rfl

/-- Window 0 as a whole: its stretches' steps composed. -/
theorem runPart0 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunStIn W x0 x1 x2 x3 x4 x5 x6 x7 x8 x9) : RunSt9 (after runP0 W) x0 x1 x2 x3 x4 x5 x6 x7 x8 x9 := by
  have e : after (runP0 : List (HloOp τ sig (Elt F))) W = (after runS9 (after runS8 (after runS7 (after runS6 (after runS5 (after runS4 (after runS3 (after runS2 (after runS1 (after runS0 W)))))))))) := by
    unfold runP0; simp only [run_after_append]
  rw [e]
  exact (runStep9 _ x0 x1 x2 x3 x4 x5 x6 x7 x8 x9 (runStep8 _ x0 x1 x2 x3 x4 x5 x6 x7 x8 x9 (runStep7 _ x0 x1 x2 x3 x4 x5 x6 x7 x8 x9 (runStep6 _ x0 x1 x2 x3 x4 x5 x6 x7 x8 x9 (runStep5 _ x0 x1 x2 x3 x4 x5 x6 x7 x8 x9 (runStep4 _ x0 x1 x2 x3 x4 x5 x6 x7 x8 x9 (runStep3 _ x0 x1 x2 x3 x4 x5 x6 x7 x8 x9 (runStep2 _ x0 x1 x2 x3 x4 x5 x6 x7 x8 x9 (runStep1 _ x0 x1 x2 x3 x4 x5 x6 x7 x8 x9 (runStep0 W x0 x1 x2 x3 x4 x5 x6 x7 x8 x9 h))))))))))

end Cert.ReferenceIdeal.Hand
-- ==== Proof.RefRun.Step1.lean ====
/- The reference program's run over window 1 of @main (operations 63 … 122): stretch by stretch, the values the
   buffers hold afterwards from the values they held before. -/
import proofs.«405959_j54778012893400_3_alg».proof.Proof.RefRun.Stages
import proofs.«405959_j54778012893400_3_alg».proof.Proof.RefRun.Ops1

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 1000000 in
/-- Operations 63 … 72: each buffer the stretch writes holds its operation's function of its operands' values, which
    is its `val_` by definition; every other buffer is as the stretch found it. -/
theorem runStep10 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt9 W x0 x1 x2 x3 x4 x5 x6 x7 x8 x9) : RunSt10 (after runS10 W) x0 x1 x2 x3 x4 x5 x6 x7 x8 x9 where
  main_arg0 := by unfold runS10; after_results_simp; exact h.main_arg0
  main_arg1 := by unfold runS10; after_results_simp; exact h.main_arg1
  main_arg2 := by unfold runS10; after_results_simp; exact h.main_arg2
  main_arg3 := by unfold runS10; after_results_simp; exact h.main_arg3
  main_arg4 := by unfold runS10; after_results_simp; exact h.main_arg4
  main_arg5 := by unfold runS10; after_results_simp; exact h.main_arg5
  main_arg6 := by unfold runS10; after_results_simp; exact h.main_arg6
  main_arg7 := by unfold runS10; after_results_simp; exact h.main_arg7
  main_arg8 := by unfold runS10; after_results_simp; exact h.main_arg8
  main_arg9 := by unfold runS10; after_results_simp; exact h.main_arg9
  main_v1 := by unfold runS10; after_results_simp; exact h.main_v1
  main_v3 := by unfold runS10; after_results_simp; exact h.main_v3
  main_v4 := by unfold runS10; after_results_simp; exact h.main_v4
  main_v5 := by unfold runS10; after_results_simp; exact h.main_v5
  main_v41 := by unfold runS10; after_results_simp; exact h.main_v41
  main_v44 := by unfold runS10; after_results_simp; exact h.main_v44
  main_v51 := by unfold runS10; after_results_simp; rewrite [h.main_arg0, h.main_v46, h.main_v4, h.main_v47]; rfl
  main_v53 := by unfold runS10; after_results_simp; rewrite [h.main_v4]; rfl
  main_v55 := by unfold runS10; after_results_simp; rewrite [h.main_v4]; rfl

set_option maxRecDepth 8192 in
set_option maxHeartbeats 1000000 in
/-- Operations 73 … 82: each buffer the stretch writes holds its operation's function of its operands' values, which
    is its `val_` by definition; every other buffer is as the stretch found it. -/
theorem runStep11 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt10 W x0 x1 x2 x3 x4 x5 x6 x7 x8 x9) : RunSt11 (after runS11 W) x0 x1 x2 x3 x4 x5 x6 x7 x8 x9 where
  main_arg0 := by unfold runS11; after_results_simp; exact h.main_arg0
  main_arg1 := by unfold runS11; after_results_simp; exact h.main_arg1
  main_arg2 := by unfold runS11; after_results_simp; exact h.main_arg2
  main_arg3 := by unfold runS11; after_results_simp; exact h.main_arg3
  main_arg4 := by unfold runS11; after_results_simp; exact h.main_arg4
  main_arg5 := by unfold runS11; after_results_simp; exact h.main_arg5
  main_arg6 := by unfold runS11; after_results_simp; exact h.main_arg6
  main_arg7 := by unfold runS11; after_results_simp; exact h.main_arg7
  main_arg8 := by unfold runS11; after_results_simp; exact h.main_arg8
  main_arg9 := by unfold runS11; after_results_simp; exact h.main_arg9
  main_v1 := by unfold runS11; after_results_simp; exact h.main_v1
  main_v3 := by unfold runS11; after_results_simp; exact h.main_v3
  main_v5 := by unfold runS11; after_results_simp; exact h.main_v5
  main_v41 := by unfold runS11; after_results_simp; exact h.main_v41
  main_v44 := by unfold runS11; after_results_simp; exact h.main_v44
  main_v51 := by unfold runS11; after_results_simp; exact h.main_v51
  main_v58 := by unfold runS11; after_results_simp; rewrite [h.main_arg1, h.main_v53, h.main_v55, h.main_v4]; rfl
  main_v65 := by unfold runS11; after_results_simp; rewrite [h.main_v41, h.main_v51, h.main_v44, h.main_arg1, h.main_v53, h.main_v55, h.main_v4]; rfl

set_option maxRecDepth 8192 in
set_option maxHeartbeats 1000000 in
/-- Operations 83 … 92: each buffer the stretch writes holds its operation's function of its operands' values, which
    is its `val_` by definition; every other buffer is as the stretch found it. -/
theorem runStep12 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt11 W x0 x1 x2 x3 x4 x5 x6 x7 x8 x9) : RunSt12 (after runS12 W) x0 x1 x2 x3 x4 x5 x6 x7 x8 x9 where
  main_arg0 := by unfold runS12; after_results_simp; exact h.main_arg0
  main_arg1 := by unfold runS12; after_results_simp; exact h.main_arg1
  main_arg2 := by unfold runS12; after_results_simp; exact h.main_arg2
  main_arg3 := by unfold runS12; after_results_simp; exact h.main_arg3
  main_arg4 := by unfold runS12; after_results_simp; exact h.main_arg4
  main_arg5 := by unfold runS12; after_results_simp; exact h.main_arg5
  main_arg6 := by unfold runS12; after_results_simp; exact h.main_arg6
  main_arg7 := by unfold runS12; after_results_simp; exact h.main_arg7
  main_arg8 := by unfold runS12; after_results_simp; exact h.main_arg8
  main_arg9 := by unfold runS12; after_results_simp; exact h.main_arg9
  main_v1 := by unfold runS12; after_results_simp; exact h.main_v1
  main_v3 := by unfold runS12; after_results_simp; exact h.main_v3
  main_v5 := by unfold runS12; after_results_simp; exact h.main_v5
  main_v68 := by unfold runS12; after_results_simp; rewrite [h.main_v5, h.main_v65]; rfl
  main_v71 := by unfold runS12; after_results_simp; rewrite [h.main_v41, h.main_v58]; rfl
  main_v74 := by unfold runS12; after_results_simp; rewrite [h.main_v44, h.main_v51]; rfl

set_option maxRecDepth 8192 in
set_option maxHeartbeats 1000000 in
/-- Operations 93 … 102: each buffer the stretch writes holds its operation's function of its operands' values, which
    is its `val_` by definition; every other buffer is as the stretch found it. -/
theorem runStep13 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt12 W x0 x1 x2 x3 x4 x5 x6 x7 x8 x9) : RunSt13 (after runS13 W) x0 x1 x2 x3 x4 x5 x6 x7 x8 x9 where
  main_arg0 := by unfold runS13; after_results_simp; exact h.main_arg0
  main_arg1 := by unfold runS13; after_results_simp; exact h.main_arg1
  main_arg2 := by unfold runS13; after_results_simp; exact h.main_arg2
  main_arg3 := by unfold runS13; after_results_simp; exact h.main_arg3
  main_arg4 := by unfold runS13; after_results_simp; exact h.main_arg4
  main_arg5 := by unfold runS13; after_results_simp; exact h.main_arg5
  main_arg6 := by unfold runS13; after_results_simp; exact h.main_arg6
  main_arg7 := by unfold runS13; after_results_simp; exact h.main_arg7
  main_arg8 := by unfold runS13; after_results_simp; exact h.main_arg8
  main_arg9 := by unfold runS13; after_results_simp; exact h.main_arg9
  main_v1 := by unfold runS13; after_results_simp; exact h.main_v1
  main_v3 := by unfold runS13; after_results_simp; exact h.main_v3
  main_v68 := by unfold runS13; after_results_simp; exact h.main_v68
  main_v78 := by unfold runS13; after_results_simp; rewrite [h.main_v5, h.main_v71, h.main_v74]; rfl
  main_v81 := by unfold runS13; after_results_simp; rewrite [h.main_arg0, h.main_arg6]; rfl
  main_v83 := by unfold runS13; after_results_simp; rewrite [h.main_arg6]; rfl

set_option maxRecDepth 8192 in
set_option maxHeartbeats 1000000 in
/-- Operations 103 … 112: each buffer the stretch writes holds its operation's function of its operands' values, which
    is its `val_` by definition; every other buffer is as the stretch found it. -/
theorem runStep14 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt13 W x0 x1 x2 x3 x4 x5 x6 x7 x8 x9) : RunSt14 (after runS14 W) x0 x1 x2 x3 x4 x5 x6 x7 x8 x9 where
  main_arg0 := by unfold runS14; after_results_simp; exact h.main_arg0
  main_arg1 := by unfold runS14; after_results_simp; exact h.main_arg1
  main_arg2 := by unfold runS14; after_results_simp; exact h.main_arg2
  main_arg3 := by unfold runS14; after_results_simp; exact h.main_arg3
  main_arg4 := by unfold runS14; after_results_simp; exact h.main_arg4
  main_arg5 := by unfold runS14; after_results_simp; exact h.main_arg5
  main_arg6 := by unfold runS14; after_results_simp; exact h.main_arg6
  main_arg7 := by unfold runS14; after_results_simp; exact h.main_arg7
  main_arg8 := by unfold runS14; after_results_simp; exact h.main_arg8
  main_arg9 := by unfold runS14; after_results_simp; exact h.main_arg9
  main_v1 := by unfold runS14; after_results_simp; exact h.main_v1
  main_v3 := by unfold runS14; after_results_simp; exact h.main_v3
  main_v85 := by unfold runS14; after_results_simp; rewrite [h.main_v81, h.main_v68, h.main_v83]; rfl
  main_v92 := by unfold runS14; after_results_simp; rewrite [h.main_arg1, h.main_arg6, h.main_v78]; rfl
  main_cst_14 := by unfold runS14; after_results_simp; rfl

set_option maxRecDepth 8192 in
set_option maxHeartbeats 1000000 in
/-- Operations 113 … 117: each buffer the stretch writes holds its operation's function of its operands' values, which
    is its `val_` by definition; every other buffer is as the stretch found it. -/
theorem runStep15 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt14 W x0 x1 x2 x3 x4 x5 x6 x7 x8 x9) : RunSt15 (after runS15 W) x0 x1 x2 x3 x4 x5 x6 x7 x8 x9 where
  main_arg0 := by unfold runS15; after_results_simp; exact h.main_arg0
  main_arg1 := by unfold runS15; after_results_simp; exact h.main_arg1
  main_arg2 := by unfold runS15; after_results_simp; exact h.main_arg2
  main_arg3 := by unfold runS15; after_results_simp; exact h.main_arg3
  main_arg4 := by unfold runS15; after_results_simp; exact h.main_arg4
  main_arg5 := by unfold runS15; after_results_simp; exact h.main_arg5
  main_arg6 := by unfold runS15; after_results_simp; exact h.main_arg6
  main_arg7 := by unfold runS15; after_results_simp; exact h.main_arg7
  main_arg8 := by unfold runS15; after_results_simp; exact h.main_arg8
  main_arg9 := by unfold runS15; after_results_simp; exact h.main_arg9
  main_v1 := by unfold runS15; after_results_simp; exact h.main_v1
  main_v3 := by unfold runS15; after_results_simp; exact h.main_v3
  main_v96 := by unfold runS15; after_results_simp; rewrite [h.main_v85, h.main_cst_14]; rfl
  main_v97 := by unfold runS15; after_results_simp; rewrite [h.main_v92, h.main_v85, h.main_cst_14]; rfl

set_option maxRecDepth 8192 in
set_option maxHeartbeats 1000000 in
/-- Operations 118 … 118: each buffer the stretch writes holds its operation's function of its operands' values, which
    is its `val_` by definition; every other buffer is as the stretch found it. -/
theorem runStep16 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt15 W x0 x1 x2 x3 x4 x5 x6 x7 x8 x9) : RunSt16 (after runS16 W) x0 x1 x2 x3 x4 x5 x6 x7 x8 x9 where
  main_arg0 := by unfold runS16; after_results_simp; exact h.main_arg0
  main_arg1 := by unfold runS16; after_results_simp; exact h.main_arg1
  main_arg2 := by unfold runS16; after_results_simp; exact h.main_arg2
  main_arg3 := by unfold runS16; after_results_simp; exact h.main_arg3
  main_arg4 := by unfold runS16; after_results_simp; exact h.main_arg4
  main_arg5 := by unfold runS16; after_results_simp; exact h.main_arg5
  main_arg6 := by unfold runS16; after_results_simp; exact h.main_arg6
  main_arg7 := by unfold runS16; after_results_simp; exact h.main_arg7
  main_arg8 := by unfold runS16; after_results_simp; exact h.main_arg8
  main_arg9 := by unfold runS16; after_results_simp; exact h.main_arg9
  main_v1 := by unfold runS16; after_results_simp; exact h.main_v1
  main_v3 := by unfold runS16; after_results_simp; exact h.main_v3
  main_v96 := by unfold runS16; after_results_simp; exact h.main_v96
  main_v97 := by unfold runS16; after_results_simp; exact h.main_v97
  main_v98 := by unfold runS16; after_results_simp; rewrite [h.main_v1, h.main_v3]; rfl

set_option maxRecDepth 8192 in
set_option maxHeartbeats 1000000 in
/-- Operations 119 … 119: each buffer the stretch writes holds its operation's function of its operands' values, which
    is its `val_` by definition; every other buffer is as the stretch found it. -/
theorem runStep17 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt16 W x0 x1 x2 x3 x4 x5 x6 x7 x8 x9) : RunSt17 (after runS17 W) x0 x1 x2 x3 x4 x5 x6 x7 x8 x9 where
  main_arg0 := by unfold runS17; after_results_simp; exact h.main_arg0
  main_arg1 := by unfold runS17; after_results_simp; exact h.main_arg1
  main_arg2 := by unfold runS17; after_results_simp; exact h.main_arg2
  main_arg3 := by unfold runS17; after_results_simp; exact h.main_arg3
  main_arg4 := by unfold runS17; after_results_simp; exact h.main_arg4
  main_arg5 := by unfold runS17; after_results_simp; exact h.main_arg5
  main_arg6 := by unfold runS17; after_results_simp; exact h.main_arg6
  main_arg7 := by unfold runS17; after_results_simp; exact h.main_arg7
  main_arg8 := by unfold runS17; after_results_simp; exact h.main_arg8
  main_arg9 := by unfold runS17; after_results_simp; exact h.main_arg9
  main_v96 := by unfold runS17; after_results_simp; exact h.main_v96
  main_v97 := by unfold runS17; after_results_simp; exact h.main_v97
  main_v98 := by unfold runS17; after_results_simp; exact h.main_v98
  main_v99 := by unfold runS17; after_results_simp; rewrite [h.main_v3, h.main_v1]; rfl

set_option maxRecDepth 8192 in
set_option maxHeartbeats 1000000 in
/-- Operations 120 … 122: each buffer the stretch writes holds its operation's function of its operands' values, which
    is its `val_` by definition; every other buffer is as the stretch found it. -/
theorem runStep18 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt17 W x0 x1 x2 x3 x4 x5 x6 x7 x8 x9) : RunSt18 (after runS18 W) x0 x1 x2 x3 x4 x5 x6 x7 x8 x9 where
  main_arg0 := by unfold runS18; after_results_simp; exact h.main_arg0
  main_arg1 := by unfold runS18; after_results_simp; exact h.main_arg1
  main_arg2 := by unfold runS18; after_results_simp; exact h.main_arg2
  main_arg3 := by unfold runS18; after_results_simp; exact h.main_arg3
  main_arg4 := by unfold runS18; after_results_simp; exact h.main_arg4
  main_arg5 := by unfold runS18; after_results_simp; exact h.main_arg5
  main_arg6 := by unfold runS18; after_results_simp; exact h.main_arg6
  main_arg7 := by unfold runS18; after_results_simp; exact h.main_arg7
  main_arg8 := by unfold runS18; after_results_simp; exact h.main_arg8
  main_arg9 := by unfold runS18; after_results_simp; exact h.main_arg9
  main_v96 := by unfold runS18; after_results_simp; exact h.main_v96
  main_v97 := by unfold runS18; after_results_simp; exact h.main_v97
  main_v98 := by unfold runS18; after_results_simp; exact h.main_v98
  main_v99 := by unfold runS18; after_results_simp; exact h.main_v99
  main_v100 := by unfold runS18; after_results_simp; rewrite [h.main_arg5]; rfl
  main_v101 := by unfold runS18; after_results_simp; rfl

/-- Window 1 as a whole: its stretches' steps composed. -/
theorem runPart1 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt9 W x0 x1 x2 x3 x4 x5 x6 x7 x8 x9) : RunSt18 (after runP1 W) x0 x1 x2 x3 x4 x5 x6 x7 x8 x9 := by
  have e : after (runP1 : List (HloOp τ sig (Elt F))) W = (after runS18 (after runS17 (after runS16 (after runS15 (after runS14 (after runS13 (after runS12 (after runS11 (after runS10 W))))))))) := by
    unfold runP1; simp only [run_after_append]
  rw [e]
  exact (runStep18 _ x0 x1 x2 x3 x4 x5 x6 x7 x8 x9 (runStep17 _ x0 x1 x2 x3 x4 x5 x6 x7 x8 x9 (runStep16 _ x0 x1 x2 x3 x4 x5 x6 x7 x8 x9 (runStep15 _ x0 x1 x2 x3 x4 x5 x6 x7 x8 x9 (runStep14 _ x0 x1 x2 x3 x4 x5 x6 x7 x8 x9 (runStep13 _ x0 x1 x2 x3 x4 x5 x6 x7 x8 x9 (runStep12 _ x0 x1 x2 x3 x4 x5 x6 x7 x8 x9 (runStep11 _ x0 x1 x2 x3 x4 x5 x6 x7 x8 x9 (runStep10 W x0 x1 x2 x3 x4 x5 x6 x7 x8 x9 h)))))))))

end Cert.ReferenceIdeal.Hand
-- ==== Proof.RefRun.Step2.lean ====
/- The reference program's run over window 2 of @main (operations 123 … 184): stretch by stretch, the values the
   buffers hold afterwards from the values they held before. -/
import proofs.«405959_j54778012893400_3_alg».proof.Proof.RefRun.Stages
import proofs.«405959_j54778012893400_3_alg».proof.Proof.RefRun.Ops2

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 1000000 in
/-- Operations 123 … 124: each buffer the stretch writes holds its operation's function of its operands' values, which
    is its `val_` by definition; every other buffer is as the stretch found it. -/
theorem runStep19 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt18 W x0 x1 x2 x3 x4 x5 x6 x7 x8 x9) : RunSt19 (after runS19 W) x0 x1 x2 x3 x4 x5 x6 x7 x8 x9 where
  main_arg0 := by unfold runS19; after_results_simp; exact h.main_arg0
  main_arg1 := by unfold runS19; after_results_simp; exact h.main_arg1
  main_arg2 := by unfold runS19; after_results_simp; exact h.main_arg2
  main_arg3 := by unfold runS19; after_results_simp; exact h.main_arg3
  main_arg4 := by unfold runS19; after_results_simp; exact h.main_arg4
  main_arg5 := by unfold runS19; after_results_simp; exact h.main_arg5
  main_arg6 := by unfold runS19; after_results_simp; exact h.main_arg6
  main_arg7 := by unfold runS19; after_results_simp; exact h.main_arg7
  main_arg8 := by unfold runS19; after_results_simp; exact h.main_arg8
  main_arg9 := by unfold runS19; after_results_simp; exact h.main_arg9
  main_v96 := by unfold runS19; after_results_simp; exact h.main_v96
  main_v97 := by unfold runS19; after_results_simp; exact h.main_v97
  main_v98 := by unfold runS19; after_results_simp; exact h.main_v98
  main_v99 := by unfold runS19; after_results_simp; exact h.main_v99
  main_v102 := by unfold runS19; after_results_simp; rewrite [h.main_v100, h.main_v101]; rfl
  main_v103 := by unfold runS19; after_results_simp; rewrite [h.main_arg5]; rfl

set_option maxRecDepth 8192 in
set_option maxHeartbeats 1000000 in
/-- Operations 125 … 134: each buffer the stretch writes holds its operation's function of its operands' values, which
    is its `val_` by definition; every other buffer is as the stretch found it. -/
theorem runStep20 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt19 W x0 x1 x2 x3 x4 x5 x6 x7 x8 x9) : RunSt20 (after runS20 W) x0 x1 x2 x3 x4 x5 x6 x7 x8 x9 where
  main_arg0 := by unfold runS20; after_results_simp; exact h.main_arg0
  main_arg1 := by unfold runS20; after_results_simp; exact h.main_arg1
  main_arg2 := by unfold runS20; after_results_simp; exact h.main_arg2
  main_arg3 := by unfold runS20; after_results_simp; exact h.main_arg3
  main_arg4 := by unfold runS20; after_results_simp; exact h.main_arg4
  main_arg5 := by unfold runS20; after_results_simp; exact h.main_arg5
  main_arg6 := by unfold runS20; after_results_simp; exact h.main_arg6
  main_arg7 := by unfold runS20; after_results_simp; exact h.main_arg7
  main_arg8 := by unfold runS20; after_results_simp; exact h.main_arg8
  main_arg9 := by unfold runS20; after_results_simp; exact h.main_arg9
  main_v96 := by unfold runS20; after_results_simp; exact h.main_v96
  main_v97 := by unfold runS20; after_results_simp; exact h.main_v97
  main_v98 := by unfold runS20; after_results_simp; exact h.main_v98
  main_v99 := by unfold runS20; after_results_simp; exact h.main_v99
  main_v102 := by unfold runS20; after_results_simp; exact h.main_v102
  main_v106 := by unfold runS20; after_results_simp; rewrite [h.main_arg5, h.main_v103]; rfl
  main_v110 := by unfold runS20; after_results_simp; rewrite [h.main_v99, h.main_v102]; rfl
  main_cst_18 := by unfold runS20; after_results_simp; rfl

set_option maxRecDepth 8192 in
set_option maxHeartbeats 1000000 in
/-- Operations 135 … 144: each buffer the stretch writes holds its operation's function of its operands' values, which
    is its `val_` by definition; every other buffer is as the stretch found it. -/
theorem runStep21 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt20 W x0 x1 x2 x3 x4 x5 x6 x7 x8 x9) : RunSt21 (after runS21 W) x0 x1 x2 x3 x4 x5 x6 x7 x8 x9 where
  main_arg0 := by unfold runS21; after_results_simp; exact h.main_arg0
  main_arg1 := by unfold runS21; after_results_simp; exact h.main_arg1
  main_arg2 := by unfold runS21; after_results_simp; exact h.main_arg2
  main_arg3 := by unfold runS21; after_results_simp; exact h.main_arg3
  main_arg4 := by unfold runS21; after_results_simp; exact h.main_arg4
  main_arg5 := by unfold runS21; after_results_simp; exact h.main_arg5
  main_arg6 := by unfold runS21; after_results_simp; exact h.main_arg6
  main_arg7 := by unfold runS21; after_results_simp; exact h.main_arg7
  main_arg8 := by unfold runS21; after_results_simp; exact h.main_arg8
  main_arg9 := by unfold runS21; after_results_simp; exact h.main_arg9
  main_v96 := by unfold runS21; after_results_simp; exact h.main_v96
  main_v97 := by unfold runS21; after_results_simp; exact h.main_v97
  main_v98 := by unfold runS21; after_results_simp; exact h.main_v98
  main_v99 := by unfold runS21; after_results_simp; exact h.main_v99
  main_v102 := by unfold runS21; after_results_simp; exact h.main_v102
  main_v106 := by unfold runS21; after_results_simp; exact h.main_v106
  main_v116 := by unfold runS21; after_results_simp; rewrite [h.main_v110, h.main_cst_18]; rfl

set_option maxRecDepth 8192 in
set_option maxHeartbeats 1000000 in
/-- Operations 145 … 154: each buffer the stretch writes holds its operation's function of its operands' values, which
    is its `val_` by definition; every other buffer is as the stretch found it. -/
theorem runStep22 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt21 W x0 x1 x2 x3 x4 x5 x6 x7 x8 x9) : RunSt22 (after runS22 W) x0 x1 x2 x3 x4 x5 x6 x7 x8 x9 where
  main_arg0 := by unfold runS22; after_results_simp; exact h.main_arg0
  main_arg1 := by unfold runS22; after_results_simp; exact h.main_arg1
  main_arg2 := by unfold runS22; after_results_simp; exact h.main_arg2
  main_arg3 := by unfold runS22; after_results_simp; exact h.main_arg3
  main_arg4 := by unfold runS22; after_results_simp; exact h.main_arg4
  main_arg5 := by unfold runS22; after_results_simp; exact h.main_arg5
  main_arg6 := by unfold runS22; after_results_simp; exact h.main_arg6
  main_arg7 := by unfold runS22; after_results_simp; exact h.main_arg7
  main_arg8 := by unfold runS22; after_results_simp; exact h.main_arg8
  main_arg9 := by unfold runS22; after_results_simp; exact h.main_arg9
  main_v96 := by unfold runS22; after_results_simp; exact h.main_v96
  main_v97 := by unfold runS22; after_results_simp; exact h.main_v97
  main_v98 := by unfold runS22; after_results_simp; exact h.main_v98
  main_v99 := by unfold runS22; after_results_simp; exact h.main_v99
  main_v106 := by unfold runS22; after_results_simp; exact h.main_v106
  main_v116 := by unfold runS22; after_results_simp; exact h.main_v116
  main_v124 := by unfold runS22; after_results_simp; rewrite [h.main_v102, h.main_v116, h.main_v98]; rfl

set_option maxRecDepth 8192 in
set_option maxHeartbeats 1000000 in
/-- Operations 155 … 164: each buffer the stretch writes holds its operation's function of its operands' values, which
    is its `val_` by definition; every other buffer is as the stretch found it. -/
theorem runStep23 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt22 W x0 x1 x2 x3 x4 x5 x6 x7 x8 x9) : RunSt23 (after runS23 W) x0 x1 x2 x3 x4 x5 x6 x7 x8 x9 where
  main_arg0 := by unfold runS23; after_results_simp; exact h.main_arg0
  main_arg1 := by unfold runS23; after_results_simp; exact h.main_arg1
  main_arg2 := by unfold runS23; after_results_simp; exact h.main_arg2
  main_arg3 := by unfold runS23; after_results_simp; exact h.main_arg3
  main_arg4 := by unfold runS23; after_results_simp; exact h.main_arg4
  main_arg5 := by unfold runS23; after_results_simp; exact h.main_arg5
  main_arg6 := by unfold runS23; after_results_simp; exact h.main_arg6
  main_arg7 := by unfold runS23; after_results_simp; exact h.main_arg7
  main_arg8 := by unfold runS23; after_results_simp; exact h.main_arg8
  main_arg9 := by unfold runS23; after_results_simp; exact h.main_arg9
  main_v96 := by unfold runS23; after_results_simp; exact h.main_v96
  main_v97 := by unfold runS23; after_results_simp; exact h.main_v97
  main_v98 := by unfold runS23; after_results_simp; exact h.main_v98
  main_v99 := by unfold runS23; after_results_simp; exact h.main_v99
  main_v106 := by unfold runS23; after_results_simp; exact h.main_v106
  main_v132 := by unfold runS23; after_results_simp; rewrite [h.main_v124, h.main_v116, h.main_v99]; rfl

set_option maxRecDepth 8192 in
set_option maxHeartbeats 1000000 in
/-- Operations 165 … 174: each buffer the stretch writes holds its operation's function of its operands' values, which
    is its `val_` by definition; every other buffer is as the stretch found it. -/
theorem runStep24 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt23 W x0 x1 x2 x3 x4 x5 x6 x7 x8 x9) : RunSt24 (after runS24 W) x0 x1 x2 x3 x4 x5 x6 x7 x8 x9 where
  main_arg0 := by unfold runS24; after_results_simp; exact h.main_arg0
  main_arg1 := by unfold runS24; after_results_simp; exact h.main_arg1
  main_arg2 := by unfold runS24; after_results_simp; exact h.main_arg2
  main_arg3 := by unfold runS24; after_results_simp; exact h.main_arg3
  main_arg4 := by unfold runS24; after_results_simp; exact h.main_arg4
  main_arg5 := by unfold runS24; after_results_simp; exact h.main_arg5
  main_arg6 := by unfold runS24; after_results_simp; exact h.main_arg6
  main_arg7 := by unfold runS24; after_results_simp; exact h.main_arg7
  main_arg8 := by unfold runS24; after_results_simp; exact h.main_arg8
  main_arg9 := by unfold runS24; after_results_simp; exact h.main_arg9
  main_v96 := by unfold runS24; after_results_simp; exact h.main_v96
  main_v97 := by unfold runS24; after_results_simp; exact h.main_v97
  main_v98 := by unfold runS24; after_results_simp; exact h.main_v98
  main_v99 := by unfold runS24; after_results_simp; exact h.main_v99
  main_v135 := by unfold runS24; after_results_simp; rewrite [h.main_v132, h.main_v106]; rfl
  main_v138 := by unfold runS24; after_results_simp; rewrite [h.main_v132, h.main_v106]; rfl
  main_v140 := by unfold runS24; after_results_simp; rewrite [h.main_v98]; rfl
  main_c_26 := by unfold runS24; after_results_simp; rfl

set_option maxRecDepth 8192 in
set_option maxHeartbeats 1000000 in
/-- Operations 175 … 184: each buffer the stretch writes holds its operation's function of its operands' values, which
    is its `val_` by definition; every other buffer is as the stretch found it. -/
theorem runStep25 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt24 W x0 x1 x2 x3 x4 x5 x6 x7 x8 x9) : RunSt25 (after runS25 W) x0 x1 x2 x3 x4 x5 x6 x7 x8 x9 where
  main_arg0 := by unfold runS25; after_results_simp; exact h.main_arg0
  main_arg1 := by unfold runS25; after_results_simp; exact h.main_arg1
  main_arg2 := by unfold runS25; after_results_simp; exact h.main_arg2
  main_arg3 := by unfold runS25; after_results_simp; exact h.main_arg3
  main_arg4 := by unfold runS25; after_results_simp; exact h.main_arg4
  main_arg5 := by unfold runS25; after_results_simp; exact h.main_arg5
  main_arg6 := by unfold runS25; after_results_simp; exact h.main_arg6
  main_arg7 := by unfold runS25; after_results_simp; exact h.main_arg7
  main_arg8 := by unfold runS25; after_results_simp; exact h.main_arg8
  main_arg9 := by unfold runS25; after_results_simp; exact h.main_arg9
  main_v96 := by unfold runS25; after_results_simp; exact h.main_v96
  main_v97 := by unfold runS25; after_results_simp; exact h.main_v97
  main_v98 := by unfold runS25; after_results_simp; exact h.main_v98
  main_v99 := by unfold runS25; after_results_simp; exact h.main_v99
  main_v135 := by unfold runS25; after_results_simp; exact h.main_v135
  main_v138 := by unfold runS25; after_results_simp; exact h.main_v138
  main_v145 := by unfold runS25; after_results_simp; rewrite [h.main_v96, h.main_v140, h.main_v98, h.main_c_26]; rfl
  main_v147 := by unfold runS25; after_results_simp; rewrite [h.main_v98]; rfl
  main_v148 := by unfold runS25; after_results_simp; rfl

/-- Window 2 as a whole: its stretches' steps composed. -/
theorem runPart2 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt18 W x0 x1 x2 x3 x4 x5 x6 x7 x8 x9) : RunSt25 (after runP2 W) x0 x1 x2 x3 x4 x5 x6 x7 x8 x9 := by
  have e : after (runP2 : List (HloOp τ sig (Elt F))) W = (after runS25 (after runS24 (after runS23 (after runS22 (after runS21 (after runS20 (after runS19 W))))))) := by
    unfold runP2; simp only [run_after_append]
  rw [e]
  exact (runStep25 _ x0 x1 x2 x3 x4 x5 x6 x7 x8 x9 (runStep24 _ x0 x1 x2 x3 x4 x5 x6 x7 x8 x9 (runStep23 _ x0 x1 x2 x3 x4 x5 x6 x7 x8 x9 (runStep22 _ x0 x1 x2 x3 x4 x5 x6 x7 x8 x9 (runStep21 _ x0 x1 x2 x3 x4 x5 x6 x7 x8 x9 (runStep20 _ x0 x1 x2 x3 x4 x5 x6 x7 x8 x9 (runStep19 W x0 x1 x2 x3 x4 x5 x6 x7 x8 x9 h)))))))

end Cert.ReferenceIdeal.Hand
-- ==== Proof.RefRun.Step3.lean ====
/- The reference program's run over window 3 of @main (operations 185 … 244): stretch by stretch, the values the
   buffers hold afterwards from the values they held before. -/
import proofs.«405959_j54778012893400_3_alg».proof.Proof.RefRun.Stages
import proofs.«405959_j54778012893400_3_alg».proof.Proof.RefRun.Ops3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 1000000 in
/-- Operations 185 … 194: each buffer the stretch writes holds its operation's function of its operands' values, which
    is its `val_` by definition; every other buffer is as the stretch found it. -/
theorem runStep26 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt25 W x0 x1 x2 x3 x4 x5 x6 x7 x8 x9) : RunSt26 (after runS26 W) x0 x1 x2 x3 x4 x5 x6 x7 x8 x9 where
  main_arg0 := by unfold runS26; after_results_simp; exact h.main_arg0
  main_arg1 := by unfold runS26; after_results_simp; exact h.main_arg1
  main_arg2 := by unfold runS26; after_results_simp; exact h.main_arg2
  main_arg3 := by unfold runS26; after_results_simp; exact h.main_arg3
  main_arg4 := by unfold runS26; after_results_simp; exact h.main_arg4
  main_arg5 := by unfold runS26; after_results_simp; exact h.main_arg5
  main_arg6 := by unfold runS26; after_results_simp; exact h.main_arg6
  main_arg7 := by unfold runS26; after_results_simp; exact h.main_arg7
  main_arg8 := by unfold runS26; after_results_simp; exact h.main_arg8
  main_arg9 := by unfold runS26; after_results_simp; exact h.main_arg9
  main_v96 := by unfold runS26; after_results_simp; exact h.main_v96
  main_v97 := by unfold runS26; after_results_simp; exact h.main_v97
  main_v99 := by unfold runS26; after_results_simp; exact h.main_v99
  main_v135 := by unfold runS26; after_results_simp; exact h.main_v135
  main_v138 := by unfold runS26; after_results_simp; exact h.main_v138
  main_v145 := by unfold runS26; after_results_simp; exact h.main_v145
  main_v152 := by unfold runS26; after_results_simp; rewrite [h.main_v97, h.main_v147, h.main_v98, h.main_v148]; rfl
  main_v155 := by unfold runS26; after_results_simp; rewrite [h.main_v135, h.main_v145]; rfl
  main_v158 := by unfold runS26; after_results_simp; rewrite [h.main_v138, h.main_v97, h.main_v147, h.main_v98, h.main_v148]; rfl

set_option maxRecDepth 8192 in
set_option maxHeartbeats 1000000 in
/-- Operations 195 … 204: each buffer the stretch writes holds its operation's function of its operands' values, which
    is its `val_` by definition; every other buffer is as the stretch found it. -/
theorem runStep27 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt26 W x0 x1 x2 x3 x4 x5 x6 x7 x8 x9) : RunSt27 (after runS27 W) x0 x1 x2 x3 x4 x5 x6 x7 x8 x9 where
  main_arg0 := by unfold runS27; after_results_simp; exact h.main_arg0
  main_arg1 := by unfold runS27; after_results_simp; exact h.main_arg1
  main_arg2 := by unfold runS27; after_results_simp; exact h.main_arg2
  main_arg3 := by unfold runS27; after_results_simp; exact h.main_arg3
  main_arg4 := by unfold runS27; after_results_simp; exact h.main_arg4
  main_arg5 := by unfold runS27; after_results_simp; exact h.main_arg5
  main_arg6 := by unfold runS27; after_results_simp; exact h.main_arg6
  main_arg7 := by unfold runS27; after_results_simp; exact h.main_arg7
  main_arg8 := by unfold runS27; after_results_simp; exact h.main_arg8
  main_arg9 := by unfold runS27; after_results_simp; exact h.main_arg9
  main_v96 := by unfold runS27; after_results_simp; exact h.main_v96
  main_v97 := by unfold runS27; after_results_simp; exact h.main_v97
  main_v99 := by unfold runS27; after_results_simp; exact h.main_v99
  main_v145 := by unfold runS27; after_results_simp; exact h.main_v145
  main_v162 := by unfold runS27; after_results_simp; rewrite [h.main_v99, h.main_v155, h.main_v158]; rfl
  main_v165 := by unfold runS27; after_results_simp; rewrite [h.main_v135, h.main_v152]; rfl
  main_v167 := by unfold runS27; after_results_simp; rewrite [h.main_v138]; rfl

set_option maxRecDepth 8192 in
set_option maxHeartbeats 1000000 in
/-- Operations 205 … 214: each buffer the stretch writes holds its operation's function of its operands' values, which
    is its `val_` by definition; every other buffer is as the stretch found it. -/
theorem runStep28 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt27 W x0 x1 x2 x3 x4 x5 x6 x7 x8 x9) : RunSt28 (after runS28 W) x0 x1 x2 x3 x4 x5 x6 x7 x8 x9 where
  main_arg0 := by unfold runS28; after_results_simp; exact h.main_arg0
  main_arg1 := by unfold runS28; after_results_simp; exact h.main_arg1
  main_arg2 := by unfold runS28; after_results_simp; exact h.main_arg2
  main_arg3 := by unfold runS28; after_results_simp; exact h.main_arg3
  main_arg4 := by unfold runS28; after_results_simp; exact h.main_arg4
  main_arg5 := by unfold runS28; after_results_simp; exact h.main_arg5
  main_arg6 := by unfold runS28; after_results_simp; exact h.main_arg6
  main_arg7 := by unfold runS28; after_results_simp; exact h.main_arg7
  main_arg8 := by unfold runS28; after_results_simp; exact h.main_arg8
  main_arg9 := by unfold runS28; after_results_simp; exact h.main_arg9
  main_v97 := by unfold runS28; after_results_simp; exact h.main_v97
  main_v162 := by unfold runS28; after_results_simp; exact h.main_v162
  main_v172 := by unfold runS28; after_results_simp; rewrite [h.main_v99, h.main_v165, h.main_v167, h.main_v145]; rfl
  main_v175 := by unfold runS28; after_results_simp; rewrite [h.main_v96, h.main_arg7]; rfl
  main_v176 := by unfold runS28; after_results_simp; rewrite [h.main_arg7]; rfl

set_option maxRecDepth 8192 in
set_option maxHeartbeats 1000000 in
/-- Operations 215 … 224: each buffer the stretch writes holds its operation's function of its operands' values, which
    is its `val_` by definition; every other buffer is as the stretch found it. -/
theorem runStep29 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt28 W x0 x1 x2 x3 x4 x5 x6 x7 x8 x9) : RunSt29 (after runS29 W) x0 x1 x2 x3 x4 x5 x6 x7 x8 x9 where
  main_arg0 := by unfold runS29; after_results_simp; exact h.main_arg0
  main_arg1 := by unfold runS29; after_results_simp; exact h.main_arg1
  main_arg2 := by unfold runS29; after_results_simp; exact h.main_arg2
  main_arg3 := by unfold runS29; after_results_simp; exact h.main_arg3
  main_arg4 := by unfold runS29; after_results_simp; exact h.main_arg4
  main_arg5 := by unfold runS29; after_results_simp; exact h.main_arg5
  main_arg6 := by unfold runS29; after_results_simp; exact h.main_arg6
  main_arg7 := by unfold runS29; after_results_simp; exact h.main_arg7
  main_arg8 := by unfold runS29; after_results_simp; exact h.main_arg8
  main_arg9 := by unfold runS29; after_results_simp; exact h.main_arg9
  main_v179 := by unfold runS29; after_results_simp; rewrite [h.main_v175, h.main_v162, h.main_v176]; rfl
  main_v186 := by unfold runS29; after_results_simp; rewrite [h.main_v97, h.main_arg7, h.main_v172]; rfl

set_option maxRecDepth 8192 in
set_option maxHeartbeats 1000000 in
/-- Operations 225 … 234: each buffer the stretch writes holds its operation's function of its operands' values, which
    is its `val_` by definition; every other buffer is as the stretch found it. -/
theorem runStep30 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt29 W x0 x1 x2 x3 x4 x5 x6 x7 x8 x9) : RunSt30 (after runS30 W) x0 x1 x2 x3 x4 x5 x6 x7 x8 x9 where
  main_arg0 := by unfold runS30; after_results_simp; exact h.main_arg0
  main_arg1 := by unfold runS30; after_results_simp; exact h.main_arg1
  main_arg2 := by unfold runS30; after_results_simp; exact h.main_arg2
  main_arg3 := by unfold runS30; after_results_simp; exact h.main_arg3
  main_arg4 := by unfold runS30; after_results_simp; exact h.main_arg4
  main_arg5 := by unfold runS30; after_results_simp; exact h.main_arg5
  main_arg6 := by unfold runS30; after_results_simp; exact h.main_arg6
  main_arg7 := by unfold runS30; after_results_simp; exact h.main_arg7
  main_arg8 := by unfold runS30; after_results_simp; exact h.main_arg8
  main_arg9 := by unfold runS30; after_results_simp; exact h.main_arg9
  main_v190 := by unfold runS30; after_results_simp; rewrite [h.main_v179]; rfl
  main_v191 := by unfold runS30; after_results_simp; rewrite [h.main_v186, h.main_v179]; rfl
  main_v193 := by unfold runS30; after_results_simp; rewrite [h.main_arg3]; rfl
  main_v195 := by unfold runS30; after_results_simp; rewrite [h.main_arg3]; rfl

set_option maxRecDepth 8192 in
set_option maxHeartbeats 1000000 in
/-- Operations 235 … 244: each buffer the stretch writes holds its operation's function of its operands' values, which
    is its `val_` by definition; every other buffer is as the stretch found it. -/
theorem runStep31 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt30 W x0 x1 x2 x3 x4 x5 x6 x7 x8 x9) : RunSt31 (after runS31 W) x0 x1 x2 x3 x4 x5 x6 x7 x8 x9 where
  main_arg0 := by unfold runS31; after_results_simp; exact h.main_arg0
  main_arg1 := by unfold runS31; after_results_simp; exact h.main_arg1
  main_arg2 := by unfold runS31; after_results_simp; exact h.main_arg2
  main_arg3 := by unfold runS31; after_results_simp; exact h.main_arg3
  main_arg4 := by unfold runS31; after_results_simp; exact h.main_arg4
  main_arg5 := by unfold runS31; after_results_simp; exact h.main_arg5
  main_arg6 := by unfold runS31; after_results_simp; exact h.main_arg6
  main_arg7 := by unfold runS31; after_results_simp; exact h.main_arg7
  main_arg8 := by unfold runS31; after_results_simp; exact h.main_arg8
  main_arg9 := by unfold runS31; after_results_simp; exact h.main_arg9
  main_v190 := by unfold runS31; after_results_simp; exact h.main_v190
  main_v191 := by unfold runS31; after_results_simp; exact h.main_v191
  main_v193 := by unfold runS31; after_results_simp; exact h.main_v193
  main_v195 := by unfold runS31; after_results_simp; exact h.main_v195
  main_v198 := by unfold runS31; after_results_simp; rewrite [h.main_v193, h.main_v195]; rfl
  main_v200 := by unfold runS31; after_results_simp; rewrite [h.main_v193, h.main_v195]; rfl
  main_v202 := by unfold runS31; after_results_simp; rewrite [h.main_v193, h.main_v195]; rfl

/-- Window 3 as a whole: its stretches' steps composed. -/
theorem runPart3 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt25 W x0 x1 x2 x3 x4 x5 x6 x7 x8 x9) : RunSt31 (after runP3 W) x0 x1 x2 x3 x4 x5 x6 x7 x8 x9 := by
  have e : after (runP3 : List (HloOp τ sig (Elt F))) W = (after runS31 (after runS30 (after runS29 (after runS28 (after runS27 (after runS26 W)))))) := by
    unfold runP3; simp only [run_after_append]
  rw [e]
  exact (runStep31 _ x0 x1 x2 x3 x4 x5 x6 x7 x8 x9 (runStep30 _ x0 x1 x2 x3 x4 x5 x6 x7 x8 x9 (runStep29 _ x0 x1 x2 x3 x4 x5 x6 x7 x8 x9 (runStep28 _ x0 x1 x2 x3 x4 x5 x6 x7 x8 x9 (runStep27 _ x0 x1 x2 x3 x4 x5 x6 x7 x8 x9 (runStep26 W x0 x1 x2 x3 x4 x5 x6 x7 x8 x9 h))))))

end Cert.ReferenceIdeal.Hand
-- ==== Proof.RefRun.Step4.lean ====
/- The reference program's run over window 4 of @main (operations 245 … 303): stretch by stretch, the values the
   buffers hold afterwards from the values they held before. -/
import proofs.«405959_j54778012893400_3_alg».proof.Proof.RefRun.Stages
import proofs.«405959_j54778012893400_3_alg».proof.Proof.RefRun.Ops4

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 1000000 in
/-- Operations 245 … 254: each buffer the stretch writes holds its operation's function of its operands' values, which
    is its `val_` by definition; every other buffer is as the stretch found it. -/
theorem runStep32 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt31 W x0 x1 x2 x3 x4 x5 x6 x7 x8 x9) : RunSt32 (after runS32 W) x0 x1 x2 x3 x4 x5 x6 x7 x8 x9 where
  main_arg0 := by unfold runS32; after_results_simp; exact h.main_arg0
  main_arg1 := by unfold runS32; after_results_simp; exact h.main_arg1
  main_arg2 := by unfold runS32; after_results_simp; exact h.main_arg2
  main_arg3 := by unfold runS32; after_results_simp; exact h.main_arg3
  main_arg4 := by unfold runS32; after_results_simp; exact h.main_arg4
  main_arg5 := by unfold runS32; after_results_simp; exact h.main_arg5
  main_arg6 := by unfold runS32; after_results_simp; exact h.main_arg6
  main_arg7 := by unfold runS32; after_results_simp; exact h.main_arg7
  main_arg8 := by unfold runS32; after_results_simp; exact h.main_arg8
  main_arg9 := by unfold runS32; after_results_simp; exact h.main_arg9
  main_v190 := by unfold runS32; after_results_simp; exact h.main_v190
  main_v191 := by unfold runS32; after_results_simp; exact h.main_v191
  main_v193 := by unfold runS32; after_results_simp; exact h.main_v193
  main_v195 := by unfold runS32; after_results_simp; exact h.main_v195
  main_v205 := by unfold runS32; after_results_simp; rewrite [h.main_arg4, h.main_v200, h.main_v202, h.main_v198]; rfl
  main_v210 := by unfold runS32; after_results_simp; rewrite [h.main_v193]; rfl

set_option maxRecDepth 8192 in
set_option maxHeartbeats 1000000 in
/-- Operations 255 … 264: each buffer the stretch writes holds its operation's function of its operands' values, which
    is its `val_` by definition; every other buffer is as the stretch found it. -/
theorem runStep33 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt32 W x0 x1 x2 x3 x4 x5 x6 x7 x8 x9) : RunSt33 (after runS33 W) x0 x1 x2 x3 x4 x5 x6 x7 x8 x9 where
  main_arg0 := by unfold runS33; after_results_simp; exact h.main_arg0
  main_arg1 := by unfold runS33; after_results_simp; exact h.main_arg1
  main_arg2 := by unfold runS33; after_results_simp; exact h.main_arg2
  main_arg3 := by unfold runS33; after_results_simp; exact h.main_arg3
  main_arg4 := by unfold runS33; after_results_simp; exact h.main_arg4
  main_arg5 := by unfold runS33; after_results_simp; exact h.main_arg5
  main_arg6 := by unfold runS33; after_results_simp; exact h.main_arg6
  main_arg7 := by unfold runS33; after_results_simp; exact h.main_arg7
  main_arg8 := by unfold runS33; after_results_simp; exact h.main_arg8
  main_arg9 := by unfold runS33; after_results_simp; exact h.main_arg9
  main_v190 := by unfold runS33; after_results_simp; exact h.main_v190
  main_v191 := by unfold runS33; after_results_simp; exact h.main_v191
  main_v193 := by unfold runS33; after_results_simp; exact h.main_v193
  main_v195 := by unfold runS33; after_results_simp; exact h.main_v195
  main_v205 := by unfold runS33; after_results_simp; exact h.main_v205
  main_v212 := by unfold runS33; after_results_simp; rewrite [h.main_v190, h.main_v210]; rfl
  main_v218 := by unfold runS33; after_results_simp; rewrite [h.main_v195]; rfl

set_option maxRecDepth 8192 in
set_option maxHeartbeats 1000000 in
/-- Operations 265 … 274: each buffer the stretch writes holds its operation's function of its operands' values, which
    is its `val_` by definition; every other buffer is as the stretch found it. -/
theorem runStep34 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt33 W x0 x1 x2 x3 x4 x5 x6 x7 x8 x9) : RunSt34 (after runS34 W) x0 x1 x2 x3 x4 x5 x6 x7 x8 x9 where
  main_arg0 := by unfold runS34; after_results_simp; exact h.main_arg0
  main_arg1 := by unfold runS34; after_results_simp; exact h.main_arg1
  main_arg2 := by unfold runS34; after_results_simp; exact h.main_arg2
  main_arg3 := by unfold runS34; after_results_simp; exact h.main_arg3
  main_arg4 := by unfold runS34; after_results_simp; exact h.main_arg4
  main_arg5 := by unfold runS34; after_results_simp; exact h.main_arg5
  main_arg6 := by unfold runS34; after_results_simp; exact h.main_arg6
  main_arg7 := by unfold runS34; after_results_simp; exact h.main_arg7
  main_arg8 := by unfold runS34; after_results_simp; exact h.main_arg8
  main_arg9 := by unfold runS34; after_results_simp; exact h.main_arg9
  main_v191 := by unfold runS34; after_results_simp; exact h.main_v191
  main_v195 := by unfold runS34; after_results_simp; exact h.main_v195
  main_v205 := by unfold runS34; after_results_simp; exact h.main_v205
  main_v212 := by unfold runS34; after_results_simp; exact h.main_v212
  main_v219 := by unfold runS34; after_results_simp; rewrite [h.main_v190, h.main_v218]; rfl
  main_v226 := by unfold runS34; after_results_simp; rewrite [h.main_v191, h.main_v193]; rfl

set_option maxRecDepth 8192 in
set_option maxHeartbeats 1000000 in
/-- Operations 275 … 283: each buffer the stretch writes holds its operation's function of its operands' values, which
    is its `val_` by definition; every other buffer is as the stretch found it. -/
theorem runStep35 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt34 W x0 x1 x2 x3 x4 x5 x6 x7 x8 x9) : RunSt35 (after runS35 W) x0 x1 x2 x3 x4 x5 x6 x7 x8 x9 where
  main_arg0 := by unfold runS35; after_results_simp; exact h.main_arg0
  main_arg1 := by unfold runS35; after_results_simp; exact h.main_arg1
  main_arg2 := by unfold runS35; after_results_simp; exact h.main_arg2
  main_arg3 := by unfold runS35; after_results_simp; exact h.main_arg3
  main_arg4 := by unfold runS35; after_results_simp; exact h.main_arg4
  main_arg5 := by unfold runS35; after_results_simp; exact h.main_arg5
  main_arg6 := by unfold runS35; after_results_simp; exact h.main_arg6
  main_arg7 := by unfold runS35; after_results_simp; exact h.main_arg7
  main_arg8 := by unfold runS35; after_results_simp; exact h.main_arg8
  main_arg9 := by unfold runS35; after_results_simp; exact h.main_arg9
  main_v205 := by unfold runS35; after_results_simp; exact h.main_v205
  main_v212 := by unfold runS35; after_results_simp; exact h.main_v212
  main_v219 := by unfold runS35; after_results_simp; exact h.main_v219
  main_v226 := by unfold runS35; after_results_simp; exact h.main_v226
  main_v233 := by unfold runS35; after_results_simp; rewrite [h.main_v191, h.main_v195]; rfl

set_option maxRecDepth 8192 in
set_option maxHeartbeats 1000000 in
/-- Operations 284 … 293: each buffer the stretch writes holds its operation's function of its operands' values, which
    is its `val_` by definition; every other buffer is as the stretch found it. -/
theorem runStep36 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt35 W x0 x1 x2 x3 x4 x5 x6 x7 x8 x9) : RunSt36 (after runS36 W) x0 x1 x2 x3 x4 x5 x6 x7 x8 x9 where
  main_arg0 := by unfold runS36; after_results_simp; exact h.main_arg0
  main_arg1 := by unfold runS36; after_results_simp; exact h.main_arg1
  main_arg2 := by unfold runS36; after_results_simp; exact h.main_arg2
  main_arg3 := by unfold runS36; after_results_simp; exact h.main_arg3
  main_arg4 := by unfold runS36; after_results_simp; exact h.main_arg4
  main_arg5 := by unfold runS36; after_results_simp; exact h.main_arg5
  main_arg6 := by unfold runS36; after_results_simp; exact h.main_arg6
  main_arg7 := by unfold runS36; after_results_simp; exact h.main_arg7
  main_arg8 := by unfold runS36; after_results_simp; exact h.main_arg8
  main_arg9 := by unfold runS36; after_results_simp; exact h.main_arg9
  main_v238 := by unfold runS36; after_results_simp; (try simp only [TRef.ofBuf, TRef.toBuf, cast_eq]); have e0 : W (Proc.devRef .tc (![main_v212, main_v219, main_v226, main_v233, main_v205] 0)) = val_main_v212 (F := F) x0 x1 x2 x3 x5 x6 x7 := h.main_v212; have e1 : W (Proc.devRef .tc (![main_v212, main_v219, main_v226, main_v233, main_v205] 1)) = val_main_v219 (F := F) x0 x1 x2 x3 x5 x6 x7 := h.main_v219; have e2 : W (Proc.devRef .tc (![main_v212, main_v219, main_v226, main_v233, main_v205] 2)) = val_main_v226 (F := F) x0 x1 x2 x3 x5 x6 x7 := h.main_v226; have e3 : W (Proc.devRef .tc (![main_v212, main_v219, main_v226, main_v233, main_v205] 3)) = val_main_v233 (F := F) x0 x1 x2 x3 x5 x6 x7 := h.main_v233; have e4 : W (Proc.devRef .tc (![main_v212, main_v219, main_v226, main_v233, main_v205] 4)) = val_main_v205 (F := F) x3 x4 := h.main_v205; rewrite [e0, e1, e2, e3, e4, h.main_arg8, h.main_arg9]; rfl
  main_call2_v2 := by unfold runS36; after_results_simp; (try simp only [TRef.ofBuf, TRef.toBuf, cast_eq]); have e0 : W (Proc.devRef .tc (![main_v212, main_v219, main_v226, main_v233, main_v205] 0)) = val_main_v212 (F := F) x0 x1 x2 x3 x5 x6 x7 := h.main_v212; have e1 : W (Proc.devRef .tc (![main_v212, main_v219, main_v226, main_v233, main_v205] 1)) = val_main_v219 (F := F) x0 x1 x2 x3 x5 x6 x7 := h.main_v219; have e2 : W (Proc.devRef .tc (![main_v212, main_v219, main_v226, main_v233, main_v205] 2)) = val_main_v226 (F := F) x0 x1 x2 x3 x5 x6 x7 := h.main_v226; have e3 : W (Proc.devRef .tc (![main_v212, main_v219, main_v226, main_v233, main_v205] 3)) = val_main_v233 (F := F) x0 x1 x2 x3 x5 x6 x7 := h.main_v233; have e4 : W (Proc.devRef .tc (![main_v212, main_v219, main_v226, main_v233, main_v205] 4)) = val_main_v205 (F := F) x3 x4 := h.main_v205; rewrite [e0, e1, e2, e3, e4, h.main_arg8, h.main_arg9]; rfl

set_option maxRecDepth 8192 in
set_option maxHeartbeats 1000000 in
/-- Operations 294 … 303: each buffer the stretch writes holds its operation's function of its operands' values, which
    is its `val_` by definition; every other buffer is as the stretch found it. -/
theorem runStep37 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt36 W x0 x1 x2 x3 x4 x5 x6 x7 x8 x9) : RunSt37 (after runS37 W) x0 x1 x2 x3 x4 x5 x6 x7 x8 x9 where
  main_arg0 := by unfold runS37; after_results_simp; exact h.main_arg0
  main_arg1 := by unfold runS37; after_results_simp; exact h.main_arg1
  main_arg2 := by unfold runS37; after_results_simp; exact h.main_arg2
  main_arg3 := by unfold runS37; after_results_simp; exact h.main_arg3
  main_arg4 := by unfold runS37; after_results_simp; exact h.main_arg4
  main_arg5 := by unfold runS37; after_results_simp; exact h.main_arg5
  main_arg6 := by unfold runS37; after_results_simp; exact h.main_arg6
  main_arg7 := by unfold runS37; after_results_simp; exact h.main_arg7
  main_arg8 := by unfold runS37; after_results_simp; exact h.main_arg8
  main_arg9 := by unfold runS37; after_results_simp; exact h.main_arg9
  main_v239 := by unfold runS37; after_results_simp; (try simp only [TRef.ofBuf, TRef.toBuf, cast_eq]); rewrite [h.main_v238, h.main_call2_v2]; rfl

/-- Window 4 as a whole: its stretches' steps composed. -/
theorem runPart4 (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunSt31 W x0 x1 x2 x3 x4 x5 x6 x7 x8 x9) : RunSt37 (after runP4 W) x0 x1 x2 x3 x4 x5 x6 x7 x8 x9 := by
  have e : after (runP4 : List (HloOp τ sig (Elt F))) W = (after runS37 (after runS36 (after runS35 (after runS34 (after runS33 (after runS32 W)))))) := by
    unfold runP4; simp only [run_after_append]
  rw [e]
  exact (runStep37 _ x0 x1 x2 x3 x4 x5 x6 x7 x8 x9 (runStep36 _ x0 x1 x2 x3 x4 x5 x6 x7 x8 x9 (runStep35 _ x0 x1 x2 x3 x4 x5 x6 x7 x8 x9 (runStep34 _ x0 x1 x2 x3 x4 x5 x6 x7 x8 x9 (runStep33 _ x0 x1 x2 x3 x4 x5 x6 x7 x8 x9 (runStep32 W x0 x1 x2 x3 x4 x5 x6 x7 x8 x9 h))))))

end Cert.ReferenceIdeal.Hand
-- ==== Proof.RefRun.lean ====
/- The reference program's run: on every device, from any memory with zero counters, every weakly fair execution of
   @main terminates with the result buffer at its value as a function of the ten argument arrays' launch contents (the
   last operation's `val_`), and the argument arrays unchanged. @main is its five windows run in order; each window is
   a list of host operations; along the joined list the stages of RefRun/Stages hold one after the other. -/
import proofs.«405959_j54778012893400_3_alg».proof.Proof.RefRun.Step0
import proofs.«405959_j54778012893400_3_alg».proof.Proof.RefRun.Step1
import proofs.«405959_j54778012893400_3_alg».proof.Proof.RefRun.Step2
import proofs.«405959_j54778012893400_3_alg».proof.Proof.RefRun.Step3
import proofs.«405959_j54778012893400_3_alg».proof.Proof.RefRun.Step4

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 303 operations, in order: its five windows' lists joined. -/
abbrev runOps : List (HloOp τ sig (Elt F)) := runP0 ++ (runP1 ++ (runP2 ++ (runP3 ++ runP4)))

theorem runOps_sub : (runOps : List (HloOp τ sig (Elt F))).Forall fun op => op.bufs ⊆ tcRefs τ sig :=
  List.forall_append.2 ⟨runP0_sub, List.forall_append.2 ⟨runP1_sub, List.forall_append.2 ⟨runP2_sub, List.forall_append.2 ⟨runP3_sub, runP4_sub⟩⟩⟩⟩

theorem runOps_fresh : ∀ op ∈ (runOps : List (HloOp τ sig (Elt F))), op.fresh = ∅ :=
  List.forall_mem_append.2 ⟨runP0_fresh, List.forall_mem_append.2 ⟨runP1_fresh, List.forall_mem_append.2 ⟨runP2_fresh, List.forall_mem_append.2 ⟨runP3_fresh, runP4_fresh⟩⟩⟩⟩

/-- @main runs its windows in order, and each window is its list run as a line. -/
theorem run_main_eq (c : Dev nD) : main (F := F) c = seq runOps := by
  unfold runOps
  rw [seq_append runP0, seq_append runP1, seq_append runP2, seq_append runP3, ← main_part0_eq c, ← main_part1_eq c, ← main_part2_eq c, ← main_part3_eq c,
    ← main_part4_eq c]
  rfl

/-- From the launch to the end of @main: the windows' steps composed. -/
theorem runAll (W : Valuation τ sig (Elt F)) (x0 : (⟨S2000x512, .f32⟩ : BufTy).Contents (Elt F)) (x1 : (⟨S2000x512, .f32⟩ : BufTy).Contents (Elt F)) (x2 : (⟨S2x64000, .i32⟩ : BufTy).Contents (Elt F)) (x3 : (⟨S200000x2, .i32⟩ : BufTy).Contents (Elt F)) (x4 : (⟨S4000000x64, .f32⟩ : BufTy).Contents (Elt F)) (x5 : (⟨S64000, .f32⟩ : BufTy).Contents (Elt F)) (x6 : (⟨S2x512x64, .f32⟩ : BufTy).Contents (Elt F)) (x7 : (⟨S2x64x64, .f32⟩ : BufTy).Contents (Elt F)) (x8 : (⟨S320x2, .f32⟩ : BufTy).Contents (Elt F)) (x9 : (⟨S2, .f32⟩ : BufTy).Contents (Elt F))
    (h : RunStIn W x0 x1 x2 x3 x4 x5 x6 x7 x8 x9) : RunSt37 (after runOps W) x0 x1 x2 x3 x4 x5 x6 x7 x8 x9 := by
  have e : after (runOps : List (HloOp τ sig (Elt F))) W = after runP4 (after runP3 (after runP2 (after runP1 (after runP0 W)))) := by
    unfold runOps; simp only [run_after_append]
  rw [e]
  exact runPart4 _ x0 x1 x2 x3 x4 x5 x6 x7 x8 x9 (runPart3 _ x0 x1 x2 x3 x4 x5 x6 x7 x8 x9 (runPart2 _ x0 x1 x2 x3 x4 x5 x6 x7 x8 x9 (runPart1 _ x0 x1 x2 x3 x4 x5 x6 x7 x8 x9 (runPart0 W x0 x1 x2 x3 x4 x5 x6 x7 x8 x9 h))))

/-- On every device, for any float values, from any memory with zero counters: every weakly fair execution of @main
    terminates with the result at its value as a function of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v239) = Cert.ReferenceIdeal.ReadP.val_main_v239 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      have S := runAll (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ⟨rfl, rfl, rfl, rfl, rfl, rfl, rfl, rfl, rfl, rfl⟩
      exact ⟨(h c main_v239).trans S.main_v239, (h c main_arg0).trans S.main_arg0, (h c main_arg1).trans S.main_arg1, (h c main_arg2).trans S.main_arg2, (h c main_arg3).trans S.main_arg3, (h c main_arg4).trans S.main_arg4, (h c main_arg5).trans S.main_arg5, (h c main_arg6).trans S.main_arg6, (h c main_arg7).trans S.main_arg7, (h c main_arg8).trans S.main_arg8, (h c main_arg9).trans S.main_arg9⟩)
    (run_seq run_scopedRefs_eq run_scopedSems_eq defs main (fun _ => runOps) run_main_eq (fun _ => runOps_sub) m ρ (fun _ => runOps_fresh))

end Cert.ReferenceIdeal.Hand
-- ==== Proof.Bridge0.lean ====
/-
  The kernel program's result, read back through its twelve segments, is the reference's result stage.

  The argument arrays pass every host stretch and every region unchanged. The host stretches before the first region
  leave the dense edge-weight matrices and the bf16 copies of the features and weights; the first region's two output
  arrays are the reference's first-layer stages; the stretch after it hands them, cast, to the second region, whose
  outputs are the second-layer stages; the last stretch gathers the node tables and the embedding rows, and the last
  region's output is the reference's log-softmax of the logits.
-/
import proofs.«405959_j54778012893400_3_alg».proof.Proof.KI.Run
import proofs.«405959_j54778012893400_3_alg».proof.Proof.RefReadP

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-! ## The argument arrays at the boundaries the regions are entered and left at -/

theorem W6_arg (c : Dev nD) (a : Ref sig .tc) (ha : a ∈ argRefs) :
    W6 m ρ c (Proc.devRef .tc a) = m ((c : Thread nD τ).loc a) :=
  calc W6 m ρ c (Proc.devRef .tc a)
    _ = W5 m ρ c (Proc.devRef .tc a) := kept_main_part1_ops0 _ a ha
    _ = W4 m ρ c (Proc.devRef .tc a) := kept_main_part0_ops4 _ a ha
    _ = W3 m ρ c (Proc.devRef .tc a) := kept_main_part0_ops3 _ a ha
    _ = W2 m ρ c (Proc.devRef .tc a) := kept_main_part0_ops2 _ a ha
    _ = W1 m ρ c (Proc.devRef .tc a) := kept_main_part0_ops1 _ a ha
    _ = W0 m ρ c (Proc.devRef .tc a) := kept_main_part0_ops0 _ a ha
    _ = m ((c : Thread nD τ).loc a) := rfl

theorem W7_arg (c : Dev nD) (a : Ref sig .tc) (ha : a ∈ argRefs) (h0 : main_v86_0 ≠ a) (h0' : main_v86_1 ≠ a) :
    W7 m ρ c (Proc.devRef .tc a) = m ((c : Thread nD τ).loc a) :=
  (setTwo_of_ne c _ _ _ _ _ a h0 h0').trans (W6_arg m ρ c a ha)

theorem W8_arg (c : Dev nD) (a : Ref sig .tc) (ha : a ∈ argRefs) (h0 : main_v86_0 ≠ a) (h0' : main_v86_1 ≠ a) :
    W8 m ρ c (Proc.devRef .tc a) = m ((c : Thread nD τ).loc a) :=
  (kept_main_part1_ops1 _ a ha).trans (W7_arg m ρ c a ha h0 h0')

theorem W9_arg (c : Dev nD) (a : Ref sig .tc) (ha : a ∈ argRefs) (h0 : main_v86_0 ≠ a) (h0' : main_v86_1 ≠ a)
    (h1 : main_v95_0 ≠ a) (h1' : main_v95_1 ≠ a) :
    W9 m ρ c (Proc.devRef .tc a) = m ((c : Thread nD τ).loc a) :=
  (setTwo_of_ne c _ _ _ _ _ a h1 h1').trans (W8_arg m ρ c a ha h0 h0')

/-- The result buffer at the end of @main is the last region's output array after its write-backs. -/
theorem W12_out (c : Dev nD) :
    W12 m ρ c (Proc.devRef .tc main_v141) = (dat2 (V11 m ρ) c).arrAt 3 cfg2.N := W12_arr m ρ c 3

/-- The first region's output arrays as the later segments find them. -/
theorem W7_out0 (c : Dev nD) : W7 m ρ c (Proc.devRef .tc main_v86_0) = (dat0 (V6 m ρ) c).arrAt 8 cfg0.N :=
  setTwo_fst c (W6 m ρ c) main_v86_0 main_v86_1 _ _
theorem W7_out1 (c : Dev nD) : W7 m ρ c (Proc.devRef .tc main_v86_1) = (dat0 (V6 m ρ) c).arrAt 9 cfg0.N :=
  setTwo_snd c (W6 m ρ c) main_v86_0 main_v86_1 _ _ (by decide)
theorem W7_keep (c : Dev nD) (b : Ref sig .tc) (h0 : main_v86_0 ≠ b) (h0' : main_v86_1 ≠ b) :
    W7 m ρ c (Proc.devRef .tc b) = W6 m ρ c (Proc.devRef .tc b) := setTwo_of_ne c _ _ _ _ _ b h0 h0'
theorem W9_out0 (c : Dev nD) : W9 m ρ c (Proc.devRef .tc main_v95_0) = (dat1 (V8 m ρ) c).arrAt 8 cfg1.N :=
  setTwo_fst c (W8 m ρ c) main_v95_0 main_v95_1 _ _
theorem W9_out1 (c : Dev nD) : W9 m ρ c (Proc.devRef .tc main_v95_1) = (dat1 (V8 m ρ) c).arrAt 9 cfg1.N :=
  setTwo_snd c (W8 m ρ c) main_v95_0 main_v95_1 _ _ (by decide)

end Cert.KernelIdeal.Hand

end
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.PreFacts.lean ====
/-
  The precondition, decoded.

  The precondition is a conjunction of nine tests, each an "all" over one input array: for each of the eight
  floating-point inputs, that every entry `x` has `|x| < +∞`; and for the edge index, that every entry `w` has
  `0 ≤ w` and `w < 2000` as signed 32-bit comparisons. Over the extended reals `|x| = max x (-x)`, and
  `max x (-x) < ⊤` holds exactly when `x` is a real number (it fails at `⊥` and at `⊤`, where the maximum is `⊤`).
  A signed word with `0 ≤ w < 2000` has a signed value in `[0, 2000)`.
-/
import proofs.«405959_j54778012893400_3_alg».proof.Pre_finite_inputs
import Idealize.ShloMosaic.PureOps.Ideal
import Idealize.ShloMosaic.Lib.ReduceAll
import Idealize.ShloMosaic.Lib.StableHlo.Predicate
import Idealize.ShloMosaic.Lib.ValueIdx
import proofs.«405959_j54778012893400_3_alg».proof.Proof.LibIndexRange

set_option maxRecDepth 16384

noncomputable section

namespace Cert.PreFacts

open Idealize.ShloMosaic Idealize.ShloMosaic.ValueIdx Idealize.ShloMosaic.StableHlo.Predicate
open Cert.Pre_finite_inputs

/-- The rank-0 shape has one index. -/
instance subsingleton_scalar_idx : Subsingleton S_.Idx := ⟨fun a b => funext fun d => d.elim0⟩

/-! ## One entry -/

/-- The pattern `0x7F800000` denotes `+∞`. -/
theorem ofBits_inf : Ideal.ofBits .f32 0x7F800000#32 = (⊤ : EReal) := by
  simp [Ideal.ofBits, Ideal.ieee]

/-- An extended real whose absolute value `max x (-x)` is below `⊤` is a real number. -/
theorem real_of_abs_lt_top (x : EReal) (h : Ideal.cmp .olt (max x (-x)) ⊤ = 1#1) : ∃ r : ℝ, x = (r : EReal) := by
  unfold Ideal.cmp at h
  rw [ofBool_eq_one_iff] at h
  have hlt : max x (-x) < ⊤ := of_decide_eq_true h
  induction x using EReal.rec with
  | bot => simp at hlt
  | coe r => exact ⟨r, rfl⟩
  | top => simp at hlt

/-! ## One array -/

/-- "Every entry has `|x| < +∞`", as printed, gives: every entry is a real number. -/
theorem real_of_all {s : Shape} {axes : List (Fin s.rank)} (x : FVec Ideal s .f32)
    (bc : S_.BroadcastsInDim s (![] : Fin 0 → Fin s.rank)) (red : s.ReducesTo axes S_) (hS : 0 < S_.numel)
    (e : Host.reduce IntOp.andi
          (cmpf .olt (Host.absf x) (broadcastInDim s ![] bc (constant (F := Ideal) S_ .f32 0x7F800000#32)))
          (constantI S_ 1 1#1) red hS ix0 = 1#1)
    (i : s.Idx) : ∃ r : ℝ, x i = (r : EReal) := by
  have h1 := Host.reduce_andi_all _ _ red hS ix0 e i
  rw [cmpf_apply, bcast_scalar bc hS, constant_apply, ofBits_inf] at h1
  exact real_of_abs_lt_top (x i) h1

/-- "Every entry has `0 ≤ w` and `w < 2000`", as printed, gives: every entry's signed value is in `[0, 2000)`. -/
theorem range_of_all {s : Shape} {axes : List (Fin s.rank)} (x : IVec s 32)
    (bc : S_.BroadcastsInDim s (![] : Fin 0 → Fin s.rank)) (red : s.ReducesTo axes S_) (hS : 0 < S_.numel)
    (e : Host.reduce IntOp.andi
          (andi (cmpi .sge x (broadcastInDim s ![] bc (constantI S_ 32 0#32)))
                (cmpi .slt x (broadcastInDim s ![] bc (constantI S_ 32 2000#32))))
          (constantI S_ 1 1#1) red hS ix0 = 1#1)
    (i : s.Idx) : 0 ≤ (x i).toInt ∧ (x i).toInt < 2000 := by
  have h1 := Host.reduce_andi_all _ _ red hS ix0 e i
  obtain ⟨h0, h2⟩ := IntOp.andi_eq_one.1 h1
  have h0' : IntOp.cmpi .sge (x i) 0#32 = 1#1 := by
    have := h0
    unfold cmpi at this
    rw [bcast_scalar bc hS] at this
    exact this
  have h2' : IntOp.cmpi .slt (x i) (BitVec.ofNat 32 2000) = 1#1 := by
    have := h2
    unfold cmpi at this
    rw [bcast_scalar bc hS] at this
    exact this
  exact IndexRange.toInt_mem_of_cmpi 2000 (by decide) h0' h2'

/-- A conjunction of two scalar tests that is 1 has both tests 1. -/
theorem andi_scalar (a b : IVec S_ 1) (h : andi a b ix0 = 1#1) : a ix0 = 1#1 ∧ b ix0 = 1#1 :=
  IntOp.andi_eq_one.1 h

/-! ## The precondition -/

/-- If the precondition is all ones then the eight floating-point inputs hold real numbers only and every entry of
    the edge index, read signed, lies in `[0, 2000)`. -/
theorem facts_of_pre [Cert.Pre_finite_inputs.Facts]
    (x0 x1 : FVec Ideal S2000x512 .f32) (x2 : IVec S2x64000 32) (x3 : IVec S200000x2 32)
    (x4 : FVec Ideal S4000000x64 .f32) (x5 : FVec Ideal S64000 .f32) (x6 : FVec Ideal S2x512x64 .f32)
    (x7 : FVec Ideal S2x64x64 .f32) (x8 : FVec Ideal S320x2 .f32) (x9 : FVec Ideal S2 .f32)
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x4 i = (r : EReal))
      ∧ (∀ i, ∃ r : ℝ, x5 i = (r : EReal)) ∧ (∀ i, ∃ r : ℝ, x6 i = (r : EReal)) ∧ (∀ i, ∃ r : ℝ, x7 i = (r : EReal))
      ∧ (∀ i, ∃ r : ℝ, x8 i = (r : EReal)) ∧ (∀ i, ∃ r : ℝ, x9 i = (r : EReal))
      ∧ (∀ (a : Fin 2) (e : Fin 64000), 0 ≤ (x2 (ix2 a e)).toInt ∧ (x2 (ix2 a e)).toInt < 2000) := by
  have e := congrFun h ix0
  dsimp only [Cert.Pre_finite_inputs.fn, Cert.Pre_finite_inputs.fn_part1, Cert.Pre_finite_inputs.fn_part2] at e
  obtain ⟨e38, e44⟩ := andi_scalar _ _ e
  obtain ⟨e33, e37⟩ := andi_scalar _ _ e38
  obtain ⟨e28, e32⟩ := andi_scalar _ _ e33
  obtain ⟨e23, e27⟩ := andi_scalar _ _ e28
  obtain ⟨e18, e22⟩ := andi_scalar _ _ e23
  obtain ⟨e13, e17⟩ := andi_scalar _ _ e18
  obtain ⟨e8, e12⟩ := andi_scalar _ _ e13
  obtain ⟨e3, e7⟩ := andi_scalar _ _ e8
  exact ⟨real_of_all x0 _ _ _ e3, real_of_all x1 _ _ _ e7, real_of_all x4 _ _ _ e12, real_of_all x5 _ _ _ e17,
    real_of_all x6 _ _ _ e22, real_of_all x7 _ _ _ e27, real_of_all x8 _ _ _ e32, real_of_all x9 _ _ _ e37,
    fun a e' => range_of_all x2 _ _ _ e44 (ix2 a e')⟩

end Cert.PreFacts

end
-- ==== Proof.Spec.lean ====
/-
  The mathematics both programs compute, entry by entry, over the extended reals.

  A complex graph convolution layer maps node features `x + i·y` (2000 nodes, `D` features each) to
  `(x·W₀ + T·W₁)` gated by the sign of the real part, where `T = L̂·(x + i·y)` and `L̂` is the graph's complex
  operator given edge by edge: edge `e` has a target node, a source node and a complex weight `cr e + i·ci e`.
  The SPARSE reading sums, for each target node, the weighted source rows over the edges that end there; the DENSE
  reading first accumulates the edge weights into a 2000 × 2000 matrix and multiplies it by the feature matrix.
  The head adds a linear map of gathered node rows and of a gathered embedding row to a bias and takes the
  logarithm of the softmax over the two labels.
-/
import Idealize.ShloMosaic.PureOps.Ideal
import Mathlib.Data.EReal.Operations
import Mathlib.Algebra.BigOperators.Fin
import Mathlib.Data.Fintype.BigOperators

open scoped BigOperators

noncomputable section

namespace Spec

/-- The gate of the complex rectifier: `r` is kept where the real part `g` is non-negative and zeroed elsewhere. -/
def gate (r g : EReal) : EReal := r * (if 0 ≤ g then 1 else 0)

/-- The dense edge-weight matrix: the sum of the weights of the edges from source `s` to target `n`. -/
def adj {E : Type} [Fintype E] (dI sI : E → ℤ) (c : E → EReal) (n s : Fin 2000) : EReal :=
  0 + ∑ e : E, if dI e = (n.val : ℤ) ∧ sI e = (s.val : ℤ) then c e else 0

/-- The sparse aggregate at target `n`, feature `k`: over the edges ending at `n`, the edge's contribution `u e k`. -/
def seg {E : Type} [Fintype E] {D : ℕ} (dI : E → ℤ) (u : E → Fin D → EReal) (n : Fin 2000) (k : Fin D) : EReal :=
  0 + ∑ e : E, if dI e = (n.val : ℤ) then u e k else 0

/-- Real part of the layer before the gate, from the aggregate `t`. -/
def pre {D : ℕ} (x t : Fin 2000 → Fin D → EReal) (w0 w1 : Fin D → Fin 64 → EReal) (n : Fin 2000) (h : Fin 64) : EReal :=
  (∑ k : Fin D, x n k * w0 k h) + ∑ k : Fin D, t n k * w1 k h

/-- The dense aggregate, real part: `A·x − B·y`. -/
def denseRe {D : ℕ} (A B : Fin 2000 → Fin 2000 → EReal) (x y : Fin 2000 → Fin D → EReal) (n : Fin 2000) (k : Fin D) : EReal :=
  (∑ s : Fin 2000, A n s * x s k) - ∑ s : Fin 2000, B n s * y s k

/-- The dense aggregate, imaginary part: `A·y + B·x`. -/
def denseIm {D : ℕ} (A B : Fin 2000 → Fin 2000 → EReal) (x y : Fin 2000 → Fin D → EReal) (n : Fin 2000) (k : Fin D) : EReal :=
  (∑ s : Fin 2000, A n s * y s k) + ∑ s : Fin 2000, B n s * x s k

/-- The log-softmax of a row of two logits, entry `l`: shifted by the row's maximum, less the logarithm of the sum
    of the exponentials of the shifted row (`ex`, `lg` the exponential and logarithm on the extended reals). -/
def logSoftmax2 (ex lg : EReal → EReal) (z : Fin 2 → EReal) (l : Fin 2) : EReal :=
  (z l - max (z 0) (z 1)) - lg (ex (z 0 - max (z 0) (z 1)) + ex (z 1 - max (z 0) (z 1)))

/-! ## The edge weights -/

/-- Position `e` of the symmetrised edge list of 128000 entries: the first 64000 are the edges as given (row `a` of the
    edge index), the last 64000 the same edges with the other row. -/
def edgeEnd (ei : Fin 2 → Fin 64000 → BitVec 32) (a b : Fin 2) (e : Fin 128000) : BitVec 32 :=
  if h : e.val < 64000 then ei a ⟨e.val, h⟩ else ei b ⟨e.val - 64000, by have := e.isLt; omega⟩

/-- The symmetrised weight of position `e`: the edge's weight times `half`. -/
def ws (half : EReal) (ew : Fin 64000 → EReal) (e : Fin 128000) : EReal :=
  (if h : e.val < 64000 then ew ⟨e.val, h⟩ else ew ⟨e.val - 64000, by have := e.isLt; omega⟩) * half

/-- The phase of position `e`: `c` times the edge's weight, negated on the reversed half. -/
def theta (c : EReal) (ew : Fin 64000 → EReal) (e : Fin 128000) : EReal :=
  c * (if h : e.val < 64000 then ew ⟨e.val, h⟩ else -(ew ⟨e.val - 64000, by have := e.isLt; omega⟩))

/-- The absolute degree of node `j`: the sum of `|w|` over the positions whose target is `j`. -/
def deg (dI : Fin 128000 → ℤ) (w : Fin 128000 → EReal) (j : Fin 2000) : EReal :=
  0 + ∑ e : Fin 128000, if dI e = (j.val : ℤ) then max (w e) (-(w e)) else 0

/-- The inverse square root of a degree, zero where the degree is not positive: as one over the square root, -/
def dinvR (one zero d : EReal) : EReal :=
  if zero < d then Idealize.ShloMosaic.Ideal.div one (Idealize.ShloMosaic.Ideal.sqrt d) else zero

/-- and as the reciprocal square root of the degree made safe (`one` where it is not positive). -/
def dinvK (one zero d : EReal) : EReal :=
  if zero < d then Idealize.ShloMosaic.Ideal.rsqrt (if zero < d then d else one) else zero

/-- The normalised weight of position `e`. -/
def norm (w : Fin 128000 → EReal) (dinv : Fin 2000 → EReal) (gs gd : Fin 128000 → Fin 2000) (e : Fin 128000) : EReal :=
  w e * dinv (gs e) * dinv (gd e)

/-- The real and imaginary parts of the operator's entry contributed by position `e`. -/
def crOf (nrm th : Fin 128000 → EReal) (e : Fin 128000) : EReal := -(nrm e) * Idealize.ShloMosaic.Ideal.cos (th e)
def ciOf (nrm th : Fin 128000 → EReal) (e : Fin 128000) : EReal := -(nrm e) * Idealize.ShloMosaic.Ideal.sin (th e)

/-! ## The head -/

/-- The logits of a query from the concatenated row `f` (320 products) and the bias `b`, as the reference sums them. -/
def logitCat (f : Fin 320 → EReal) (b : EReal) : EReal := (∑ k : Fin 320, f k) + b

/-- The same logits as the kernel sums them: the embedding block, then the two node tables gathered, then the bias. -/
def logitSplit (f : Fin 320 → EReal) (b : EReal) : EReal :=
  (∑ k : Fin 64, f ⟨256 + k.val, by have := k.isLt; omega⟩)
    + ((((∑ k : Fin 64, f ⟨k.val, by have := k.isLt; omega⟩) + ∑ k : Fin 64, f ⟨128 + k.val, by have := k.isLt; omega⟩)
        + ((∑ k : Fin 64, f ⟨64 + k.val, by have := k.isLt; omega⟩) + ∑ k : Fin 64, f ⟨192 + k.val, by have := k.isLt; omega⟩))
      + b)

end Spec

end
-- ==== Proof.Layer2K.lean ====
/-
  Convolution layer 2, the kernel's side: what Pallas call 1 leaves in its two output arrays, entry by entry, over
  the extended reals, as a function of the contents of the arrays its windows read when the call is entered.

  Row `n`, column `h` of the first output is  gate(P n h, P n h)  and of the second  gate(Q n h, P n h),  where
  P = x·w₀ + (A·x − B·y)·w₁  and  Q = y·w₀ + (A·y + B·x)·w₁  (all sums exact: no rounding at the ideal instance),
  A, B the two 2000 × 2000 operator matrices, x, y the 2000 × 64 feature matrices, w₀, w₁ the 64 × 64 weights.
-/
import proofs.«405959_j54778012893400_3_alg».proof.Proof.KI.Region1
import proofs.«405959_j54778012893400_3_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.Layer2

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## The two matrix products of the body, at an entry -/

theorem mmA_lhs0 (i : S200x64.Idx) (q : dot_S200x2000_S2000x64_S200x64_1_0_0_1_n_n.contr.Idx) : (dot_S200x2000_S2000x64_S200x64_1_0_0_1_n_n.lhsIdx i q 0).val = (i 0).val := by
  unfold DotDims.lhsIdx
  rw [dif_neg (show ¬(0 : Fin S200x2000.rank) ∈ dot_S200x2000_S2000x64_S200x64_1_0_0_1_n_n.lhsBatch by decide), dif_pos (show (0 : Fin S200x2000.rank) ∈ dot_S200x2000_S2000x64_S200x64_1_0_0_1_n_n.lhsNonContracting by decide)]
  rfl
theorem mmA_lhs1 (i : S200x64.Idx) (q : dot_S200x2000_S2000x64_S200x64_1_0_0_1_n_n.contr.Idx) : (dot_S200x2000_S2000x64_S200x64_1_0_0_1_n_n.lhsIdx i q 1).val = (q ⟨0, by decide⟩).val :=
  dot_S200x2000_S2000x64_S200x64_1_0_0_1_n_n.lhsIdx_val_of_single rfl i q
theorem mmA_rhs0 (i : S200x64.Idx) (q : dot_S200x2000_S2000x64_S200x64_1_0_0_1_n_n.contr.Idx) : (dot_S200x2000_S2000x64_S200x64_1_0_0_1_n_n.rhsIdx i q 0).val = (q ⟨0, by decide⟩).val :=
  dot_S200x2000_S2000x64_S200x64_1_0_0_1_n_n.rhsIdx_val_of_single rfl i q
theorem mmA_rhs1 (i : S200x64.Idx) (q : dot_S200x2000_S2000x64_S200x64_1_0_0_1_n_n.contr.Idx) : (dot_S200x2000_S2000x64_S200x64_1_0_0_1_n_n.rhsIdx i q 1).val = (i 1).val := by
  unfold DotDims.rhsIdx
  rw [dif_neg (show ¬(1 : Fin S2000x64.rank) ∈ dot_S200x2000_S2000x64_S200x64_1_0_0_1_n_n.rhsBatch by decide), dif_pos (show (1 : Fin S2000x64.rank) ∈ dot_S200x2000_S2000x64_S200x64_1_0_0_1_n_n.rhsNonContracting by decide)]
  rfl

/-- The product of a [200, 2000] block and a [2000, 64] matrix, accumulated into zero, at row `p`, column `q`: the sum
    over the 2000 inner positions of the products. -/
theorem mmA_apply {φ₁ φ₂ : FTy} (lhs : FVec Ideal S200x2000 φ₁) (rhs : FVec Ideal S2000x64 φ₂) (p : Fin 200) (q : Fin 64) :
    matmul dot_S200x2000_S2000x64_S200x64_1_0_0_1_n_n none lhs rhs (constant S200x64 .f32 0x00000000#32) (ix2 p q)
      = ∑ s : Fin 2000, lhs (ix2 p s) * rhs (ix2 s q) := by
  simp only [matmul]
  rw [Ideal.matmul_constant_zero_apply, ← Equiv.sum_comp (ValueIdx.contrEquiv1 dot_S200x2000_S2000x64_S200x64_1_0_0_1_n_n 2000 rfl rfl).symm]
  refine Finset.sum_congr rfl fun k _ => ?_
  have hk := ValueIdx.contrEquiv1_symm_val dot_S200x2000_S2000x64_S200x64_1_0_0_1_n_n 2000 rfl rfl k
  have el : dot_S200x2000_S2000x64_S200x64_1_0_0_1_n_n.lhsIdx (ix2 p q) ((ValueIdx.contrEquiv1 dot_S200x2000_S2000x64_S200x64_1_0_0_1_n_n 2000 rfl rfl).symm k) = ix2 p k := funext fun a => Fin.ext (by
    match a with
    | ⟨0, _⟩ => exact mmA_lhs0 _ _
    | ⟨1, _⟩ => exact (mmA_lhs1 _ _).trans hk)
  have er : dot_S200x2000_S2000x64_S200x64_1_0_0_1_n_n.rhsIdx (ix2 p q) ((ValueIdx.contrEquiv1 dot_S200x2000_S2000x64_S200x64_1_0_0_1_n_n 2000 rfl rfl).symm k) = ix2 k q := funext fun a => Fin.ext (by
    match a with
    | ⟨0, _⟩ => exact (mmA_rhs0 _ _).trans hk
    | ⟨1, _⟩ => exact mmA_rhs1 _ _)
  rw [el, er]

theorem mmW_lhs0 (i : S200x64.Idx) (q : dot_S200x64_S64x64_S200x64_1_0_0_1_n_n.contr.Idx) : (dot_S200x64_S64x64_S200x64_1_0_0_1_n_n.lhsIdx i q 0).val = (i 0).val := by
  unfold DotDims.lhsIdx
  rw [dif_neg (show ¬(0 : Fin S200x64.rank) ∈ dot_S200x64_S64x64_S200x64_1_0_0_1_n_n.lhsBatch by decide), dif_pos (show (0 : Fin S200x64.rank) ∈ dot_S200x64_S64x64_S200x64_1_0_0_1_n_n.lhsNonContracting by decide)]
  rfl
theorem mmW_lhs1 (i : S200x64.Idx) (q : dot_S200x64_S64x64_S200x64_1_0_0_1_n_n.contr.Idx) : (dot_S200x64_S64x64_S200x64_1_0_0_1_n_n.lhsIdx i q 1).val = (q ⟨0, by decide⟩).val :=
  dot_S200x64_S64x64_S200x64_1_0_0_1_n_n.lhsIdx_val_of_single rfl i q
theorem mmW_rhs0 (i : S200x64.Idx) (q : dot_S200x64_S64x64_S200x64_1_0_0_1_n_n.contr.Idx) : (dot_S200x64_S64x64_S200x64_1_0_0_1_n_n.rhsIdx i q 0).val = (q ⟨0, by decide⟩).val :=
  dot_S200x64_S64x64_S200x64_1_0_0_1_n_n.rhsIdx_val_of_single rfl i q
theorem mmW_rhs1 (i : S200x64.Idx) (q : dot_S200x64_S64x64_S200x64_1_0_0_1_n_n.contr.Idx) : (dot_S200x64_S64x64_S200x64_1_0_0_1_n_n.rhsIdx i q 1).val = (i 1).val := by
  unfold DotDims.rhsIdx
  rw [dif_neg (show ¬(1 : Fin S64x64.rank) ∈ dot_S200x64_S64x64_S200x64_1_0_0_1_n_n.rhsBatch by decide), dif_pos (show (1 : Fin S64x64.rank) ∈ dot_S200x64_S64x64_S200x64_1_0_0_1_n_n.rhsNonContracting by decide)]
  rfl

/-- The product of a [200, 64] block and a [64, 64] matrix, accumulated into zero, at row `p`, column `q`: the sum
    over the 64 inner positions of the products. -/
theorem mmW_apply {φ₁ φ₂ : FTy} (lhs : FVec Ideal S200x64 φ₁) (rhs : FVec Ideal S64x64 φ₂) (p : Fin 200) (q : Fin 64) :
    matmul dot_S200x64_S64x64_S200x64_1_0_0_1_n_n none lhs rhs (constant S200x64 .f32 0x00000000#32) (ix2 p q)
      = ∑ s : Fin 64, lhs (ix2 p s) * rhs (ix2 s q) := by
  simp only [matmul]
  rw [Ideal.matmul_constant_zero_apply, ← Equiv.sum_comp (ValueIdx.contrEquiv1 dot_S200x64_S64x64_S200x64_1_0_0_1_n_n 64 rfl rfl).symm]
  refine Finset.sum_congr rfl fun k _ => ?_
  have hk := ValueIdx.contrEquiv1_symm_val dot_S200x64_S64x64_S200x64_1_0_0_1_n_n 64 rfl rfl k
  have el : dot_S200x64_S64x64_S200x64_1_0_0_1_n_n.lhsIdx (ix2 p q) ((ValueIdx.contrEquiv1 dot_S200x64_S64x64_S200x64_1_0_0_1_n_n 64 rfl rfl).symm k) = ix2 p k := funext fun a => Fin.ext (by
    match a with
    | ⟨0, _⟩ => exact mmW_lhs0 _ _
    | ⟨1, _⟩ => exact (mmW_lhs1 _ _).trans hk)
  have er : dot_S200x64_S64x64_S200x64_1_0_0_1_n_n.rhsIdx (ix2 p q) ((ValueIdx.contrEquiv1 dot_S200x64_S64x64_S200x64_1_0_0_1_n_n 64 rfl rfl).symm k) = ix2 k q := funext fun a => Fin.ext (by
    match a with
    | ⟨0, _⟩ => exact (mmW_rhs0 _ _).trans hk
    | ⟨1, _⟩ => exact mmW_rhs1 _ _)
  rw [el, er]

/-! ## The body's payloads, at an entry -/

/-- The real part before the gate, at row `p` of the tile and column `q`. -/
def tileRe (a b : Vec Ideal S200x2000 .bf16) (x y : Vec Ideal S2000x64 .bf16) (xt : Vec Ideal S200x64 .bf16)
    (w0 w1 : Vec Ideal S64x64 .bf16) (p : Fin 200) (q : Fin 64) : EReal :=
  (∑ k : Fin 64, xt (ix2 p k) * w0 (ix2 k q))
    + ∑ k : Fin 64, ((∑ s : Fin 2000, a (ix2 p s) * x (ix2 s k)) - ∑ s : Fin 2000, b (ix2 p s) * y (ix2 s k)) * w1 (ix2 k q)

/-- The imaginary part before the gate. -/
def tileIm (a b : Vec Ideal S200x2000 .bf16) (x y : Vec Ideal S2000x64 .bf16) (yt : Vec Ideal S200x64 .bf16)
    (w0 w1 : Vec Ideal S64x64 .bf16) (p : Fin 200) (q : Fin 64) : EReal :=
  (∑ k : Fin 64, yt (ix2 p k) * w0 (ix2 k q))
    + ∑ k : Fin 64, ((∑ s : Fin 2000, a (ix2 p s) * y (ix2 s k)) + ∑ s : Fin 2000, b (ix2 p s) * x (ix2 s k)) * w1 (ix2 k q)

theorem pay9_apply (a b : Vec Ideal S200x2000 .bf16) (x y : Vec Ideal S2000x64 .bf16) (xt : Vec Ideal S200x64 .bf16)
    (w0 w1 : Vec Ideal S64x64 .bf16) (p : Fin 200) (q : Fin 64) :
    k1_pay9 (F := Ideal) a b x y xt w0 w1 (ix2 p q) = tileRe a b x y xt w0 w1 p q := by
  unfold k1_pay9 k1_pay3 k1_pay4 k1_pay5 k1_pay6 k1_pay7 k1_pay8 tileRe
  simp only [shapeCast_self]
  rw [addf_apply, mmW_apply, mmW_apply]
  refine congrArg _ (Finset.sum_congr rfl fun k _ => ?_)
  rw [truncf_apply, subf_apply, mmA_apply, mmA_apply]

theorem pay10_apply (a b : Vec Ideal S200x2000 .bf16) (x y : Vec Ideal S2000x64 .bf16) (yt : Vec Ideal S200x64 .bf16)
    (w0 w1 : Vec Ideal S64x64 .bf16) (p : Fin 200) (q : Fin 64) :
    k1_pay10 (F := Ideal) a b x y yt w0 w1 (ix2 p q) = tileIm a b x y yt w0 w1 p q := by
  unfold k1_pay10 k1_pay3 k1_pay4 k1_pay5 k1_pay6 k1_pay7 k1_pay8 tileIm
  simp only [shapeCast_self]
  rw [addf_apply, mmW_apply, mmW_apply]
  refine congrArg _ (Finset.sum_congr rfl fun k _ => ?_)
  rw [truncf_apply, addf_apply, mmA_apply, mmA_apply]

theorem pay1_apply (u v : FVec Ideal S200x64 .f32) (i : S200x64.Idx) : k1_pay1 (F := Ideal) u v i = u i * v i := rfl
theorem pay2_apply (u v : FVec Ideal S200x64 .f32) (i : S200x64.Idx) : k1_pay2 (F := Ideal) u v i = u i * v i := rfl

/-- The mask: 1 where the real part is non-negative, 0 elsewhere. -/
theorem pay11_apply (a b : Vec Ideal S200x2000 .bf16) (x y : Vec Ideal S2000x64 .bf16) (xt : Vec Ideal S200x64 .bf16)
    (w0 w1 : Vec Ideal S64x64 .bf16) (p : Fin 200) (q : Fin 64) :
    k1_pay11 (F := Ideal) a b x y xt w0 w1 (ix2 p q) = if 0 ≤ tileRe a b x y xt w0 w1 p q then 1 else 0 := by
  unfold k1_pay11
  rw [sitofp_apply, extui_apply, cmpf_apply, broadcast_apply, pay9_apply]
  show (((BitVec.setWidth 32 (Ideal.cmp .oge (tileRe a b x y xt w0 w1 p q) (Ideal.ofBits .f32 0x00000000#32))).toInt : ℝ) : EReal) = _
  rw [Ideal.ofBits_zero_f32]
  unfold Ideal.cmp
  by_cases h : (0 : EReal) ≤ tileRe a b x y xt w0 w1 p q
  · rw [if_pos h]; simp only [h, decide_true]
    have e : (BitVec.setWidth 32 (BitVec.ofBool true)).toInt = 1 := by decide
    rw [e]; simp
  · rw [if_neg h]; simp only [h, decide_false]
    have e : (BitVec.setWidth 32 (BitVec.ofBool false)).toInt = 0 := by decide
    rw [e]; simp

/-! ## The windows' blocks, at an entry -/

theorem hz : (![0, 0] : Fin 2 → Nat) = fun _ => 0 := funext fun a => by fin_cases a <;> rfl

/-- The printed index maps over the grid of 10 row tiles: the two operator tiles, the two feature tiles and the two
    outputs are at row block `t`; the full feature matrices and the weights are at block 0 throughout. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0
    ∧ win1_5.index t (0 : Fin 2) = t.val
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0
    ∧ win1_9.index t (0 : Fin 2) = t.val
    ∧ win1_9.index t (1 : Fin 2) = 0 :=
  (by decide +kernel : ∀ t : Fin grid1.N, _)

/-- Window 0's block at point `t`, at row `p` and column `q` of the block: the array's entry at row `200·t + p`. -/
theorem blk0_apply (V : (c : Dev nD) → (b : Ref sig .tc) → Buf (Elt Ideal) ((c : Thread nD τ).loc b)) (c : Dev nD) (t : Fin cfg1.N) (p : Fin 200) (q : Fin 2000) :
    (iblk1 (F := Ideal) V c 0 t : Vec Ideal S200x2000 .bf16) (ix2 p q) = (V c main_v76 : S2000x2000.Idx → EReal) (ix2 ⟨t.val * 200 + p.val, by have := p.isLt; have := t.isLt; have hN : cfg1.N = 10 := N_1; omega⟩ q) := by
  obtain ⟨e00, e01, e10, e11, e20, e21, e30, e31, e40, e41, e50, e51, e60, e61, e70, e71, e80, e81, e90, e91⟩ := idx_facts t
  unfold iblk1
  rw [View.read_apply]
  show V c main_v76 _ = V c main_v76 _
  congr 1
  funext a
  apply Fin.ext
  match a with
  | ⟨0, _⟩ => show win1_0.index t (0 : Fin 2) * 200 + 1 * p.val = t.val * 200 + p.val; rw [e00]; omega
  | ⟨1, _⟩ => show win1_0.index t (1 : Fin 2) * 2000 + 1 * q.val = q.val; rw [e01]; omega

/-- Window 1's block at point `t`, at row `p` and column `q` of the block: the array's entry at row `200·t + p`. -/
theorem blk1_apply (V : (c : Dev nD) → (b : Ref sig .tc) → Buf (Elt Ideal) ((c : Thread nD τ).loc b)) (c : Dev nD) (t : Fin cfg1.N) (p : Fin 200) (q : Fin 2000) :
    (iblk1 (F := Ideal) V c 1 t : Vec Ideal S200x2000 .bf16) (ix2 p q) = (V c main_v77 : S2000x2000.Idx → EReal) (ix2 ⟨t.val * 200 + p.val, by have := p.isLt; have := t.isLt; have hN : cfg1.N = 10 := N_1; omega⟩ q) := by
  obtain ⟨e00, e01, e10, e11, e20, e21, e30, e31, e40, e41, e50, e51, e60, e61, e70, e71, e80, e81, e90, e91⟩ := idx_facts t
  unfold iblk1
  rw [View.read_apply]
  show V c main_v77 _ = V c main_v77 _
  congr 1
  funext a
  apply Fin.ext
  match a with
  | ⟨0, _⟩ => show win1_1.index t (0 : Fin 2) * 200 + 1 * p.val = t.val * 200 + p.val; rw [e10]; omega
  | ⟨1, _⟩ => show win1_1.index t (1 : Fin 2) * 2000 + 1 * q.val = q.val; rw [e11]; omega

/-- Window 2's block at point `t`, at row `p` and column `q` of the block: the array's entry there (the block is the whole array). -/
theorem blk2_apply (V : (c : Dev nD) → (b : Ref sig .tc) → Buf (Elt Ideal) ((c : Thread nD τ).loc b)) (c : Dev nD) (t : Fin cfg1.N) (p : Fin 2000) (q : Fin 64) :
    (iblk1 (F := Ideal) V c 2 t : Vec Ideal S2000x64 .bf16) (ix2 p q) = (V c main_v87 : S2000x64.Idx → EReal) (ix2 p q) := by
  obtain ⟨e00, e01, e10, e11, e20, e21, e30, e31, e40, e41, e50, e51, e60, e61, e70, e71, e80, e81, e90, e91⟩ := idx_facts t
  unfold iblk1
  rw [View.read_apply]
  show V c main_v87 _ = V c main_v87 _
  congr 1
  funext a
  apply Fin.ext
  match a with
  | ⟨0, _⟩ => show win1_2.index t (0 : Fin 2) * 2000 + 1 * p.val = p.val; rw [e20]; omega
  | ⟨1, _⟩ => show win1_2.index t (1 : Fin 2) * 64 + 1 * q.val = q.val; rw [e21]; omega

/-- Window 3's block at point `t`, at row `p` and column `q` of the block: the array's entry there (the block is the whole array). -/
theorem blk3_apply (V : (c : Dev nD) → (b : Ref sig .tc) → Buf (Elt Ideal) ((c : Thread nD τ).loc b)) (c : Dev nD) (t : Fin cfg1.N) (p : Fin 2000) (q : Fin 64) :
    (iblk1 (F := Ideal) V c 3 t : Vec Ideal S2000x64 .bf16) (ix2 p q) = (V c main_v88 : S2000x64.Idx → EReal) (ix2 p q) := by
  obtain ⟨e00, e01, e10, e11, e20, e21, e30, e31, e40, e41, e50, e51, e60, e61, e70, e71, e80, e81, e90, e91⟩ := idx_facts t
  unfold iblk1
  rw [View.read_apply]
  show V c main_v88 _ = V c main_v88 _
  congr 1
  funext a
  apply Fin.ext
  match a with
  | ⟨0, _⟩ => show win1_3.index t (0 : Fin 2) * 2000 + 1 * p.val = p.val; rw [e30]; omega
  | ⟨1, _⟩ => show win1_3.index t (1 : Fin 2) * 64 + 1 * q.val = q.val; rw [e31]; omega

/-- Window 4's block at point `t`, at row `p` and column `q` of the block: the array's entry at row `200·t + p`. -/
theorem blk4_apply (V : (c : Dev nD) → (b : Ref sig .tc) → Buf (Elt Ideal) ((c : Thread nD τ).loc b)) (c : Dev nD) (t : Fin cfg1.N) (p : Fin 200) (q : Fin 64) :
    (iblk1 (F := Ideal) V c 4 t : Vec Ideal S200x64 .bf16) (ix2 p q) = (V c main_v87 : S2000x64.Idx → EReal) (ix2 ⟨t.val * 200 + p.val, by have := p.isLt; have := t.isLt; have hN : cfg1.N = 10 := N_1; omega⟩ q) := by
  obtain ⟨e00, e01, e10, e11, e20, e21, e30, e31, e40, e41, e50, e51, e60, e61, e70, e71, e80, e81, e90, e91⟩ := idx_facts t
  unfold iblk1
  rw [View.read_apply]
  show V c main_v87 _ = V c main_v87 _
  congr 1
  funext a
  apply Fin.ext
  match a with
  | ⟨0, _⟩ => show win1_4.index t (0 : Fin 2) * 200 + 1 * p.val = t.val * 200 + p.val; rw [e40]; omega
  | ⟨1, _⟩ => show win1_4.index t (1 : Fin 2) * 64 + 1 * q.val = q.val; rw [e41]; omega

/-- Window 5's block at point `t`, at row `p` and column `q` of the block: the array's entry at row `200·t + p`. -/
theorem blk5_apply (V : (c : Dev nD) → (b : Ref sig .tc) → Buf (Elt Ideal) ((c : Thread nD τ).loc b)) (c : Dev nD) (t : Fin cfg1.N) (p : Fin 200) (q : Fin 64) :
    (iblk1 (F := Ideal) V c 5 t : Vec Ideal S200x64 .bf16) (ix2 p q) = (V c main_v88 : S2000x64.Idx → EReal) (ix2 ⟨t.val * 200 + p.val, by have := p.isLt; have := t.isLt; have hN : cfg1.N = 10 := N_1; omega⟩ q) := by
  obtain ⟨e00, e01, e10, e11, e20, e21, e30, e31, e40, e41, e50, e51, e60, e61, e70, e71, e80, e81, e90, e91⟩ := idx_facts t
  unfold iblk1
  rw [View.read_apply]
  show V c main_v88 _ = V c main_v88 _
  congr 1
  funext a
  apply Fin.ext
  match a with
  | ⟨0, _⟩ => show win1_5.index t (0 : Fin 2) * 200 + 1 * p.val = t.val * 200 + p.val; rw [e50]; omega
  | ⟨1, _⟩ => show win1_5.index t (1 : Fin 2) * 64 + 1 * q.val = q.val; rw [e51]; omega

/-- Window 6's block at point `t`, at row `p` and column `q` of the block: the array's entry there (the block is the whole array). -/
theorem blk6_apply (V : (c : Dev nD) → (b : Ref sig .tc) → Buf (Elt Ideal) ((c : Thread nD τ).loc b)) (c : Dev nD) (t : Fin cfg1.N) (p : Fin 64) (q : Fin 64) :
    (iblk1 (F := Ideal) V c 6 t : Vec Ideal S64x64 .bf16) (ix2 p q) = (V c main_v91 : S64x64.Idx → EReal) (ix2 p q) := by
  obtain ⟨e00, e01, e10, e11, e20, e21, e30, e31, e40, e41, e50, e51, e60, e61, e70, e71, e80, e81, e90, e91⟩ := idx_facts t
  unfold iblk1
  rw [View.read_apply]
  show V c main_v91 _ = V c main_v91 _
  congr 1
  funext a
  apply Fin.ext
  match a with
  | ⟨0, _⟩ => show win1_6.index t (0 : Fin 2) * 64 + 1 * p.val = p.val; rw [e60]; omega
  | ⟨1, _⟩ => show win1_6.index t (1 : Fin 2) * 64 + 1 * q.val = q.val; rw [e61]; omega

/-- Window 7's block at point `t`, at row `p` and column `q` of the block: the array's entry there (the block is the whole array). -/
theorem blk7_apply (V : (c : Dev nD) → (b : Ref sig .tc) → Buf (Elt Ideal) ((c : Thread nD τ).loc b)) (c : Dev nD) (t : Fin cfg1.N) (p : Fin 64) (q : Fin 64) :
    (iblk1 (F := Ideal) V c 7 t : Vec Ideal S64x64 .bf16) (ix2 p q) = (V c main_v94 : S64x64.Idx → EReal) (ix2 p q) := by
  obtain ⟨e00, e01, e10, e11, e20, e21, e30, e31, e40, e41, e50, e51, e60, e61, e70, e71, e80, e81, e90, e91⟩ := idx_facts t
  unfold iblk1
  rw [View.read_apply]
  show V c main_v94 _ = V c main_v94 _
  congr 1
  funext a
  apply Fin.ext
  match a with
  | ⟨0, _⟩ => show win1_7.index t (0 : Fin 2) * 64 + 1 * p.val = p.val; rw [e70]; omega
  | ⟨1, _⟩ => show win1_7.index t (1 : Fin 2) * 64 + 1 * q.val = q.val; rw [e71]; omega

/-! ## The layer's two results as functions of the whole arrays -/

/-- The real part of the layer before the gate, from the arrays' contents. -/
def preRe (a b : S2000x2000.Idx → EReal) (x y : S2000x64.Idx → EReal) (w0 w1 : S64x64.Idx → EReal) (n : Fin 2000) (h : Fin 64) : EReal :=
  Spec.pre (fun n k => x (ix2 n k))
    (Spec.denseRe (fun n s => a (ix2 n s)) (fun n s => b (ix2 n s)) (fun n k => x (ix2 n k)) (fun n k => y (ix2 n k)))
    (fun k h => w0 (ix2 k h)) (fun k h => w1 (ix2 k h)) n h

/-- The imaginary part of the layer before the gate. -/
def preIm (a b : S2000x2000.Idx → EReal) (x y : S2000x64.Idx → EReal) (w0 w1 : S64x64.Idx → EReal) (n : Fin 2000) (h : Fin 64) : EReal :=
  Spec.pre (fun n k => y (ix2 n k))
    (Spec.denseIm (fun n s => a (ix2 n s)) (fun n s => b (ix2 n s)) (fun n k => x (ix2 n k)) (fun n k => y (ix2 n k)))
    (fun k h => w0 (ix2 k h)) (fun k h => w1 (ix2 k h)) n h

/-- The first output array: the gated real part. -/
def outRe (a b : S2000x2000.Idx → EReal) (x y : S2000x64.Idx → EReal) (w0 w1 : S64x64.Idx → EReal) : S2000x64.Idx → EReal :=
  fun i => Spec.gate (preRe a b x y w0 w1 ⟨(i 0).val, (i 0).isLt⟩ ⟨(i 1).val, (i 1).isLt⟩) (preRe a b x y w0 w1 ⟨(i 0).val, (i 0).isLt⟩ ⟨(i 1).val, (i 1).isLt⟩)

/-- The second output array: the imaginary part under the same gate. -/
def outIm (a b : S2000x2000.Idx → EReal) (x y : S2000x64.Idx → EReal) (w0 w1 : S64x64.Idx → EReal) : S2000x64.Idx → EReal :=
  fun i => Spec.gate (preIm a b x y w0 w1 ⟨(i 0).val, (i 0).isLt⟩ ⟨(i 1).val, (i 1).isLt⟩) (preRe a b x y w0 w1 ⟨(i 0).val, (i 0).isLt⟩ ⟨(i 1).val, (i 1).isLt⟩)

theorem outRe_apply (a b : S2000x2000.Idx → EReal) (x y : S2000x64.Idx → EReal) (w0 w1 : S64x64.Idx → EReal) (n : Fin 2000) (h : Fin 64) :
    outRe a b x y w0 w1 (ix2 n h) = Spec.gate (preRe a b x y w0 w1 n h) (preRe a b x y w0 w1 n h) := rfl

theorem outIm_apply (a b : S2000x2000.Idx → EReal) (x y : S2000x64.Idx → EReal) (w0 w1 : S64x64.Idx → EReal) (n : Fin 2000) (h : Fin 64) :
    outIm a b x y w0 w1 (ix2 n h) = Spec.gate (preIm a b x y w0 w1 n h) (preRe a b x y w0 w1 n h) := rfl

/-- A tile's real part is the whole arrays' at the tile's row, once each loaded block is the array's block. -/
theorem tileRe_eq (at_ bt : Vec Ideal S200x2000 .bf16) (xf yf : Vec Ideal S2000x64 .bf16) (xt : Vec Ideal S200x64 .bf16)
    (wf0 wf1 : Vec Ideal S64x64 .bf16)
    (a b : S2000x2000.Idx → EReal) (x y : S2000x64.Idx → EReal) (w0 w1 : S64x64.Idx → EReal) (n : Fin 2000) (p : Fin 200) (q : Fin 64)
    (ha : ∀ s, at_ (ix2 p s) = a (ix2 n s)) (hb : ∀ s, bt (ix2 p s) = b (ix2 n s))
    (hx : ∀ s k, xf (ix2 s k) = x (ix2 s k)) (hy : ∀ s k, yf (ix2 s k) = y (ix2 s k))
    (hxt : ∀ k, xt (ix2 p k) = x (ix2 n k))
    (hw0 : ∀ k h, wf0 (ix2 k h) = w0 (ix2 k h)) (hw1 : ∀ k h, wf1 (ix2 k h) = w1 (ix2 k h)) :
    tileRe at_ bt xf yf xt wf0 wf1 p q = preRe a b x y w0 w1 n q := by
  unfold tileRe preRe Spec.pre Spec.denseRe
  simp only [ha, hb, hx, hy, hxt, hw0, hw1]

theorem tileIm_eq (at_ bt : Vec Ideal S200x2000 .bf16) (xf yf : Vec Ideal S2000x64 .bf16) (yt : Vec Ideal S200x64 .bf16)
    (wf0 wf1 : Vec Ideal S64x64 .bf16)
    (a b : S2000x2000.Idx → EReal) (x y : S2000x64.Idx → EReal) (w0 w1 : S64x64.Idx → EReal) (n : Fin 2000) (p : Fin 200) (q : Fin 64)
    (ha : ∀ s, at_ (ix2 p s) = a (ix2 n s)) (hb : ∀ s, bt (ix2 p s) = b (ix2 n s))
    (hx : ∀ s k, xf (ix2 s k) = x (ix2 s k)) (hy : ∀ s k, yf (ix2 s k) = y (ix2 s k))
    (hyt : ∀ k, yt (ix2 p k) = y (ix2 n k))
    (hw0 : ∀ k h, wf0 (ix2 k h) = w0 (ix2 k h)) (hw1 : ∀ k h, wf1 (ix2 k h) = w1 (ix2 k h)) :
    tileIm at_ bt xf yf yt wf0 wf1 p q = preIm a b x y w0 w1 n q := by
  unfold tileIm preIm Spec.pre Spec.denseIm
  simp only [ha, hb, hx, hy, hyt, hw0, hw1]

section Arrays
variable (V : (c : Dev nD) → (b : Ref sig .tc) → Buf (Elt Ideal) ((c : Thread nD τ).loc b))

/-! ## What each point writes back -/

/-- Point `t` writes back block `t` of the gated real part of the arrays as the call finds them. -/
theorem flushed8_eq (c : Dev nD) (t : Fin cfg1.N) :
    (dat1 (F := Ideal) V c).flushed 8 t = ((cfg1.win 8).blk t).view.read (Elt Ideal)
      (outRe (V c main_v76) (V c main_v77) (V c main_v87) (V c main_v88) (V c main_v91) (V c main_v94)) := by
  show (cfg1.win 8).cut (grid1.coords t) ((dat1 V c).after 8 t) = _
  rw [after1_8]
  unfold out1_8
  rw [View.canon_unit_zero hz]
  simp only [View.ld_unit_zero (S := S200x2000) hz, View.ld_unit_zero (S := S2000x64) hz, View.ld_unit_zero (S := S200x64) hz,
    View.ld_unit_zero (S := S64x64) hz]
  obtain ⟨e00, e01, e10, e11, e20, e21, e30, e31, e40, e41, e50, e51, e60, e61, e70, e71, e80, e81, e90, e91⟩ := idx_facts t
  funext j
  obtain ⟨p, q, rfl⟩ : ∃ (p : Fin 200) (q : Fin 64), j = ix2 p q := ⟨j 0, j 1, eq_ix2 j⟩
  have hn : t.val * 200 + p.val < 2000 := by have := p.isLt; have := t.isLt; have hN : cfg1.N = 10 := N_1; omega
  have hR : ((cfg1.win 8).blk t).view.emb (ix2 p q) = (ix2 (⟨t.val * 200 + p.val, hn⟩ : Fin 2000) q : S2000x64.Idx) := by
    funext a; apply Fin.ext
    match a with
    | ⟨0, _⟩ => show win1_8.index t (0 : Fin 2) * 200 + 1 * p.val = t.val * 200 + p.val; rw [e80]; omega
    | ⟨1, _⟩ => show win1_8.index t (1 : Fin 2) * 64 + 1 * q.val = q.val; rw [e81]; omega
  show k1_pay1 (F := Ideal) _ _ (ix2 p q) = outRe _ _ _ _ _ _ (((cfg1.win 8).blk t).view.emb (ix2 p q))
  rw [hR, outRe_apply, pay1_apply, pay9_apply, pay11_apply]
  rw [tileRe_eq _ _ _ _ _ _ _ (V c main_v76) (V c main_v77) (V c main_v87) (V c main_v88) (V c main_v91) (V c main_v94) ⟨t.val * 200 + p.val, hn⟩ p q
    (fun s => blk0_apply V c t p s) (fun s => blk1_apply V c t p s) (fun s k => blk2_apply V c t s k) (fun s k => blk3_apply V c t s k)
    (fun k => blk4_apply V c t p k) (fun k h => blk6_apply V c t k h) (fun k h => blk7_apply V c t k h)]
  rfl

/-- Point `t` writes back block `t` of the gated imaginary part. -/
theorem flushed9_eq (c : Dev nD) (t : Fin cfg1.N) :
    (dat1 (F := Ideal) V c).flushed 9 t = ((cfg1.win 9).blk t).view.read (Elt Ideal)
      (outIm (V c main_v76) (V c main_v77) (V c main_v87) (V c main_v88) (V c main_v91) (V c main_v94)) := by
  show (cfg1.win 9).cut (grid1.coords t) ((dat1 V c).after 9 t) = _
  rw [after1_9]
  unfold out1_9
  rw [View.canon_unit_zero hz]
  simp only [View.ld_unit_zero (S := S200x2000) hz, View.ld_unit_zero (S := S2000x64) hz, View.ld_unit_zero (S := S200x64) hz,
    View.ld_unit_zero (S := S64x64) hz]
  obtain ⟨e00, e01, e10, e11, e20, e21, e30, e31, e40, e41, e50, e51, e60, e61, e70, e71, e80, e81, e90, e91⟩ := idx_facts t
  funext j
  obtain ⟨p, q, rfl⟩ : ∃ (p : Fin 200) (q : Fin 64), j = ix2 p q := ⟨j 0, j 1, eq_ix2 j⟩
  have hn : t.val * 200 + p.val < 2000 := by have := p.isLt; have := t.isLt; have hN : cfg1.N = 10 := N_1; omega
  have hR : ((cfg1.win 9).blk t).view.emb (ix2 p q) = (ix2 (⟨t.val * 200 + p.val, hn⟩ : Fin 2000) q : S2000x64.Idx) := by
    funext a; apply Fin.ext
    match a with
    | ⟨0, _⟩ => show win1_9.index t (0 : Fin 2) * 200 + 1 * p.val = t.val * 200 + p.val; rw [e90]; omega
    | ⟨1, _⟩ => show win1_9.index t (1 : Fin 2) * 64 + 1 * q.val = q.val; rw [e91]; omega
  show k1_pay2 (F := Ideal) _ _ (ix2 p q) = outIm _ _ _ _ _ _ (((cfg1.win 9).blk t).view.emb (ix2 p q))
  rw [hR, outIm_apply, pay2_apply, pay10_apply, pay11_apply]
  rw [tileRe_eq _ _ _ _ _ _ _ (V c main_v76) (V c main_v77) (V c main_v87) (V c main_v88) (V c main_v91) (V c main_v94) ⟨t.val * 200 + p.val, hn⟩ p q
    (fun s => blk0_apply V c t p s) (fun s => blk1_apply V c t p s) (fun s k => blk2_apply V c t s k) (fun s k => blk3_apply V c t s k)
    (fun k => blk4_apply V c t p k) (fun k h => blk6_apply V c t k h) (fun k h => blk7_apply V c t k h),
    tileIm_eq _ _ _ _ _ _ _ (V c main_v76) (V c main_v77) (V c main_v87) (V c main_v88) (V c main_v91) (V c main_v94) ⟨t.val * 200 + p.val, hn⟩ p q
    (fun s => blk0_apply V c t p s) (fun s => blk1_apply V c t p s) (fun s k => blk2_apply V c t s k) (fun s k => blk3_apply V c t s k)
    (fun k => blk5_apply V c t p k) (fun k h => blk6_apply V c t k h) (fun k h => blk7_apply V c t k h)]
  rfl

/-! ## The ten row blocks cover the output arrays -/

theorem mem_blk8 (t : Fin cfg1.N) (i : S2000x64.Idx) :
    i ∈ ((cfg1.win 8).blk t).view.set ↔ ∀ a : Fin 2, win1_8.index t a * S200x64.size a ≤ (i a).val ∧ (i a).val < win1_8.index t a * S200x64.size a + S200x64.size a := by
  show i ∈ ((View.whole main_v95_0).slice (win1_8.rect t)).set ↔ _
  rw [View.set_slice_whole, Rect.mem_set_unit]
  exact Iff.rfl

theorem mem_blk9 (t : Fin cfg1.N) (i : S2000x64.Idx) :
    i ∈ ((cfg1.win 9).blk t).view.set ↔ ∀ a : Fin 2, win1_9.index t a * S200x64.size a ≤ (i a).val ∧ (i a).val < win1_9.index t a * S200x64.size a + S200x64.size a := by
  show i ∈ ((View.whole main_v95_1).slice (win1_9.rect t)).set ↔ _
  rw [View.set_slice_whole, Rect.mem_set_unit]
  exact Iff.rfl

/-- Row `r` is in the block of point `r / 200`. -/
theorem cover8 (i : S2000x64.Idx) : ∃ t : Fin cfg1.N, (cfg1.win 8).flush t = true ∧ i ∈ ((cfg1.win 8).blk t).view.set := by
  have hi0 : (i 0).val < 2000 := (i 0).isLt
  have hi1 : (i 1).val < 64 := (i 1).isLt
  have hN : cfg1.N = 10 := N_1
  obtain ⟨e00, e01, e10, e11, e20, e21, e30, e31, e40, e41, e50, e51, e60, e61, e70, e71, e80, e81, e90, e91⟩ := idx_facts ⟨(i 0).val / 200, by rw [hN]; omega⟩
  refine ⟨⟨(i 0).val / 200, by rw [hN]; omega⟩, flush1_8 _, ?_⟩
  rw [mem_blk8]
  intro a
  match a with
  | ⟨0, _⟩ => show win1_8.index _ (0 : Fin 2) * 200 ≤ (i 0).val ∧ (i 0).val < win1_8.index _ (0 : Fin 2) * 200 + 200; rw [e80]; show (i 0).val / 200 * 200 ≤ (i 0).val ∧ (i 0).val < (i 0).val / 200 * 200 + 200; omega
  | ⟨1, _⟩ => show win1_8.index _ (1 : Fin 2) * 64 ≤ (i 1).val ∧ (i 1).val < win1_8.index _ (1 : Fin 2) * 64 + 64; rw [e81]; omega

theorem cover9 (i : S2000x64.Idx) : ∃ t : Fin cfg1.N, (cfg1.win 9).flush t = true ∧ i ∈ ((cfg1.win 9).blk t).view.set := by
  have hi0 : (i 0).val < 2000 := (i 0).isLt
  have hi1 : (i 1).val < 64 := (i 1).isLt
  have hN : cfg1.N = 10 := N_1
  obtain ⟨e00, e01, e10, e11, e20, e21, e30, e31, e40, e41, e50, e51, e60, e61, e70, e71, e80, e81, e90, e91⟩ := idx_facts ⟨(i 0).val / 200, by rw [hN]; omega⟩
  refine ⟨⟨(i 0).val / 200, by rw [hN]; omega⟩, flush1_9 _, ?_⟩
  rw [mem_blk9]
  intro a
  match a with
  | ⟨0, _⟩ => show win1_9.index _ (0 : Fin 2) * 200 ≤ (i 0).val ∧ (i 0).val < win1_9.index _ (0 : Fin 2) * 200 + 200; rw [e90]; show (i 0).val / 200 * 200 ≤ (i 0).val ∧ (i 0).val < (i 0).val / 200 * 200 + 200; omega
  | ⟨1, _⟩ => show win1_9.index _ (1 : Fin 2) * 64 ≤ (i 1).val ∧ (i 1).val < win1_9.index _ (1 : Fin 2) * 64 + 64; rw [e91]; omega

/-! ## The output arrays after the call -/

/-- The first output array after the call: the gated real part of the layer, of the arrays as the call found them. -/
theorem arrAt8 (c : Dev nD) : (dat1 (F := Ideal) V c).arrAt 8 cfg1.N
    = outRe (V c main_v76) (V c main_v77) (V c main_v87) (V c main_v88) (V c main_v91) (V c main_v94) :=
  (dat1 (F := Ideal) V c).arrAt_eq_of_cover 8 _ (fun t _ => flushed8_eq V c t) cover8

/-- The second output array after the call: the imaginary part under the same gate. -/
theorem arrAt9 (c : Dev nD) : (dat1 (F := Ideal) V c).arrAt 9 cfg1.N
    = outIm (V c main_v76) (V c main_v77) (V c main_v87) (V c main_v88) (V c main_v91) (V c main_v94) :=
  (dat1 (F := Ideal) V c).arrAt_eq_of_cover 9 _ (fun t _ => flushed9_eq V c t) cover9

end Arrays

end Cert.Layer2

end
-- ==== Proof.LibConvCore.lean ====
import Mathlib.Data.EReal.Operations
import Mathlib.Algebra.BigOperators.Ring.Finset
import Mathlib.Algebra.BigOperators.Fin
import Mathlib.Data.Fintype.BigOperators

/-!
# Dense and sparse forms of a graph convolution agree on finite data

Edges `e : E` carry a signed target index `dI e : ℤ`, a signed source index `sI e : ℤ`
(whose in-range value is the row `g e : Fin B`, i.e. `(g e).val = sI e`) and two weights
`cr e`, `ci e`.  Nodes `s : Fin B` carry two features `x s`, `y s`.

* **Dense form.**  Accumulate the weights into a `B × B` matrix
  `A n s = 0 + ∑ e, [dI e = n ∧ sI e = s] cr e` (and likewise from `ci`), then multiply by the
  features: `∑ s, A n s * x s`.
* **Sparse form.**  Sum, over the edges whose target is `n`, the weight times the feature of the
  edge's source: `0 + ∑ e, [dI e = n] (cr e * x (g e) - ci e * y (g e))`.

Over the reals the two forms are equal: expand the product of sums (distributivity), exchange the
two summations, and observe that for a fixed edge `e` exactly one row `s` — namely `g e` —
satisfies `sI e = s`.  Over the extended reals distributivity and `∑ (a - b) = ∑ a - ∑ b` fail
in general (`⊤ - ⊤`), so every weight and every feature is assumed to be (the coercion of) a real
number; the extended-real identities are then the coercions of the real ones.

The file also records that "being a real number" (`∃ r : ℝ, a = ↑r`) is closed under the
arithmetic operations, `if-then-else` and finite sums.
-/

namespace ConvCore

open scoped BigOperators

/-! ## Closure of the real numbers inside the extended reals -/

/-- The coercion `ℝ → EReal` commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero is a real number. -/
theorem real_zero : ∃ r : ℝ, (0 : EReal) = (r : EReal) := ⟨0, EReal.coe_zero.symm⟩

/-- One is a real number. -/
theorem real_one : ∃ r : ℝ, (1 : EReal) = (r : EReal) := ⟨1, EReal.coe_one.symm⟩

/-- The sum of two real numbers is a real number. -/
theorem real_add (a b : EReal) (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- The product of two real numbers is a real number. -/
theorem real_mul (a b : EReal) (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- The difference of two real numbers is a real number. -/
theorem real_sub (a b : EReal) (ha : ∃ r : ℝ, a = (r : EReal)) (hb : ∃ r : ℝ, b = (r : EReal)) :
    ∃ r : ℝ, a - b = (r : EReal) := by
  obtain ⟨ra, rfl⟩ := ha
  obtain ⟨rb, rfl⟩ := hb
  exact ⟨ra - rb, (EReal.coe_sub ra rb).symm⟩

/-- The negation of a real number is a real number. -/
theorem real_neg (a : EReal) (ha : ∃ r : ℝ, a = (r : EReal)) :
    ∃ r : ℝ, -a = (r : EReal) := by
  obtain ⟨ra, rfl⟩ := ha
  exact ⟨-ra, (EReal.coe_neg ra).symm⟩

/-- A conditional whose two branches are real numbers is a real number. -/
theorem real_ite (p : Prop) [Decidable p] (a b : EReal)
    (ha : ∃ r : ℝ, a = (r : EReal)) (hb : ∃ r : ℝ, b = (r : EReal)) :
    ∃ r : ℝ, (if p then a else b) = (r : EReal) := by
  split_ifs
  · exact ha
  · exact hb

/-- A finite sum of real numbers is a real number. -/
theorem real_sum {ι : Type} (s : Finset ι) (f : ι → EReal)
    (h : ∀ i ∈ s, ∃ r : ℝ, f i = (r : EReal)) : ∃ r : ℝ, ∑ i ∈ s, f i = (r : EReal) := by
  choose! r hr using h
  exact ⟨∑ i ∈ s, r i, by rw [coe_sum]; exact Finset.sum_congr rfl hr⟩

/-! ## The identity over the reals -/

/-- For a fixed edge `e`, the sum over all rows `s` of `[sI e = s] c * x s` picks out the single
row `g e`, because `(g e).val = sI e` and `Fin B → ℤ` is injective. -/
theorem sum_row_indicator {B : ℕ} (sIe : ℤ) (ge : Fin B) (hge : ((ge).val : ℤ) = sIe)
    (c : ℝ) (x : Fin B → ℝ) :
    (∑ s : Fin B, (if sIe = (s.val : ℤ) then c else 0) * x s) = c * x ge := by
  rw [Finset.sum_eq_single ge]
  · rw [if_pos hge.symm]
  · intro s _ hs
    have hne : ¬ sIe = (s.val : ℤ) := by
      intro h
      apply hs
      apply Fin.ext
      have : ((s.val : ℕ) : ℤ) = ((ge.val : ℕ) : ℤ) := by rw [← h, hge]
      exact Int.natCast_inj.mp this
    rw [if_neg hne, zero_mul]
  · intro h
    exact absurd (Finset.mem_univ ge) h

/-- **Dense = sparse, one weight, over the reals.**  Multiplying the accumulated matrix
`A n s = 0 + ∑ e, [dI e = n ∧ sI e = s] c e` by the feature vector `x` gives the segment sum
`∑ e, [dI e = n] c e * x (g e)`. -/
theorem real_dense_eq_segment {E : Type} [Fintype E] {B : ℕ} (dI sI : E → ℤ) (g : E → Fin B)
    (hg : ∀ e, ((g e).val : ℤ) = sI e) (c : E → ℝ) (x : Fin B → ℝ) (n : Fin B) :
    (∑ s : Fin B,
        ((0 : ℝ) + ∑ e : E, if dI e = (n.val : ℤ) ∧ sI e = (s.val : ℤ) then c e else 0) * x s)
      = ∑ e : E, if dI e = (n.val : ℤ) then c e * x (g e) else 0 := by
  simp only [zero_add, Finset.sum_mul]
  rw [Finset.sum_comm]
  apply Finset.sum_congr rfl
  intro e _
  by_cases h : dI e = (n.val : ℤ)
  · simp only [h, true_and, if_true]
    exact sum_row_indicator (sI e) (g e) (hg e) (c e) x
  · simp only [h, false_and, if_false, zero_mul, Finset.sum_const_zero]

/-! ## The identity over the extended reals, for real data -/

/-- **Dense = sparse, one weight, real data inside the extended reals.**  The dense form computed
in `EReal` from coerced real weights and features is the coercion of the real segment sum. -/
theorem coe_dense_eq_segment {E : Type} [Fintype E] {B : ℕ} (dI sI : E → ℤ) (g : E → Fin B)
    (hg : ∀ e, ((g e).val : ℤ) = sI e) (c : E → ℝ) (x : Fin B → ℝ) (n : Fin B) :
    (∑ s : Fin B,
        ((0 : EReal) + ∑ e : E,
          if dI e = (n.val : ℤ) ∧ sI e = (s.val : ℤ) then (c e : EReal) else 0) * (x s : EReal))
      = ((∑ e : E, if dI e = (n.val : ℤ) then c e * x (g e) else 0 : ℝ) : EReal) := by
  rw [← real_dense_eq_segment dI sI g hg c x n, coe_sum]
  apply Finset.sum_congr rfl
  intro s _
  rw [EReal.coe_mul, EReal.coe_add, EReal.coe_zero, coe_sum]
  congr 2
  apply Finset.sum_congr rfl
  intro e _
  split_ifs
  · rfl
  · exact EReal.coe_zero.symm

/-- **Dense = sparse, difference form.**  With finite weights `cr`, `ci` and finite features
`x`, `y`, the difference of the two dense products `A·x - Bm·y` equals the segment sum over the
edges with target `n` of `cr e * x (g e) - ci e * y (g e)`. -/
theorem dense_sub_eq_segment {E : Type} [Fintype E] {B : ℕ} (dI sI : E → ℤ) (g : E → Fin B)
    (hg : ∀ e, ((g e).val : ℤ) = sI e)
    (cr ci : E → EReal) (x y : Fin B → EReal)
    (hcr : ∀ e, ∃ r : ℝ, cr e = (r : EReal)) (hci : ∀ e, ∃ r : ℝ, ci e = (r : EReal))
    (hx : ∀ s, ∃ r : ℝ, x s = (r : EReal)) (hy : ∀ s, ∃ r : ℝ, y s = (r : EReal)) (n : Fin B) :
    (∑ s : Fin B, ((0 : EReal) + ∑ e : E,
        if dI e = (n.val : ℤ) ∧ sI e = (s.val : ℤ) then cr e else 0) * x s)
      - (∑ s : Fin B, ((0 : EReal) + ∑ e : E,
        if dI e = (n.val : ℤ) ∧ sI e = (s.val : ℤ) then ci e else 0) * y s)
    = (0 : EReal) + ∑ e : E,
        if dI e = (n.val : ℤ) then (cr e * x (g e) - ci e * y (g e)) else 0 := by
  choose crR hcrR using hcr
  choose ciR hciR using hci
  choose xR hxR using hx
  choose yR hyR using hy
  obtain rfl : cr = fun e => (crR e : EReal) := funext hcrR
  obtain rfl : ci = fun e => (ciR e : EReal) := funext hciR
  obtain rfl : x = fun s => (xR s : EReal) := funext hxR
  obtain rfl : y = fun s => (yR s : EReal) := funext hyR
  simp only []
  rw [coe_dense_eq_segment dI sI g hg crR xR n, coe_dense_eq_segment dI sI g hg ciR yR n,
    zero_add, ← EReal.coe_sub, ← Finset.sum_sub_distrib, coe_sum]
  apply Finset.sum_congr rfl
  intro e _
  split_ifs
  · rw [EReal.coe_sub, EReal.coe_mul, EReal.coe_mul]
  · rw [sub_zero, EReal.coe_zero]

/-- **Dense = sparse, sum form.**  With finite weights `cr`, `ci` and finite features `x`, `y`,
the sum of the two dense products `A·y + Bm·x` equals the segment sum over the edges with target
`n` of `cr e * y (g e) + ci e * x (g e)`. -/
theorem dense_add_eq_segment {E : Type} [Fintype E] {B : ℕ} (dI sI : E → ℤ) (g : E → Fin B)
    (hg : ∀ e, ((g e).val : ℤ) = sI e)
    (cr ci : E → EReal) (x y : Fin B → EReal)
    (hcr : ∀ e, ∃ r : ℝ, cr e = (r : EReal)) (hci : ∀ e, ∃ r : ℝ, ci e = (r : EReal))
    (hx : ∀ s, ∃ r : ℝ, x s = (r : EReal)) (hy : ∀ s, ∃ r : ℝ, y s = (r : EReal)) (n : Fin B) :
    (∑ s : Fin B, ((0 : EReal) + ∑ e : E,
        if dI e = (n.val : ℤ) ∧ sI e = (s.val : ℤ) then cr e else 0) * y s)
      + (∑ s : Fin B, ((0 : EReal) + ∑ e : E,
        if dI e = (n.val : ℤ) ∧ sI e = (s.val : ℤ) then ci e else 0) * x s)
    = (0 : EReal) + ∑ e : E,
        if dI e = (n.val : ℤ) then (cr e * y (g e) + ci e * x (g e)) else 0 := by
  choose crR hcrR using hcr
  choose ciR hciR using hci
  choose xR hxR using hx
  choose yR hyR using hy
  obtain rfl : cr = fun e => (crR e : EReal) := funext hcrR
  obtain rfl : ci = fun e => (ciR e : EReal) := funext hciR
  obtain rfl : x = fun s => (xR s : EReal) := funext hxR
  obtain rfl : y = fun s => (yR s : EReal) := funext hyR
  simp only []
  rw [coe_dense_eq_segment dI sI g hg crR yR n, coe_dense_eq_segment dI sI g hg ciR xR n,
    zero_add, ← EReal.coe_add, ← Finset.sum_add_distrib, coe_sum]
  apply Finset.sum_congr rfl
  intro e _
  split_ifs
  · rw [EReal.coe_add, EReal.coe_mul, EReal.coe_mul]
  · rw [add_zero, EReal.coe_zero]

end ConvCore
-- ==== Proof.SpecLemmas.lean ====
/-
  Facts about the entry-by-entry mathematics of the layer and the head.

  * The inverse square root of a degree written as `1 / √d` and as the reciprocal square root of the degree agree
    for every extended real `d`, and the value is always a real number: where `d` is not positive both are `0`;
    for a positive real `d`, `√d ≠ 0` and both are `(√d)⁻¹`; for `d = ⊤` both are `0` (`⊤⁻¹ = 0`).
  * A sum of 320 terms is the sum of its five consecutive blocks of 64 terms, in any order and bracketing
    (addition on the extended reals is associative and commutative; no finiteness is needed).
  * For real edge weights and real node features the dense aggregate (accumulate a matrix, then multiply) equals the
    sparse aggregate (sum over the edges ending at the node), for the real and for the imaginary part.
  * The sparse aggregate, the pre-activation and the gate of real numbers are real numbers.
-/
import proofs.«405959_j54778012893400_3_alg».proof.Proof.Spec
import proofs.«405959_j54778012893400_3_alg».proof.Proof.LibConvCore
import Mathlib.Data.EReal.Inv
import Mathlib.Algebra.BigOperators.Fin
import Mathlib.Tactic.Abel

open scoped BigOperators

noncomputable section

namespace Spec

open Idealize.ShloMosaic

/-! ## The inverse square root of a degree -/

/-- For a positive real `r`: the reciprocal square root is `(√r)⁻¹`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- For a positive real `r`: `1 / √r = (√r)⁻¹`, because `√r ≠ 0`. -/
theorem div_one_sqrt_coe_pos (r : ℝ) (hr : 0 < r) :
    Ideal.div 1 (Ideal.sqrt (r : EReal)) = (((Real.sqrt r)⁻¹ : ℝ) : EReal) := by
  have hs : Real.sqrt r ≠ 0 := (Real.sqrt_pos.mpr hr).ne'
  rw [Ideal.sqrt_coe, if_neg (not_lt.mpr hr.le)]
  unfold Ideal.div
  rw [if_neg (EReal.coe_ne_zero.mpr hs), one_mul, EReal.coe_inv]

/-- At `⊤`: `1 / √⊤ = 1 · ⊤⁻¹ = 0`. -/
theorem div_one_sqrt_top : Ideal.div 1 (Ideal.sqrt (⊤ : EReal)) = 0 := by
  rw [Ideal.sqrt_top]
  unfold Ideal.div
  rw [if_neg EReal.top_ne_zero, EReal.inv_top, mul_zero]

/-- The two spellings of the inverse square root of a degree agree, for every extended real degree. -/
theorem dinvK_eq_dinvR (d : EReal) : Spec.dinvK 1 0 d = Spec.dinvR 1 0 d := by
  unfold Spec.dinvK Spec.dinvR
  by_cases h : (0 : EReal) < d
  · rw [if_pos h, if_pos h, if_pos h]
    induction d using EReal.rec with
    | bot => exact absurd h not_lt_bot
    | coe r =>
      have hr : 0 < r := EReal.coe_pos.mp h
      rw [rsqrt_coe_pos r hr, div_one_sqrt_coe_pos r hr]
    | top => rw [Ideal.rsqrt_top, div_one_sqrt_top]
  · rw [if_neg h, if_neg h]

/-- The inverse square root of a degree is a real number, whatever the degree. -/
theorem dinvR_real (d : EReal) : ∃ r : ℝ, Spec.dinvR 1 0 d = (r : EReal) := by
  unfold Spec.dinvR
  by_cases h : (0 : EReal) < d
  · rw [if_pos h]
    induction d using EReal.rec with
    | bot => exact absurd h not_lt_bot
    | coe r => exact ⟨(Real.sqrt r)⁻¹, div_one_sqrt_coe_pos r (EReal.coe_pos.mp h)⟩
    | top => exact ⟨0, div_one_sqrt_top.trans EReal.coe_zero.symm⟩
  · rw [if_neg h]
    exact ⟨0, EReal.coe_zero.symm⟩

/-- The same for the reciprocal-square-root spelling. -/
theorem dinvK_real (d : EReal) : ∃ r : ℝ, Spec.dinvK 1 0 d = (r : EReal) := by
  rw [dinvK_eq_dinvR]
  exact dinvR_real d

/-! ## A sum of 320 terms in five blocks of 64 -/

/-- A sum over `Fin N` with `N = m + n` is the sum of its first `m` terms plus the sum of its last `n` terms. -/
theorem sum_fin_split {N : ℕ} (m n : ℕ) (h : N = m + n) (f : Fin N → EReal) :
    ∑ k : Fin N, f k
      = (∑ k : Fin m, f ⟨k.val, by have := k.isLt; omega⟩)
        + ∑ k : Fin n, f ⟨m + k.val, by have := k.isLt; omega⟩ := by
  subst h
  rw [Fin.sum_univ_add]
  rfl

/-- A sum of 320 terms is the sum of its five consecutive blocks of 64. -/
theorem sum_320_blocks (f : Fin 320 → EReal) :
    ∑ k : Fin 320, f k
      = ((((∑ k : Fin 64, f ⟨k.val, by have := k.isLt; omega⟩)
            + ∑ k : Fin 64, f ⟨64 + k.val, by have := k.isLt; omega⟩)
          + ∑ k : Fin 64, f ⟨128 + k.val, by have := k.isLt; omega⟩)
        + ∑ k : Fin 64, f ⟨192 + k.val, by have := k.isLt; omega⟩)
      + ∑ k : Fin 64, f ⟨256 + k.val, by have := k.isLt; omega⟩ := by
  rw [sum_fin_split 256 64 rfl f,
    sum_fin_split 192 64 rfl (fun k : Fin 256 => f ⟨k.val, by have := k.isLt; omega⟩),
    sum_fin_split 128 64 rfl (fun k : Fin 192 => f ⟨k.val, by have := k.isLt; omega⟩),
    sum_fin_split 64 64 rfl (fun k : Fin 128 => f ⟨k.val, by have := k.isLt; omega⟩)]

/-- Five blocks and a bias, summed in the one order and in the other. -/
theorem five_rearrange (a0 a1 a2 a3 a4 b : EReal) :
    ((((a0 + a1) + a2) + a3) + a4) + b = a4 + (((a0 + a2) + (a1 + a3)) + b) := by
  abel

/-- The logit summed over the concatenated row equals the logit summed block by block. -/
theorem logitCat_eq_logitSplit (f : Fin 320 → EReal) (b : EReal) : Spec.logitCat f b = Spec.logitSplit f b := by
  unfold Spec.logitCat Spec.logitSplit
  rw [sum_320_blocks f]
  exact five_rearrange _ _ _ _ _ b

/-! ## The layer: dense aggregate = sparse aggregate -/

/-- Real part: `A·x − B·y` with `A`, `B` accumulated from the edge weights is the sum, over the edges ending at
    `n`, of `cr e · x (g e) − ci e · y (g e)`. -/
theorem denseRe_eq_seg {E : Type} [Fintype E] {D : ℕ} (dI sI : E → ℤ) (g : E → Fin 2000)
    (hg : ∀ e, ((g e).val : ℤ) = sI e) (cr ci : E → EReal) (x y : Fin 2000 → Fin D → EReal)
    (hcr : ∀ e, ∃ r : ℝ, cr e = (r : EReal)) (hci : ∀ e, ∃ r : ℝ, ci e = (r : EReal))
    (hx : ∀ s k, ∃ r : ℝ, x s k = (r : EReal)) (hy : ∀ s k, ∃ r : ℝ, y s k = (r : EReal))
    (n : Fin 2000) (k : Fin D) :
    Spec.denseRe (Spec.adj dI sI cr) (Spec.adj dI sI ci) x y n k
      = Spec.seg dI (fun e k => cr e * x (g e) k - ci e * y (g e) k) n k := by
  unfold Spec.denseRe Spec.adj Spec.seg
  exact ConvCore.dense_sub_eq_segment dI sI g hg cr ci (fun s => x s k) (fun s => y s k) hcr hci
    (fun s => hx s k) (fun s => hy s k) n

/-- Imaginary part: `A·y + B·x` is the sum, over the edges ending at `n`, of `cr e · y (g e) + ci e · x (g e)`. -/
theorem denseIm_eq_seg {E : Type} [Fintype E] {D : ℕ} (dI sI : E → ℤ) (g : E → Fin 2000)
    (hg : ∀ e, ((g e).val : ℤ) = sI e) (cr ci : E → EReal) (x y : Fin 2000 → Fin D → EReal)
    (hcr : ∀ e, ∃ r : ℝ, cr e = (r : EReal)) (hci : ∀ e, ∃ r : ℝ, ci e = (r : EReal))
    (hx : ∀ s k, ∃ r : ℝ, x s k = (r : EReal)) (hy : ∀ s k, ∃ r : ℝ, y s k = (r : EReal))
    (n : Fin 2000) (k : Fin D) :
    Spec.denseIm (Spec.adj dI sI cr) (Spec.adj dI sI ci) x y n k
      = Spec.seg dI (fun e k => cr e * y (g e) k + ci e * x (g e) k) n k := by
  unfold Spec.denseIm Spec.adj Spec.seg
  exact ConvCore.dense_add_eq_segment dI sI g hg cr ci (fun s => x s k) (fun s => y s k) hcr hci
    (fun s => hx s k) (fun s => hy s k) n

/-! ## Real numbers stay real numbers -/

/-- The sparse aggregate of real contributions is a real number. -/
theorem seg_real {E : Type} [Fintype E] {D : ℕ} (dI : E → ℤ) (u : E → Fin D → EReal)
    (hu : ∀ e k, ∃ r : ℝ, u e k = (r : EReal)) (n : Fin 2000) (k : Fin D) :
    ∃ r : ℝ, Spec.seg dI u n k = (r : EReal) := by
  unfold Spec.seg
  exact ConvCore.real_add _ _ ConvCore.real_zero
    (ConvCore.real_sum _ _ fun e _ => ConvCore.real_ite _ _ _ (hu e k) ConvCore.real_zero)

/-- The accumulated edge-weight matrix of real weights has real entries. -/
theorem adj_real {E : Type} [Fintype E] (dI sI : E → ℤ) (c : E → EReal)
    (hc : ∀ e, ∃ r : ℝ, c e = (r : EReal)) (n s : Fin 2000) :
    ∃ r : ℝ, Spec.adj dI sI c n s = (r : EReal) := by
  unfold Spec.adj
  exact ConvCore.real_add _ _ ConvCore.real_zero
    (ConvCore.real_sum _ _ fun e _ => ConvCore.real_ite _ _ _ (hc e) ConvCore.real_zero)

/-- The pre-activation `x·W₀ + t·W₁` of real features, aggregates and weights is a real number. -/
theorem pre_real {D : ℕ} (x t : Fin 2000 → Fin D → EReal) (w0 w1 : Fin D → Fin 64 → EReal)
    (hx : ∀ n k, ∃ r : ℝ, x n k = (r : EReal)) (ht : ∀ n k, ∃ r : ℝ, t n k = (r : EReal))
    (hw0 : ∀ k h, ∃ r : ℝ, w0 k h = (r : EReal)) (hw1 : ∀ k h, ∃ r : ℝ, w1 k h = (r : EReal))
    (n : Fin 2000) (h : Fin 64) :
    ∃ r : ℝ, Spec.pre x t w0 w1 n h = (r : EReal) := by
  unfold Spec.pre
  exact ConvCore.real_add _ _
    (ConvCore.real_sum _ _ fun k _ => ConvCore.real_mul _ _ (hx n k) (hw0 k h))
    (ConvCore.real_sum _ _ fun k _ => ConvCore.real_mul _ _ (ht n k) (hw1 k h))

/-- The gate of a real number is a real number (it is that number or `0`), whatever the gating value. -/
theorem gate_real (r g : EReal) (hr : ∃ q : ℝ, r = (q : EReal)) : ∃ q : ℝ, Spec.gate r g = (q : EReal) := by
  unfold Spec.gate
  exact ConvCore.real_mul _ _ hr (ConvCore.real_ite _ _ _ ConvCore.real_one ConvCore.real_zero)

end Spec

end
-- ==== Proof.LibTakeRows.lean ====
/-
  Two shapes of `stablehlo.gather` that jnp's indexing by an integer vector lowers to, each read at one result index.

  * ROWS OF A TABLE (`jnp.take(table, idx, axis=0)` of a table `[N, D]` at `n` positions, the start indices an
    `[n, 1]` column): result element `(i, k)` is the table's element `(r, k)`, where `r` is the start index of position
    `i` read signed and clamped into `[0, N - 1]`.
  * ONE ELEMENT PER ROW (`jnp.take_along_axis(a, idx[:, None], axis=1)` of `a : [n, M]`, row `i` being a batch of its
    own, the start indices `[n, 1, 1]`): result element `(i, q)` is `a`'s element `(i, r)`, where `r` is the start
    index at `(i, q, 0)` read signed and clamped into `[0, M - 1]`.

  The dimension numbers are spelt field by field as a printed program's record is, so that record is one of these by `rfl`.
-/
import Idealize.ShloMosaic.Lib.ValueIdx

namespace Idealize.ShloMosaic.TakeRows

open Idealize.ShloMosaic Idealize.ShloMosaic.ValueIdx

variable {α : Type}

/-! ## Rows of a table -/

/-- The dimension numbers of a row take: operand `[N, D]`, start indices `[n, 1]`, result `[n, D]`. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- A row take read at `(i, k)`: column `k` of the row the clamped start index of position `i` names. -/
theorem rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (i : Fin n) (k : Fin D) :
    Host.gather (rowDims N D n wf) x idx (ix2 i k)
      = x (ix2 ⟨min (idx (ix2 i (0 : Fin 1))).toInt.toNat (N - 1), by omega⟩ k) := by
  unfold Host.gather
  congr 1
  funext a
  refine Fin.ext ?_
  match a with
  | ⟨0, _⟩ =>
    show (rowDims N D n wf).start (ix2 i k) idx 0 + (rowDims N D n wf).batchCoord (ix2 i k) 0
      + (rowDims N D n wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 i k) ⟨List.idxOf (0 : Fin 2) (rowDims N D n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims N D n wf).start (ix2 i k) idx 1 + (rowDims N D n wf).batchCoord (ix2 i k) 1
      + (rowDims N D n wf).offCoord (ix2 i k) 1 = k.val
    rw [GatherDims.batchCoord_eq_zero _ _ _ List.not_mem_nil]
    unfold GatherDims.start
    rw [dif_neg (show ¬(1 : Fin 2) ∈ (rowDims N D n wf).startIndexMap from (by decide : (1 : Fin 2) ∉ ([0] : List (Fin 2))))]
    simp only [Nat.add_zero, Nat.zero_add]
    rfl

/-! ## One element per row -/

/-- The dimension numbers of `take_along_axis` along axis 1 with one index per row: operand `[n, M]`, start
    indices `[n, Q, 1]`, result `[n, Q]`; axis 0 is a batching axis of both. -/
abbrev alongDims (n M Q : Nat)
    (wf : GatherDims.WF ⟨2, ![n, M]⟩ ⟨3, ![n, Q, 1]⟩ ⟨2, ![n, Q]⟩ [] [1] [0] [1] [0] 2 ![1, 1]) :
    GatherDims ⟨2, ![n, M]⟩ ⟨3, ![n, Q, 1]⟩ ⟨2, ![n, Q]⟩ where
  offsetDims := []
  collapsedSliceDims := [1]
  operandBatchingDims := [0]
  startIndicesBatchingDims := [0]
  startIndexMap := [1]
  indexVectorDim := 2
  sliceSizes := ![1, 1]
  wf := wf

/-- That gather read at `(i, q)`: row `i` of the operand at the clamped start index at `(i, q, 0)`. -/
theorem alongTake_apply {n M Q w : Nat} (hM : 0 < M)
    (wf : GatherDims.WF ⟨2, ![n, M]⟩ ⟨3, ![n, Q, 1]⟩ ⟨2, ![n, Q]⟩ [] [1] [0] [1] [0] 2 ![1, 1])
    (x : (⟨2, ![n, M]⟩ : Shape).Idx → α) (idx : IVec ⟨3, ![n, Q, 1]⟩ w) (i : Fin n) (q : Fin Q) :
    Host.gather (alongDims n M Q wf) x idx (ix2 i q)
      = x (ix2 i ⟨min (idx (ix3 i q (0 : Fin 1))).toInt.toNat (M - 1), by omega⟩) := by
  unfold Host.gather
  congr 1
  funext a
  refine Fin.ext ?_
  match a with
  | ⟨0, _⟩ =>
    show (alongDims n M Q wf).start (ix2 i q) idx 0 + (alongDims n M Q wf).batchCoord (ix2 i q) 0
      + (alongDims n M Q wf).offCoord (ix2 i q) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show (alongDims n M Q wf).start (ix2 i q) idx 1 + (alongDims n M Q wf).batchCoord (ix2 i q) 1
      + (alongDims n M Q wf).offCoord (ix2 i q) 1 = _
    rw [GatherDims.batchCoord_eq_zero _ _ _ (show ¬(1 : Fin 2) ∈ (alongDims n M Q wf).operandBatchingDims from (by decide : (1 : Fin 2) ∉ ([0] : List (Fin 2)))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims n M Q wf).startIndexMap from List.mem_singleton.mpr rfl)]
    have hsi : (alongDims n M Q wf).siIdx (ix2 i q) ⟨List.idxOf (1 : Fin 2) (alongDims n M Q wf).startIndexMap,
        List.idxOf_lt_length_iff.2 (List.mem_singleton.mpr rfl)⟩ = ix3 i q (0 : Fin 1) := by
      funext b; refine Fin.ext ?_
      match b with
      | ⟨0, _⟩ => rfl
      | ⟨1, _⟩ => rfl
      | ⟨2, _⟩ => rfl
    rw [hsi]
    rfl

end Idealize.ShloMosaic.TakeRows
-- ==== Proof.LibSegmentScatter.lean ====
/-
  An accumulating scatter along axis 0, read at one element of its result over the extended reals.

  Two shapes that a segment sum lowers to. ROWS: the operand is `[B, D]`, the scatter indices a column `[N, 1]`, the
  updates `[N, D]`; update row `n` is added into operand row `idx n`, column by column. ELEMENTS: the operand is `[B]`,
  the scatter indices `[N, 1]`, the updates `[N]`; update `n` is added into element `idx n`. The index is read signed and
  not clamped, and an update whose index falls outside `[0, B)` is dropped. So the result at row `b` is the operand there
  plus the sum of the updates whose index is `b`.

  The dimension numbers are spelt field by field as a printed program's record is, so that record is one of these by `rfl`.
-/
import Idealize.ShloMosaic.PureOps.Ideal
import Idealize.ShloMosaic.Lib.ValueIdx
import Idealize.ShloMosaic.Lib.ValueIdxRank1

open scoped BigOperators

noncomputable section

namespace Idealize.ShloMosaic.SegmentScatter

open Idealize.ShloMosaic Idealize.ShloMosaic.ValueIdx

/-- The dimension numbers of a row scatter: operand `[B, D]`, scatter indices `[N, 1]`, updates `[N, D]`. -/
abbrev rowDims (B D N : Nat)
    (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-! ### Rows: start, window and landing index of update `(n, d')` -/

section Rows
variable {B D N w : Nat} (wf : ScatterDims.WF ⟨2, ![B, D]⟩ ⟨2, ![N, 1]⟩ ⟨2, ![N, D]⟩ [1] [0] [0] 1)
  (idx : IVec ⟨2, ![N, 1]⟩ w)

/-- On axis 0 the window of update `(n, d')` starts at the signed value of scatter index `(n, 0)`. -/
theorem row_start0 (n : Fin N) (d' : Fin D) :
    (rowDims B D N wf).start (ix2 n d') idx 0 = (idx (ix2 n (0 : Fin 1))).toInt := by
  unfold ScatterDims.start
  rw [dif_pos (show (0 : Fin 2) ∈ (rowDims B D N wf).scatterDimsToOperandDims from List.mem_singleton.mpr rfl)]
  have hsi : (rowDims B D N wf).siIdx (ix2 n d') ⟨List.idxOf (0 : Fin 2) (rowDims B D N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- Axis 1 is not named by the scatter-dims-to-operand-dims map, so the window starts at `0` there. -/
theorem row_start1 (j : (⟨2, ![N, D]⟩ : Shape).Idx) :
    (rowDims B D N wf).start j idx 1 = 0 := by
  unfold ScatterDims.start
  rw [dif_neg (show (1 : Fin 2) ∉ ([0] : List (Fin 2)) by decide)]

/-- Axis 0 is an inserted window axis: the window coordinate there is `0`. -/
theorem row_window0 (j : (⟨2, ![N, D]⟩ : Shape).Idx) :
    (rowDims B D N wf).window j 0 = 0 := by
  unfold ScatterDims.window
  have h : (0 : Fin 2) ∉ (rowDims B D N wf).sKept := (show (0 : Fin 2) ∉ ([1] : List (Fin 2)) by decide)
  rw [dif_neg h]

/-- Axis 1 is the one kept axis, read by update window axis 1: the window coordinate of `(n, d')` is `d'`. -/
theorem row_window1 (n : Fin N) (d' : Fin D) :
    (rowDims B D N wf).window (ix2 n d') 1 = d'.val := by
  unfold ScatterDims.window
  have h : (1 : Fin 2) ∈ (rowDims B D N wf).sKept := (show (1 : Fin 2) ∈ ([1] : List (Fin 2)) by decide)
  rw [dif_pos h]
  rfl

/-- Update `(n, d')` lands at `(b, d)` exactly when its scatter index, read signed, is `b` and `d' = d`; the range
    conditions then hold because `b < B` and `d < D`. -/
theorem row_resultIdx?_eq_some_iff (n : Fin N) (d' : Fin D) (b : Fin B) (d : Fin D) :
    (rowDims B D N wf).resultIdx? (ix2 n d') idx = some (ix2 b d)
      ↔ (idx (ix2 n (0 : Fin 1))).toInt = (b.val : ℤ) ∧ d' = d := by
  unfold ScatterDims.resultIdx?
  constructor
  · intro h
    split at h
    · rename_i hc
      have hf := Option.some.inj h
      have h0 := congrArg (fun f => (f 0).val) hf
      have h1 := congrArg (fun f => (f 1).val) hf
      simp only [row_start0, row_start1, row_window0, row_window1] at h0 h1
      have hc0 := (hc 0).1
      rw [row_start0, row_window0] at hc0
      change ((idx (ix2 n (0 : Fin 1))).toInt + ((0 : ℕ) : ℤ)).toNat = b.val at h0
      change ((0 : ℤ) + (d'.val : ℤ)).toNat = d.val at h1
      refine ⟨by omega, Fin.ext (by omega)⟩
    · exact absurd h (by simp)
  · rintro ⟨ht, rfl⟩
    have hc : ∀ a, 0 ≤ (rowDims B D N wf).start (ix2 n d') idx a + (rowDims B D N wf).window (ix2 n d') a ∧
        (rowDims B D N wf).start (ix2 n d') idx a + (rowDims B D N wf).window (ix2 n d') a
          < (⟨2, ![B, D]⟩ : Shape).size a := by
      intro a
      match a with
      | ⟨0, _⟩ =>
        change 0 ≤ (rowDims B D N wf).start (ix2 n d') idx 0 + ((rowDims B D N wf).window (ix2 n d') 0 : ℕ) ∧
          (rowDims B D N wf).start (ix2 n d') idx 0 + ((rowDims B D N wf).window (ix2 n d') 0 : ℕ) < (B : ℤ)
        rw [row_start0, row_window0, ht]
        have := b.isLt
        omega
      | ⟨1, _⟩ =>
        change 0 ≤ (rowDims B D N wf).start (ix2 n d') idx 1 + ((rowDims B D N wf).window (ix2 n d') 1 : ℕ) ∧
          (rowDims B D N wf).start (ix2 n d') idx 1 + ((rowDims B D N wf).window (ix2 n d') 1 : ℕ) < (D : ℤ)
        rw [row_start1, row_window1]
        have := d'.isLt
        omega
    rw [dif_pos hc]
    congr 1
    funext a; refine Fin.ext ?_
    match a with
    | ⟨0, _⟩ =>
      change ((rowDims B D N wf).start (ix2 n d') idx 0 + ((rowDims B D N wf).window (ix2 n d') 0 : ℕ)).toNat = b.val
      rw [row_start0, row_window0, ht]; omega
    | ⟨1, _⟩ =>
      change ((rowDims B D N wf).start (ix2 n d') idx 1 + ((rowDims B D N wf).window (ix2 n d') 1 : ℕ)).toNat = d'.val
      rw [row_start1, row_window1]; omega

end Rows

/-- A row scatter-add read at `(b, d)`: the operand there plus column `d` of every update row whose index is `b`. -/
theorem rowScatterAdd_apply {B D N w : Nat}
    (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (b : Fin B) (d : Fin D) :
    Ideal.hostScatterAdd (rowDims B D N wf) x idx upd (ix2 b d)
      = x (ix2 b d) + ∑ n : Fin N, if (idx (ix2 n (0 : Fin 1))).toInt = (b.val : ℤ) then upd (ix2 n d) else 0 := by
  unfold Ideal.hostScatterAdd
  congr 1
  rw [Finset.sum_filter]
  refine (sum_idx2 _).trans ?_
  refine Finset.sum_congr rfl fun n _ => ?_
  simp only [row_resultIdx?_eq_some_iff]
  by_cases ht : (idx (ix2 n (0 : Fin 1))).toInt = (b.val : ℤ)
  · simp only [ht, true_and, if_true]
    rw [Finset.sum_ite_eq' Finset.univ d (fun d' => upd (ix2 n d'))]
    simp
  · simp only [ht, false_and, if_false]
    exact Finset.sum_const_zero

/-- The dimension numbers of an element scatter: operand `[B]`, scatter indices `[N, 1]`, updates `[N]`. -/
abbrev elemDims (B N : Nat)
    (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-! ### Elements: start, window and landing index of update `n` -/

section Elements
variable {B N w : Nat} (wf : ScatterDims.WF ⟨1, ![B]⟩ ⟨2, ![N, 1]⟩ ⟨1, ![N]⟩ [] [0] [0] 1)
  (idx : IVec ⟨2, ![N, 1]⟩ w)

/-- The window of update `n` starts at the signed value of scatter index `(n, 0)`. -/
theorem elem_start0 (n : Fin N) :
    (elemDims B N wf).start (ix1 n) idx 0 = (idx (ix2 n (0 : Fin 1))).toInt := by
  unfold ScatterDims.start
  rw [dif_pos (show (0 : Fin 1) ∈ (elemDims B N wf).scatterDimsToOperandDims from List.mem_singleton.mpr rfl)]
  have hsi : (elemDims B N wf).siIdx (ix1 n) ⟨List.idxOf (0 : Fin 1) (elemDims B N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The operand's one axis is an inserted window axis: the window coordinate is `0`. -/
theorem elem_window0 (j : (⟨1, ![N]⟩ : Shape).Idx) :
    (elemDims B N wf).window j 0 = 0 := by
  unfold ScatterDims.window
  have h : (0 : Fin 1) ∉ (elemDims B N wf).sKept := (show (0 : Fin 1) ∉ ([] : List (Fin 1)) from List.not_mem_nil)
  rw [dif_neg h]

/-- Update `n` lands at `b` exactly when its scatter index, read signed, is `b`. -/
theorem elem_resultIdx?_eq_some_iff (n : Fin N) (b : Fin B) :
    (elemDims B N wf).resultIdx? (ix1 n) idx = some (ix1 b)
      ↔ (idx (ix2 n (0 : Fin 1))).toInt = (b.val : ℤ) := by
  unfold ScatterDims.resultIdx?
  constructor
  · intro h
    split at h
    · rename_i hc
      have hf := Option.some.inj h
      have h0 := congrArg (fun f => (f 0).val) hf
      have hc0 := (hc 0).1
      rw [elem_start0, elem_window0] at hc0
      simp only [elem_start0, elem_window0] at h0
      change ((idx (ix2 n (0 : Fin 1))).toInt + ((0 : ℕ) : ℤ)).toNat = b.val at h0
      omega
    · exact absurd h (by simp)
  · intro ht
    have hc : ∀ a, 0 ≤ (elemDims B N wf).start (ix1 n) idx a + (elemDims B N wf).window (ix1 n) a ∧
        (elemDims B N wf).start (ix1 n) idx a + (elemDims B N wf).window (ix1 n) a
          < (⟨1, ![B]⟩ : Shape).size a := by
      intro a
      match a with
      | ⟨0, _⟩ =>
        change 0 ≤ (elemDims B N wf).start (ix1 n) idx 0 + ((elemDims B N wf).window (ix1 n) 0 : ℕ) ∧
          (elemDims B N wf).start (ix1 n) idx 0 + ((elemDims B N wf).window (ix1 n) 0 : ℕ) < (B : ℤ)
        rw [elem_start0, elem_window0, ht]
        have := b.isLt
        omega
    rw [dif_pos hc]
    congr 1
    funext a; refine Fin.ext ?_
    match a with
    | ⟨0, _⟩ =>
      change ((elemDims B N wf).start (ix1 n) idx 0 + ((elemDims B N wf).window (ix1 n) 0 : ℕ)).toNat = b.val
      rw [elem_start0, elem_window0, ht]; omega

end Elements

/-- An element scatter-add read at `b`: the operand there plus every update whose index is `b`. -/
theorem elemScatterAdd_apply {B N w : Nat}
    (wf : ScatterDims.WF ⟨1, ![B]⟩ ⟨2, ![N, 1]⟩ ⟨1, ![N]⟩ [] [0] [0] 1)
    (x : (⟨1, ![B]⟩ : Shape).Idx → EReal) (idx : IVec ⟨2, ![N, 1]⟩ w) (upd : (⟨1, ![N]⟩ : Shape).Idx → EReal)
    (b : Fin B) :
    Ideal.hostScatterAdd (elemDims B N wf) x idx upd (ix1 b)
      = x (ix1 b) + ∑ n : Fin N, if (idx (ix2 n (0 : Fin 1))).toInt = (b.val : ℤ) then upd (ix1 n) else 0 := by
  unfold Ideal.hostScatterAdd
  congr 1
  rw [Finset.sum_filter]
  refine (Equiv.sum_comp (idxEquiv1 (n := N)).symm _).symm.trans ?_
  refine Finset.sum_congr rfl fun n _ => ?_
  change (if (elemDims B N wf).resultIdx? (ix1 n) idx = some (ix1 b) then upd (ix1 n) else 0) = _
  simp only [elem_resultIdx?_eq_some_iff]

end Idealize.ShloMosaic.SegmentScatter

end
-- ==== Proof.Layer2R.lean ====
/-
  Convolution layer 2, the reference's side: its two result arrays read entry by entry over the extended reals.

  The reference gathers, for each of the 128000 positions of the symmetrised edge list, the source node's feature row,
  weighs it by the position's complex weight, and adds it into the target node's row (a sparse aggregate); then
  multiplies the features and the aggregate by the two 64 × 64 weight matrices, adds, and gates both parts by the sign
  of the real part. Row `n`, column `h` of the results are  gate(P n h, P n h)  and  gate(Q n h, P n h)  with
  P = x·w₀ + seg(cr·x[src] − ci·y[src])·w₁,  Q = y·w₀ + seg(cr·y[src] + ci·x[src])·w₁.
-/
import proofs.«405959_j54778012893400_3_alg».proof.Proof.RefReadP
import proofs.«405959_j54778012893400_3_alg».proof.Proof.Spec
import proofs.«405959_j54778012893400_3_alg».proof.Proof.SpecLemmas
import proofs.«405959_j54778012893400_3_alg».proof.Proof.LibTakeRows
import proofs.«405959_j54778012893400_3_alg».proof.Proof.LibSegmentScatter
import proofs.«405959_j54778012893400_3_alg».proof.Proof.LibIndexRange

set_option maxRecDepth 16384

open scoped BigOperators

noncomputable section

namespace Cert.Layer2

open Cert.ReferenceIdeal Cert.ReferenceIdeal.Gen Cert.ReferenceIdeal.ReadP
open Idealize.ShloMosaic Idealize.ShloMosaic.ValueIdx

/-! ## The layer's inputs, by name -/

/-- The source node of position `e` of the symmetrised edge list, as a signed integer, -/
abbrev srcI (x2 : (⟨S2x64000, .i32⟩ : BufTy).Contents (Elt Ideal)) (e : Fin 128000) : ℤ :=
  (val_main_v98 (F := Ideal) x2 (ix1 e)).toInt
/-- and its target node. -/
abbrev dstI (x2 : (⟨S2x64000, .i32⟩ : BufTy).Contents (Elt Ideal)) (e : Fin 128000) : ℤ :=
  (val_main_v99 (F := Ideal) x2 (ix1 e)).toInt

/-- The feature row a gather at position `e` reads: the source node clamped into the table. -/
def srcRow (x2 : (⟨S2x64000, .i32⟩ : BufTy).Contents (Elt Ideal)) (e : Fin 128000) : Fin 2000 :=
  ⟨min (srcI x2 e).toNat 1999, by omega⟩

theorem srcRow_def (x2 : (⟨S2x64000, .i32⟩ : BufTy).Contents (Elt Ideal)) (e : Fin 128000) :
    min (val_main_v98 (F := Ideal) x2 (ix1 e)).toInt.toNat 1999 = (srcRow x2 e).val := rfl

theorem srcRow_val (x2 : (⟨S2x64000, .i32⟩ : BufTy).Contents (Elt Ideal)) (e : Fin 128000)
    (h0 : 0 ≤ srcI x2 e) (h1 : srcI x2 e < 2000) : ((srcRow x2 e).val : ℤ) = srcI x2 e := by
  show ((min (srcI x2 e).toNat 1999 : ℕ) : ℤ) = srcI x2 e
  omega

/-! ## The source nodes are in range when the edge index is -/

theorem idxRow0 (e : Fin 64000) : idx_main_v0 (idx_main_v1 (ix1 e)) = ix2 (0 : Fin 2) e :=
  funext fun a => Fin.ext (by
    have he := e.isLt
    match a with
    | ⟨0, _⟩ => rfl
    | ⟨1, _⟩ => show e.val % 64000 = e.val; omega)
theorem idxRow1 (e : Fin 64000) : idx_main_v2 (idx_main_v3 (ix1 e)) = ix2 (1 : Fin 2) e :=
  funext fun a => Fin.ext (by
    have he := e.isLt
    match a with
    | ⟨0, _⟩ => rfl
    | ⟨1, _⟩ => show e.val % 64000 = e.val; omega)

/-- Row 0 of the edge index, -/
theorem row0_apply (x2 : (⟨S2x64000, .i32⟩ : BufTy).Contents (Elt Ideal)) (e : Fin 64000) :
    val_main_v1 (F := Ideal) x2 (ix1 e) = x2 (ix2 (0 : Fin 2) e) := by
  rw [val_main_v1_apply, val_main_v0_apply, idxRow0]
/-- and row 1. -/
theorem row1_apply (x2 : (⟨S2x64000, .i32⟩ : BufTy).Contents (Elt Ideal)) (e : Fin 64000) :
    val_main_v3 (F := Ideal) x2 (ix1 e) = x2 (ix2 (1 : Fin 2) e) := by
  rw [val_main_v3_apply, val_main_v2_apply, idxRow1]

/-- The source node of a position of the symmetrised list is an entry of the edge index: row 0's for the first
    64000 positions, row 1's for the last. -/
theorem src_entry (x2 : (⟨S2x64000, .i32⟩ : BufTy).Contents (Elt Ideal)) (e : Fin 128000) :
    ∃ (a : Fin 2) (j : Fin 64000), val_main_v98 (F := Ideal) x2 (ix1 e) = x2 (ix2 a j) := by
  unfold val_main_v98
  by_cases h : e.val < 64000
  · refine ⟨0, ⟨e.val, h⟩, Eq.trans ?_ (row0_apply x2 ⟨e.val, h⟩)⟩
    exact concatenate_pair_apply_left (0 : Fin S128000.rank) _ _ concatenates_S64000_S64000_S128000_d0 (ix1 e) rfl (ix1 ⟨e.val, h⟩)
      (fun b => by match b with | ⟨0, _⟩ => rfl)
  · have he := e.isLt
    refine ⟨1, ⟨e.val - 64000, by omega⟩, Eq.trans ?_ (row1_apply x2 ⟨e.val - 64000, by omega⟩)⟩
    exact concatenate_pair_apply_right (0 : Fin S128000.rank) _ _ concatenates_S64000_S64000_S128000_d0 (ix1 e) rfl rfl
      (ix1 ⟨e.val - 64000, by omega⟩)
      (fun b hb => by match b with | ⟨0, _⟩ => exact absurd rfl hb)
      (by show (e.val - 64000) + 64000 = e.val; omega)

theorem srcI_range (x2 : (⟨S2x64000, .i32⟩ : BufTy).Contents (Elt Ideal))
    (hr : ∀ a : Fin 2, ∀ e : Fin 64000, 0 ≤ (x2 (ix2 a e)).toInt ∧ (x2 (ix2 a e)).toInt < 2000) (e : Fin 128000) :
    0 ≤ srcI x2 e ∧ srcI x2 e < 2000 := by
  obtain ⟨a, j, h⟩ := src_entry x2 e
  show 0 ≤ (val_main_v98 (F := Ideal) x2 (ix1 e)).toInt ∧ (val_main_v98 (F := Ideal) x2 (ix1 e)).toInt < 2000
  rw [h]
  exact hr a j

/-! ## The reference's row gather and row scatter-add, at an entry -/

/-- A gather of rows of a [2000, 64] table at the 128000 start indices, at position `e`, column `k`: the table's row
    the start index names, clamped into the table. -/
theorem rowTake64 (y : (⟨S2000x64, .f32⟩ : BufTy).Contents (Elt Ideal)) (idx : (⟨S128000x1, .i32⟩ : BufTy).Contents (Elt Ideal))
    (e : Fin 128000) (k : Fin 64) (r : Fin 2000) (hr : min (idx (ix2 e (0 : Fin 1))).toInt.toNat 1999 = r.val) :
    Host.gather gather_S2000x64_S128000x1_S128000x64_1_0_n_n_0_1_164 y idx (ix2 e k) = y (ix2 r k) := by
  have hd : gather_S2000x64_S128000x1_S128000x64_1_0_n_n_0_1_164
      = TakeRows.rowDims 2000 64 128000 Facts₀.gather_S2000x64_S128000x1_S128000x64_1_0_n_n_0_1_164_wf := rfl
  rw [hd]
  refine (TakeRows.rowTake_apply (by decide) _ y idx e k).trans ?_
  refine congrArg y (funext fun a => Fin.ext ?_)
  match a with
  | ⟨0, _⟩ => exact hr
  | ⟨1, _⟩ => rfl

/-- A scatter-add of 128000 update rows into a zero [2000, 64] array, at row `n`, column `k`: the sum of the update
    rows whose index is `n`. -/
theorem rowScatter64 (z : FVec Ideal S2000x64 .f32) (idx : IVec S128000x1 32) (u : FVec Ideal S128000x64 .f32) (n : Fin 2000) (k : Fin 64) :
    Host.scatterAdd (F := Ideal) (φ := .f32) scatter_S2000x64_S128000x1_S128000x64_1_0_0_1 z idx u (ix2 n k)
      = z (ix2 n k) + ∑ e : Fin 128000, if (idx (ix2 e (0 : Fin 1))).toInt = (n.val : ℤ) then u (ix2 e k) else 0 := by
  have hd : scatter_S2000x64_S128000x1_S128000x64_1_0_0_1
      = SegmentScatter.rowDims 2000 64 128000 Facts₀.scatter_S2000x64_S128000x1_S128000x64_1_0_0_1_wf := rfl
  rw [hd]
  simp only [Host.scatterAdd]
  rw [Ideal.hostScatterAdd_def]
  exact SegmentScatter.rowScatterAdd_apply _ z idx u n k

/-! ## The gathers' start indices: the source nodes, made absolute -/

theorem idx144 (e : Fin 128000) : idx_main_v144 (ix2 e (0 : Fin 1)) = ix1 e :=
  funext fun a => Fin.ext (by match a with | ⟨0, _⟩ => rfl)
theorem idx151 (e : Fin 128000) : idx_main_v151 (ix2 e (0 : Fin 1)) = ix1 e :=
  funext fun a => Fin.ext (by match a with | ⟨0, _⟩ => rfl)
theorem idx161 (e : Fin 128000) : idx_main_v161 (ix2 e (0 : Fin 1)) = ix1 e :=
  funext fun a => Fin.ext (by match a with | ⟨0, _⟩ => rfl)
theorem idx171 (e : Fin 128000) : idx_main_v171 (ix2 e (0 : Fin 1)) = ix1 e :=
  funext fun a => Fin.ext (by match a with | ⟨0, _⟩ => rfl)

/-- A non-negative source node is its own absolute index. -/
theorem start144 (x2 : (⟨S2x64000, .i32⟩ : BufTy).Contents (Elt Ideal)) (e : Fin 128000) (hs : 0 ≤ srcI x2 e) :
    val_main_v144 (F := Ideal) x2 (ix2 e (0 : Fin 1)) = val_main_v98 (F := Ideal) x2 (ix1 e) := by
  rw [val_main_v144_apply, idx144, val_main_v143_apply, val_main_v140_apply, val_main_v142_apply, val_main_v139_apply,
    val_main_v141_apply, val_main_c_25_apply, val_main_c_26_apply]
  exact IndexRange.select_wrap_eq _ hs

theorem start151 (x2 : (⟨S2x64000, .i32⟩ : BufTy).Contents (Elt Ideal)) (e : Fin 128000) (hs : 0 ≤ srcI x2 e) :
    val_main_v151 (F := Ideal) x2 (ix2 e (0 : Fin 1)) = val_main_v98 (F := Ideal) x2 (ix1 e) := by
  rw [val_main_v151_apply, idx151, val_main_v150_apply, val_main_v147_apply, val_main_v149_apply, val_main_v146_apply,
    val_main_v148_apply, val_main_c_27_apply, val_main_c_28_apply]
  exact IndexRange.select_wrap_eq _ hs

/-! ## The gathered feature rows -/

section Args
variable (x0 x1 : (⟨S2000x512, .f32⟩ : BufTy).Contents (Elt Ideal)) (x2 : (⟨S2x64000, .i32⟩ : BufTy).Contents (Elt Ideal))
  (x5 : (⟨S64000, .f32⟩ : BufTy).Contents (Elt Ideal)) (x6 : (⟨S2x512x64, .f32⟩ : BufTy).Contents (Elt Ideal))
  (x7 : (⟨S2x64x64, .f32⟩ : BufTy).Contents (Elt Ideal))

/-- The layer's input features (the first layer's results), the positions' complex weights and the layer's weights. -/
abbrev featRe (n : Fin 2000) (k : Fin 64) : EReal := val_main_v96 (F := Ideal) x0 x1 x2 x5 x6 (ix2 n k)
abbrev featIm (n : Fin 2000) (k : Fin 64) : EReal := val_main_v97 (F := Ideal) x0 x1 x2 x5 x6 (ix2 n k)
abbrev edgeRe (e : Fin 128000) : EReal := val_main_v135 (F := Ideal) x2 x5 (ix1 e)
abbrev edgeIm (e : Fin 128000) : EReal := val_main_v138 (F := Ideal) x2 x5 (ix1 e)
abbrev wSelf (k h : Fin 64) : EReal := x7 (ix3 (0 : Fin 2) k h)
abbrev wAgg (k h : Fin 64) : EReal := x7 (ix3 (1 : Fin 2) k h)

theorem gather145 (e : Fin 128000) (k : Fin 64) (hs : 0 ≤ srcI x2 e) :
    val_main_v145 (F := Ideal) x0 x1 x2 x5 x6 (ix2 e k) = featRe x0 x1 x2 x5 x6 (srcRow x2 e) k := by
  unfold val_main_v145
  refine rowTake64 _ _ e k (srcRow x2 e) ?_
  rw [start144 x2 e hs]
  exact srcRow_def x2 e

theorem gather152 (e : Fin 128000) (k : Fin 64) (hs : 0 ≤ srcI x2 e) :
    val_main_v152 (F := Ideal) x0 x1 x2 x5 x6 (ix2 e k) = featIm x0 x1 x2 x5 x6 (srcRow x2 e) k := by
  unfold val_main_v152
  refine rowTake64 _ _ e k (srcRow x2 e) ?_
  rw [start151 x2 e hs]
  exact srcRow_def x2 e

/-! ## The update rows and the two sparse aggregates -/

theorem idx154 (e : Fin 128000) (k : Fin 64) : idx_main_v153 (idx_main_v154 (ix2 e k)) = ix1 e :=
  funext fun a => Fin.ext (by match a with | ⟨0, _⟩ => rfl)
theorem idx157 (e : Fin 128000) (k : Fin 64) : idx_main_v156 (idx_main_v157 (ix2 e k)) = ix1 e :=
  funext fun a => Fin.ext (by match a with | ⟨0, _⟩ => rfl)
theorem idx164 (e : Fin 128000) (k : Fin 64) : idx_main_v163 (idx_main_v164 (ix2 e k)) = ix1 e :=
  funext fun a => Fin.ext (by match a with | ⟨0, _⟩ => rfl)
theorem idx167 (e : Fin 128000) (k : Fin 64) : idx_main_v166 (idx_main_v167 (ix2 e k)) = ix1 e :=
  funext fun a => Fin.ext (by match a with | ⟨0, _⟩ => rfl)

/-- The real update row of position `e`: the weight times the source's features, complex product, real part. -/
theorem upd159 (e : Fin 128000) (k : Fin 64) (hs : 0 ≤ srcI x2 e) :
    val_main_v159 (F := Ideal) x0 x1 x2 x5 x6 (ix2 e k)
      = edgeRe x2 x5 e * featRe x0 x1 x2 x5 x6 (srcRow x2 e) k - edgeIm x2 x5 e * featIm x0 x1 x2 x5 x6 (srcRow x2 e) k := by
  rw [val_main_v159_apply, val_main_v155_apply, val_main_v158_apply, val_main_v154_apply, val_main_v153_apply,
    val_main_v157_apply, val_main_v156_apply, idx154, idx157, gather145 x0 x1 x2 x5 x6 e k hs, gather152 x0 x1 x2 x5 x6 e k hs]
  rfl

/-- The imaginary update row. -/
theorem upd169 (e : Fin 128000) (k : Fin 64) (hs : 0 ≤ srcI x2 e) :
    val_main_v169 (F := Ideal) x0 x1 x2 x5 x6 (ix2 e k)
      = edgeRe x2 x5 e * featIm x0 x1 x2 x5 x6 (srcRow x2 e) k + edgeIm x2 x5 e * featRe x0 x1 x2 x5 x6 (srcRow x2 e) k := by
  rw [val_main_v169_apply, val_main_v165_apply, val_main_v168_apply, val_main_v164_apply, val_main_v163_apply,
    val_main_v167_apply, val_main_v166_apply, idx164, idx167, gather145 x0 x1 x2 x5 x6 e k hs, gather152 x0 x1 x2 x5 x6 e k hs]
  rfl

/-- The sparse aggregates' contributions per position. -/
abbrev contribRe (e : Fin 128000) (k : Fin 64) : EReal :=
  edgeRe x2 x5 e * featRe x0 x1 x2 x5 x6 (srcRow x2 e) k - edgeIm x2 x5 e * featIm x0 x1 x2 x5 x6 (srcRow x2 e) k
abbrev contribIm (e : Fin 128000) (k : Fin 64) : EReal :=
  edgeRe x2 x5 e * featIm x0 x1 x2 x5 x6 (srcRow x2 e) k + edgeIm x2 x5 e * featRe x0 x1 x2 x5 x6 (srcRow x2 e) k

/-- The real aggregate at node `n`, feature `k`: the contributions of the positions whose target is `n`. -/
theorem seg162 (n : Fin 2000) (k : Fin 64) (hs : ∀ e, 0 ≤ srcI x2 e) :
    val_main_v162 (F := Ideal) x0 x1 x2 x5 x6 (ix2 n k) = Spec.seg (dstI x2) (contribRe x0 x1 x2 x5 x6) n k := by
  unfold val_main_v162 Spec.seg
  rw [rowScatter64, val_main_v160_apply, val_main_cst_29_apply, Ideal.ofBits_def, Ideal.ofBits_zero_f32]
  refine congrArg _ (Finset.sum_congr rfl fun e _ => ?_)
  rw [val_main_v161_apply, idx161, upd159 x0 x1 x2 x5 x6 e k (hs e)]

theorem seg172 (n : Fin 2000) (k : Fin 64) (hs : ∀ e, 0 ≤ srcI x2 e) :
    val_main_v172 (F := Ideal) x0 x1 x2 x5 x6 (ix2 n k) = Spec.seg (dstI x2) (contribIm x0 x1 x2 x5 x6) n k := by
  unfold val_main_v172 Spec.seg
  rw [rowScatter64, val_main_v170_apply, val_main_cst_30_apply, Ideal.ofBits_def, Ideal.ofBits_zero_f32]
  refine congrArg _ (Finset.sum_congr rfl fun e _ => ?_)
  rw [val_main_v171_apply, idx171, upd169 x0 x1 x2 x5 x6 e k (hs e)]

/-! ## The weights and the four products -/

theorem idxW174 (k h : Fin 64) : idx_main_v173 (idx_main_v174 (ix2 k h)) = ix3 (0 : Fin 2) k h :=
  funext fun a => Fin.ext (by
    have hk := k.isLt; have hh := h.isLt
    match a with
    | ⟨0, _⟩ => rfl
    | ⟨1, _⟩ => show (k.val * 64 + h.val) / 64 % 64 = k.val; omega
    | ⟨2, _⟩ => show (k.val * 64 + h.val) % 64 = h.val; omega)
theorem idxW177 (k h : Fin 64) : idx_main_v176 (idx_main_v177 (ix2 k h)) = ix3 (1 : Fin 2) k h :=
  funext fun a => Fin.ext (by
    have hk := k.isLt; have hh := h.isLt
    match a with
    | ⟨0, _⟩ => rfl
    | ⟨1, _⟩ => show (k.val * 64 + h.val) / 64 % 64 = k.val; omega
    | ⟨2, _⟩ => show (k.val * 64 + h.val) % 64 = h.val; omega)
theorem idxW181 (k h : Fin 64) : idx_main_v180 (idx_main_v181 (ix2 k h)) = ix3 (0 : Fin 2) k h :=
  funext fun a => Fin.ext (by
    have hk := k.isLt; have hh := h.isLt
    match a with
    | ⟨0, _⟩ => rfl
    | ⟨1, _⟩ => show (k.val * 64 + h.val) / 64 % 64 = k.val; omega
    | ⟨2, _⟩ => show (k.val * 64 + h.val) % 64 = h.val; omega)
theorem idxW184 (k h : Fin 64) : idx_main_v183 (idx_main_v184 (ix2 k h)) = ix3 (1 : Fin 2) k h :=
  funext fun a => Fin.ext (by
    have hk := k.isLt; have hh := h.isLt
    match a with
    | ⟨0, _⟩ => rfl
    | ⟨1, _⟩ => show (k.val * 64 + h.val) / 64 % 64 = k.val; omega
    | ⟨2, _⟩ => show (k.val * 64 + h.val) % 64 = h.val; omega)

theorem w174 (k h : Fin 64) : val_main_v174 (F := Ideal) x7 (ix2 k h) = wSelf x7 k h := by
  rw [val_main_v174_apply, val_main_v173_apply, idxW174]
theorem w177 (k h : Fin 64) : val_main_v177 (F := Ideal) x7 (ix2 k h) = wAgg x7 k h := by
  rw [val_main_v177_apply, val_main_v176_apply, idxW177]
theorem w181 (k h : Fin 64) : val_main_v181 (F := Ideal) x7 (ix2 k h) = wSelf x7 k h := by
  rw [val_main_v181_apply, val_main_v180_apply, idxW181]
theorem w184 (k h : Fin 64) : val_main_v184 (F := Ideal) x7 (ix2 k h) = wAgg x7 k h := by
  rw [val_main_v184_apply, val_main_v183_apply, idxW184]

theorem lidx175 (n : Fin 2000) (h k : Fin 64) : lidx_main_v175 (ix2 n h) k = ix2 n k :=
  funext fun a => Fin.ext (by match a with | ⟨0, _⟩ => rfl | ⟨1, _⟩ => rfl)
theorem ridx175 (n : Fin 2000) (h k : Fin 64) : ridx_main_v175 (ix2 n h) k = ix2 k h :=
  funext fun a => Fin.ext (by match a with | ⟨0, _⟩ => rfl | ⟨1, _⟩ => rfl)
theorem lidx178 (n : Fin 2000) (h k : Fin 64) : lidx_main_v178 (ix2 n h) k = ix2 n k :=
  funext fun a => Fin.ext (by match a with | ⟨0, _⟩ => rfl | ⟨1, _⟩ => rfl)
theorem ridx178 (n : Fin 2000) (h k : Fin 64) : ridx_main_v178 (ix2 n h) k = ix2 k h :=
  funext fun a => Fin.ext (by match a with | ⟨0, _⟩ => rfl | ⟨1, _⟩ => rfl)
theorem lidx182 (n : Fin 2000) (h k : Fin 64) : lidx_main_v182 (ix2 n h) k = ix2 n k :=
  funext fun a => Fin.ext (by match a with | ⟨0, _⟩ => rfl | ⟨1, _⟩ => rfl)
theorem ridx182 (n : Fin 2000) (h k : Fin 64) : ridx_main_v182 (ix2 n h) k = ix2 k h :=
  funext fun a => Fin.ext (by match a with | ⟨0, _⟩ => rfl | ⟨1, _⟩ => rfl)
theorem lidx185 (n : Fin 2000) (h k : Fin 64) : lidx_main_v185 (ix2 n h) k = ix2 n k :=
  funext fun a => Fin.ext (by match a with | ⟨0, _⟩ => rfl | ⟨1, _⟩ => rfl)
theorem ridx185 (n : Fin 2000) (h k : Fin 64) : ridx_main_v185 (ix2 n h) k = ix2 k h :=
  funext fun a => Fin.ext (by match a with | ⟨0, _⟩ => rfl | ⟨1, _⟩ => rfl)

/-- The layer's real part before the gate, -/
def refRe (n : Fin 2000) (h : Fin 64) : EReal :=
  Spec.pre (featRe x0 x1 x2 x5 x6) (Spec.seg (dstI x2) (contribRe x0 x1 x2 x5 x6)) (wSelf x7) (wAgg x7) n h
/-- and its imaginary part. -/
def refIm (n : Fin 2000) (h : Fin 64) : EReal :=
  Spec.pre (featIm x0 x1 x2 x5 x6) (Spec.seg (dstI x2) (contribIm x0 x1 x2 x5 x6)) (wSelf x7) (wAgg x7) n h

theorem pre179 (n : Fin 2000) (h : Fin 64) (hs : ∀ e, 0 ≤ srcI x2 e) :
    val_main_v179 (F := Ideal) x0 x1 x2 x5 x6 x7 (ix2 n h) = refRe x0 x1 x2 x5 x6 x7 n h := by
  unfold refRe Spec.pre
  rw [val_main_v179_apply, val_main_v175_apply, val_main_v178_apply, Ideal.addf_def]
  refine congrArg₂ (· + ·) (Finset.sum_congr rfl fun k _ => ?_) (Finset.sum_congr rfl fun k _ => ?_)
  · rw [lidx175, ridx175, w174]
  · rw [lidx178, ridx178, w177, seg162 x0 x1 x2 x5 x6 n k hs]

theorem pre186 (n : Fin 2000) (h : Fin 64) (hs : ∀ e, 0 ≤ srcI x2 e) :
    val_main_v186 (F := Ideal) x0 x1 x2 x5 x6 x7 (ix2 n h) = refIm x0 x1 x2 x5 x6 x7 n h := by
  unfold refIm Spec.pre
  rw [val_main_v186_apply, val_main_v182_apply, val_main_v185_apply, Ideal.addf_def]
  refine congrArg₂ (· + ·) (Finset.sum_congr rfl fun k _ => ?_) (Finset.sum_congr rfl fun k _ => ?_)
  · rw [lidx182, ridx182, w181]
  · rw [lidx185, ridx185, w184, seg172 x0 x1 x2 x5 x6 n k hs]

/-! ## The gate and the two results -/

/-- The mask: 1 where the real part is non-negative, 0 elsewhere. -/
theorem mask189 (i : S2000x64.Idx) :
    val_main_v189 (F := Ideal) x0 x1 x2 x5 x6 x7 i = if 0 ≤ val_main_v179 (F := Ideal) x0 x1 x2 x5 x6 x7 i then 1 else 0 := by
  rw [val_main_v189_apply, val_main_v188_apply, val_main_v187_apply, val_main_cst_31_apply]
  generalize val_main_v179 (F := Ideal) x0 x1 x2 x5 x6 x7 i = g
  show (((Ideal.cmp .oge g (Ideal.ofBits .f32 0x00000000#32)).toNat : ℝ) : EReal) = _
  rw [Ideal.ofBits_zero_f32]
  unfold Ideal.cmp
  by_cases h : (0 : EReal) ≤ g
  · rw [if_pos h]; simp only [h, decide_true]
    have e : (BitVec.ofBool true).toNat = 1 := by decide
    rw [e]; simp
  · rw [if_neg h]; simp only [h, decide_false]
    have e : (BitVec.ofBool false).toNat = 0 := by decide
    rw [e]; simp

/-- The reference's real result at node `n`, feature `h`. -/
theorem ref190 (n : Fin 2000) (h : Fin 64) (hs : ∀ e, 0 ≤ srcI x2 e) :
    val_main_v190 (F := Ideal) x0 x1 x2 x5 x6 x7 (ix2 n h) = Spec.gate (refRe x0 x1 x2 x5 x6 x7 n h) (refRe x0 x1 x2 x5 x6 x7 n h) := by
  rw [val_main_v190_apply, mask189, pre179 x0 x1 x2 x5 x6 x7 n h hs]
  rfl

/-- The reference's imaginary result. -/
theorem ref191 (n : Fin 2000) (h : Fin 64) (hs : ∀ e, 0 ≤ srcI x2 e) :
    val_main_v191 (F := Ideal) x0 x1 x2 x5 x6 x7 (ix2 n h) = Spec.gate (refIm x0 x1 x2 x5 x6 x7 n h) (refRe x0 x1 x2 x5 x6 x7 n h) := by
  rw [val_main_v191_apply, mask189, pre179 x0 x1 x2 x5 x6 x7 n h hs, pre186 x0 x1 x2 x5 x6 x7 n h hs]
  rfl

/-! ## The results are real numbers when the layer's inputs are -/

section Real
variable (hcr : ∀ e, ∃ r : ℝ, edgeRe x2 x5 e = (r : EReal)) (hci : ∀ e, ∃ r : ℝ, edgeIm x2 x5 e = (r : EReal))
  (hx : ∀ n k, ∃ r : ℝ, featRe x0 x1 x2 x5 x6 n k = (r : EReal)) (hy : ∀ n k, ∃ r : ℝ, featIm x0 x1 x2 x5 x6 n k = (r : EReal))
  (hW0 : ∀ k h, ∃ r : ℝ, wSelf x7 k h = (r : EReal)) (hW1 : ∀ k h, ∃ r : ℝ, wAgg x7 k h = (r : EReal))
include hcr hci hx hy

theorem contribRe_real (e : Fin 128000) (k : Fin 64) : ∃ r : ℝ, contribRe x0 x1 x2 x5 x6 e k = (r : EReal) :=
  ConvCore.real_sub _ _ (ConvCore.real_mul _ _ (hcr e) (hx _ k)) (ConvCore.real_mul _ _ (hci e) (hy _ k))

theorem contribIm_real (e : Fin 128000) (k : Fin 64) : ∃ r : ℝ, contribIm x0 x1 x2 x5 x6 e k = (r : EReal) :=
  ConvCore.real_add _ _ (ConvCore.real_mul _ _ (hcr e) (hy _ k)) (ConvCore.real_mul _ _ (hci e) (hx _ k))

include hW0 hW1

theorem refRe_real (n : Fin 2000) (h : Fin 64) : ∃ r : ℝ, refRe x0 x1 x2 x5 x6 x7 n h = (r : EReal) :=
  Spec.pre_real _ _ _ _ hx (fun n k => Spec.seg_real _ _ (contribRe_real x0 x1 x2 x5 x6 hcr hci hx hy) n k) hW0 hW1 n h

theorem refIm_real (n : Fin 2000) (h : Fin 64) : ∃ r : ℝ, refIm x0 x1 x2 x5 x6 x7 n h = (r : EReal) :=
  Spec.pre_real _ _ _ _ hy (fun n k => Spec.seg_real _ _ (contribIm_real x0 x1 x2 x5 x6 hcr hci hx hy) n k) hW0 hW1 n h

/-- Every entry of the reference's real result is a real number, -/
theorem ref190_real (hs : ∀ e, 0 ≤ srcI x2 e) (i : S2000x64.Idx) :
    ∃ r : ℝ, val_main_v190 (F := Ideal) x0 x1 x2 x5 x6 x7 i = (r : EReal) := by
  obtain ⟨n, h, rfl⟩ : ∃ (n : Fin 2000) (h : Fin 64), i = ix2 n h := ⟨i 0, i 1, eq_ix2 i⟩
  rw [ref190 x0 x1 x2 x5 x6 x7 n h hs]
  exact Spec.gate_real _ _ (refRe_real x0 x1 x2 x5 x6 x7 hcr hci hx hy hW0 hW1 n h)

/-- and of its imaginary result. -/
theorem ref191_real (hs : ∀ e, 0 ≤ srcI x2 e) (i : S2000x64.Idx) :
    ∃ r : ℝ, val_main_v191 (F := Ideal) x0 x1 x2 x5 x6 x7 i = (r : EReal) := by
  obtain ⟨n, h, rfl⟩ : ∃ (n : Fin 2000) (h : Fin 64), i = ix2 n h := ⟨i 0, i 1, eq_ix2 i⟩
  rw [ref191 x0 x1 x2 x5 x6 x7 n h hs]
  exact Spec.gate_real _ _ (refIm_real x0 x1 x2 x5 x6 x7 hcr hci hx hy hW0 hW1 n h)

end Real

end Args

end Cert.Layer2

end
-- ==== Proof.Layer2.lean ====
/-
  Convolution layer 2: the kernel's Pallas call 1 leaves in its two output arrays the reference's two layer-2
  results, whenever the arrays its windows read hold, when the call is entered, the dense operator matrices of the
  symmetrised edge list, the layer's input features and the layer's two weight matrices.

  The kernel multiplies by the dense 2000 × 2000 matrices; the reference sums over the edges that end at each node.
  The two agree because the dense matrix's entry (n, s) is the sum of the weights of the edges from s to n, all
  quantities being real numbers (so that the sums may be exchanged) and every source node lying in [0, 2000).
-/
import proofs.«405959_j54778012893400_3_alg».proof.Proof.Layer2K
import proofs.«405959_j54778012893400_3_alg».proof.Proof.Layer2R
import proofs.«405959_j54778012893400_3_alg».proof.Proof.SpecLemmas

set_option maxRecDepth 16384

open scoped BigOperators

noncomputable section

namespace Cert.Layer2

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal.ReadP (val_main_v96 val_main_v97 val_main_v135 val_main_v138 val_main_v190 val_main_v191)

section Join
variable (V : (c : Dev nD) → (b : Ref sig .tc) → Buf (Elt Ideal) ((c : Thread nD τ).loc b)) (c : Dev nD)
variable (x0 x1 : (⟨Cert.ReferenceIdeal.S2000x512, .f32⟩ : BufTy).Contents (Elt Ideal)) (x2 : (⟨Cert.ReferenceIdeal.S2x64000, .i32⟩ : BufTy).Contents (Elt Ideal))
  (x5 : (⟨Cert.ReferenceIdeal.S64000, .f32⟩ : BufTy).Contents (Elt Ideal)) (x6 : (⟨Cert.ReferenceIdeal.S2x512x64, .f32⟩ : BufTy).Contents (Elt Ideal))
  (x7 : (⟨Cert.ReferenceIdeal.S2x64x64, .f32⟩ : BufTy).Contents (Elt Ideal))

section Pointwise
variable (hA : ∀ n s : Fin 2000, (V c main_v76 : S2000x2000.Idx → EReal) (ix2 n s) = Spec.adj (dstI x2) (srcI x2) (edgeRe x2 x5) n s)
  (hB : ∀ n s : Fin 2000, (V c main_v77 : S2000x2000.Idx → EReal) (ix2 n s) = Spec.adj (dstI x2) (srcI x2) (edgeIm x2 x5) n s)
  (hX : ∀ (n : Fin 2000) (k : Fin 64), (V c main_v87 : S2000x64.Idx → EReal) (ix2 n k) = featRe x0 x1 x2 x5 x6 n k)
  (hY : ∀ (n : Fin 2000) (k : Fin 64), (V c main_v88 : S2000x64.Idx → EReal) (ix2 n k) = featIm x0 x1 x2 x5 x6 n k)
  (hw0 : ∀ k h : Fin 64, (V c main_v91 : S64x64.Idx → EReal) (ix2 k h) = wSelf x7 k h)
  (hw1 : ∀ k h : Fin 64, (V c main_v94 : S64x64.Idx → EReal) (ix2 k h) = wAgg x7 k h)
  (hsrc : ∀ e, 0 ≤ srcI x2 e ∧ srcI x2 e < 2000)
  (hcr : ∀ e, ∃ r : ℝ, edgeRe x2 x5 e = (r : EReal)) (hci : ∀ e, ∃ r : ℝ, edgeIm x2 x5 e = (r : EReal))
  (hx : ∀ n k, ∃ r : ℝ, featRe x0 x1 x2 x5 x6 n k = (r : EReal)) (hy : ∀ n k, ∃ r : ℝ, featIm x0 x1 x2 x5 x6 n k = (r : EReal))
include hA hB hX hY hw0 hw1 hsrc hcr hci hx hy

/-- The kernel's real part before the gate is the reference's: dense aggregate = sparse aggregate. -/
theorem preRe_eq_refRe (n : Fin 2000) (h : Fin 64) :
    preRe (V c main_v76) (V c main_v77) (V c main_v87) (V c main_v88) (V c main_v91) (V c main_v94) n h
      = refRe x0 x1 x2 x5 x6 x7 n h := by
  unfold preRe refRe
  have eA : (fun n s : Fin 2000 => (V c main_v76 : S2000x2000.Idx → EReal) (ix2 n s)) = Spec.adj (dstI x2) (srcI x2) (edgeRe x2 x5) :=
    funext fun n => funext fun s => hA n s
  have eB : (fun n s : Fin 2000 => (V c main_v77 : S2000x2000.Idx → EReal) (ix2 n s)) = Spec.adj (dstI x2) (srcI x2) (edgeIm x2 x5) :=
    funext fun n => funext fun s => hB n s
  have eX : (fun (n : Fin 2000) (k : Fin 64) => (V c main_v87 : S2000x64.Idx → EReal) (ix2 n k)) = featRe x0 x1 x2 x5 x6 :=
    funext fun n => funext fun k => hX n k
  have eY : (fun (n : Fin 2000) (k : Fin 64) => (V c main_v88 : S2000x64.Idx → EReal) (ix2 n k)) = featIm x0 x1 x2 x5 x6 :=
    funext fun n => funext fun k => hY n k
  have e0 : (fun k h : Fin 64 => (V c main_v91 : S64x64.Idx → EReal) (ix2 k h)) = wSelf x7 := funext fun k => funext fun h => hw0 k h
  have e1 : (fun k h : Fin 64 => (V c main_v94 : S64x64.Idx → EReal) (ix2 k h)) = wAgg x7 := funext fun k => funext fun h => hw1 k h
  rw [eA, eB, eX, eY, e0, e1]
  have hT : Spec.denseRe (Spec.adj (dstI x2) (srcI x2) (edgeRe x2 x5)) (Spec.adj (dstI x2) (srcI x2) (edgeIm x2 x5))
      (featRe x0 x1 x2 x5 x6) (featIm x0 x1 x2 x5 x6) = Spec.seg (dstI x2) (contribRe x0 x1 x2 x5 x6) :=
    funext fun n => funext fun k => Spec.denseRe_eq_seg (dstI x2) (srcI x2) (srcRow x2)
      (fun e => srcRow_val x2 e (hsrc e).1 (hsrc e).2) (edgeRe x2 x5) (edgeIm x2 x5) (featRe x0 x1 x2 x5 x6) (featIm x0 x1 x2 x5 x6) hcr hci hx hy n k
  rw [hT]

theorem preIm_eq_refIm (n : Fin 2000) (h : Fin 64) :
    preIm (V c main_v76) (V c main_v77) (V c main_v87) (V c main_v88) (V c main_v91) (V c main_v94) n h
      = refIm x0 x1 x2 x5 x6 x7 n h := by
  unfold preIm refIm
  have eA : (fun n s : Fin 2000 => (V c main_v76 : S2000x2000.Idx → EReal) (ix2 n s)) = Spec.adj (dstI x2) (srcI x2) (edgeRe x2 x5) :=
    funext fun n => funext fun s => hA n s
  have eB : (fun n s : Fin 2000 => (V c main_v77 : S2000x2000.Idx → EReal) (ix2 n s)) = Spec.adj (dstI x2) (srcI x2) (edgeIm x2 x5) :=
    funext fun n => funext fun s => hB n s
  have eX : (fun (n : Fin 2000) (k : Fin 64) => (V c main_v87 : S2000x64.Idx → EReal) (ix2 n k)) = featRe x0 x1 x2 x5 x6 :=
    funext fun n => funext fun k => hX n k
  have eY : (fun (n : Fin 2000) (k : Fin 64) => (V c main_v88 : S2000x64.Idx → EReal) (ix2 n k)) = featIm x0 x1 x2 x5 x6 :=
    funext fun n => funext fun k => hY n k
  have e0 : (fun k h : Fin 64 => (V c main_v91 : S64x64.Idx → EReal) (ix2 k h)) = wSelf x7 := funext fun k => funext fun h => hw0 k h
  have e1 : (fun k h : Fin 64 => (V c main_v94 : S64x64.Idx → EReal) (ix2 k h)) = wAgg x7 := funext fun k => funext fun h => hw1 k h
  rw [eA, eB, eX, eY, e0, e1]
  have hT : Spec.denseIm (Spec.adj (dstI x2) (srcI x2) (edgeRe x2 x5)) (Spec.adj (dstI x2) (srcI x2) (edgeIm x2 x5))
      (featRe x0 x1 x2 x5 x6) (featIm x0 x1 x2 x5 x6) = Spec.seg (dstI x2) (contribIm x0 x1 x2 x5 x6) :=
    funext fun n => funext fun k => Spec.denseIm_eq_seg (dstI x2) (srcI x2) (srcRow x2)
      (fun e => srcRow_val x2 e (hsrc e).1 (hsrc e).2) (edgeRe x2 x5) (edgeIm x2 x5) (featRe x0 x1 x2 x5 x6) (featIm x0 x1 x2 x5 x6) hcr hci hx hy n k
  rw [hT]

/-- The first output array after the call is the reference's real result, -/
theorem arrAt8_eq_ref :
    ((dat1 (F := Ideal) V c).arrAt 8 cfg1.N : S2000x64.Idx → EReal) = val_main_v190 (F := Ideal) x0 x1 x2 x5 x6 x7 := by
  rw [arrAt8]
  funext i
  obtain ⟨n, h, rfl⟩ : ∃ (n : Fin 2000) (h : Fin 64), i = ix2 n h := ⟨i 0, i 1, eq_ix2 i⟩
  rw [outRe_apply, ref190 x0 x1 x2 x5 x6 x7 n h (fun e => (hsrc e).1),
    preRe_eq_refRe V c x0 x1 x2 x5 x6 x7 hA hB hX hY hw0 hw1 hsrc hcr hci hx hy n h]

/-- and the second its imaginary result. -/
theorem arrAt9_eq_ref :
    ((dat1 (F := Ideal) V c).arrAt 9 cfg1.N : S2000x64.Idx → EReal) = val_main_v191 (F := Ideal) x0 x1 x2 x5 x6 x7 := by
  rw [arrAt9]
  funext i
  obtain ⟨n, h, rfl⟩ : ∃ (n : Fin 2000) (h : Fin 64), i = ix2 n h := ⟨i 0, i 1, eq_ix2 i⟩
  rw [outIm_apply, ref191 x0 x1 x2 x5 x6 x7 n h (fun e => (hsrc e).1),
    preRe_eq_refRe V c x0 x1 x2 x5 x6 x7 hA hB hX hY hw0 hw1 hsrc hcr hci hx hy n h,
    preIm_eq_refIm V c x0 x1 x2 x5 x6 x7 hA hB hX hY hw0 hw1 hsrc hcr hci hx hy n h]

end Pointwise

/-- CONVOLUTION LAYER 2. If, when Pallas call 1 is entered, the two operator arrays hold the dense real and imaginary
    operator matrices of the symmetrised edge list, the two feature arrays the layer's input features and the two weight
    arrays the two slices of the layer's weights; if every entry of the edge index is in [0, 2000) and the edge
    weights' parts, the features and the weights are real numbers: then after the call its two output arrays are the
    reference's real and imaginary layer-2 results, and every entry of those is a real number. -/
theorem layer2
    (hA : ∀ n s : Fin 2000, (V c main_v76 : S2000x2000.Idx → EReal) (ix2 n s) = Spec.adj (dstI x2) (srcI x2) (edgeRe x2 x5) n s)
    (hB : ∀ n s : Fin 2000, (V c main_v77 : S2000x2000.Idx → EReal) (ix2 n s) = Spec.adj (dstI x2) (srcI x2) (edgeIm x2 x5) n s)
    (hX : (V c main_v87 : S2000x64.Idx → EReal) = val_main_v96 (F := Ideal) x0 x1 x2 x5 x6)
    (hY : (V c main_v88 : S2000x64.Idx → EReal) = val_main_v97 (F := Ideal) x0 x1 x2 x5 x6)
    (hw0 : ∀ k h : Fin 64, (V c main_v91 : S64x64.Idx → EReal) (ix2 k h) = x7 (ix3 (0 : Fin 2) k h))
    (hw1 : ∀ k h : Fin 64, (V c main_v94 : S64x64.Idx → EReal) (ix2 k h) = x7 (ix3 (1 : Fin 2) k h))
    (hr : ∀ a : Fin 2, ∀ e : Fin 64000, 0 ≤ (x2 (ix2 a e)).toInt ∧ (x2 (ix2 a e)).toInt < 2000)
    (hcr : ∀ e : Fin 128000, ∃ r : ℝ, val_main_v135 (F := Ideal) x2 x5 (ix1 e) = (r : EReal))
    (hci : ∀ e : Fin 128000, ∃ r : ℝ, val_main_v138 (F := Ideal) x2 x5 (ix1 e) = (r : EReal))
    (hx : ∀ (n : Fin 2000) (k : Fin 64), ∃ r : ℝ, val_main_v96 (F := Ideal) x0 x1 x2 x5 x6 (ix2 n k) = (r : EReal))
    (hy : ∀ (n : Fin 2000) (k : Fin 64), ∃ r : ℝ, val_main_v97 (F := Ideal) x0 x1 x2 x5 x6 (ix2 n k) = (r : EReal))
    (hW0 : ∀ k h : Fin 64, ∃ r : ℝ, x7 (ix3 (0 : Fin 2) k h) = (r : EReal))
    (hW1 : ∀ k h : Fin 64, ∃ r : ℝ, x7 (ix3 (1 : Fin 2) k h) = (r : EReal)) :
    ((dat1 (F := Ideal) V c).arrAt 8 cfg1.N : S2000x64.Idx → EReal) = val_main_v190 (F := Ideal) x0 x1 x2 x5 x6 x7
    ∧ ((dat1 (F := Ideal) V c).arrAt 9 cfg1.N : S2000x64.Idx → EReal) = val_main_v191 (F := Ideal) x0 x1 x2 x5 x6 x7
    ∧ (∀ i, ∃ r : ℝ, val_main_v190 (F := Ideal) x0 x1 x2 x5 x6 x7 i = (r : EReal))
    ∧ (∀ i, ∃ r : ℝ, val_main_v191 (F := Ideal) x0 x1 x2 x5 x6 x7 i = (r : EReal)) := by
  have hsrc := srcI_range x2 hr
  have hX' : ∀ (n : Fin 2000) (k : Fin 64), (V c main_v87 : S2000x64.Idx → EReal) (ix2 n k) = featRe x0 x1 x2 x5 x6 n k :=
    fun n k => congrFun hX (ix2 n k)
  have hY' : ∀ (n : Fin 2000) (k : Fin 64), (V c main_v88 : S2000x64.Idx → EReal) (ix2 n k) = featIm x0 x1 x2 x5 x6 n k :=
    fun n k => congrFun hY (ix2 n k)
  exact ⟨arrAt8_eq_ref V c x0 x1 x2 x5 x6 x7 hA hB hX' hY' hw0 hw1 hsrc hcr hci hx hy,
    arrAt9_eq_ref V c x0 x1 x2 x5 x6 x7 hA hB hX' hY' hw0 hw1 hsrc hcr hci hx hy,
    ref190_real x0 x1 x2 x5 x6 x7 hcr hci hx hy hW0 hW1 (fun e => (hsrc e).1),
    ref191_real x0 x1 x2 x5 x6 x7 hcr hci hx hy hW0 hW1 (fun e => (hsrc e).1)⟩

end Join

end Cert.Layer2

end
-- ==== Proof.Prelude1.lean ====
/-
  The host operations of the kernel program that run before its first kernel call, and between its first and its
  second: what they leave in the arrays those calls read.

  Before the first call the program builds, from the edge index and the edge weights, the two dense 2000 × 2000
  matrices of the graph operator, and rounds them, the node features and the two layer-one weight matrices to the
  kernel's input precision (over the extended reals a rounding is the identity). The matrices come out of a chain:
  the symmetrised source and target lists `ss`, `dd`, the halved weights `ws`, the phases `θ`, the absolute
  degrees, their inverse square roots `dinv` (zero where the degree is not positive), the normalised weights
  `ws · dinv[ss] · dinv[dd]`, their products with `−cos θ` and `−sin θ`, and last the accumulation of those into
  the matrices at the index pairs `(dd, ss)`. This module names the steps of that chain as functions of the
  arrays they read and states each stretch of host operations as those functions applied to the buffers the
  stretch found. Between the two calls the program rounds the first call's two results and splits and rounds the
  layer-two weights.
-/
import proofs.«405959_j54778012893400_3_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.Prelude

open Cert.KernelIdeal Cert.KernelIdeal.Gen
open Idealize.ShloMosaic Idealize.ShloMosaic.TcCoe Idealize.ShloMosaic.ValueIdx
open Idealize.SL Idealize.SL.Sem

/-! ## A leading slab of a rank-3 array, as a matrix -/

/-- Slab `a` of an `A × K × H` array, cut out as `1 × K × H` and reshaped to `K × H`, read at `(k, h)`, is the
    array at `(a, k, h)`. -/
theorem slab_apply {α : Type} {A K H : Nat} (a : Fin A) (x : (⟨3, ![A, K, H]⟩ : Shape).Idx → α)
    (hs : (⟨3, ![A, K, H]⟩ : Shape).Slices ![a.val, 0, 0] ⟨3, ![1, K, H]⟩)
    (hc : (⟨3, ![1, K, H]⟩ : Shape).ShapeCasts ⟨2, ![K, H]⟩) (k : Fin K) (h : Fin H) :
    shapeCast ⟨2, ![K, H]⟩ (extractStridedSlice ⟨3, ![1, K, H]⟩ ![a.val, 0, 0] x hs) hc (ix2 k h) = x (ix3 a k h) := by
  rw [shapeCast_apply _ hc (ix2 k h) (ix3 (0 : Fin 1) k h)
    (by rw [Shape.rowMajor_val_three, Shape.rowMajor_val_two]
        show (0 * K + k.val) * H + h.val = k.val * H + h.val
        rw [Nat.zero_mul, Nat.zero_add])]
  exact extractStridedSlice_apply ![a.val, 0, 0] x hs _ (ix3 a k h) (fun b => match b with
    | ⟨0, _⟩ => by show a.val = a.val + 0; omega
    | ⟨1, _⟩ => by show k.val = 0 + k.val; omega
    | ⟨2, _⟩ => by show h.val = 0 + h.val; omega)

/-! ## Between the first and the second kernel call -/

/-- The buffers after the host operations between the first and the second kernel call. -/
abbrev hostW8 (W : Valuation τ sig (Elt Ideal)) : Valuation τ sig (Elt Ideal) :=
  StableHlo.after main_part1_ops1 W

/-- The first call's real result, rounded: itself. -/
theorem P6_v87 (W : Valuation τ sig (Elt Ideal)) :
    (hostW8 W (Proc.devRef .tc main_v87) : S2000x64.Idx → EReal) = W (Proc.devRef .tc main_v86_0) := by
  dsimp only [hostW8, main_part1_ops1]
  after_results
  rfl

/-- The first call's imaginary result, rounded: itself. -/
theorem P6_v88 (W : Valuation τ sig (Elt Ideal)) :
    (hostW8 W (Proc.devRef .tc main_v88) : S2000x64.Idx → EReal) = W (Proc.devRef .tc main_v86_1) := by
  dsimp only [hostW8, main_part1_ops1]
  after_results
  rfl

/-- The first layer-two weight matrix: slab 0 of the layer-two weights. -/
theorem P6_v91 (W : Valuation τ sig (Elt Ideal)) (k h : Fin 64) :
    (hostW8 W (Proc.devRef .tc main_v91) : S64x64.Idx → EReal) (ix2 k h)
      = (W (Proc.devRef .tc main_arg7) : S2x64x64.Idx → EReal) (ix3 0 k h) := by
  have e : (hostW8 W (Proc.devRef .tc main_v91) : S64x64.Idx → EReal)
      = shapeCast S64x64 (extractStridedSlice S1x64x64 ![0, 0, 0] (W (Proc.devRef .tc main_arg7) : S2x64x64.Idx → EReal)
          slices_S2x64x64_S1x64x64_0_0_0) shapeCasts_S1x64x64_S64x64 := by
    dsimp only [hostW8, main_part1_ops1]
    after_results
    rfl
  rw [e]
  exact slab_apply (0 : Fin 2) _ slices_S2x64x64_S1x64x64_0_0_0 shapeCasts_S1x64x64_S64x64 k h

/-- The second layer-two weight matrix: slab 1. -/
theorem P6_v94 (W : Valuation τ sig (Elt Ideal)) (k h : Fin 64) :
    (hostW8 W (Proc.devRef .tc main_v94) : S64x64.Idx → EReal) (ix2 k h)
      = (W (Proc.devRef .tc main_arg7) : S2x64x64.Idx → EReal) (ix3 1 k h) := by
  have e : (hostW8 W (Proc.devRef .tc main_v94) : S64x64.Idx → EReal)
      = shapeCast S64x64 (extractStridedSlice S1x64x64 ![1, 0, 0] (W (Proc.devRef .tc main_arg7) : S2x64x64.Idx → EReal)
          slices_S2x64x64_S1x64x64_1_0_0) shapeCasts_S1x64x64_S64x64 := by
    dsimp only [hostW8, main_part1_ops1]
    after_results
    rfl
  rw [e]
  exact slab_apply (1 : Fin 2) _ slices_S2x64x64_S1x64x64_1_0_0 shapeCasts_S1x64x64_S64x64 k h

/-- The real matrix of the operator is not written between the two calls. -/
theorem P6_v76 (W : Valuation τ sig (Elt Ideal)) :
    hostW8 W (Proc.devRef .tc main_v76) = W (Proc.devRef .tc main_v76) := by
  dsimp only [hostW8, main_part1_ops1]
  after_results

/-- Nor is the imaginary one. -/
theorem P6_v77 (W : Valuation τ sig (Elt Ideal)) :
    hostW8 W (Proc.devRef .tc main_v77) = W (Proc.devRef .tc main_v77) := by
  dsimp only [hostW8, main_part1_ops1]
  after_results

/-! ## The steps of the chain, as functions of the arrays they read -/

section Steps

/-- Row 0 of the edge index, as a vector. -/
def row0 (x2 : IVec S2x64000 32) : IVec S64000 32 :=
  shapeCast S64000 (extractStridedSlice S1x64000 ![0, 0] x2 slices_S2x64000_S1x64000_0_0) shapeCasts_S1x64000_S64000

/-- Row 1 of the edge index, as a vector. -/
def row1 (x2 : IVec S2x64000 32) : IVec S64000 32 :=
  shapeCast S64000 (extractStridedSlice S1x64000 ![1, 0] x2 slices_S2x64000_S1x64000_1_0) shapeCasts_S1x64000_S64000

/-- The symmetrised source list: row 0 then row 1. -/
def ssArr (x2 : IVec S2x64000 32) : IVec S128000 32 :=
  concatenate S128000 0 [⟨S64000, row0 x2⟩, ⟨S64000, row1 x2⟩] concatenates_S64000_S64000_S128000_d0

/-- The symmetrised target list: row 1 then row 0. -/
def ddArr (x2 : IVec S2x64000 32) : IVec S128000 32 :=
  concatenate S128000 0 [⟨S64000, row1 x2⟩, ⟨S64000, row0 x2⟩] concatenates_S64000_S64000_S128000_d0

/-- The symmetrised weights: the weights twice, halved. -/
def wsArr (x5 : FVec Ideal S64000 .f32) : FVec Ideal S128000 .f32 :=
  mulf (concatenate S128000 0 [⟨S64000, x5⟩, ⟨S64000, x5⟩] concatenates_S64000_S64000_S128000_d0)
    (broadcastInDim S128000 ![] bcast_S_S128000 (constant (F := Ideal) S_ .f32 0x3F000000#32))

/-- The phases: a constant times the weights, then the weights negated. -/
def thArr (x5 : FVec Ideal S64000 .f32) : FVec Ideal S128000 .f32 :=
  mulf (broadcastInDim S128000 ![] bcast_S_S128000 (constant (F := Ideal) S_ .f32 0x3FC90FDB#32))
    (concatenate S128000 0 [⟨S64000, x5⟩, ⟨S64000, Host.negf x5⟩] concatenates_S64000_S64000_S128000_d0)

/-- The zero vector over the nodes. -/
def zeros2000 : FVec Ideal S2000 .f32 :=
  broadcastInDim S2000 ![] bcast_S_S2000 (constant (F := Ideal) S_ .f32 0x00000000#32)

/-- The absolute degrees: the absolute symmetrised weights accumulated at their targets. -/
def degArr (x2 : IVec S2x64000 32) (x5 : FVec Ideal S64000 .f32) :
    FVec Ideal S2000 .f32 :=
  Host.scatterAdd scatter_S2000_S128000x1_S128000_n_0_0_1 zeros2000
    (broadcastInDim S128000x1 ![0] bcast_S128000_S128000x1_0 (ddArr x2)) (Host.absf (wsArr x5))

/-- The inverse square roots of the degrees: the reciprocal square root of the degree made safe (one where it is not
    positive), zero where the degree is not positive. -/
def dinvArr (deg : FVec Ideal S2000 .f32) : FVec Ideal S2000 .f32 :=
  select (cmpf .ogt deg zeros2000)
    (Host.rsqrt (select (cmpf .ogt deg zeros2000) deg
      (broadcastInDim S2000 ![] bcast_S_S2000 (constant (F := Ideal) S_ .f32 0x3F800000#32))))
    zeros2000

/-- A list of node indices with an index counted from the end made absolute (`i + 2000` where `i < 0`), as a column. -/
def wrapCol (v : IVec S128000 32) : IVec S128000x1 32 :=
  broadcastInDim S128000x1 ![0] bcast_S128000_S128000x1_0
    (select (cmpi .slt v (broadcastInDim S128000 ![] bcast_S_S128000 (constantI S_ 32 0#32)))
      (addi v (broadcastInDim S128000 ![] bcast_S_S128000 (constantI S_ 32 2000#32))) v)

/-- The normalised weights `ws · dinv[ss] · dinv[dd]`. -/
def normArr (dinv : FVec Ideal S2000 .f32) (ss dd : IVec S128000 32)
    (ws : FVec Ideal S128000 .f32) : FVec Ideal S128000 .f32 :=
  mulf (mulf ws (Host.gather gather_S2000_S128000x1_S128000_n_0_n_n_0_1_1 dinv (wrapCol ss)))
    (Host.gather gather_S2000_S128000x1_S128000_n_0_n_n_0_1_1 dinv (wrapCol dd))

/-- The real parts of the operator's entries, edge by edge: `−norm · cos θ`. -/
def crArr (dinv : FVec Ideal S2000 .f32) (ss dd : IVec S128000 32)
    (ws th : FVec Ideal S128000 .f32) : FVec Ideal S128000 .f32 :=
  mulf (Host.negf (normArr dinv ss dd ws)) (Host.cos th)

/-- The imaginary parts: `−norm · sin θ`. -/
def ciArr (dinv : FVec Ideal S2000 .f32) (ss dd : IVec S128000 32)
    (ws th : FVec Ideal S128000 .f32) : FVec Ideal S128000 .f32 :=
  mulf (Host.negf (normArr dinv ss dd ws)) (Host.sin th)

/-- The zero matrix over the node pairs. -/
def zeros2000x2000 : FVec Ideal S2000x2000 .f32 :=
  broadcastInDim S2000x2000 ![] bcast_S_S2000x2000 (constant (F := Ideal) S_ .f32 0x00000000#32)

/-- The dense matrix of edge values `c`: each accumulated at the pair (target, source), then rounded. -/
def adjArr (ss dd : IVec S128000 32) (c : FVec Ideal S128000 .f32) :
    FVec Ideal S2000x2000 .bf16 :=
  truncf .bf16 (Host.scatterAdd scatter_S2000x2000_S128000x2_S128000_n_01_01_1 zeros2000x2000
    (concatenate S128000x2 1 [⟨S128000x1, wrapCol dd⟩, ⟨S128000x1, wrapCol ss⟩] concatenates_S128000x1_S128000x1_S128000x2_d1) c)
    bitsLt_bf16_f32

end Steps

/-! ## The stretches of host operations, one by one -/

section Stretches

variable (V : Valuation τ sig (Elt Ideal))

/-! ### The first stretch: the lists, the weights, the phases, the degrees -/

theorem s0_v4 : (StableHlo.after main_part0_ops0 V (Proc.devRef .tc main_v4) : IVec S128000 32) = ssArr (V (Proc.devRef .tc main_arg2)) := by
  dsimp only [main_part0_ops0]; after_results; rfl

theorem s0_v5 : (StableHlo.after main_part0_ops0 V (Proc.devRef .tc main_v5) : IVec S128000 32) = ddArr (V (Proc.devRef .tc main_arg2)) := by
  dsimp only [main_part0_ops0]; after_results; rfl

theorem s0_v8 : (StableHlo.after main_part0_ops0 V (Proc.devRef .tc main_v8) : FVec Ideal S128000 .f32) = wsArr (V (Proc.devRef .tc main_arg5)) := by
  dsimp only [main_part0_ops0]; after_results; rfl

theorem s0_v12 : (StableHlo.after main_part0_ops0 V (Proc.devRef .tc main_v12) : FVec Ideal S128000 .f32) = thArr (V (Proc.devRef .tc main_arg5)) := by
  dsimp only [main_part0_ops0]; after_results; rfl

theorem s0_v16 : (StableHlo.after main_part0_ops0 V (Proc.devRef .tc main_v16) : FVec Ideal S2000 .f32)
    = degArr (V (Proc.devRef .tc main_arg2)) (V (Proc.devRef .tc main_arg5)) := by
  dsimp only [main_part0_ops0]; after_results; rfl

theorem s0_v18 : (StableHlo.after main_part0_ops0 V (Proc.devRef .tc main_v18) : IVec S2000 1)
    = cmpf .ogt (degArr (V (Proc.devRef .tc main_arg2)) (V (Proc.devRef .tc main_arg5))) zeros2000 := by
  dsimp only [main_part0_ops0]; after_results; rfl

theorem s0_cst_3 : (StableHlo.after main_part0_ops0 V (Proc.devRef .tc main_cst_3) : FVec Ideal S_ .f32) = constant (F := Ideal) S_ .f32 0x3F800000#32 := by
  dsimp only [main_part0_ops0]; after_results

/-- The arrays a later stretch reads that the first stretch wrote or was given. -/
def carried : Finset (Ref sig .tc) :=
  {main_arg0, main_arg1, main_arg6, main_v4, main_v5, main_v8, main_v12, main_v16}

/-- The first stretch writes none of the three argument arrays the last stretch reads. -/
theorem s0_keep (a : Ref sig .tc) (ha : a ∈ ({main_arg0, main_arg1, main_arg6} : Finset (Ref sig .tc))) :
    StableHlo.after main_part0_ops0 V (Proc.devRef .tc a) = V (Proc.devRef .tc a) := by
  refine StableHlo.after_of_forall_not_mem (b := Proc.devRef .tc a) _ _ (List.forall_iff_forall_mem.mp ?_)
  simp only [Finset.mem_insert, Finset.mem_singleton] at ha
  rcases ha with rfl | rfl | rfl <;>
  · simp only [main_part0_ops0, List.Forall, StableHlo.nullary_writes, StableHlo.unary_writes, StableHlo.binary_writes, StableHlo.ternary_writes, StableHlo.reshape_writes, StableHlo.TRef.unary, StableHlo.TRef.ternary, Finset.mem_singleton]
    repeat' apply And.intro
    all_goals exact StableHlo.devRef_ne_of_ne (by decide)

/-! ### The second stretch: the degree made safe -/

theorem s1_v19 : (StableHlo.after main_part0_ops1 V (Proc.devRef .tc main_v19) : FVec Ideal S2000 .f32)
    = select (V (Proc.devRef .tc main_v18) : IVec S2000 1) (V (Proc.devRef .tc main_v16) : FVec Ideal S2000 .f32)
        (broadcastInDim S2000 ![] bcast_S_S2000 (V (Proc.devRef .tc main_cst_3) : FVec Ideal S_ .f32)) := by
  dsimp only [main_part0_ops1]; after_results; rfl

theorem s1_keep (a : Ref sig .tc) (ha : a ∈ carried) :
    StableHlo.after main_part0_ops1 V (Proc.devRef .tc a) = V (Proc.devRef .tc a) := by
  refine StableHlo.after_of_forall_not_mem (b := Proc.devRef .tc a) _ _ (List.forall_iff_forall_mem.mp ?_)
  simp only [carried, Finset.mem_insert, Finset.mem_singleton] at ha
  rcases ha with rfl | rfl | rfl | rfl | rfl | rfl | rfl | rfl <;>
  · simp only [main_part0_ops1, List.Forall, StableHlo.nullary_writes, StableHlo.unary_writes, StableHlo.binary_writes, StableHlo.ternary_writes, StableHlo.reshape_writes, StableHlo.TRef.unary, StableHlo.TRef.ternary, Finset.mem_singleton]
    repeat' apply And.intro
    all_goals exact StableHlo.devRef_ne_of_ne (by decide)

/-! ### The third stretch: the test and the reciprocal square root -/

theorem s2_v21 : (StableHlo.after main_part0_ops2 V (Proc.devRef .tc main_v21) : IVec S2000 1)
    = cmpf .ogt (V (Proc.devRef .tc main_v16) : FVec Ideal S2000 .f32) zeros2000 := by
  dsimp only [main_part0_ops2]; after_results; rfl

theorem s2_v22 : (StableHlo.after main_part0_ops2 V (Proc.devRef .tc main_v22) : FVec Ideal S2000 .f32)
    = (Host.rsqrt (V (Proc.devRef .tc main_v19) : FVec Ideal S2000 .f32) : FVec Ideal S2000 .f32) := by
  dsimp only [main_part0_ops2]; after_results

theorem s2_cst_5 : (StableHlo.after main_part0_ops2 V (Proc.devRef .tc main_cst_5) : FVec Ideal S_ .f32)
    = constant (F := Ideal) S_ .f32 0x00000000#32 := by
  dsimp only [main_part0_ops2]; after_results

theorem s2_keep (a : Ref sig .tc) (ha : a ∈ carried) :
    StableHlo.after main_part0_ops2 V (Proc.devRef .tc a) = V (Proc.devRef .tc a) := by
  refine StableHlo.after_of_forall_not_mem (b := Proc.devRef .tc a) _ _ (List.forall_iff_forall_mem.mp ?_)
  simp only [carried, Finset.mem_insert, Finset.mem_singleton] at ha
  rcases ha with rfl | rfl | rfl | rfl | rfl | rfl | rfl | rfl <;>
  · simp only [main_part0_ops2, List.Forall, StableHlo.nullary_writes, StableHlo.unary_writes, StableHlo.binary_writes, StableHlo.ternary_writes, StableHlo.reshape_writes, StableHlo.TRef.unary, StableHlo.TRef.ternary, Finset.mem_singleton]
    repeat' apply And.intro
    all_goals exact StableHlo.devRef_ne_of_ne (by decide)

/-! ### The fourth stretch: the inverse square roots -/

theorem s3_v23 : (StableHlo.after main_part0_ops3 V (Proc.devRef .tc main_v23) : FVec Ideal S2000 .f32)
    = select (V (Proc.devRef .tc main_v21) : IVec S2000 1) (V (Proc.devRef .tc main_v22) : FVec Ideal S2000 .f32)
        (broadcastInDim S2000 ![] bcast_S_S2000 (V (Proc.devRef .tc main_cst_5) : FVec Ideal S_ .f32)) := by
  dsimp only [main_part0_ops3]; after_results; rfl

theorem s3_keep (a : Ref sig .tc) (ha : a ∈ carried) :
    StableHlo.after main_part0_ops3 V (Proc.devRef .tc a) = V (Proc.devRef .tc a) := by
  refine StableHlo.after_of_forall_not_mem (b := Proc.devRef .tc a) _ _ (List.forall_iff_forall_mem.mp ?_)
  simp only [carried, Finset.mem_insert, Finset.mem_singleton] at ha
  rcases ha with rfl | rfl | rfl | rfl | rfl | rfl | rfl | rfl <;>
  · simp only [main_part0_ops3, List.Forall, StableHlo.nullary_writes, StableHlo.unary_writes, StableHlo.binary_writes, StableHlo.ternary_writes, StableHlo.reshape_writes, StableHlo.TRef.unary, StableHlo.TRef.ternary, Finset.mem_singleton]
    repeat' apply And.intro
    all_goals exact StableHlo.devRef_ne_of_ne (by decide)

/-! ### The fifth stretch: the edge values -/

set_option maxHeartbeats 1000000 in
theorem s4_v42 : (StableHlo.after main_part0_ops4 V (Proc.devRef .tc main_v42) : FVec Ideal S128000 .f32)
    = crArr (V (Proc.devRef .tc main_v23)) (V (Proc.devRef .tc main_v4)) (V (Proc.devRef .tc main_v5))
        (V (Proc.devRef .tc main_v8)) (V (Proc.devRef .tc main_v12)) := by
  dsimp only [main_part0_ops4]; after_results_simp; rfl

set_option maxHeartbeats 1000000 in
theorem s4_v45 : (StableHlo.after main_part0_ops4 V (Proc.devRef .tc main_v45) : FVec Ideal S128000 .f32)
    = ciArr (V (Proc.devRef .tc main_v23)) (V (Proc.devRef .tc main_v4)) (V (Proc.devRef .tc main_v5))
        (V (Proc.devRef .tc main_v8)) (V (Proc.devRef .tc main_v12)) := by
  dsimp only [main_part0_ops4]; after_results_simp; rfl

theorem s4_v46 : (StableHlo.after main_part0_ops4 V (Proc.devRef .tc main_v46) : FVec Ideal S2000x2000 .f32) = zeros2000x2000 := by
  dsimp only [main_part0_ops4]; after_results; rfl

theorem s4_c_10 : (StableHlo.after main_part0_ops4 V (Proc.devRef .tc main_c_10) : IVec S_ 32) = constantI S_ 32 0#32 := by
  dsimp only [main_part0_ops4]; after_results

set_option maxHeartbeats 1000000 in
theorem s4_keep (a : Ref sig .tc) (ha : a ∈ carried) :
    StableHlo.after main_part0_ops4 V (Proc.devRef .tc a) = V (Proc.devRef .tc a) := by
  refine StableHlo.after_of_forall_not_mem (b := Proc.devRef .tc a) _ _ (List.forall_iff_forall_mem.mp ?_)
  simp only [carried, Finset.mem_insert, Finset.mem_singleton] at ha
  rcases ha with rfl | rfl | rfl | rfl | rfl | rfl | rfl | rfl <;>
  · simp only [main_part0_ops4, List.Forall, StableHlo.nullary_writes, StableHlo.unary_writes, StableHlo.binary_writes, StableHlo.ternary_writes, StableHlo.reshape_writes, StableHlo.TRef.unary, StableHlo.TRef.ternary, Finset.mem_singleton]
    repeat' apply And.intro
    all_goals exact StableHlo.devRef_ne_of_ne (by decide)

/-! ### The sixth stretch: the two matrices, and the roundings of the features and the layer-one weights -/

set_option maxHeartbeats 2000000 in
theorem s5_v76 (hz : (V (Proc.devRef .tc main_v46) : FVec Ideal S2000x2000 .f32) = zeros2000x2000)
    (hc : (V (Proc.devRef .tc main_c_10) : IVec S_ 32) = constantI S_ 32 0#32) :
    (StableHlo.after main_part1_ops0 V (Proc.devRef .tc main_v76) : FVec Ideal S2000x2000 .bf16)
      = adjArr (V (Proc.devRef .tc main_v4)) (V (Proc.devRef .tc main_v5)) (V (Proc.devRef .tc main_v42)) := by
  dsimp only [main_part1_ops0]; after_results; rw [hz, hc]; rfl

set_option maxHeartbeats 2000000 in
theorem s5_v77 :
    (StableHlo.after main_part1_ops0 V (Proc.devRef .tc main_v77) : FVec Ideal S2000x2000 .bf16)
      = adjArr (V (Proc.devRef .tc main_v4)) (V (Proc.devRef .tc main_v5)) (V (Proc.devRef .tc main_v45)) := by
  dsimp only [main_part1_ops0]; after_results; rfl

theorem s5_v78 : (StableHlo.after main_part1_ops0 V (Proc.devRef .tc main_v78) : FVec Ideal S2000x512 .bf16)
    = (V (Proc.devRef .tc main_arg0) : FVec Ideal S2000x512 .f32) := by
  dsimp only [main_part1_ops0]; after_results; rfl

theorem s5_v79 : (StableHlo.after main_part1_ops0 V (Proc.devRef .tc main_v79) : FVec Ideal S2000x512 .bf16)
    = (V (Proc.devRef .tc main_arg1) : FVec Ideal S2000x512 .f32) := by
  dsimp only [main_part1_ops0]; after_results; rfl

theorem s5_v82 : (StableHlo.after main_part1_ops0 V (Proc.devRef .tc main_v82) : FVec Ideal S512x64 .bf16)
    = shapeCast S512x64 (extractStridedSlice S1x512x64 ![0, 0, 0] (V (Proc.devRef .tc main_arg6) : FVec Ideal S2x512x64 .f32)
        slices_S2x512x64_S1x512x64_0_0_0) shapeCasts_S1x512x64_S512x64 := by
  dsimp only [main_part1_ops0]; after_results; rfl

theorem s5_v85 : (StableHlo.after main_part1_ops0 V (Proc.devRef .tc main_v85) : FVec Ideal S512x64 .bf16)
    = shapeCast S512x64 (extractStridedSlice S1x512x64 ![1, 0, 0] (V (Proc.devRef .tc main_arg6) : FVec Ideal S2x512x64 .f32)
        slices_S2x512x64_S1x512x64_1_0_0) shapeCasts_S1x512x64_S512x64 := by
  dsimp only [main_part1_ops0]; after_results; rfl

end Stretches

end Cert.Prelude

end
-- ==== Proof.LibTakeElems.lean ====
/-
  The shape of `stablehlo.gather` that indexing a flat array by an integer vector lowers to, read at one result index.

  ELEMENTS OF A VECTOR (`x[idx]` of `x : [N]` at `n` positions, the start indices an `[n, 1]` column): result element
  `i` is the operand's element `r`, where `r` is the start index of position `i` read signed and clamped into
  `[0, N - 1]`. The operand's one axis is collapsed, so the result has no offset axis.

  The dimension numbers are spelt field by field as a printed program's record is, so that record is one of these by `rfl`.
-/
import Idealize.ShloMosaic.Lib.ValueIdx

namespace Idealize.ShloMosaic.TakeElems

open Idealize.ShloMosaic Idealize.ShloMosaic.ValueIdx

variable {α : Type}

/-- The dimension numbers of an element take: operand `[N]`, start indices `[n, 1]`, result `[n]`. -/
abbrev elemDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- An element take read at `i`: the operand at the clamped start index of position `i`. -/
theorem elemTake_apply {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (i : Fin n) :
    Host.gather (elemDims N n wf) x idx (ix1 i)
      = x (ix1 ⟨min (idx (ix2 i (0 : Fin 1))).toInt.toNat (N - 1), by omega⟩) := by
  unfold Host.gather
  congr 1
  funext a
  obtain rfl : a = 0 := Subsingleton.elim _ _
  refine Fin.ext ?_
  show (elemDims N n wf).start (ix1 i) idx 0 + (elemDims N n wf).batchCoord (ix1 i) 0
    + (elemDims N n wf).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemDims N n wf).startIndexMap from List.mem_singleton.mpr rfl)]
  have hsi : (elemDims N n wf).siIdx (ix1 i) ⟨List.idxOf (0 : Fin 1) (elemDims N n wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

end Idealize.ShloMosaic.TakeElems
-- ==== Proof.PreludeRef.lean ====
/-
  The reference program's edge weights, read on the reference side alone.

  From the edge index and the edge weights the reference builds, for each of the 128000 positions `e` of the
  symmetrised edge list, the real and the imaginary part of the operator's entry:
  `−(ws e · dinv[ss e] · dinv[dd e]) · cos (θ e)` and the same with `sin`, where `ws` is the edge weight halved,
  `θ` is a constant times the edge weight (negated on the reversed half), and `dinv j` is the inverse square root
  of node `j`'s absolute degree, `0` where that degree is not positive.

  * If every edge weight is a real number then both parts are real numbers at every position: `ws` and `θ` are
    products of reals; `dinv j` is a real number whatever the degree is (also at degree `⊤`, where `1 / √⊤ = 0`);
    an entry of a gather is an entry of its operand; cosine and sine of a real are real; products and negations of
    reals are real.
  * The second layer recomputes the same chain, operation for operation: its values are the first layer's.

  A concatenation of two vectors of length 64000 read at position `e` is the first vector at `e` below 64000 and
  the second at `e − 64000` from there on.
-/
import proofs.«405959_j54778012893400_3_alg».proof.Proof.RefReadP
import proofs.«405959_j54778012893400_3_alg».proof.Proof.Spec
import proofs.«405959_j54778012893400_3_alg».proof.Proof.SpecLemmas
import proofs.«405959_j54778012893400_3_alg».proof.Proof.LibConvCore
import proofs.«405959_j54778012893400_3_alg».proof.Proof.LibTakeElems
import proofs.«405959_j54778012893400_3_alg».proof.Proof.LibSegmentScatter
import proofs.«405959_j54778012893400_3_alg».proof.Proof.LibIndexRange
import Idealize.ShloMosaic.Lib.IdealHost
import Idealize.ShloMosaic.Lib.Pipeline.Value

set_option maxRecDepth 16384

noncomputable section

namespace Cert.Prelude

open Cert.ReferenceIdeal Cert.ReferenceIdeal.Gen Cert.ReferenceIdeal.ReadP
open Idealize.ShloMosaic Idealize.ShloMosaic.ValueIdx Idealize.SL.Sem

/-! ## A concatenation of two halves, read at a position -/

/-- Two vectors of length 64000 joined, at position `e`: the first at `e` if `e < 64000`, else the second at
    `e − 64000`. -/
theorem concat_halves_apply {α : Type} (x₁ x₂ : S64000.Idx → α) (e : Fin 128000) :
    concatenate S128000 0 [⟨S64000, x₁⟩, ⟨S64000, x₂⟩] concatenates_S64000_S64000_S128000_d0 (ix1 e)
      = if h : e.val < 64000 then x₁ (ix1 ⟨e.val, h⟩)
        else x₂ (ix1 ⟨e.val - 64000, by have := e.isLt; omega⟩) := by
  by_cases h : e.val < 64000
  · rw [dif_pos h]
    exact concatenate_pair_apply_left 0 x₁ x₂ concatenates_S64000_S64000_S128000_d0 (ix1 e) rfl
      (ix1 ⟨e.val, h⟩) (fun b => match b with | ⟨0, _⟩ => rfl)
  · rw [dif_neg h]
    exact concatenate_pair_apply_right 0 x₁ x₂ concatenates_S64000_S64000_S128000_d0 (ix1 e) rfl rfl
      (ix1 ⟨e.val - 64000, by have := e.isLt; omega⟩)
      (fun b hb => match b, hb with | ⟨0, _⟩, hb => absurd rfl hb)
      (by show e.val - 64000 + 64000 = e.val; omega)

/-- Every entry of two joined vectors has a property that every entry of both vectors has. -/
theorem concat_halves_of_forall {α : Type} (P : α → Prop) (x₁ x₂ : S64000.Idx → α)
    (h₁ : ∀ i, P (x₁ i)) (h₂ : ∀ i, P (x₂ i)) (e : Fin 128000) :
    P (concatenate S128000 0 [⟨S64000, x₁⟩, ⟨S64000, x₂⟩] concatenates_S64000_S64000_S128000_d0 (ix1 e)) := by
  rw [concat_halves_apply]
  split
  · exact h₁ _
  · exact h₂ _

/-! ## Real numbers along the chain -/

/-- The pattern `0x3F000000` (one half) denotes a real number. -/
theorem half_real : ∃ r : ℝ, Ideal.ofBits .f32 0x3F000000#32 = (r : EReal) := by
  refine ⟨(1 : ℝ) / 2, ?_⟩
  simp [Ideal.ofBits, Ideal.ieee, -EReal.coe_mul]; norm_num

/-- The pattern `0x3FC90FDB` (the single-precision quarter turn) denotes a real number. -/
theorem quarter_turn_real : ∃ r : ℝ, Ideal.ofBits .f32 0x3FC90FDB#32 = (r : EReal) := by
  refine ⟨(13176795 : ℝ) / 8388608, ?_⟩
  simp [Ideal.ofBits, Ideal.ieee, -EReal.coe_mul]; norm_num

variable (x2 : (⟨Cert.ReferenceIdeal.S2x64000, .i32⟩ : BufTy).Contents (Elt Ideal))
  (x5 : (⟨Cert.ReferenceIdeal.S64000, .f32⟩ : BufTy).Contents (Elt Ideal))

/-- The halved weights are real numbers. -/
theorem ws_real (hx5 : ∀ i, ∃ r : ℝ, x5 i = (r : EReal)) (e : Fin 128000) :
    ∃ r : ℝ, val_main_v8 (F := Ideal) x5 (ix1 e) = (r : EReal) := by
  rw [val_main_v8_apply, val_main_v7_apply, val_main_cst_apply]
  refine ConvCore.real_mul _ _ ?_ half_real
  unfold val_main_v6
  exact concat_halves_of_forall (fun a : EReal => ∃ r : ℝ, a = (r : EReal)) x5 x5 hx5 hx5 e

/-- The phases are real numbers. -/
theorem theta_real (hx5 : ∀ i, ∃ r : ℝ, x5 i = (r : EReal)) (e : Fin 128000) :
    ∃ r : ℝ, val_main_v12 (F := Ideal) x5 (ix1 e) = (r : EReal) := by
  rw [val_main_v12_apply, val_main_v11_apply, val_main_cst_0_apply]
  refine ConvCore.real_mul _ _ quarter_turn_real ?_
  unfold val_main_v10
  exact concat_halves_of_forall (fun a : EReal => ∃ r : ℝ, a = (r : EReal)) x5 (val_main_v9 (F := Ideal) x5) hx5
    (fun i => ConvCore.real_neg _ (hx5 i)) e

/-- The inverse square root of the degree, as the reference spells it, is `Spec.dinvR` of the degree. -/
theorem dinv_eq (j : S2000.Idx) :
    val_main_v22 (F := Ideal) x2 x5 j = Spec.dinvR 1 0 (val_main_v16 (F := Ideal) x2 x5 j) := by
  rw [val_main_v22_apply, val_main_v18_apply, val_main_v21_apply, val_main_v19_apply, val_main_v20_apply,
    val_main_cst_3_apply, val_main_v17_apply, val_main_cst_2_apply, val_main_call0_v1_apply, val_main_call0_v0_apply,
    val_main_cst_4_apply]
  generalize val_main_v16 (F := Ideal) x2 x5 j = d
  simp only [Ideal.ofBits_def, Ideal.hostDivf_def, Ideal.hostUnary_sqrt_def, Ideal.ofBits_one_f32,
    Ideal.ofBits_zero_f32]
  have hc : FloatOps.cmpf (F := Ideal) (φ := .f32) .ogt d 0 = Ideal.cmp .ogt d 0 := rfl
  rw [hc]
  unfold Spec.dinvR Scalar.select Ideal.cmp
  by_cases h : (0 : EReal) < d
  · rw [if_pos h, if_pos (by simp [h])]
  · rw [if_neg h, if_neg (by simp [h])]

/-- So it is a real number at every node, whatever the node's degree. -/
theorem dinv_real (j : S2000.Idx) : ∃ r : ℝ, val_main_v22 (F := Ideal) x2 x5 j = (r : EReal) := by
  rw [dinv_eq]
  exact Spec.dinvR_real _

/-- An entry of the gather of `dinv` at the source list is an entry of `dinv`. -/
theorem gather_ss_real (e : Fin 128000) : ∃ r : ℝ, val_main_v29 (F := Ideal) x2 x5 (ix1 e) = (r : EReal) := by
  have h := TakeElems.elemTake_apply (N := 2000) (n := 128000) (by decide)
    gather_S2000_S128000x1_S128000_n_0_n_n_0_1_1_wf (val_main_v22 (F := Ideal) x2 x5) (val_main_v28 (F := Ideal) x2) e
  unfold val_main_v29
  rw [show Host.gather gather_S2000_S128000x1_S128000_n_0_n_n_0_1_1 (val_main_v22 (F := Ideal) x2 x5)
      (val_main_v28 (F := Ideal) x2) (ix1 e) = _ from h]
  exact dinv_real x2 x5 _

/-- An entry of the gather of `dinv` at the target list is an entry of `dinv`. -/
theorem gather_dd_real (e : Fin 128000) : ∃ r : ℝ, val_main_v37 (F := Ideal) x2 x5 (ix1 e) = (r : EReal) := by
  have h := TakeElems.elemTake_apply (N := 2000) (n := 128000) (by decide)
    gather_S2000_S128000x1_S128000_n_0_n_n_0_1_1_wf (val_main_v22 (F := Ideal) x2 x5) (val_main_v36 (F := Ideal) x2) e
  unfold val_main_v37
  rw [show Host.gather gather_S2000_S128000x1_S128000_n_0_n_n_0_1_1 (val_main_v22 (F := Ideal) x2 x5)
      (val_main_v36 (F := Ideal) x2) (ix1 e) = _ from h]
  exact dinv_real x2 x5 _

/-- The normalised weight `ws · dinv[ss] · dinv[dd]` is a real number. -/
theorem norm_real (hx5 : ∀ i, ∃ r : ℝ, x5 i = (r : EReal)) (e : Fin 128000) :
    ∃ r : ℝ, val_main_v38 (F := Ideal) x2 x5 (ix1 e) = (r : EReal) := by
  rw [val_main_v38_apply, val_main_v30_apply]
  exact ConvCore.real_mul _ _ (ConvCore.real_mul _ _ (ws_real x5 hx5 e) (gather_ss_real x2 x5 e)) (gather_dd_real x2 x5 e)

/-- The real part of the operator's entry at position `e` is a real number. -/
theorem P4_cr (hx5 : ∀ i, ∃ r : ℝ, x5 i = (r : EReal)) (e : Fin 128000) :
    ∃ r : ℝ, Cert.ReferenceIdeal.ReadP.val_main_v41 (F := Ideal) x2 x5 (ix1 e) = (r : EReal) := by
  rw [val_main_v41_apply, val_main_v39_apply, val_main_v40_apply]
  refine ConvCore.real_mul _ _ (ConvCore.real_neg _ (norm_real x2 x5 hx5 e)) ?_
  obtain ⟨t, ht⟩ := theta_real x5 hx5 e
  rw [ht]
  exact ⟨Real.cos t, rfl⟩

/-- The imaginary part of the operator's entry at position `e` is a real number. -/
theorem P4_ci (hx5 : ∀ i, ∃ r : ℝ, x5 i = (r : EReal)) (e : Fin 128000) :
    ∃ r : ℝ, Cert.ReferenceIdeal.ReadP.val_main_v44 (F := Ideal) x2 x5 (ix1 e) = (r : EReal) := by
  rw [val_main_v44_apply, val_main_v42_apply, val_main_v43_apply]
  refine ConvCore.real_mul _ _ (ConvCore.real_neg _ (norm_real x2 x5 hx5 e)) ?_
  obtain ⟨t, ht⟩ := theta_real x5 hx5 e
  rw [ht]
  exact ⟨Real.sin t, rfl⟩

/-! ## The second layer's chain is the first's -/

/-- The second layer's source list is the first's. -/
theorem P5_ss : Cert.ReferenceIdeal.ReadP.val_main_v98 (F := Ideal) x2 = Cert.ReferenceIdeal.ReadP.val_main_v4 (F := Ideal) x2 :=
  rfl

/-- The second layer's target list is the first's. -/
theorem P5_dd : Cert.ReferenceIdeal.ReadP.val_main_v99 (F := Ideal) x2 = Cert.ReferenceIdeal.ReadP.val_main_v5 (F := Ideal) x2 :=
  rfl

/-- The second layer's real parts are the first's. -/
theorem P5_cr : Cert.ReferenceIdeal.ReadP.val_main_v135 (F := Ideal) x2 x5
    = Cert.ReferenceIdeal.ReadP.val_main_v41 (F := Ideal) x2 x5 :=
  rfl

/-- The second layer's imaginary parts are the first's. -/
theorem P5_ci : Cert.ReferenceIdeal.ReadP.val_main_v138 (F := Ideal) x2 x5
    = Cert.ReferenceIdeal.ReadP.val_main_v44 (F := Ideal) x2 x5 :=
  rfl

end Cert.Prelude

end
-- ==== Proof.Layer1K.lean ====
/-
  Convolution layer 1, the kernel's side: what the first pallas_call leaves in its two output arrays, entry by entry,
  over the extended reals, as a function of the six arrays it reads as it finds them.

  The call walks the 2000 nodes in 10 tiles of 200 rows. At a tile it multiplies the tile's rows of the two operator
  matrices `A`, `B` (2000 × 2000) by the full feature matrices `X`, `Y` (2000 × 512): `T_re = A·X − B·Y`,
  `T_im = A·Y + B·X`; then `re = X_tile·W₀ + T_re·W₁`, `im = Y_tile·W₀ + T_im·W₁` (512 × 64 weights), and stores
  `re · [re ≥ 0]` and `im · [re ≥ 0]`. Over the extended reals a matrix product into a zero accumulator is the plain
  sum of products, the narrowing of `T` before the second product is the identity, and the integer mask converted
  back to a float is `1` or `0`. So entry `(n, h)` of the real output is `gate (pre X (A·X − B·Y) W₀ W₁ n h)` by its own
  sign, and of the imaginary output `pre Y (A·Y + B·X) W₀ W₁ n h` gated by the sign of the real one.

  Tile row `r` of point `t` is node `200·t + r`; the full matrices and the weights are the same block at every point;
  row `n` of an output is written back at point `n / 200`, and the ten blocks cover the array.
-/
import proofs.«405959_j54778012893400_3_alg».proof.Proof.KI.Region0
import proofs.«405959_j54778012893400_3_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.Layer1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The two matrix products of the body, read at an entry -/

theorem lhsA_0 (i : S200x512.Idx) (q : dot_S200x2000_S2000x512_S200x512_1_0_0_1_n_n.contr.Idx) : (dot_S200x2000_S2000x512_S200x512_1_0_0_1_n_n.lhsIdx i q 0).val = (i 0).val := by
  unfold DotDims.lhsIdx
  rw [dif_neg (show ¬(0 : Fin S200x2000.rank) ∈ dot_S200x2000_S2000x512_S200x512_1_0_0_1_n_n.lhsBatch by decide), dif_pos (show (0 : Fin S200x2000.rank) ∈ dot_S200x2000_S2000x512_S200x512_1_0_0_1_n_n.lhsNonContracting by decide)]
  rfl
theorem lhsA_1 (i : S200x512.Idx) (q : dot_S200x2000_S2000x512_S200x512_1_0_0_1_n_n.contr.Idx) : (dot_S200x2000_S2000x512_S200x512_1_0_0_1_n_n.lhsIdx i q 1).val = (q ⟨0, by decide⟩).val :=
  dot_S200x2000_S2000x512_S200x512_1_0_0_1_n_n.lhsIdx_val_of_single rfl i q
theorem rhsA_0 (i : S200x512.Idx) (q : dot_S200x2000_S2000x512_S200x512_1_0_0_1_n_n.contr.Idx) : (dot_S200x2000_S2000x512_S200x512_1_0_0_1_n_n.rhsIdx i q 0).val = (q ⟨0, by decide⟩).val :=
  dot_S200x2000_S2000x512_S200x512_1_0_0_1_n_n.rhsIdx_val_of_single rfl i q
theorem rhsA_1 (i : S200x512.Idx) (q : dot_S200x2000_S2000x512_S200x512_1_0_0_1_n_n.contr.Idx) : (dot_S200x2000_S2000x512_S200x512_1_0_0_1_n_n.rhsIdx i q 1).val = (i 1).val := by
  unfold DotDims.rhsIdx
  rw [dif_neg (show ¬(1 : Fin S2000x512.rank) ∈ dot_S200x2000_S2000x512_S200x512_1_0_0_1_n_n.rhsBatch by decide), dif_pos (show (1 : Fin S2000x512.rank) ∈ dot_S200x2000_S2000x512_S200x512_1_0_0_1_n_n.rhsNonContracting by decide)]
  rfl

/-- A row tile of the operator times the full feature matrix, into zero: entry `(r, k)` is the sum over the 2000
    nodes `s` of the tile's `(r, s)` times the features' `(s, k)`. -/
theorem mmA_apply (a : FVec Ideal S200x2000 .bf16) (x : FVec Ideal S2000x512 .bf16) (r : Fin 200) (k : Fin 512) :
    matmul dot_S200x2000_S2000x512_S200x512_1_0_0_1_n_n none a x (constant S200x512 .f32 0x00000000#32) (ix2 r k)
      = ∑ s : Fin 2000, (a (ix2 r s) : EReal) * (x (ix2 s k) : EReal) := by
  simp only [matmul]
  rw [Ideal.matmul_constant_zero_apply, ← Equiv.sum_comp (ValueIdx.contrEquiv1 dot_S200x2000_S2000x512_S200x512_1_0_0_1_n_n 2000 rfl rfl).symm]
  refine Finset.sum_congr rfl fun s _ => ?_
  have hk := ValueIdx.contrEquiv1_symm_val dot_S200x2000_S2000x512_S200x512_1_0_0_1_n_n 2000 rfl rfl s
  have el : dot_S200x2000_S2000x512_S200x512_1_0_0_1_n_n.lhsIdx (ix2 r k) ((ValueIdx.contrEquiv1 dot_S200x2000_S2000x512_S200x512_1_0_0_1_n_n 2000 rfl rfl).symm s) = ix2 r s := funext fun a => Fin.ext (by
    match a with
    | ⟨0, _⟩ => exact lhsA_0 _ _
    | ⟨1, _⟩ => exact (lhsA_1 _ _).trans hk)
  have er : dot_S200x2000_S2000x512_S200x512_1_0_0_1_n_n.rhsIdx (ix2 r k) ((ValueIdx.contrEquiv1 dot_S200x2000_S2000x512_S200x512_1_0_0_1_n_n 2000 rfl rfl).symm s) = ix2 s k := funext fun a => Fin.ext (by
    match a with
    | ⟨0, _⟩ => exact (rhsA_0 _ _).trans hk
    | ⟨1, _⟩ => exact rhsA_1 _ _)
  rw [el, er]

theorem lhsW_0 (i : S200x64.Idx) (q : dot_S200x512_S512x64_S200x64_1_0_0_1_n_n.contr.Idx) : (dot_S200x512_S512x64_S200x64_1_0_0_1_n_n.lhsIdx i q 0).val = (i 0).val := by
  unfold DotDims.lhsIdx
  rw [dif_neg (show ¬(0 : Fin S200x512.rank) ∈ dot_S200x512_S512x64_S200x64_1_0_0_1_n_n.lhsBatch by decide), dif_pos (show (0 : Fin S200x512.rank) ∈ dot_S200x512_S512x64_S200x64_1_0_0_1_n_n.lhsNonContracting by decide)]
  rfl
theorem lhsW_1 (i : S200x64.Idx) (q : dot_S200x512_S512x64_S200x64_1_0_0_1_n_n.contr.Idx) : (dot_S200x512_S512x64_S200x64_1_0_0_1_n_n.lhsIdx i q 1).val = (q ⟨0, by decide⟩).val :=
  dot_S200x512_S512x64_S200x64_1_0_0_1_n_n.lhsIdx_val_of_single rfl i q
theorem rhsW_0 (i : S200x64.Idx) (q : dot_S200x512_S512x64_S200x64_1_0_0_1_n_n.contr.Idx) : (dot_S200x512_S512x64_S200x64_1_0_0_1_n_n.rhsIdx i q 0).val = (q ⟨0, by decide⟩).val :=
  dot_S200x512_S512x64_S200x64_1_0_0_1_n_n.rhsIdx_val_of_single rfl i q
theorem rhsW_1 (i : S200x64.Idx) (q : dot_S200x512_S512x64_S200x64_1_0_0_1_n_n.contr.Idx) : (dot_S200x512_S512x64_S200x64_1_0_0_1_n_n.rhsIdx i q 1).val = (i 1).val := by
  unfold DotDims.rhsIdx
  rw [dif_neg (show ¬(1 : Fin S512x64.rank) ∈ dot_S200x512_S512x64_S200x64_1_0_0_1_n_n.rhsBatch by decide), dif_pos (show (1 : Fin S512x64.rank) ∈ dot_S200x512_S512x64_S200x64_1_0_0_1_n_n.rhsNonContracting by decide)]
  rfl

/-- A row tile of features times a weight matrix, into zero: entry `(r, h)` is the sum over the 512 features. -/
theorem mmW_apply (x : FVec Ideal S200x512 .bf16) (w : FVec Ideal S512x64 .bf16) (r : Fin 200) (h : Fin 64) :
    matmul dot_S200x512_S512x64_S200x64_1_0_0_1_n_n none x w (constant S200x64 .f32 0x00000000#32) (ix2 r h)
      = ∑ k : Fin 512, (x (ix2 r k) : EReal) * (w (ix2 k h) : EReal) := by
  simp only [matmul]
  rw [Ideal.matmul_constant_zero_apply, ← Equiv.sum_comp (ValueIdx.contrEquiv1 dot_S200x512_S512x64_S200x64_1_0_0_1_n_n 512 rfl rfl).symm]
  refine Finset.sum_congr rfl fun k _ => ?_
  have hk := ValueIdx.contrEquiv1_symm_val dot_S200x512_S512x64_S200x64_1_0_0_1_n_n 512 rfl rfl k
  have el : dot_S200x512_S512x64_S200x64_1_0_0_1_n_n.lhsIdx (ix2 r h) ((ValueIdx.contrEquiv1 dot_S200x512_S512x64_S200x64_1_0_0_1_n_n 512 rfl rfl).symm k) = ix2 r k := funext fun a => Fin.ext (by
    match a with
    | ⟨0, _⟩ => exact lhsW_0 _ _
    | ⟨1, _⟩ => exact (lhsW_1 _ _).trans hk)
  have er : dot_S200x512_S512x64_S200x64_1_0_0_1_n_n.rhsIdx (ix2 r h) ((ValueIdx.contrEquiv1 dot_S200x512_S512x64_S200x64_1_0_0_1_n_n 512 rfl rfl).symm k) = ix2 k h := funext fun a => Fin.ext (by
    match a with
    | ⟨0, _⟩ => exact (rhsW_0 _ _).trans hk
    | ⟨1, _⟩ => exact rhsW_1 _ _)
  rw [el, er]

/-! ## The body's payloads at an entry -/

/-- The real part before the gate, at row `r` of the tile and output feature `h`. -/
theorem pay9_apply (a0 a1 : Vec Ideal S200x2000 .bf16) (xr xi : Vec Ideal S2000x512 .bf16) (xb : Vec Ideal S200x512 .bf16)
    (w0 w1 : Vec Ideal S512x64 .bf16) (r : Fin 200) (h : Fin 64) :
    (k0_pay9 a0 a1 xr xi xb w0 w1 (ix2 r h) : EReal)
      = (∑ k : Fin 512, (xb (ix2 r k) : EReal) * (w0 (ix2 k h) : EReal))
        + ∑ k : Fin 512, ((∑ s : Fin 2000, (a0 (ix2 r s) : EReal) * (xr (ix2 s k) : EReal))
            - ∑ s : Fin 2000, (a1 (ix2 r s) : EReal) * (xi (ix2 s k) : EReal)) * (w1 (ix2 k h) : EReal) := by
  unfold k0_pay9 k0_pay3 k0_pay4 k0_pay5 k0_pay6 k0_pay7 k0_pay8
  simp only [shapeCast_self]
  refine (congrArg₂ (· + ·) (mmW_apply _ _ r h) (mmW_apply _ _ r h)).trans ?_
  refine congrArg _ (Finset.sum_congr rfl fun k _ => ?_)
  exact congrArg (· * (w1 (ix2 k h) : EReal)) (congrArg₂ (· - ·) (mmA_apply _ _ r k) (mmA_apply _ _ r k))

/-- The imaginary part before the gate. -/
theorem pay10_apply (a0 a1 : Vec Ideal S200x2000 .bf16) (xr xi : Vec Ideal S2000x512 .bf16) (xb : Vec Ideal S200x512 .bf16)
    (w0 w1 : Vec Ideal S512x64 .bf16) (r : Fin 200) (h : Fin 64) :
    (k0_pay10 a0 a1 xr xi xb w0 w1 (ix2 r h) : EReal)
      = (∑ k : Fin 512, (xb (ix2 r k) : EReal) * (w0 (ix2 k h) : EReal))
        + ∑ k : Fin 512, ((∑ s : Fin 2000, (a0 (ix2 r s) : EReal) * (xi (ix2 s k) : EReal))
            + ∑ s : Fin 2000, (a1 (ix2 r s) : EReal) * (xr (ix2 s k) : EReal)) * (w1 (ix2 k h) : EReal) := by
  unfold k0_pay10 k0_pay3 k0_pay4 k0_pay5 k0_pay6 k0_pay7 k0_pay8
  simp only [shapeCast_self]
  refine (congrArg₂ (· + ·) (mmW_apply _ _ r h) (mmW_apply _ _ r h)).trans ?_
  refine congrArg _ (Finset.sum_congr rfl fun k _ => ?_)
  exact congrArg (· * (w1 (ix2 k h) : EReal)) (congrArg₂ (· + ·) (mmA_apply _ _ r k) (mmA_apply _ _ r k))

/-- The mask: one where the real part is non-negative, zero elsewhere. -/
theorem pay11_apply (a0 a1 : Vec Ideal S200x2000 .bf16) (xr xi : Vec Ideal S2000x512 .bf16) (xb : Vec Ideal S200x512 .bf16)
    (w0 w1 : Vec Ideal S512x64 .bf16) (r : Fin 200) (h : Fin 64) :
    (k0_pay11 a0 a1 xr xi xb w0 w1 (ix2 r h) : EReal)
      = if (0 : EReal) ≤ (k0_pay9 a0 a1 xr xi xb w0 w1 (ix2 r h) : EReal) then 1 else 0 := by
  unfold k0_pay11
  generalize k0_pay9 a0 a1 xr xi xb w0 w1 = v
  show (((BitVec.setWidth 32 (Ideal.cmp .oge (v (ix2 r h)) (Ideal.ofBits .f32 0x00000000#32))).toInt : ℝ) : EReal) = _
  rw [Ideal.ofBits_zero_f32]
  unfold Ideal.cmp
  by_cases hv : (0 : EReal) ≤ v (ix2 r h)
  · rw [if_pos hv]
    simp [hv]
  · rw [if_neg hv]
    simp [hv]

/-! ## One entry of a tile, from the arrays' entries -/

/-- The real pre-activation of tile row `r` is that of node `n`, when the tile's blocks are the arrays' rows at `n`
    and the whole-array blocks are the arrays. -/
theorem pay9_eq_pre (a0 a1 : Vec Ideal S200x2000 .bf16) (xr xi : Vec Ideal S2000x512 .bf16) (xb : Vec Ideal S200x512 .bf16)
    (w0 w1 : Vec Ideal S512x64 .bf16) (A B : Fin 2000 → Fin 2000 → EReal) (X Y : Fin 2000 → Fin 512 → EReal)
    (W0 W1 : Fin 512 → Fin 64 → EReal) (n : Fin 2000) (r : Fin 200) (h : Fin 64)
    (ha0 : ∀ s, (a0 (ix2 r s) : EReal) = A n s) (ha1 : ∀ s, (a1 (ix2 r s) : EReal) = B n s)
    (hxr : ∀ s k, (xr (ix2 s k) : EReal) = X s k) (hxi : ∀ s k, (xi (ix2 s k) : EReal) = Y s k)
    (hxb : ∀ k, (xb (ix2 r k) : EReal) = X n k)
    (hw0 : ∀ k h, (w0 (ix2 k h) : EReal) = W0 k h) (hw1 : ∀ k h, (w1 (ix2 k h) : EReal) = W1 k h) :
    (k0_pay9 a0 a1 xr xi xb w0 w1 (ix2 r h) : EReal) = Spec.pre X (Spec.denseRe A B X Y) W0 W1 n h := by
  rw [pay9_apply]
  unfold Spec.pre Spec.denseRe
  simp only [ha0, ha1, hxr, hxi, hxb, hw0, hw1]

/-- The imaginary pre-activation, likewise (its tile of features is the imaginary one). -/
theorem pay10_eq_pre (a0 a1 : Vec Ideal S200x2000 .bf16) (xr xi : Vec Ideal S2000x512 .bf16) (yb : Vec Ideal S200x512 .bf16)
    (w0 w1 : Vec Ideal S512x64 .bf16) (A B : Fin 2000 → Fin 2000 → EReal) (X Y : Fin 2000 → Fin 512 → EReal)
    (W0 W1 : Fin 512 → Fin 64 → EReal) (n : Fin 2000) (r : Fin 200) (h : Fin 64)
    (ha0 : ∀ s, (a0 (ix2 r s) : EReal) = A n s) (ha1 : ∀ s, (a1 (ix2 r s) : EReal) = B n s)
    (hxr : ∀ s k, (xr (ix2 s k) : EReal) = X s k) (hxi : ∀ s k, (xi (ix2 s k) : EReal) = Y s k)
    (hyb : ∀ k, (yb (ix2 r k) : EReal) = Y n k)
    (hw0 : ∀ k h, (w0 (ix2 k h) : EReal) = W0 k h) (hw1 : ∀ k h, (w1 (ix2 k h) : EReal) = W1 k h) :
    (k0_pay10 a0 a1 xr xi yb w0 w1 (ix2 r h) : EReal) = Spec.pre Y (Spec.denseIm A B X Y) W0 W1 n h := by
  rw [pay10_apply]
  unfold Spec.pre Spec.denseIm
  simp only [ha0, ha1, hxr, hxi, hyb, hw0, hw1]

/-- What the body stores into the real output tile, at an entry: the real pre-activation gated by its own sign. -/
theorem store8_apply (a0 a1 : Vec Ideal S200x2000 .bf16) (xr xi : Vec Ideal S2000x512 .bf16) (xb : Vec Ideal S200x512 .bf16)
    (w0 w1 : Vec Ideal S512x64 .bf16) (r : Fin 200) (h : Fin 64) :
    (k0_pay1 (k0_pay9 a0 a1 xr xi xb w0 w1) (k0_pay11 a0 a1 xr xi xb w0 w1) (ix2 r h) : EReal)
      = Spec.gate (k0_pay9 a0 a1 xr xi xb w0 w1 (ix2 r h)) (k0_pay9 a0 a1 xr xi xb w0 w1 (ix2 r h)) := by
  unfold Spec.gate
  rw [← pay11_apply]
  rfl

/-- What the body stores into the imaginary output tile: the imaginary pre-activation gated by the real one's sign. -/
theorem store9_apply (a0 a1 : Vec Ideal S200x2000 .bf16) (xr xi : Vec Ideal S2000x512 .bf16) (xb yb : Vec Ideal S200x512 .bf16)
    (w0 w1 : Vec Ideal S512x64 .bf16) (r : Fin 200) (h : Fin 64) :
    (k0_pay2 (k0_pay10 a0 a1 xr xi yb w0 w1) (k0_pay11 a0 a1 xr xi xb w0 w1) (ix2 r h) : EReal)
      = Spec.gate (k0_pay10 a0 a1 xr xi yb w0 w1 (ix2 r h)) (k0_pay9 a0 a1 xr xi xb w0 w1 (ix2 r h)) := by
  unfold Spec.gate
  rw [← pay11_apply]
  rfl

/-! ## The windows' blocks as rows of the arrays -/

theorem hz : (![0, 0] : Fin 2 → Nat) = fun _ => 0 := funext fun a => by fin_cases a <;> rfl

/-- The block index maps over the grid: the tiled windows move down the rows with the point, the others stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

section Kernel
-- the TensorCore's buffer contents when the call is entered
variable (V : (c : Dev nD) → (b : Ref sig .tc) → Buf (Elt Ideal) ((c : Thread nD τ).loc b))

/-- The arrays the call reads, entry by entry. -/
abbrev arrA (c : Dev nD) (n s : Fin 2000) : EReal := (V c main_v76 : Vec Ideal S2000x2000 .bf16) (ix2 n s)
abbrev arrB (c : Dev nD) (n s : Fin 2000) : EReal := (V c main_v77 : Vec Ideal S2000x2000 .bf16) (ix2 n s)
abbrev arrX (c : Dev nD) (n : Fin 2000) (k : Fin 512) : EReal := (V c main_v78 : Vec Ideal S2000x512 .bf16) (ix2 n k)
abbrev arrY (c : Dev nD) (n : Fin 2000) (k : Fin 512) : EReal := (V c main_v79 : Vec Ideal S2000x512 .bf16) (ix2 n k)
abbrev arrW0 (c : Dev nD) (k : Fin 512) (h : Fin 64) : EReal := (V c main_v82 : Vec Ideal S512x64 .bf16) (ix2 k h)
abbrev arrW1 (c : Dev nD) (k : Fin 512) (h : Fin 64) : EReal := (V c main_v85 : Vec Ideal S512x64 .bf16) (ix2 k h)

theorem blk0_apply (c : Dev nD) (t : Fin cfg0.N) (r : Fin 200) (s n : Fin 2000) (hn : n.val = 200 * t.val + r.val) :
    ((iblk0 (F := Ideal) V c 0 t : Vec Ideal S200x2000 .bf16) (ix2 r s) : EReal) = arrA V c n s := by
  obtain ⟨e0, e1, -⟩ := idx_facts0 t
  unfold iblk0
  rw [View.read_apply]
  show V c main_v76 _ = V c main_v76 _
  congr 1
  funext a; apply Fin.ext
  match a with
  | ⟨0, _⟩ => show win0_0.index t (0 : Fin 2) * 200 + 1 * r.val = n.val; rw [e0, hn]; omega
  | ⟨1, _⟩ => show win0_0.index t (1 : Fin 2) * 2000 + 1 * s.val = s.val; rw [e1]; omega

theorem blk1_apply (c : Dev nD) (t : Fin cfg0.N) (r : Fin 200) (s n : Fin 2000) (hn : n.val = 200 * t.val + r.val) :
    ((iblk0 (F := Ideal) V c 1 t : Vec Ideal S200x2000 .bf16) (ix2 r s) : EReal) = arrB V c n s := by
  obtain ⟨-, -, e0, e1, -⟩ := idx_facts0 t
  unfold iblk0
  rw [View.read_apply]
  show V c main_v77 _ = V c main_v77 _
  congr 1
  funext a; apply Fin.ext
  match a with
  | ⟨0, _⟩ => show win0_1.index t (0 : Fin 2) * 200 + 1 * r.val = n.val; rw [e0, hn]; omega
  | ⟨1, _⟩ => show win0_1.index t (1 : Fin 2) * 2000 + 1 * s.val = s.val; rw [e1]; omega

theorem blk2_apply (c : Dev nD) (t : Fin cfg0.N) (s : Fin 2000) (k : Fin 512) :
    ((iblk0 (F := Ideal) V c 2 t : Vec Ideal S2000x512 .bf16) (ix2 s k) : EReal) = arrX V c s k := by
  obtain ⟨-, -, -, -, e0, e1, -⟩ := idx_facts0 t
  unfold iblk0
  rw [View.read_apply]
  show V c main_v78 _ = V c main_v78 _
  congr 1
  funext a; apply Fin.ext
  match a with
  | ⟨0, _⟩ => show win0_2.index t (0 : Fin 2) * 2000 + 1 * s.val = s.val; rw [e0]; omega
  | ⟨1, _⟩ => show win0_2.index t (1 : Fin 2) * 512 + 1 * k.val = k.val; rw [e1]; omega

theorem blk3_apply (c : Dev nD) (t : Fin cfg0.N) (s : Fin 2000) (k : Fin 512) :
    ((iblk0 (F := Ideal) V c 3 t : Vec Ideal S2000x512 .bf16) (ix2 s k) : EReal) = arrY V c s k := by
  obtain ⟨-, -, -, -, -, -, e0, e1, -⟩ := idx_facts0 t
  unfold iblk0
  rw [View.read_apply]
  show V c main_v79 _ = V c main_v79 _
  congr 1
  funext a; apply Fin.ext
  match a with
  | ⟨0, _⟩ => show win0_3.index t (0 : Fin 2) * 2000 + 1 * s.val = s.val; rw [e0]; omega
  | ⟨1, _⟩ => show win0_3.index t (1 : Fin 2) * 512 + 1 * k.val = k.val; rw [e1]; omega

theorem blk4_apply (c : Dev nD) (t : Fin cfg0.N) (r : Fin 200) (k : Fin 512) (n : Fin 2000) (hn : n.val = 200 * t.val + r.val) :
    ((iblk0 (F := Ideal) V c 4 t : Vec Ideal S200x512 .bf16) (ix2 r k) : EReal) = arrX V c n k := by
  obtain ⟨-, -, -, -, -, -, -, -, e0, e1, -⟩ := idx_facts0 t
  unfold iblk0
  rw [View.read_apply]
  show V c main_v78 _ = V c main_v78 _
  congr 1
  funext a; apply Fin.ext
  match a with
  | ⟨0, _⟩ => show win0_4.index t (0 : Fin 2) * 200 + 1 * r.val = n.val; rw [e0, hn]; omega
  | ⟨1, _⟩ => show win0_4.index t (1 : Fin 2) * 512 + 1 * k.val = k.val; rw [e1]; omega

theorem blk5_apply (c : Dev nD) (t : Fin cfg0.N) (r : Fin 200) (k : Fin 512) (n : Fin 2000) (hn : n.val = 200 * t.val + r.val) :
    ((iblk0 (F := Ideal) V c 5 t : Vec Ideal S200x512 .bf16) (ix2 r k) : EReal) = arrY V c n k := by
  obtain ⟨-, -, -, -, -, -, -, -, -, -, e0, e1, -⟩ := idx_facts0 t
  unfold iblk0
  rw [View.read_apply]
  show V c main_v79 _ = V c main_v79 _
  congr 1
  funext a; apply Fin.ext
  match a with
  | ⟨0, _⟩ => show win0_5.index t (0 : Fin 2) * 200 + 1 * r.val = n.val; rw [e0, hn]; omega
  | ⟨1, _⟩ => show win0_5.index t (1 : Fin 2) * 512 + 1 * k.val = k.val; rw [e1]; omega

theorem blk6_apply (c : Dev nD) (t : Fin cfg0.N) (k : Fin 512) (h : Fin 64) :
    ((iblk0 (F := Ideal) V c 6 t : Vec Ideal S512x64 .bf16) (ix2 k h) : EReal) = arrW0 V c k h := by
  obtain ⟨-, -, -, -, -, -, -, -, -, -, -, -, e0, e1, -⟩ := idx_facts0 t
  unfold iblk0
  rw [View.read_apply]
  show V c main_v82 _ = V c main_v82 _
  congr 1
  funext a; apply Fin.ext
  match a with
  | ⟨0, _⟩ => show win0_6.index t (0 : Fin 2) * 512 + 1 * k.val = k.val; rw [e0]; omega
  | ⟨1, _⟩ => show win0_6.index t (1 : Fin 2) * 64 + 1 * h.val = h.val; rw [e1]; omega

theorem blk7_apply (c : Dev nD) (t : Fin cfg0.N) (k : Fin 512) (h : Fin 64) :
    ((iblk0 (F := Ideal) V c 7 t : Vec Ideal S512x64 .bf16) (ix2 k h) : EReal) = arrW1 V c k h := by
  obtain ⟨-, -, -, -, -, -, -, -, -, -, -, -, -, -, e0, e1, -⟩ := idx_facts0 t
  unfold iblk0
  rw [View.read_apply]
  show V c main_v85 _ = V c main_v85 _
  congr 1
  funext a; apply Fin.ext
  match a with
  | ⟨0, _⟩ => show win0_7.index t (0 : Fin 2) * 512 + 1 * k.val = k.val; rw [e0]; omega
  | ⟨1, _⟩ => show win0_7.index t (1 : Fin 2) * 64 + 1 * h.val = h.val; rw [e1]; omega

/-! ## The two output arrays as functions of the arrays read -/

/-- The real pre-activation of node `n`, output feature `h`, from the arrays as the call finds them. -/
def preRe (c : Dev nD) (n : Fin 2000) (h : Fin 64) : EReal :=
  Spec.pre (arrX V c) (Spec.denseRe (arrA V c) (arrB V c) (arrX V c) (arrY V c)) (arrW0 V c) (arrW1 V c) n h
/-- The imaginary pre-activation. -/
def preIm (c : Dev nD) (n : Fin 2000) (h : Fin 64) : EReal :=
  Spec.pre (arrY V c) (Spec.denseIm (arrA V c) (arrB V c) (arrX V c) (arrY V c)) (arrW0 V c) (arrW1 V c) n h

/-- What the real output array ends holding. -/
def G8 (c : Dev nD) : S2000x64.Idx → Elt Ideal .f32 := fun i =>
  Spec.gate (preRe V c ⟨(i 0).val, idx2_lt0 i⟩ ⟨(i 1).val, idx2_lt1 i⟩) (preRe V c ⟨(i 0).val, idx2_lt0 i⟩ ⟨(i 1).val, idx2_lt1 i⟩)
/-- What the imaginary output array ends holding. -/
def G9 (c : Dev nD) : S2000x64.Idx → Elt Ideal .f32 := fun i =>
  Spec.gate (preIm V c ⟨(i 0).val, idx2_lt0 i⟩ ⟨(i 1).val, idx2_lt1 i⟩) (preRe V c ⟨(i 0).val, idx2_lt0 i⟩ ⟨(i 1).val, idx2_lt1 i⟩)

theorem G8_at (c : Dev nD) (i : S2000x64.Idx) (n : Fin 2000) (h : Fin 64) (h0 : (i 0).val = n.val) (h1 : (i 1).val = h.val) :
    G8 V c i = Spec.gate (preRe V c n h) (preRe V c n h) := by
  unfold G8
  rw [show (⟨(i 0).val, idx2_lt0 i⟩ : Fin 2000) = n from Fin.ext h0, show (⟨(i 1).val, idx2_lt1 i⟩ : Fin 64) = h from Fin.ext h1]
theorem G9_at (c : Dev nD) (i : S2000x64.Idx) (n : Fin 2000) (h : Fin 64) (h0 : (i 0).val = n.val) (h1 : (i 1).val = h.val) :
    G9 V c i = Spec.gate (preIm V c n h) (preRe V c n h) := by
  unfold G9
  rw [show (⟨(i 0).val, idx2_lt0 i⟩ : Fin 2000) = n from Fin.ext h0, show (⟨(i 1).val, idx2_lt1 i⟩ : Fin 64) = h from Fin.ext h1]

/-- The real tile a point stores, at an entry: the gated real pre-activation of the node the row is. -/
theorem tile8_apply (c : Dev nD) (t : Fin cfg0.N) (r : Fin 200) (h : Fin 64) (n : Fin 2000) (hn : n.val = 200 * t.val + r.val) :
    (k0_pay1 (k0_pay9 (iblk0 (F := Ideal) V c 0 t) (iblk0 (F := Ideal) V c 1 t) (iblk0 (F := Ideal) V c 2 t) (iblk0 (F := Ideal) V c 3 t) (iblk0 (F := Ideal) V c 4 t) (iblk0 (F := Ideal) V c 6 t) (iblk0 (F := Ideal) V c 7 t))
        (k0_pay11 (iblk0 (F := Ideal) V c 0 t) (iblk0 (F := Ideal) V c 1 t) (iblk0 (F := Ideal) V c 2 t) (iblk0 (F := Ideal) V c 3 t) (iblk0 (F := Ideal) V c 4 t) (iblk0 (F := Ideal) V c 6 t) (iblk0 (F := Ideal) V c 7 t)) (ix2 r h) : EReal)
      = Spec.gate (preRe V c n h) (preRe V c n h) := by
  have e := pay9_eq_pre (iblk0 (F := Ideal) V c 0 t) (iblk0 (F := Ideal) V c 1 t) (iblk0 (F := Ideal) V c 2 t) (iblk0 (F := Ideal) V c 3 t) (iblk0 (F := Ideal) V c 4 t) (iblk0 (F := Ideal) V c 6 t) (iblk0 (F := Ideal) V c 7 t)
    (arrA V c) (arrB V c) (arrX V c) (arrY V c) (arrW0 V c) (arrW1 V c) n r h
    (fun s => blk0_apply V c t r s n hn) (fun s => blk1_apply V c t r s n hn) (fun s k => blk2_apply V c t s k) (fun s k => blk3_apply V c t s k)
    (fun k => blk4_apply V c t r k n hn) (fun k h => blk6_apply V c t k h) (fun k h => blk7_apply V c t k h)
  refine (store8_apply (iblk0 (F := Ideal) V c 0 t) (iblk0 (F := Ideal) V c 1 t) (iblk0 (F := Ideal) V c 2 t) (iblk0 (F := Ideal) V c 3 t) (iblk0 (F := Ideal) V c 4 t) (iblk0 (F := Ideal) V c 6 t) (iblk0 (F := Ideal) V c 7 t) r h).trans ?_
  unfold preRe
  rw [e]

/-- The imaginary tile a point stores, at an entry. -/
theorem tile9_apply (c : Dev nD) (t : Fin cfg0.N) (r : Fin 200) (h : Fin 64) (n : Fin 2000) (hn : n.val = 200 * t.val + r.val) :
    (k0_pay2 (k0_pay10 (iblk0 (F := Ideal) V c 0 t) (iblk0 (F := Ideal) V c 1 t) (iblk0 (F := Ideal) V c 2 t) (iblk0 (F := Ideal) V c 3 t) (iblk0 (F := Ideal) V c 5 t) (iblk0 (F := Ideal) V c 6 t) (iblk0 (F := Ideal) V c 7 t))
        (k0_pay11 (iblk0 (F := Ideal) V c 0 t) (iblk0 (F := Ideal) V c 1 t) (iblk0 (F := Ideal) V c 2 t) (iblk0 (F := Ideal) V c 3 t) (iblk0 (F := Ideal) V c 4 t) (iblk0 (F := Ideal) V c 6 t) (iblk0 (F := Ideal) V c 7 t)) (ix2 r h) : EReal)
      = Spec.gate (preIm V c n h) (preRe V c n h) := by
  have e := pay9_eq_pre (iblk0 (F := Ideal) V c 0 t) (iblk0 (F := Ideal) V c 1 t) (iblk0 (F := Ideal) V c 2 t) (iblk0 (F := Ideal) V c 3 t) (iblk0 (F := Ideal) V c 4 t) (iblk0 (F := Ideal) V c 6 t) (iblk0 (F := Ideal) V c 7 t)
    (arrA V c) (arrB V c) (arrX V c) (arrY V c) (arrW0 V c) (arrW1 V c) n r h
    (fun s => blk0_apply V c t r s n hn) (fun s => blk1_apply V c t r s n hn) (fun s k => blk2_apply V c t s k) (fun s k => blk3_apply V c t s k)
    (fun k => blk4_apply V c t r k n hn) (fun k h => blk6_apply V c t k h) (fun k h => blk7_apply V c t k h)
  have e' := pay10_eq_pre (iblk0 (F := Ideal) V c 0 t) (iblk0 (F := Ideal) V c 1 t) (iblk0 (F := Ideal) V c 2 t) (iblk0 (F := Ideal) V c 3 t) (iblk0 (F := Ideal) V c 5 t) (iblk0 (F := Ideal) V c 6 t) (iblk0 (F := Ideal) V c 7 t)
    (arrA V c) (arrB V c) (arrX V c) (arrY V c) (arrW0 V c) (arrW1 V c) n r h
    (fun s => blk0_apply V c t r s n hn) (fun s => blk1_apply V c t r s n hn) (fun s k => blk2_apply V c t s k) (fun s k => blk3_apply V c t s k)
    (fun k => blk5_apply V c t r k n hn) (fun k h => blk6_apply V c t k h) (fun k h => blk7_apply V c t k h)
  refine (store9_apply (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) r h).trans ?_
  unfold preRe preIm
  rw [e, e']

end Kernel

section KernelArrays
variable (V : (c : Dev nD) → (b : Ref sig .tc) → Buf (Elt Ideal) ((c : Thread nD τ).loc b))

/-- WHAT POINT `t` WRITES BACK to the real output is block `t` of `G8`: tile row `r` is node `200·t + r`. -/
theorem flushed8_eq (c : Dev nD) (t : Fin cfg0.N) :
    (dat0 (F := Ideal) V c).flushed 8 t = ((cfg0.win 8).blk t).view.read (Elt Ideal) (G8 V c) := by
  show (cfg0.win 8).cut (grid0.coords t) ((dat0 (F := Ideal) V c).after 8 t) = _
  rw [after0_8]
  unfold out0_8
  rw [View.canon_unit_zero hz]
  simp only [View.ld_unit_zero (S := S200x2000) hz, View.ld_unit_zero (S := S2000x512) hz, View.ld_unit_zero (S := S200x512) hz,
    View.ld_unit_zero (S := S512x64) hz]
  obtain ⟨-, -, -, -, -, -, -, -, -, -, -, -, -, -, -, -, e0, e1, -⟩ := idx_facts0 t
  have hN : cfg0.N = 10 := N_0
  have ht : t.val < 10 := hN ▸ t.isLt
  refine funext fun (j : S200x64.Idx) => ?_
  have hj0 : (j 0).val < 200 := idx2_lt0 j
  have hj1 : (j 1).val < 64 := idx2_lt1 j
  show _ = G8 V c (((cfg0.win 8).blk t).view.emb j)
  rw [G8_at V c _ ⟨200 * t.val + (j 0).val, by omega⟩ ⟨(j 1).val, hj1⟩
    (by show win0_8.index t (0 : Fin 2) * 200 + 1 * (j 0).val = 200 * t.val + (j 0).val; rw [e0]; omega)
    (by show win0_8.index t (1 : Fin 2) * 64 + 1 * (j 1).val = (j 1).val; rw [e1]; omega)]
  have key := tile8_apply V c t ⟨(j 0).val, hj0⟩ ⟨(j 1).val, hj1⟩ ⟨200 * t.val + (j 0).val, by omega⟩ rfl
  rw [show ix2 (⟨(j 0).val, hj0⟩ : Fin 200) (⟨(j 1).val, hj1⟩ : Fin 64) = j from (eq_ix2 j).symm] at key
  exact key

/-- and to the imaginary output, block `t` of `G9`. -/
theorem flushed9_eq (c : Dev nD) (t : Fin cfg0.N) :
    (dat0 (F := Ideal) V c).flushed 9 t = ((cfg0.win 9).blk t).view.read (Elt Ideal) (G9 V c) := by
  show (cfg0.win 9).cut (grid0.coords t) ((dat0 (F := Ideal) V c).after 9 t) = _
  rw [after0_9]
  unfold out0_9
  rw [View.canon_unit_zero hz]
  simp only [View.ld_unit_zero (S := S200x2000) hz, View.ld_unit_zero (S := S2000x512) hz, View.ld_unit_zero (S := S200x512) hz,
    View.ld_unit_zero (S := S512x64) hz]
  obtain ⟨-, -, -, -, -, -, -, -, -, -, -, -, -, -, -, -, -, -, e0, e1⟩ := idx_facts0 t
  have hN : cfg0.N = 10 := N_0
  have ht : t.val < 10 := hN ▸ t.isLt
  refine funext fun (j : S200x64.Idx) => ?_
  have hj0 : (j 0).val < 200 := idx2_lt0 j
  have hj1 : (j 1).val < 64 := idx2_lt1 j
  show _ = G9 V c (((cfg0.win 9).blk t).view.emb j)
  rw [G9_at V c _ ⟨200 * t.val + (j 0).val, by omega⟩ ⟨(j 1).val, hj1⟩
    (by show win0_9.index t (0 : Fin 2) * 200 + 1 * (j 0).val = 200 * t.val + (j 0).val; rw [e0]; omega)
    (by show win0_9.index t (1 : Fin 2) * 64 + 1 * (j 1).val = (j 1).val; rw [e1]; omega)]
  have key := tile9_apply V c t ⟨(j 0).val, hj0⟩ ⟨(j 1).val, hj1⟩ ⟨200 * t.val + (j 0).val, by omega⟩ rfl
  rw [show ix2 (⟨(j 0).val, hj0⟩ : Fin 200) (⟨(j 1).val, hj1⟩ : Fin 64) = j from (eq_ix2 j).symm] at key
  exact key

/-- An entry of the real output array is in point `t`'s block iff each coordinate is in the block's range. -/
theorem mem_blk8 (t : Fin cfg0.N) (i : S2000x64.Idx) :
    i ∈ ((cfg0.win 8).blk t).view.set ↔ ∀ a : Fin 2, win0_8.index t a * S200x64.size a ≤ (i a).val ∧ (i a).val < win0_8.index t a * S200x64.size a + S200x64.size a := by
  show i ∈ ((View.whole main_v86_0).slice (win0_8.rect t)).set ↔ _
  rw [View.set_slice_whole, Rect.mem_set_unit]
  exact Iff.rfl
theorem mem_blk9 (t : Fin cfg0.N) (i : S2000x64.Idx) :
    i ∈ ((cfg0.win 9).blk t).view.set ↔ ∀ a : Fin 2, win0_9.index t a * S200x64.size a ≤ (i a).val ∧ (i a).val < win0_9.index t a * S200x64.size a + S200x64.size a := by
  show i ∈ ((View.whole main_v86_1).slice (win0_9.rect t)).set ↔ _
  rw [View.set_slice_whole, Rect.mem_set_unit]
  exact Iff.rfl

/-- Row `n` of an output is written back at point `n / 200`. -/
theorem cover8 (i : S2000x64.Idx) : ∃ t : Fin cfg0.N, (cfg0.win 8).flush t = true ∧ i ∈ ((cfg0.win 8).blk t).view.set := by
  have hi0 : (i 0).val < 2000 := idx2_lt0 i
  have hi1 : (i 1).val < 64 := idx2_lt1 i
  have hN : cfg0.N = 10 := N_0
  have ht : (i 0).val / 200 < cfg0.N := by rw [hN]; omega
  obtain ⟨-, -, -, -, -, -, -, -, -, -, -, -, -, -, -, -, e0, e1, -⟩ := idx_facts0 ⟨(i 0).val / 200, ht⟩
  refine ⟨⟨(i 0).val / 200, ht⟩, flush0_8 _, ?_⟩
  rw [mem_blk8]
  intro a
  match a with
  | ⟨0, _⟩ =>
    show win0_8.index ⟨(i 0).val / 200, ht⟩ (0 : Fin 2) * 200 ≤ (i 0).val ∧ (i 0).val < win0_8.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_8.index ⟨(i 0).val / 200, ht⟩ (1 : Fin 2) * 64 ≤ (i 1).val ∧ (i 1).val < win0_8.index ⟨(i 0).val / 200, ht⟩ (1 : Fin 2) * 64 + 64
    rw [e1]; omega
theorem cover9 (i : S2000x64.Idx) : ∃ t : Fin cfg0.N, (cfg0.win 9).flush t = true ∧ i ∈ ((cfg0.win 9).blk t).view.set := by
  have hi0 : (i 0).val < 2000 := idx2_lt0 i
  have hi1 : (i 1).val < 64 := idx2_lt1 i
  have hN : cfg0.N = 10 := N_0
  have ht : (i 0).val / 200 < cfg0.N := by rw [hN]; omega
  obtain ⟨-, -, -, -, -, -, -, -, -, -, -, -, -, -, -, -, -, -, e0, e1⟩ := idx_facts0 ⟨(i 0).val / 200, ht⟩
  refine ⟨⟨(i 0).val / 200, ht⟩, flush0_9 _, ?_⟩
  rw [mem_blk9]
  intro a
  match a with
  | ⟨0, _⟩ =>
    show win0_9.index ⟨(i 0).val / 200, ht⟩ (0 : Fin 2) * 200 ≤ (i 0).val ∧ (i 0).val < win0_9.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_9.index ⟨(i 0).val / 200, ht⟩ (1 : Fin 2) * 64 ≤ (i 1).val ∧ (i 1).val < win0_9.index ⟨(i 0).val / 200, ht⟩ (1 : Fin 2) * 64 + 64
    rw [e1]; omega

/-- THE REAL OUTPUT ARRAY after the call. -/
theorem arr8_eq (c : Dev nD) : (dat0 (F := Ideal) V c).arrAt 8 cfg0.N = G8 V c :=
  (dat0 (F := Ideal) V c).arrAt_eq_of_cover 8 (G8 V c) (fun t _ => flushed8_eq V c t) cover8
/-- THE IMAGINARY OUTPUT ARRAY after the call. -/
theorem arr9_eq (c : Dev nD) : (dat0 (F := Ideal) V c).arrAt 9 cfg0.N = G9 V c :=
  (dat0 (F := Ideal) V c).arrAt_eq_of_cover 9 (G9 V c) (fun t _ => flushed9_eq V c t) cover9

/-- Entry `(n, h)` of the real output: the gated real pre-activation of node `n`. -/
theorem arr8_apply (c : Dev nD) (n : Fin 2000) (h : Fin 64) :
    ((dat0 (F := Ideal) V c).arrAt 8 cfg0.N : S2000x64.Idx → Elt Ideal .f32) (ix2 n h)
      = Spec.gate (Spec.pre (arrX V c) (Spec.denseRe (arrA V c) (arrB V c) (arrX V c) (arrY V c)) (arrW0 V c) (arrW1 V c) n h)
          (Spec.pre (arrX V c) (Spec.denseRe (arrA V c) (arrB V c) (arrX V c) (arrY V c)) (arrW0 V c) (arrW1 V c) n h) := by
  rw [arr8_eq]
  exact G8_at V c (ix2 n h) n h rfl rfl
/-- Entry `(n, h)` of the imaginary output: the imaginary pre-activation of node `n` gated by the real one's sign. -/
theorem arr9_apply (c : Dev nD) (n : Fin 2000) (h : Fin 64) :
    ((dat0 (F := Ideal) V c).arrAt 9 cfg0.N : S2000x64.Idx → Elt Ideal .f32) (ix2 n h)
      = Spec.gate (Spec.pre (arrY V c) (Spec.denseIm (arrA V c) (arrB V c) (arrX V c) (arrY V c)) (arrW0 V c) (arrW1 V c) n h)
          (Spec.pre (arrX V c) (Spec.denseRe (arrA V c) (arrB V c) (arrX V c) (arrY V c)) (arrW0 V c) (arrW1 V c) n h) := by
  rw [arr9_eq]
  exact G9_at V c (ix2 n h) n h rfl rfl

end KernelArrays

end Cert.Layer1

end
-- ==== Proof.Layer1R.lean ====
/-
  Convolution layer 1, the reference's side: its two stage arrays (the gated real and imaginary parts, [2000, 64]) read
  at an entry, over the extended reals, as functions of the program's argument arrays.

  The reference works edge by edge over the symmetrised edge list of 128000 positions. For position `e` it gathers the
  feature row of the edge's source node (the source word made absolute, read signed and clamped into the 2000 rows),
  multiplies by the edge's complex weight `cr e + i·ci e` (`cr·x − ci·y` and `cr·y + ci·x`, feature by feature), and adds
  the products into the row of the edge's target node by an accumulating scatter, which reads the target word signed
  and drops an edge whose target is out of range. So the aggregate at node `n`, feature `k`, is `0` plus the sum over
  the positions whose target is `n` of the edge's contribution: the sparse aggregate of the layer. The layer's output
  is then `x·W₀ + T·W₁` for the real and for the imaginary part, `W₀` and `W₁` the two slices of the weight array,
  each multiplied by the comparison "real part ≥ 0" converted to a float, which is `1` or `0`.

  No hypothesis on the edge index is needed here: the statement names the row the gather reads as it reads it.
-/
import proofs.«405959_j54778012893400_3_alg».proof.Proof.RefReadP
import proofs.«405959_j54778012893400_3_alg».proof.Proof.Spec
import proofs.«405959_j54778012893400_3_alg».proof.Proof.LibSegmentScatter
import proofs.«405959_j54778012893400_3_alg».proof.Proof.LibTakeRows
import Idealize.ShloMosaic.Lib.Pipeline.Value
import Idealize.ShloMosaic.Lib.ValueIdx
import Idealize.ShloMosaic.PureOps.Ideal.Laws

set_option maxRecDepth 16384

open scoped BigOperators

noncomputable section

namespace Cert.Layer1

open Cert.ReferenceIdeal Cert.ReferenceIdeal.Gen Cert.ReferenceIdeal.ReadP
open Idealize.ShloMosaic Idealize.ShloMosaic.TcCoe Idealize.SL.Sem Idealize.ShloMosaic.ValueIdx

/-! ## The reference's gate -/

/-- `b` times the comparison `a ≥ 0` converted to a float is `b` gated by the sign of `a`. -/
theorem gate_ref (b a : EReal) :
    FloatOps.mulf (F := Ideal) (φ := .f32) b
        (FloatOps.uitofp (F := Ideal) .f32 (FloatOps.cmpf (F := Ideal) (φ := .f32) .oge a (FloatOps.ofBits (F := Ideal) .f32 0x00000000#32)))
      = Spec.gate b a := by
  unfold Spec.gate
  show b * (((Ideal.cmp .oge a (Ideal.ofBits .f32 0x00000000#32)).toNat : ℝ) : EReal) = _
  rw [Ideal.ofBits_zero_f32]
  unfold Ideal.cmp
  by_cases hv : (0 : EReal) ≤ a
  · rw [if_pos hv]; simp [hv]
  · rw [if_neg hv]; simp [hv]

section Reference
variable (x0 x1 : (⟨S2000x512, .f32⟩ : BufTy).Contents (Elt Ideal)) (x2 : (⟨S2x64000, .i32⟩ : BufTy).Contents (Elt Ideal))
  (x5 : (⟨S64000, .f32⟩ : BufTy).Contents (Elt Ideal)) (x6 : (⟨S2x512x64, .f32⟩ : BufTy).Contents (Elt Ideal))

/-! ## The layer's data, entry by entry -/

/-- The node features, real and imaginary part. -/
abbrev featX (n : Fin 2000) (k : Fin 512) : EReal := x0 (ix2 n k)
abbrev featY (n : Fin 2000) (k : Fin 512) : EReal := x1 (ix2 n k)
/-- The two weight matrices: slices 0 and 1 of the weight array's leading axis. -/
abbrev wgt0 (k : Fin 512) (h : Fin 64) : EReal := x6 (ix3 (0 : Fin 2) k h)
abbrev wgt1 (k : Fin 512) (h : Fin 64) : EReal := x6 (ix3 (1 : Fin 2) k h)
/-- The complex weight of position `e` of the symmetrised edge list. -/
abbrev edgeRe (e : Fin 128000) : EReal := val_main_v41 (F := Ideal) x2 x5 (ix1 e)
abbrev edgeIm (e : Fin 128000) : EReal := val_main_v44 (F := Ideal) x2 x5 (ix1 e)
/-- Its target node, read signed (the scatter drops it when out of range), -/
abbrev tgtI (e : Fin 128000) : ℤ := (val_main_v5 (F := Ideal) x2 (ix1 e)).toInt
/-- its source word made absolute (2000 added to a negative one), -/
def srcN (e : Fin 128000) : BitVec 32 :=
  Scalar.select (IntOp.cmpi .slt (val_main_v4 (F := Ideal) x2 (ix1 e)) 0#32) (IntOp.addi (val_main_v4 (F := Ideal) x2 (ix1 e)) 2000#32)
    (val_main_v4 (F := Ideal) x2 (ix1 e))
/-- and the row the gather reads for it: that word read signed and clamped into the table. -/
def srcRow (e : Fin 128000) : Fin 2000 := ⟨min (srcN x2 e).toInt.toNat 1999, by omega⟩

/-- The contribution of position `e` to the real aggregate, feature `k`, and to the imaginary one. -/
abbrev contribRe (e : Fin 128000) (k : Fin 512) : EReal :=
  edgeRe x2 x5 e * featX x0 (srcRow x2 e) k - edgeIm x2 x5 e * featY x1 (srcRow x2 e) k
abbrev contribIm (e : Fin 128000) (k : Fin 512) : EReal :=
  edgeRe x2 x5 e * featY x1 (srcRow x2 e) k + edgeIm x2 x5 e * featX x0 (srcRow x2 e) k

/-! ## The weight slices -/

theorem v80_at (k : Fin 512) (h : Fin 64) : val_main_v80 (F := Ideal) x6 (ix2 k h) = wgt0 x6 k h := by
  have hk := k.isLt; have hh := h.isLt
  rw [val_main_v80_apply, val_main_v79_apply]
  show x6 _ = x6 _
  congr 1
  funext a; apply Fin.ext
  match a with
  | ⟨0, _⟩ => rfl
  | ⟨1, _⟩ => show (k.val * 64 + h.val) / 64 % 512 = k.val; omega
  | ⟨2, _⟩ => show (k.val * 64 + h.val) % 64 = h.val; omega
theorem v83_at (k : Fin 512) (h : Fin 64) : val_main_v83 (F := Ideal) x6 (ix2 k h) = wgt1 x6 k h := by
  have hk := k.isLt; have hh := h.isLt
  rw [val_main_v83_apply, val_main_v82_apply]
  show x6 _ = x6 _
  congr 1
  funext a; apply Fin.ext
  match a with
  | ⟨0, _⟩ => rfl
  | ⟨1, _⟩ => show (k.val * 64 + h.val) / 64 % 512 = k.val; omega
  | ⟨2, _⟩ => show (k.val * 64 + h.val) % 64 = h.val; omega
theorem v87_at (k : Fin 512) (h : Fin 64) : val_main_v87 (F := Ideal) x6 (ix2 k h) = wgt0 x6 k h := by
  have hk := k.isLt; have hh := h.isLt
  rw [val_main_v87_apply, val_main_v86_apply]
  show x6 _ = x6 _
  congr 1
  funext a; apply Fin.ext
  match a with
  | ⟨0, _⟩ => rfl
  | ⟨1, _⟩ => show (k.val * 64 + h.val) / 64 % 512 = k.val; omega
  | ⟨2, _⟩ => show (k.val * 64 + h.val) % 64 = h.val; omega
theorem v90_at (k : Fin 512) (h : Fin 64) : val_main_v90 (F := Ideal) x6 (ix2 k h) = wgt1 x6 k h := by
  have hk := k.isLt; have hh := h.isLt
  rw [val_main_v90_apply, val_main_v89_apply]
  show x6 _ = x6 _
  congr 1
  funext a; apply Fin.ext
  match a with
  | ⟨0, _⟩ => rfl
  | ⟨1, _⟩ => show (k.val * 64 + h.val) / 64 % 512 = k.val; omega
  | ⟨2, _⟩ => show (k.val * 64 + h.val) % 64 = h.val; omega

/-! ## The source rows -/

theorem v49_at (e : Fin 128000) : val_main_v49 (F := Ideal) x2 (ix1 e) = srcN x2 e := by
  rw [val_main_v49_apply, val_main_v46_apply, val_main_v48_apply, val_main_v45_apply, val_main_v47_apply, val_main_c_8_apply,
    val_main_c_9_apply]
  rfl
theorem v56_at (e : Fin 128000) : val_main_v56 (F := Ideal) x2 (ix1 e) = srcN x2 e := by
  rw [val_main_v56_apply, val_main_v53_apply, val_main_v55_apply, val_main_v52_apply, val_main_v54_apply, val_main_c_10_apply,
    val_main_c_11_apply]
  rfl

theorem gatherDims_eq : gather_S2000x512_S128000x1_S128000x512_1_0_n_n_0_1_1512
    = TakeRows.rowDims 2000 512 128000 Facts₀.gather_S2000x512_S128000x1_S128000x512_1_0_n_n_0_1_1512_wf := rfl

/-- A gather of table rows at a column of start words, with the word of position `e` known: row `e` of the result is
    the table's row at that word read signed and clamped into the table. -/
theorem gather_row (x : (⟨S2000x512, .f32⟩ : BufTy).Contents (Elt Ideal)) (idx : (⟨S128000x1, .i32⟩ : BufTy).Contents (Elt Ideal))
    (e : Fin 128000) (k : Fin 512) (w : BitVec 32) (hi : idx (ix2 e (0 : Fin 1)) = w) :
    Host.gather gather_S2000x512_S128000x1_S128000x512_1_0_n_n_0_1_1512 x idx (ix2 e k)
      = x (ix2 (⟨min w.toInt.toNat 1999, by omega⟩ : Fin 2000) k) := by
  subst hi
  rw [gatherDims_eq]
  exact TakeRows.rowTake_apply (by decide) _ x idx e k

theorem v50_at (e : Fin 128000) : val_main_v50 (F := Ideal) x2 (ix2 e (0 : Fin 1)) = srcN x2 e := by
  have hidx : idx_main_v50 (ix2 e (0 : Fin 1)) = ix1 e := funext fun a => match a with | ⟨0, _⟩ => rfl
  rw [val_main_v50_apply, hidx]
  exact v49_at x2 e
theorem v57_at (e : Fin 128000) : val_main_v57 (F := Ideal) x2 (ix2 e (0 : Fin 1)) = srcN x2 e := by
  have hidx : idx_main_v57 (ix2 e (0 : Fin 1)) = ix1 e := funext fun a => match a with | ⟨0, _⟩ => rfl
  rw [val_main_v57_apply, hidx]
  exact v56_at x2 e

/-- The gathered real features: row `e` is the features' row `srcRow e`. -/
theorem v51_at (e : Fin 128000) (k : Fin 512) : val_main_v51 (F := Ideal) x0 x2 (ix2 e k) = featX x0 (srcRow x2 e) k := by
  unfold val_main_v51 featX srcRow
  exact gather_row x0 (val_main_v50 (F := Ideal) x2) e k (srcN x2 e) (v50_at x2 e)
/-- The gathered imaginary features. -/
theorem v58_at (e : Fin 128000) (k : Fin 512) : val_main_v58 (F := Ideal) x1 x2 (ix2 e k) = featY x1 (srcRow x2 e) k := by
  unfold val_main_v58 featY srcRow
  exact gather_row x1 (val_main_v57 (F := Ideal) x2) e k (srcN x2 e) (v57_at x2 e)

/-! ## The edge weights broadcast along the features -/

theorem v60_at (e : Fin 128000) (k : Fin 512) : val_main_v60 (F := Ideal) x2 x5 (ix2 e k) = edgeRe x2 x5 e := by
  have hidx : idx_main_v59 (idx_main_v60 (ix2 e k)) = ix1 e := funext fun a => match a with | ⟨0, _⟩ => rfl
  rw [val_main_v60_apply, val_main_v59_apply, hidx]
theorem v63_at (e : Fin 128000) (k : Fin 512) : val_main_v63 (F := Ideal) x2 x5 (ix2 e k) = edgeIm x2 x5 e := by
  have hidx : idx_main_v62 (idx_main_v63 (ix2 e k)) = ix1 e := funext fun a => match a with | ⟨0, _⟩ => rfl
  rw [val_main_v63_apply, val_main_v62_apply, hidx]
theorem v70_at (e : Fin 128000) (k : Fin 512) : val_main_v70 (F := Ideal) x2 x5 (ix2 e k) = edgeRe x2 x5 e := by
  have hidx : idx_main_v69 (idx_main_v70 (ix2 e k)) = ix1 e := funext fun a => match a with | ⟨0, _⟩ => rfl
  rw [val_main_v70_apply, val_main_v69_apply, hidx]
theorem v73_at (e : Fin 128000) (k : Fin 512) : val_main_v73 (F := Ideal) x2 x5 (ix2 e k) = edgeIm x2 x5 e := by
  have hidx : idx_main_v72 (idx_main_v73 (ix2 e k)) = ix1 e := funext fun a => match a with | ⟨0, _⟩ => rfl
  rw [val_main_v73_apply, val_main_v72_apply, hidx]

/-- The real updates: `cr·x(src) − ci·y(src)`. -/
theorem v65_at (e : Fin 128000) (k : Fin 512) : val_main_v65 (F := Ideal) x0 x1 x2 x5 (ix2 e k) = contribRe x0 x1 x2 x5 e k := by
  rw [val_main_v65_apply, val_main_v61_apply, val_main_v64_apply, v60_at, v51_at, v63_at, v58_at]
  rfl
/-- The imaginary updates: `cr·y(src) + ci·x(src)`. -/
theorem v75_at (e : Fin 128000) (k : Fin 512) : val_main_v75 (F := Ideal) x0 x1 x2 x5 (ix2 e k) = contribIm x0 x1 x2 x5 e k := by
  rw [val_main_v75_apply, val_main_v71_apply, val_main_v74_apply, v70_at, v58_at, v73_at, v51_at]
  rfl

/-! ## The two segment sums -/

theorem scatterDims_eq : scatter_S2000x512_S128000x1_S128000x512_1_0_0_1
    = SegmentScatter.rowDims 2000 512 128000 Facts₀.scatter_S2000x512_S128000x1_S128000x512_1_0_0_1_wf := rfl

theorem v67_at (e : Fin 128000) : (val_main_v67 (F := Ideal) x2 (ix2 e (0 : Fin 1))).toInt = tgtI x2 e := by
  have hidx : idx_main_v67 (ix2 e (0 : Fin 1)) = ix1 e := funext fun a => match a with | ⟨0, _⟩ => rfl
  rw [val_main_v67_apply, hidx]
theorem v77_at (e : Fin 128000) : (val_main_v77 (F := Ideal) x2 (ix2 e (0 : Fin 1))).toInt = tgtI x2 e := by
  have hidx : idx_main_v77 (ix2 e (0 : Fin 1)) = ix1 e := funext fun a => match a with | ⟨0, _⟩ => rfl
  rw [val_main_v77_apply, hidx]

/-- The real aggregate: at node `n`, the sum of the real updates of the positions whose target is `n`. -/
theorem v68_at (n : Fin 2000) (k : Fin 512) :
    val_main_v68 (F := Ideal) x0 x1 x2 x5 (ix2 n k) = Spec.seg (tgtI x2) (contribRe x0 x1 x2 x5) n k := by
  unfold val_main_v68
  rw [scatterDims_eq]
  refine (SegmentScatter.rowScatterAdd_apply _ (val_main_v66 (F := Ideal)) (val_main_v67 (F := Ideal) x2)
    (val_main_v65 (F := Ideal) x0 x1 x2 x5) n k).trans ?_
  unfold Spec.seg
  rw [val_main_v66_apply, val_main_cst_12_apply]
  refine congrArg₂ (· + ·) Ideal.ofBits_zero_f32 (Finset.sum_congr rfl fun e _ => ?_)
  rw [v67_at, v65_at]
/-- The imaginary aggregate. -/
theorem v78_at (n : Fin 2000) (k : Fin 512) :
    val_main_v78 (F := Ideal) x0 x1 x2 x5 (ix2 n k) = Spec.seg (tgtI x2) (contribIm x0 x1 x2 x5) n k := by
  unfold val_main_v78
  rw [scatterDims_eq]
  refine (SegmentScatter.rowScatterAdd_apply _ (val_main_v76 (F := Ideal)) (val_main_v77 (F := Ideal) x2)
    (val_main_v75 (F := Ideal) x0 x1 x2 x5) n k).trans ?_
  unfold Spec.seg
  rw [val_main_v76_apply, val_main_cst_13_apply]
  refine congrArg₂ (· + ·) Ideal.ofBits_zero_f32 (Finset.sum_congr rfl fun e _ => ?_)
  rw [v77_at, v75_at]

/-! ## The four products with the weights, the pre-activations, the gate -/

theorem v81_at (n : Fin 2000) (h : Fin 64) :
    val_main_v81 (F := Ideal) x0 x6 (ix2 n h) = ∑ k : Fin 512, featX x0 n k * wgt0 x6 k h := by
  rw [val_main_v81_apply]
  refine Finset.sum_congr rfl fun k _ => ?_
  have el : lidx_main_v81 (ix2 n h) k = ix2 n k := funext fun a => match a with | ⟨0, _⟩ => rfl | ⟨1, _⟩ => rfl
  have er : ridx_main_v81 (ix2 n h) k = ix2 k h := funext fun a => match a with | ⟨0, _⟩ => rfl | ⟨1, _⟩ => rfl
  rw [el, er, v80_at]
theorem v84_at (n : Fin 2000) (h : Fin 64) :
    val_main_v84 (F := Ideal) x0 x1 x2 x5 x6 (ix2 n h)
      = ∑ k : Fin 512, Spec.seg (tgtI x2) (contribRe x0 x1 x2 x5) n k * wgt1 x6 k h := by
  rw [val_main_v84_apply]
  refine Finset.sum_congr rfl fun k _ => ?_
  have el : lidx_main_v84 (ix2 n h) k = ix2 n k := funext fun a => match a with | ⟨0, _⟩ => rfl | ⟨1, _⟩ => rfl
  have er : ridx_main_v84 (ix2 n h) k = ix2 k h := funext fun a => match a with | ⟨0, _⟩ => rfl | ⟨1, _⟩ => rfl
  rw [el, er, v68_at, v83_at]
theorem v88_at (n : Fin 2000) (h : Fin 64) :
    val_main_v88 (F := Ideal) x1 x6 (ix2 n h) = ∑ k : Fin 512, featY x1 n k * wgt0 x6 k h := by
  rw [val_main_v88_apply]
  refine Finset.sum_congr rfl fun k _ => ?_
  have el : lidx_main_v88 (ix2 n h) k = ix2 n k := funext fun a => match a with | ⟨0, _⟩ => rfl | ⟨1, _⟩ => rfl
  have er : ridx_main_v88 (ix2 n h) k = ix2 k h := funext fun a => match a with | ⟨0, _⟩ => rfl | ⟨1, _⟩ => rfl
  rw [el, er, v87_at]
theorem v91_at (n : Fin 2000) (h : Fin 64) :
    val_main_v91 (F := Ideal) x0 x1 x2 x5 x6 (ix2 n h)
      = ∑ k : Fin 512, Spec.seg (tgtI x2) (contribIm x0 x1 x2 x5) n k * wgt1 x6 k h := by
  rw [val_main_v91_apply]
  refine Finset.sum_congr rfl fun k _ => ?_
  have el : lidx_main_v91 (ix2 n h) k = ix2 n k := funext fun a => match a with | ⟨0, _⟩ => rfl | ⟨1, _⟩ => rfl
  have er : ridx_main_v91 (ix2 n h) k = ix2 k h := funext fun a => match a with | ⟨0, _⟩ => rfl | ⟨1, _⟩ => rfl
  rw [el, er, v78_at, v90_at]

/-- The real pre-activation of the reference. -/
theorem v85_at (n : Fin 2000) (h : Fin 64) :
    val_main_v85 (F := Ideal) x0 x1 x2 x5 x6 (ix2 n h)
      = Spec.pre (featX x0) (Spec.seg (tgtI x2) (contribRe x0 x1 x2 x5)) (wgt0 x6) (wgt1 x6) n h := by
  rw [val_main_v85_apply, v81_at, v84_at]
  rfl
/-- The imaginary pre-activation of the reference. -/
theorem v92_at (n : Fin 2000) (h : Fin 64) :
    val_main_v92 (F := Ideal) x0 x1 x2 x5 x6 (ix2 n h)
      = Spec.pre (featY x1) (Spec.seg (tgtI x2) (contribIm x0 x1 x2 x5)) (wgt0 x6) (wgt1 x6) n h := by
  rw [val_main_v92_apply, v88_at, v91_at]
  rfl

/-- THE REFERENCE'S REAL STAGE of layer 1 at an entry: the real pre-activation gated by its own sign. -/
theorem ref96_apply (n : Fin 2000) (h : Fin 64) :
    val_main_v96 (F := Ideal) x0 x1 x2 x5 x6 (ix2 n h)
      = Spec.gate (Spec.pre (featX x0) (Spec.seg (tgtI x2) (contribRe x0 x1 x2 x5)) (wgt0 x6) (wgt1 x6) n h)
          (Spec.pre (featX x0) (Spec.seg (tgtI x2) (contribRe x0 x1 x2 x5)) (wgt0 x6) (wgt1 x6) n h) := by
  rw [val_main_v96_apply, val_main_v95_apply, val_main_v94_apply, val_main_v93_apply, val_main_cst_14_apply, v85_at]
  exact gate_ref _ _
/-- THE REFERENCE'S IMAGINARY STAGE at an entry: the imaginary pre-activation gated by the real one's sign. -/
theorem ref97_apply (n : Fin 2000) (h : Fin 64) :
    val_main_v97 (F := Ideal) x0 x1 x2 x5 x6 (ix2 n h)
      = Spec.gate (Spec.pre (featY x1) (Spec.seg (tgtI x2) (contribIm x0 x1 x2 x5)) (wgt0 x6) (wgt1 x6) n h)
          (Spec.pre (featX x0) (Spec.seg (tgtI x2) (contribRe x0 x1 x2 x5)) (wgt0 x6) (wgt1 x6) n h) := by
  rw [val_main_v97_apply, val_main_v95_apply, val_main_v94_apply, val_main_v93_apply, val_main_cst_14_apply, v92_at, v85_at]
  exact gate_ref _ _

end Reference

end Cert.Layer1

end
-- ==== Proof.Layer1.lean ====
/-
  Convolution layer 1: the kernel's first pallas_call and the reference's first layer compute the same two arrays.

  The kernel multiplies DENSE 2000 × 2000 operator matrices by the feature matrices; the reference sums, node by node,
  over the edges that end there. The two agree when the operator matrices are the edge weights accumulated by
  (target, source) pair, `A n s = Σ_e [target e = n ∧ source e = s] · cr e`: expand the product of sums, exchange the
  two summations, and for each edge exactly one source row remains. That exchange needs every weight and feature to be
  a real number (over the extended reals `⊤ − ⊤` breaks distributivity), and it needs the row the reference's gather
  reads for an edge to BE the edge's source node: true when every entry of the edge index lies in `[0, 2000)`, for then
  the source word is not negative, so "add 2000 if negative" leaves it, and it is below 2000, so the clamp leaves it.

  The symmetrised source list is the edge index's row 0 followed by its row 1, so its entries are entries of the
  edge index. Last, for real data every entry of the layer's two stages is a real number: sums, products and the gate
  of real numbers are real.
-/
import proofs.«405959_j54778012893400_3_alg».proof.Proof.Layer1K
import proofs.«405959_j54778012893400_3_alg».proof.Proof.Layer1R
import proofs.«405959_j54778012893400_3_alg».proof.Proof.SpecLemmas
import proofs.«405959_j54778012893400_3_alg».proof.Proof.LibIndexRange
import Idealize.ShloMosaic.Lib.Pipeline.Value
import Idealize.ShloMosaic.Lib.ValueIdx

set_option maxRecDepth 16384

open scoped BigOperators

noncomputable section

namespace Cert.Layer1

open Idealize.ShloMosaic Idealize.ShloMosaic.TcCoe Idealize.SL.Sem Idealize.ShloMosaic.ValueIdx
open Cert.ReferenceIdeal.ReadP

section Join
variable (x0 x1 : (⟨2, ![2000, 512]⟩ : Shape).Idx → EReal) (x2 : (⟨2, ![2, 64000]⟩ : Shape).Idx → BitVec 32)
  (x5 : (⟨1, ![64000]⟩ : Shape).Idx → EReal) (x6 : (⟨3, ![2, 512, 64]⟩ : Shape).Idx → EReal)

/-- The source node of position `e` of the symmetrised edge list, read signed. -/
abbrev srcI (e : Fin 128000) : ℤ := (val_main_v4 (F := Ideal) x2 (ix1 e)).toInt

/-! ## Under the range hypothesis the gather reads the source node's own row -/

/-- Position `e` of the source list is an entry of the edge index: row 0 for the first 64000 positions, row 1 for the
    rest. -/
theorem v4_eq (e : Fin 128000) :
    val_main_v4 (F := Ideal) x2 (ix1 e)
      = if he : e.val < 64000 then x2 (ix2 (0 : Fin 2) ⟨e.val, he⟩)
        else x2 (ix2 (1 : Fin 2) ⟨e.val - 64000, by have := e.isLt; omega⟩) := by
  have hlt := e.isLt
  unfold val_main_v4
  by_cases he : e.val < 64000
  · rw [dif_pos he]
    refine (concatenate_pair_apply_left (t := ⟨1, ![128000]⟩) (s₁ := ⟨1, ![64000]⟩) (s₂ := ⟨1, ![64000]⟩) (0 : Fin 1) _ _ _ (ix1 e) rfl
      (ix1 (⟨e.val, he⟩ : Fin 64000)) (fun b => match b with | ⟨0, _⟩ => rfl)).trans ?_
    rw [val_main_v1_apply, val_main_v0_apply]
    have hidx : idx_main_v0 (idx_main_v1 (ix1 (⟨e.val, he⟩ : Fin 64000))) = ix2 (0 : Fin 2) (⟨e.val, he⟩ : Fin 64000) :=
      funext fun a => Fin.ext (match a with
        | ⟨0, _⟩ => rfl
        | ⟨1, _⟩ => by show e.val % 64000 = e.val; omega)
    rw [hidx]
  · rw [dif_neg he]
    refine (concatenate_pair_apply_right (t := ⟨1, ![128000]⟩) (s₁ := ⟨1, ![64000]⟩) (s₂ := ⟨1, ![64000]⟩) (0 : Fin 1) _ _ _ (ix1 e) rfl rfl
      (ix1 (⟨e.val - 64000, by omega⟩ : Fin 64000)) (fun b hb => match b with | ⟨0, _⟩ => absurd rfl hb)
      (by show e.val - 64000 + 64000 = e.val; omega)).trans ?_
    rw [val_main_v3_apply, val_main_v2_apply]
    have hidx : idx_main_v2 (idx_main_v3 (ix1 (⟨e.val - 64000, by omega⟩ : Fin 64000))) = ix2 (1 : Fin 2) (⟨e.val - 64000, by omega⟩ : Fin 64000) :=
      funext fun a => Fin.ext (match a with
        | ⟨0, _⟩ => rfl
        | ⟨1, _⟩ => by show (e.val - 64000) % 64000 = e.val - 64000; omega)
    rw [hidx]

/-- So every source word is a node. -/
theorem srcI_range (hr : ∀ a : Fin 2, ∀ e : Fin 64000, 0 ≤ (x2 (ix2 a e)).toInt ∧ (x2 (ix2 a e)).toInt < 2000) (e : Fin 128000) :
    0 ≤ srcI x2 e ∧ srcI x2 e < 2000 := by
  unfold srcI
  rw [v4_eq]
  split
  · exact hr 0 _
  · exact hr 1 _

/-- A word that is a node is not moved by "add 2000 if negative" and not clamped by "into `[0, 1999]`". -/
theorem clampRow (w : BitVec 32) (h0 : 0 ≤ w.toInt) (h1 : w.toInt < 2000) :
    ((min (Scalar.select (IntOp.cmpi .slt w 0#32) (IntOp.addi w 2000#32) w).toInt.toNat 1999 : ℕ) : ℤ) = w.toInt := by
  rw [IndexRange.select_wrap_eq _ h0]
  omega

/-- The row the gather reads for position `e` is its source node: the word is not negative, so it is not moved, and it
    is below 2000, so it is not clamped. -/
theorem srcRow_val (hr : ∀ a : Fin 2, ∀ e : Fin 64000, 0 ≤ (x2 (ix2 a e)).toInt ∧ (x2 (ix2 a e)).toInt < 2000) (e : Fin 128000) :
    ((srcRow x2 e).val : ℤ) = srcI x2 e := by
  obtain ⟨h0, h1⟩ := srcI_range x2 hr e
  unfold srcRow srcN
  exact clampRow (val_main_v4 (F := Ideal) x2 (ix1 e)) h0 h1

/-! ## The reference's stages are real numbers -/

theorem contribRe_real (hcr : ∀ e, ∃ r : ℝ, edgeRe x2 x5 e = (r : EReal)) (hci : ∀ e, ∃ r : ℝ, edgeIm x2 x5 e = (r : EReal))
    (hx : ∀ n k, ∃ r : ℝ, featX x0 n k = (r : EReal)) (hy : ∀ n k, ∃ r : ℝ, featY x1 n k = (r : EReal)) (e : Fin 128000) (k : Fin 512) :
    ∃ r : ℝ, contribRe x0 x1 x2 x5 e k = (r : EReal) :=
  ConvCore.real_sub _ _ (ConvCore.real_mul _ _ (hcr e) (hx _ k)) (ConvCore.real_mul _ _ (hci e) (hy _ k))
theorem contribIm_real (hcr : ∀ e, ∃ r : ℝ, edgeRe x2 x5 e = (r : EReal)) (hci : ∀ e, ∃ r : ℝ, edgeIm x2 x5 e = (r : EReal))
    (hx : ∀ n k, ∃ r : ℝ, featX x0 n k = (r : EReal)) (hy : ∀ n k, ∃ r : ℝ, featY x1 n k = (r : EReal)) (e : Fin 128000) (k : Fin 512) :
    ∃ r : ℝ, contribIm x0 x1 x2 x5 e k = (r : EReal) :=
  ConvCore.real_add _ _ (ConvCore.real_mul _ _ (hcr e) (hy _ k)) (ConvCore.real_mul _ _ (hci e) (hx _ k))

/-- Every entry of the reference's real stage of layer 1 is a real number, for real weights and features. -/
theorem ref96_real (hcr : ∀ e, ∃ r : ℝ, edgeRe x2 x5 e = (r : EReal)) (hci : ∀ e, ∃ r : ℝ, edgeIm x2 x5 e = (r : EReal))
    (hx : ∀ n k, ∃ r : ℝ, featX x0 n k = (r : EReal)) (hy : ∀ n k, ∃ r : ℝ, featY x1 n k = (r : EReal))
    (hw0 : ∀ k h, ∃ r : ℝ, wgt0 x6 k h = (r : EReal)) (hw1 : ∀ k h, ∃ r : ℝ, wgt1 x6 k h = (r : EReal))
    (i : (⟨2, ![2000, 64]⟩ : Shape).Idx) : ∃ r : ℝ, val_main_v96 (F := Ideal) x0 x1 x2 x5 x6 i = (r : EReal) := by
  obtain ⟨n, h, rfl⟩ : ∃ (n : Fin 2000) (h : Fin 64), i = ix2 n h := ⟨i 0, i 1, eq_ix2 i⟩
  rw [ref96_apply]
  exact Spec.gate_real _ _ (Spec.pre_real _ _ _ _ hx
    (Spec.seg_real _ _ (contribRe_real x0 x1 x2 x5 hcr hci hx hy)) hw0 hw1 n h)
/-- and of its imaginary stage. -/
theorem ref97_real (hcr : ∀ e, ∃ r : ℝ, edgeRe x2 x5 e = (r : EReal)) (hci : ∀ e, ∃ r : ℝ, edgeIm x2 x5 e = (r : EReal))
    (hx : ∀ n k, ∃ r : ℝ, featX x0 n k = (r : EReal)) (hy : ∀ n k, ∃ r : ℝ, featY x1 n k = (r : EReal))
    (hw0 : ∀ k h, ∃ r : ℝ, wgt0 x6 k h = (r : EReal)) (hw1 : ∀ k h, ∃ r : ℝ, wgt1 x6 k h = (r : EReal))
    (i : (⟨2, ![2000, 64]⟩ : Shape).Idx) : ∃ r : ℝ, val_main_v97 (F := Ideal) x0 x1 x2 x5 x6 i = (r : EReal) := by
  obtain ⟨n, h, rfl⟩ : ∃ (n : Fin 2000) (h : Fin 64), i = ix2 n h := ⟨i 0, i 1, eq_ix2 i⟩
  rw [ref97_apply]
  exact Spec.gate_real _ _ (Spec.pre_real _ _ _ _ hy
    (Spec.seg_real _ _ (contribIm_real x0 x1 x2 x5 hcr hci hx hy)) hw0 hw1 n h)

/-! ## The kernel's layer 1 is the reference's -/

/-- The pre-activation depends on the aggregate only through its entries. -/
theorem pre_congr {D : ℕ} (x t t' : Fin 2000 → Fin D → EReal) (w0 w1 : Fin D → Fin 64 → EReal)
    (ht : ∀ n k, t n k = t' n k) (n : Fin 2000) (h : Fin 64) : Spec.pre x t w0 w1 n h = Spec.pre x t' w0 w1 n h := by
  obtain rfl : t = t' := funext fun n => funext fun k => ht n k
  rfl

open Cert.KernelIdeal Cert.KernelIdeal.Hand in
/-- The kernel's real output at an entry, with the six arrays it reads named by what they hold. -/
theorem arr8_apply_of (V : (c : Dev nD) → (b : Ref sig .tc) → Buf (Elt Ideal) ((c : Thread nD τ).loc b)) (c : Dev nD)
    (A B : Fin 2000 → Fin 2000 → EReal) (X Y : Fin 2000 → Fin 512 → EReal) (W0 W1 : Fin 512 → Fin 64 → EReal)
    (hA : ∀ n s, arrA V c n s = A n s) (hB : ∀ n s, arrB V c n s = B n s)
    (hX : ∀ n k, arrX V c n k = X n k) (hY : ∀ n k, arrY V c n k = Y n k)
    (hW0 : ∀ k h, arrW0 V c k h = W0 k h) (hW1 : ∀ k h, arrW1 V c k h = W1 k h) (n : Fin 2000) (h : Fin 64) :
    ((dat0 (F := Ideal) V c).arrAt 8 cfg0.N : (⟨2, ![2000, 64]⟩ : Shape).Idx → EReal) (ix2 n h)
      = Spec.gate (Spec.pre X (Spec.denseRe A B X Y) W0 W1 n h) (Spec.pre X (Spec.denseRe A B X Y) W0 W1 n h) := by
  obtain rfl : arrA V c = A := funext fun n => funext fun s => hA n s
  obtain rfl : arrB V c = B := funext fun n => funext fun s => hB n s
  obtain rfl : arrX V c = X := funext fun n => funext fun k => hX n k
  obtain rfl : arrY V c = Y := funext fun n => funext fun k => hY n k
  obtain rfl : arrW0 V c = W0 := funext fun k => funext fun h => hW0 k h
  obtain rfl : arrW1 V c = W1 := funext fun k => funext fun h => hW1 k h
  exact arr8_apply V c n h

open Cert.KernelIdeal Cert.KernelIdeal.Hand in
/-- The kernel's imaginary output at an entry, likewise. -/
theorem arr9_apply_of (V : (c : Dev nD) → (b : Ref sig .tc) → Buf (Elt Ideal) ((c : Thread nD τ).loc b)) (c : Dev nD)
    (A B : Fin 2000 → Fin 2000 → EReal) (X Y : Fin 2000 → Fin 512 → EReal) (W0 W1 : Fin 512 → Fin 64 → EReal)
    (hA : ∀ n s, arrA V c n s = A n s) (hB : ∀ n s, arrB V c n s = B n s)
    (hX : ∀ n k, arrX V c n k = X n k) (hY : ∀ n k, arrY V c n k = Y n k)
    (hW0 : ∀ k h, arrW0 V c k h = W0 k h) (hW1 : ∀ k h, arrW1 V c k h = W1 k h) (n : Fin 2000) (h : Fin 64) :
    ((dat0 (F := Ideal) V c).arrAt 9 cfg0.N : (⟨2, ![2000, 64]⟩ : Shape).Idx → EReal) (ix2 n h)
      = Spec.gate (Spec.pre Y (Spec.denseIm A B X Y) W0 W1 n h) (Spec.pre X (Spec.denseRe A B X Y) W0 W1 n h) := by
  obtain rfl : arrA V c = A := funext fun n => funext fun s => hA n s
  obtain rfl : arrB V c = B := funext fun n => funext fun s => hB n s
  obtain rfl : arrX V c = X := funext fun n => funext fun k => hX n k
  obtain rfl : arrY V c = Y := funext fun n => funext fun k => hY n k
  obtain rfl : arrW0 V c = W0 := funext fun k => funext fun h => hW0 k h
  obtain rfl : arrW1 V c = W1 := funext fun k => funext fun h => hW1 k h
  exact arr9_apply V c n h

open Cert.KernelIdeal Cert.KernelIdeal.Hand in
/-- CONVOLUTION LAYER 1. When the first pallas_call is entered with its two operator arrays holding the accumulated
    edge-weight matrices, its feature arrays the layer's input features and its weight arrays the two weight slices,
    with every entry of the edge index a node and every weight and feature a real number, its two output arrays end
    holding the reference's two stage arrays of the layer: the dense aggregate is the sparse one. -/
theorem layer1 (V : (c : Dev nD) → (b : Ref sig .tc) → Buf (Elt Ideal) ((c : Thread nD τ).loc b)) (c : Dev nD)
    (hA : ∀ n s, arrA V c n s = Spec.adj (tgtI x2) (srcI x2) (edgeRe x2 x5) n s)
    (hB : ∀ n s, arrB V c n s = Spec.adj (tgtI x2) (srcI x2) (edgeIm x2 x5) n s)
    (hX : ∀ n k, arrX V c n k = featX x0 n k) (hY : ∀ n k, arrY V c n k = featY x1 n k)
    (hW0 : ∀ k h, arrW0 V c k h = wgt0 x6 k h) (hW1 : ∀ k h, arrW1 V c k h = wgt1 x6 k h)
    (hr : ∀ a : Fin 2, ∀ e : Fin 64000, 0 ≤ (x2 (ix2 a e)).toInt ∧ (x2 (ix2 a e)).toInt < 2000)
    (hcr : ∀ e, ∃ r : ℝ, edgeRe x2 x5 e = (r : EReal)) (hci : ∀ e, ∃ r : ℝ, edgeIm x2 x5 e = (r : EReal))
    (hx : ∀ n k, ∃ r : ℝ, featX x0 n k = (r : EReal)) (hy : ∀ n k, ∃ r : ℝ, featY x1 n k = (r : EReal)) :
    ((dat0 (F := Ideal) V c).arrAt 8 cfg0.N : (⟨2, ![2000, 64]⟩ : Shape).Idx → EReal) = val_main_v96 (F := Ideal) x0 x1 x2 x5 x6
    ∧ ((dat0 (F := Ideal) V c).arrAt 9 cfg0.N : (⟨2, ![2000, 64]⟩ : Shape).Idx → EReal) = val_main_v97 (F := Ideal) x0 x1 x2 x5 x6 := by
  have hg : ∀ e, ((srcRow x2 e).val : ℤ) = srcI x2 e := srcRow_val x2 hr
  constructor
  · funext i
    obtain ⟨n, h, rfl⟩ : ∃ (n : Fin 2000) (h : Fin 64), i = ix2 n h := ⟨i 0, i 1, eq_ix2 i⟩
    refine (arr8_apply_of V c _ _ _ _ _ _ hA hB hX hY hW0 hW1 n h).trans ?_
    refine Eq.trans ?_ (ref96_apply x0 x1 x2 x5 x6 n h).symm
    have eRe := pre_congr (featX x0) _ _ (wgt0 x6) (wgt1 x6)
      (fun n k => Spec.denseRe_eq_seg (tgtI x2) (srcI x2) (srcRow x2) hg (edgeRe x2 x5) (edgeIm x2 x5) (featX x0) (featY x1) hcr hci hx hy n k) n h
    exact congrArg₂ Spec.gate eRe eRe
  · funext i
    obtain ⟨n, h, rfl⟩ : ∃ (n : Fin 2000) (h : Fin 64), i = ix2 n h := ⟨i 0, i 1, eq_ix2 i⟩
    refine (arr9_apply_of V c _ _ _ _ _ _ hA hB hX hY hW0 hW1 n h).trans ?_
    refine Eq.trans ?_ (ref97_apply x0 x1 x2 x5 x6 n h).symm
    have eRe := pre_congr (featX x0) _ _ (wgt0 x6) (wgt1 x6)
      (fun n k => Spec.denseRe_eq_seg (tgtI x2) (srcI x2) (srcRow x2) hg (edgeRe x2 x5) (edgeIm x2 x5) (featX x0) (featY x1) hcr hci hx hy n k) n h
    have eIm := pre_congr (featY x1) _ _ (wgt0 x6) (wgt1 x6)
      (fun n k => Spec.denseIm_eq_seg (tgtI x2) (srcI x2) (srcRow x2) hg (edgeRe x2 x5) (edgeIm x2 x5) (featX x0) (featY x1) hcr hci hx hy n k) n h
    exact congrArg₂ Spec.gate eIm eRe

end Join

end Cert.Layer1

end
-- ==== Proof.LibPairScatter2.lean ====
/-
  An accumulating scatter of single elements into a matrix, read at one element of its result over the extended reals.

  The operand is `[B, V]`, the scatter indices `[N, 2]` and the updates `[N]`: update `n` is added into the operand's
  element whose row is the first and whose column is the second component of index vector `n`. Both components are read
  signed and not clamped, and an update whose pair falls outside `[0, B) × [0, V)` is dropped. So the result at `(b, v)`
  is the operand there plus the sum of the updates whose index pair is `(b, v)`.

  The dimension numbers are spelt field by field as a printed program's record is, so that record is one of these by `rfl`.
-/
import Idealize.ShloMosaic.PureOps.Ideal
import Idealize.ShloMosaic.Lib.ValueIdx
import Idealize.ShloMosaic.Lib.ValueIdxRank1

open scoped BigOperators

noncomputable section

namespace Idealize.ShloMosaic.PairScatter2

open Idealize.ShloMosaic Idealize.ShloMosaic.ValueIdx

/-- The dimension numbers of an element scatter into a matrix: operand `[B, V]`, scatter indices `[N, 2]`,
    updates `[N]`; no window axis, both operand axes inserted, index component `c` naming operand axis `c`. -/
abbrev pairDims2 (B V N : Nat)
    (wf : ScatterDims.WF ⟨2, ![B, V]⟩ ⟨2, ![N, 2]⟩ ⟨1, ![N]⟩ [] [0, 1] [0, 1] 1) :
    ScatterDims ⟨2, ![B, V]⟩ ⟨2, ![N, 2]⟩ ⟨1, ![N]⟩ where
  updateWindowDims := []
  insertedWindowDims := [0, 1]
  scatterDimsToOperandDims := [0, 1]
  indexVectorDim := 1
  wf := wf

variable {B V N w : Nat} (wf : ScatterDims.WF ⟨2, ![B, V]⟩ ⟨2, ![N, 2]⟩ ⟨1, ![N]⟩ [] [0, 1] [0, 1] 1)
  (idx : IVec ⟨2, ![N, 2]⟩ w)

/-- On operand axis 0 update `n` starts at the signed value of component 0 of its index vector. -/
theorem start0 (n : Fin N) :
    (pairDims2 B V N wf).start (ix1 n) idx 0 = (idx (ix2 n (0 : Fin 2))).toInt := by
  unfold ScatterDims.start
  rw [dif_pos (show (0 : Fin 2) ∈ (pairDims2 B V N wf).scatterDimsToOperandDims from (by decide : (0 : Fin 2) ∈ ([0, 1] : List (Fin 2))))]
  have hsi : (pairDims2 B V N wf).siIdx (ix1 n) ⟨List.idxOf (0 : Fin 2) (pairDims2 B V N wf).scatterDimsToOperandDims,
      List.idxOf_lt_length_iff.2 (by decide : (0 : Fin 2) ∈ ([0, 1] : List (Fin 2)))⟩ = ix2 n (0 : Fin 2) := by
    funext a; refine Fin.ext ?_
    match a with
    | ⟨0, _⟩ => rfl
    | ⟨1, _⟩ => rfl
  rw [hsi]

/-- On operand axis 1 it starts at the signed value of component 1. -/
theorem start1 (n : Fin N) :
    (pairDims2 B V N wf).start (ix1 n) idx 1 = (idx (ix2 n (1 : Fin 2))).toInt := by
  unfold ScatterDims.start
  rw [dif_pos (show (1 : Fin 2) ∈ (pairDims2 B V N wf).scatterDimsToOperandDims from (by decide : (1 : Fin 2) ∈ ([0, 1] : List (Fin 2))))]
  have hsi : (pairDims2 B V N wf).siIdx (ix1 n) ⟨List.idxOf (1 : Fin 2) (pairDims2 B V N wf).scatterDimsToOperandDims,
      List.idxOf_lt_length_iff.2 (by decide : (1 : Fin 2) ∈ ([0, 1] : List (Fin 2)))⟩ = ix2 n (1 : Fin 2) := by
    funext a; refine Fin.ext ?_
    match a with
    | ⟨0, _⟩ => rfl
    | ⟨1, _⟩ => rfl
  rw [hsi]

/-- Both operand axes are inserted window axes: the window coordinate is `0` on each. -/
theorem window_zero (j : (⟨1, ![N]⟩ : Shape).Idx) (a : Fin 2) :
    (pairDims2 B V N wf).window j a = 0 := by
  unfold ScatterDims.window
  have h : a ∉ (pairDims2 B V N wf).sKept := (show a ∉ ([] : List (Fin 2)) from List.not_mem_nil)
  rw [dif_neg h]

/-- Update `n` lands at `(b, v)` exactly when its index pair, read signed, is `(b, v)`. -/
theorem resultIdx?_eq_some_iff (n : Fin N) (b : Fin B) (v : Fin V) :
    (pairDims2 B V N wf).resultIdx? (ix1 n) idx = some (ix2 b v)
      ↔ (idx (ix2 n (0 : Fin 2))).toInt = (b.val : ℤ) ∧ (idx (ix2 n (1 : Fin 2))).toInt = (v.val : ℤ) := by
  unfold ScatterDims.resultIdx?
  constructor
  · intro h
    split at h
    · rename_i hc
      have hf := Option.some.inj h
      have h0 := congrArg (fun f => (f 0).val) hf
      have h1 := congrArg (fun f => (f 1).val) hf
      have hc0 := (hc 0).1
      have hc1 := (hc 1).1
      rw [start0, window_zero] at hc0
      rw [start1, window_zero] at hc1
      simp only [start0, start1, window_zero] at h0 h1
      change ((idx (ix2 n (0 : Fin 2))).toInt + ((0 : ℕ) : ℤ)).toNat = b.val at h0
      change ((idx (ix2 n (1 : Fin 2))).toInt + ((0 : ℕ) : ℤ)).toNat = v.val at h1
      exact ⟨by omega, by omega⟩
    · exact absurd h (by simp)
  · rintro ⟨hb, hv⟩
    have hc : ∀ a, 0 ≤ (pairDims2 B V N wf).start (ix1 n) idx a + (pairDims2 B V N wf).window (ix1 n) a ∧
        (pairDims2 B V N wf).start (ix1 n) idx a + (pairDims2 B V N wf).window (ix1 n) a
          < (⟨2, ![B, V]⟩ : Shape).size a := by
      intro a
      match a with
      | ⟨0, _⟩ =>
        change 0 ≤ (pairDims2 B V N wf).start (ix1 n) idx 0 + ((pairDims2 B V N wf).window (ix1 n) 0 : ℕ) ∧
          (pairDims2 B V N wf).start (ix1 n) idx 0 + ((pairDims2 B V N wf).window (ix1 n) 0 : ℕ) < (B : ℤ)
        rw [start0, window_zero, hb]
        have := b.isLt
        omega
      | ⟨1, _⟩ =>
        change 0 ≤ (pairDims2 B V N wf).start (ix1 n) idx 1 + ((pairDims2 B V N wf).window (ix1 n) 1 : ℕ) ∧
          (pairDims2 B V N wf).start (ix1 n) idx 1 + ((pairDims2 B V N wf).window (ix1 n) 1 : ℕ) < (V : ℤ)
        rw [start1, window_zero, hv]
        have := v.isLt
        omega
    rw [dif_pos hc]
    congr 1
    funext a; refine Fin.ext ?_
    match a with
    | ⟨0, _⟩ =>
      change ((pairDims2 B V N wf).start (ix1 n) idx 0 + ((pairDims2 B V N wf).window (ix1 n) 0 : ℕ)).toNat = b.val
      rw [start0, window_zero, hb]; omega
    | ⟨1, _⟩ =>
      change ((pairDims2 B V N wf).start (ix1 n) idx 1 + ((pairDims2 B V N wf).window (ix1 n) 1 : ℕ)).toNat = v.val
      rw [start1, window_zero, hv]; omega

/-- The scatter-add read at `(b, v)`: the operand there plus every update whose index pair is `(b, v)`. -/
theorem pairScatterAdd2_apply {B V N w : Nat}
    (wf : ScatterDims.WF ⟨2, ![B, V]⟩ ⟨2, ![N, 2]⟩ ⟨1, ![N]⟩ [] [0, 1] [0, 1] 1)
    (x : (⟨2, ![B, V]⟩ : Shape).Idx → EReal) (idx : IVec ⟨2, ![N, 2]⟩ w)
    (upd : (⟨1, ![N]⟩ : Shape).Idx → EReal) (b : Fin B) (v : Fin V) :
    Ideal.hostScatterAdd (pairDims2 B V N wf) x idx upd (ix2 b v)
      = x (ix2 b v) + ∑ n : Fin N,
          if (idx (ix2 n (0 : Fin 2))).toInt = (b.val : ℤ) ∧ (idx (ix2 n (1 : Fin 2))).toInt = (v.val : ℤ)
            then upd (ix1 n) else 0 := by
  unfold Ideal.hostScatterAdd
  congr 1
  rw [Finset.sum_filter]
  refine (Equiv.sum_comp (idxEquiv1 (n := N)).symm _).symm.trans ?_
  refine Finset.sum_congr rfl fun n _ => ?_
  change (if (pairDims2 B V N wf).resultIdx? (ix1 n) idx = some (ix2 b v) then upd (ix1 n) else 0) = _
  simp only [resultIdx?_eq_some_iff]

end Idealize.ShloMosaic.PairScatter2

end
-- ==== Proof.Prelude2.lean ====
/-
  What the host operations before the first kernel call leave in the arrays that call reads, in the reference
  program's terms.

  The rounded node features and layer-one weight matrices are the argument arrays themselves (a rounding is the
  identity over the extended reals). The two dense 2000 × 2000 matrices are the reference's own edge values
  accumulated at the pairs (target, source): the kernel program's chain of edge operations is the reference's except
  for the inverse square root of a degree, which the one spells as the reciprocal square root of the degree made safe
  and the other as one over the square root, and the two spellings agree at every extended real; and under the range
  hypothesis on the edge index no node index is negative, so the normalisation of negative indices is the identity
  and the accumulation at index pairs is the sum over the edges with that target and that source.
-/
import proofs.«405959_j54778012893400_3_alg».proof.Proof.Prelude1
import proofs.«405959_j54778012893400_3_alg».proof.Proof.RefReadP
import proofs.«405959_j54778012893400_3_alg».proof.Proof.Spec
import proofs.«405959_j54778012893400_3_alg».proof.Proof.SpecLemmas
import proofs.«405959_j54778012893400_3_alg».proof.Proof.LibPairScatter2
import proofs.«405959_j54778012893400_3_alg».proof.Proof.LibIndexRange
import Idealize.ShloMosaic.PureOps.Ideal.Laws
import Idealize.ShloMosaic.Lib.Pipeline.Value

set_option maxRecDepth 16384

open scoped BigOperators

noncomputable section

namespace Cert.Prelude

open Cert.KernelIdeal Cert.KernelIdeal.Gen
open Idealize.ShloMosaic Idealize.ShloMosaic.TcCoe Idealize.ShloMosaic.ValueIdx
open Idealize.SL Idealize.SL.Sem

/-! ## Two pieces joined along an axis, read at an index -/

/-- Two vectors joined end to end, read in the first. -/
theorem cat1_lo {α : Type} {N n m : Nat} (a : (⟨1, ![n]⟩ : Shape).Idx → α) (b : (⟨1, ![m]⟩ : Shape).Idx → α)
    (h : Shape.Concatenates [⟨1, ![n]⟩, ⟨1, ![m]⟩] ⟨1, ![N]⟩ 0) (e : Fin N) (he : e.val < n) :
    concatenate ⟨1, ![N]⟩ 0 [⟨⟨1, ![n]⟩, a⟩, ⟨⟨1, ![m]⟩, b⟩] h (ix1 e) = a (ix1 ⟨e.val, he⟩) :=
  concatenate_pair_apply_left (t := ⟨1, ![N]⟩) 0 a b h (ix1 e) rfl (ix1 ⟨e.val, he⟩)
    (fun c => match c with | ⟨0, _⟩ => rfl)

/-- Two vectors joined end to end, read in the second. -/
theorem cat1_hi {α : Type} {N n m : Nat} (a : (⟨1, ![n]⟩ : Shape).Idx → α) (b : (⟨1, ![m]⟩ : Shape).Idx → α)
    (h : Shape.Concatenates [⟨1, ![n]⟩, ⟨1, ![m]⟩] ⟨1, ![N]⟩ 0) (e : Fin N) (he : n ≤ e.val) (hm : e.val - n < m) :
    concatenate ⟨1, ![N]⟩ 0 [⟨⟨1, ![n]⟩, a⟩, ⟨⟨1, ![m]⟩, b⟩] h (ix1 e) = b (ix1 ⟨e.val - n, hm⟩) :=
  concatenate_pair_apply_right (t := ⟨1, ![N]⟩) 0 a b h (ix1 e) rfl rfl (ix1 ⟨e.val - n, hm⟩)
    (fun c hc => match c, hc with | ⟨0, _⟩, hc => absurd rfl hc)
    (by show (e.val - n) + n = e.val; omega)

/-- Two columns joined side by side, read in the first. -/
theorem cat2_col0 {α : Type} {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (0 : Fin 2)) = a (ix2 n (0 : Fin 1)) :=
  concatenate_pair_apply_left (t := ⟨2, ![N, 2]⟩) 1 a b h (ix2 n (0 : Fin 2)) rfl (ix2 n (0 : Fin 1))
    (fun c => match c with | ⟨0, _⟩ => rfl | ⟨1, _⟩ => rfl)

/-- Two columns joined side by side, read in the second. -/
theorem cat2_col1 {α : Type} {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (1 : Fin 2)) = b (ix2 n (0 : Fin 1)) :=
  concatenate_pair_apply_right (t := ⟨2, ![N, 2]⟩) 1 a b h (ix2 n (1 : Fin 2)) rfl rfl (ix2 n (0 : Fin 1))
    (fun c hc => match c, hc with | ⟨0, _⟩, _ => rfl | ⟨1, _⟩, hc => absurd rfl hc)
    (by show 0 + 1 = 1; rfl)

/-! ## Reading the lists -/

/-- Row 0 of the edge index, entry by entry. -/
theorem row0_apply (x2 : IVec S2x64000 32) (i : Fin 64000) : row0 x2 (ix1 i) = x2 (ix2 0 i) := by
  unfold row0
  rw [shapeCast_apply _ shapeCasts_S1x64000_S64000 (ix1 i) (ix2 (0 : Fin 1) i)
    (by rw [Shape.rowMajor_val_two, Shape.rowMajor_val_one]; show 0 * 64000 + i.val = i.val; omega)]
  exact extractStridedSlice_apply ![0, 0] x2 slices_S2x64000_S1x64000_0_0 _ (ix2 (0 : Fin 2) i) (fun a => match a with
    | ⟨0, _⟩ => by show 0 = 0 + 0; rfl
    | ⟨1, _⟩ => by show i.val = 0 + i.val; omega)

/-- Row 1 of the edge index, entry by entry. -/
theorem row1_apply (x2 : IVec S2x64000 32) (i : Fin 64000) : row1 x2 (ix1 i) = x2 (ix2 1 i) := by
  unfold row1
  rw [shapeCast_apply _ shapeCasts_S1x64000_S64000 (ix1 i) (ix2 (0 : Fin 1) i)
    (by rw [Shape.rowMajor_val_two, Shape.rowMajor_val_one]; show 0 * 64000 + i.val = i.val; omega)]
  exact extractStridedSlice_apply ![1, 0] x2 slices_S2x64000_S1x64000_1_0 _ (ix2 (1 : Fin 2) i) (fun a => match a with
    | ⟨0, _⟩ => by show 1 = 1 + 0; rfl
    | ⟨1, _⟩ => by show i.val = 0 + i.val; omega)

/-- Every entry of the symmetrised source list is an entry of the edge index. -/
theorem ssArr_mem (x2 : IVec S2x64000 32) (e : Fin 128000) : ∃ (a : Fin 2) (i : Fin 64000), ssArr x2 (ix1 e) = x2 (ix2 a i) := by
  unfold ssArr
  by_cases he : e.val < 64000
  · exact ⟨0, ⟨e.val, he⟩, (cat1_lo (row0 x2) (row1 x2) concatenates_S64000_S64000_S128000_d0 e he).trans (row0_apply x2 _)⟩
  · have hm : e.val - 64000 < 64000 := by have := e.isLt; omega
    exact ⟨1, ⟨e.val - 64000, hm⟩,
      (cat1_hi (row0 x2) (row1 x2) concatenates_S64000_S64000_S128000_d0 e (by omega) hm).trans (row1_apply x2 _)⟩

/-- Every entry of the symmetrised target list is an entry of the edge index. -/
theorem ddArr_mem (x2 : IVec S2x64000 32) (e : Fin 128000) : ∃ (a : Fin 2) (i : Fin 64000), ddArr x2 (ix1 e) = x2 (ix2 a i) := by
  unfold ddArr
  by_cases he : e.val < 64000
  · exact ⟨1, ⟨e.val, he⟩, (cat1_lo (row1 x2) (row0 x2) concatenates_S64000_S64000_S128000_d0 e he).trans (row1_apply x2 _)⟩
  · have hm : e.val - 64000 < 64000 := by have := e.isLt; omega
    exact ⟨0, ⟨e.val - 64000, hm⟩,
      (cat1_hi (row1 x2) (row0 x2) concatenates_S64000_S64000_S128000_d0 e (by omega) hm).trans (row0_apply x2 _)⟩

/-- A node index that is not negative is left as it is by the normalisation, and the column reads it. -/
theorem wrapCol_apply (v : IVec S128000 32) (e : Fin 128000) (h : 0 ≤ (v (ix1 e)).toInt) :
    wrapCol v (ix2 e (0 : Fin 1)) = v (ix1 e) := by
  unfold wrapCol
  rw [broadcastInDim_apply _ bcast_S128000_S128000x1_0 _ (ix2 e (0 : Fin 1)) (ix1 e)
    (fun a => match a with | ⟨0, _⟩ => by show e.val = if (128000 : Nat) = 1 then 0 else e.val; rw [if_neg (by decide)])]
  exact IndexRange.select_wrap_eq (w := v (ix1 e)) 2000#32 h

/-! ## Reading the dense matrix -/

/-- The dense matrix at `(n, s)`: the sum of the edge values over the positions whose target is `n` and whose source is
    `s`, when no index is negative. -/
theorem adjArr_apply (ss dd : IVec S128000 32) (c : FVec Ideal S128000 .f32)
    (hs : ∀ e : Fin 128000, 0 ≤ (ss (ix1 e)).toInt) (hd : ∀ e : Fin 128000, 0 ≤ (dd (ix1 e)).toInt) (n s : Fin 2000) :
    adjArr ss dd c (ix2 n s)
      = Spec.adj (fun e : Fin 128000 => (dd (ix1 e)).toInt) (fun e : Fin 128000 => (ss (ix1 e)).toInt) (fun e => c (ix1 e)) n s := by
  have hdims : scatter_S2000x2000_S128000x2_S128000_n_01_01_1
      = PairScatter2.pairDims2 2000 2000 128000 Cert.KernelIdeal.Facts₀.scatter_S2000x2000_S128000x2_S128000_n_01_01_1_wf := rfl
  unfold adjArr Spec.adj
  rw [truncf_apply]
  unfold Host.scatterAdd
  rw [Ideal.hostScatterAdd_def, hdims, PairScatter2.pairScatterAdd2_apply]
  refine congrArg₂ (fun a b : EReal => a + b) Ideal.ofBits_zero_f32 (Finset.sum_congr rfl fun e _ => ?_)
  rw [cat2_col0, cat2_col1, wrapCol_apply dd e (hd e), wrapCol_apply ss e (hs e)]

/-! ## The inverse square roots of the degrees, entry by entry -/

/-- The pattern of `1.0` is the real `1`. -/
theorem ofBits_one : Ideal.ofBits .f32 0x3F800000#32 = 1 := by
  simp [Ideal.ofBits, Ideal.ieee, -EReal.coe_mul]; norm_num

/-- The test `y < x` as a one-bit word. -/
theorem cmp_ogt (x y : EReal) : Ideal.cmp .ogt x y = if y < x then 1#1 else 0#1 := by
  unfold Ideal.cmp
  by_cases h : y < x <;> simp [h]

/-- A choice by the test `y < x`. -/
theorem select_cmp_ogt (x y a b : EReal) : Scalar.select (Ideal.cmp .ogt x y) a b = if y < x then a else b := by
  rw [cmp_ogt]
  by_cases h : y < x
  · rw [if_pos h, if_pos h]; exact select_one a b
  · rw [if_neg h, if_neg h]; exact select_zero a b

/-- The kernel program's inverse square root of a degree. -/
theorem dinvArr_apply (deg : FVec Ideal S2000 .f32) (i : S2000.Idx) : dinvArr deg i = Spec.dinvK 1 0 (deg i) := by
  show Scalar.select (Ideal.cmp .ogt (deg i) (Ideal.ofBits .f32 0x00000000#32))
      (Ideal.rsqrt (Scalar.select (Ideal.cmp .ogt (deg i) (Ideal.ofBits .f32 0x00000000#32)) (deg i) (Ideal.ofBits .f32 0x3F800000#32)))
      (Ideal.ofBits .f32 0x00000000#32) = _
  rw [Ideal.ofBits_zero_f32, ofBits_one, select_cmp_ogt, select_cmp_ogt]
  rfl

/-- The reference program's inverse square root of a degree. -/
theorem refDinv_apply (x2 : IVec S2x64000 32) (x5 : FVec Ideal S64000 .f32) (i : S2000.Idx) :
    ReferenceIdeal.ReadP.val_main_v22 (F := Ideal) x2 x5 i
      = Spec.dinvR 1 0 (ReferenceIdeal.ReadP.val_main_v16 (F := Ideal) x2 x5 i) := by
  rw [ReferenceIdeal.ReadP.val_main_v22_apply, ReferenceIdeal.ReadP.val_main_v18_apply, ReferenceIdeal.ReadP.val_main_v21_apply,
    ReferenceIdeal.ReadP.val_main_v20_apply, ReferenceIdeal.ReadP.val_main_cst_3_apply, ReferenceIdeal.ReadP.val_main_v19_apply,
    ReferenceIdeal.ReadP.val_main_v17_apply, ReferenceIdeal.ReadP.val_main_cst_2_apply, ReferenceIdeal.ReadP.val_main_call0_v1_apply,
    ReferenceIdeal.ReadP.val_main_call0_v0_apply, ReferenceIdeal.ReadP.val_main_cst_4_apply]
  generalize ReferenceIdeal.ReadP.val_main_v16 (F := Ideal) x2 x5 i = d
  rw [Ideal.cmpf_def, Ideal.ofBits_def, Ideal.ofBits_def, Ideal.hostDivf_def, Ideal.hostUnary_sqrt_def,
    Ideal.ofBits_zero_f32, ofBits_one, select_cmp_ogt]
  rfl

/-- The two programs compute the same inverse square roots of the same degrees. -/
theorem dinvArr_eq_ref (x2 : IVec S2x64000 32) (x5 : FVec Ideal S64000 .f32) :
    dinvArr (degArr x2 x5) = ReferenceIdeal.ReadP.val_main_v22 (F := Ideal) x2 x5 := by
  funext i
  rw [dinvArr_apply, refDinv_apply, Spec.dinvK_eq_dinvR]
  rfl

/-- The reference's real edge values are the chain's, from the reference's inverse square roots. -/
theorem cr_bridge (x2 : IVec S2x64000 32) (x5 : FVec Ideal S64000 .f32) :
    ReferenceIdeal.ReadP.val_main_v41 (F := Ideal) x2 x5
      = crArr (ReferenceIdeal.ReadP.val_main_v22 (F := Ideal) x2 x5) (ssArr x2) (ddArr x2) (wsArr x5) (thArr x5) := rfl

/-- The reference's imaginary edge values likewise. -/
theorem ci_bridge (x2 : IVec S2x64000 32) (x5 : FVec Ideal S64000 .f32) :
    ReferenceIdeal.ReadP.val_main_v44 (F := Ideal) x2 x5
      = ciArr (ReferenceIdeal.ReadP.val_main_v22 (F := Ideal) x2 x5) (ssArr x2) (ddArr x2) (wsArr x5) (thArr x5) := rfl

/-- The target node and the source node of position `e` of the symmetrised edge list, as signed integers. -/
def dI (x2 : IVec S2x64000 32) (e : Fin 128000) : ℤ := (ReferenceIdeal.ReadP.val_main_v5 (F := Ideal) x2 (ix1 e)).toInt
def sI (x2 : IVec S2x64000 32) (e : Fin 128000) : ℤ := (ReferenceIdeal.ReadP.val_main_v4 (F := Ideal) x2 (ix1 e)).toInt

theorem dI_eq (x2 : IVec S2x64000 32) : dI x2 = fun e => (ddArr x2 (ix1 e)).toInt := rfl
theorem sI_eq (x2 : IVec S2x64000 32) : sI x2 = fun e => (ssArr x2 (ix1 e)).toInt := rfl

/-! ## The six stretches, composed -/

/-- The buffers after the host operations that precede the first kernel call. -/
abbrev hostW6 (W : Valuation τ sig (Elt Ideal)) : Valuation τ sig (Elt Ideal) :=
  StableHlo.after main_part1_ops0 (StableHlo.after main_part0_ops4 (StableHlo.after main_part0_ops3
    (StableHlo.after main_part0_ops2 (StableHlo.after main_part0_ops1 (StableHlo.after main_part0_ops0 W)))))

theorem mem_carried_arg0 : main_arg0 ∈ carried := by simp [carried]
theorem mem_carried_arg1 : main_arg1 ∈ carried := by simp [carried]
theorem mem_carried_arg6 : main_arg6 ∈ carried := by simp [carried]
theorem mem_carried_v4 : main_v4 ∈ carried := by simp [carried]
theorem mem_carried_v5 : main_v5 ∈ carried := by simp [carried]
theorem mem_carried_v8 : main_v8 ∈ carried := by simp [carried]
theorem mem_carried_v12 : main_v12 ∈ carried := by simp [carried]
theorem mem_carried_v16 : main_v16 ∈ carried := by simp [carried]

section Compose

variable (V W : Valuation τ sig (Elt Ideal))

/-- A carried array is as the first stretch left it after the second, third and fourth. -/
theorem carried3 (a : Ref sig .tc) (ha : a ∈ carried) :
    StableHlo.after main_part0_ops3 (StableHlo.after main_part0_ops2 (StableHlo.after main_part0_ops1 V)) (Proc.devRef .tc a)
      = V (Proc.devRef .tc a) := by
  rw [s3_keep _ a ha, s2_keep _ a ha, s1_keep _ a ha]

/-- The inverse square roots after the first four stretches. -/
theorem w4_v23 :
    (StableHlo.after main_part0_ops3 (StableHlo.after main_part0_ops2 (StableHlo.after main_part0_ops1
        (StableHlo.after main_part0_ops0 W))) (Proc.devRef .tc main_v23) : FVec Ideal S2000 .f32)
      = dinvArr (degArr (W (Proc.devRef .tc main_arg2)) (W (Proc.devRef .tc main_arg5))) := by
  rw [s3_v23, s2_v21, s2_v22, s2_cst_5, s1_v19, s1_keep _ main_v16 mem_carried_v16, s0_v16, s0_v18, s0_cst_3]
  rfl

/-- The real edge values after the first five stretches. -/
theorem w5_v42 :
    (StableHlo.after main_part0_ops4 (StableHlo.after main_part0_ops3 (StableHlo.after main_part0_ops2
        (StableHlo.after main_part0_ops1 (StableHlo.after main_part0_ops0 W)))) (Proc.devRef .tc main_v42) : FVec Ideal S128000 .f32)
      = crArr (dinvArr (degArr (W (Proc.devRef .tc main_arg2)) (W (Proc.devRef .tc main_arg5))))
          (ssArr (W (Proc.devRef .tc main_arg2))) (ddArr (W (Proc.devRef .tc main_arg2)))
          (wsArr (W (Proc.devRef .tc main_arg5))) (thArr (W (Proc.devRef .tc main_arg5))) := by
  rw [s4_v42, w4_v23, carried3 _ main_v4 mem_carried_v4, carried3 _ main_v5 mem_carried_v5,
    carried3 _ main_v8 mem_carried_v8, carried3 _ main_v12 mem_carried_v12, s0_v4, s0_v5, s0_v8, s0_v12]

/-- The imaginary edge values after the first five stretches. -/
theorem w5_v45 :
    (StableHlo.after main_part0_ops4 (StableHlo.after main_part0_ops3 (StableHlo.after main_part0_ops2
        (StableHlo.after main_part0_ops1 (StableHlo.after main_part0_ops0 W)))) (Proc.devRef .tc main_v45) : FVec Ideal S128000 .f32)
      = ciArr (dinvArr (degArr (W (Proc.devRef .tc main_arg2)) (W (Proc.devRef .tc main_arg5))))
          (ssArr (W (Proc.devRef .tc main_arg2))) (ddArr (W (Proc.devRef .tc main_arg2)))
          (wsArr (W (Proc.devRef .tc main_arg5))) (thArr (W (Proc.devRef .tc main_arg5))) := by
  rw [s4_v45, w4_v23, carried3 _ main_v4 mem_carried_v4, carried3 _ main_v5 mem_carried_v5,
    carried3 _ main_v8 mem_carried_v8, carried3 _ main_v12 mem_carried_v12, s0_v4, s0_v5, s0_v8, s0_v12]

/-- The real matrix of the operator after the six stretches. -/
theorem hostW6_v76 :
    (hostW6 W (Proc.devRef .tc main_v76) : FVec Ideal S2000x2000 .bf16)
      = adjArr (ssArr (W (Proc.devRef .tc main_arg2))) (ddArr (W (Proc.devRef .tc main_arg2)))
          (crArr (dinvArr (degArr (W (Proc.devRef .tc main_arg2)) (W (Proc.devRef .tc main_arg5))))
            (ssArr (W (Proc.devRef .tc main_arg2))) (ddArr (W (Proc.devRef .tc main_arg2)))
            (wsArr (W (Proc.devRef .tc main_arg5))) (thArr (W (Proc.devRef .tc main_arg5)))) := by
  dsimp only [hostW6]
  rw [s5_v76 _ (s4_v46 _) (s4_c_10 _), w5_v42, s4_keep _ main_v4 mem_carried_v4, s4_keep _ main_v5 mem_carried_v5,
    carried3 _ main_v4 mem_carried_v4, carried3 _ main_v5 mem_carried_v5, s0_v4, s0_v5]

/-- The imaginary matrix of the operator after the six stretches. -/
theorem hostW6_v77 :
    (hostW6 W (Proc.devRef .tc main_v77) : FVec Ideal S2000x2000 .bf16)
      = adjArr (ssArr (W (Proc.devRef .tc main_arg2))) (ddArr (W (Proc.devRef .tc main_arg2)))
          (ciArr (dinvArr (degArr (W (Proc.devRef .tc main_arg2)) (W (Proc.devRef .tc main_arg5))))
            (ssArr (W (Proc.devRef .tc main_arg2))) (ddArr (W (Proc.devRef .tc main_arg2)))
            (wsArr (W (Proc.devRef .tc main_arg5))) (thArr (W (Proc.devRef .tc main_arg5)))) := by
  dsimp only [hostW6]
  rw [s5_v77, w5_v45, s4_keep _ main_v4 mem_carried_v4, s4_keep _ main_v5 mem_carried_v5,
    carried3 _ main_v4 mem_carried_v4, carried3 _ main_v5 mem_carried_v5, s0_v4, s0_v5]

end Compose

/-! ## What the first kernel call reads -/

/-- The real node features, rounded: themselves. -/
theorem P1_v78 (W : Valuation τ sig (Elt Ideal)) :
    (hostW6 W (Proc.devRef .tc main_v78) : S2000x512.Idx → EReal) = W (Proc.devRef .tc main_arg0) := by
  dsimp only [hostW6]
  rw [s5_v78, s4_keep _ main_arg0 mem_carried_arg0, carried3 _ main_arg0 mem_carried_arg0, s0_keep _ main_arg0 (by simp)]

/-- The imaginary node features, rounded: themselves. -/
theorem P1_v79 (W : Valuation τ sig (Elt Ideal)) :
    (hostW6 W (Proc.devRef .tc main_v79) : S2000x512.Idx → EReal) = W (Proc.devRef .tc main_arg1) := by
  dsimp only [hostW6]
  rw [s5_v79, s4_keep _ main_arg1 mem_carried_arg1, carried3 _ main_arg1 mem_carried_arg1, s0_keep _ main_arg1 (by simp)]

/-- The first layer-one weight matrix: slab 0 of the layer-one weights. -/
theorem P2_v82 (W : Valuation τ sig (Elt Ideal)) (k : Fin 512) (h : Fin 64) :
    (hostW6 W (Proc.devRef .tc main_v82) : S512x64.Idx → EReal) (ix2 k h)
      = (W (Proc.devRef .tc main_arg6) : S2x512x64.Idx → EReal) (ix3 0 k h) := by
  dsimp only [hostW6]
  rw [s5_v82, s4_keep _ main_arg6 mem_carried_arg6, carried3 _ main_arg6 mem_carried_arg6, s0_keep _ main_arg6 (by simp)]
  exact slab_apply (0 : Fin 2) _ slices_S2x512x64_S1x512x64_0_0_0 shapeCasts_S1x512x64_S512x64 k h

/-- The second layer-one weight matrix: slab 1. -/
theorem P2_v85 (W : Valuation τ sig (Elt Ideal)) (k : Fin 512) (h : Fin 64) :
    (hostW6 W (Proc.devRef .tc main_v85) : S512x64.Idx → EReal) (ix2 k h)
      = (W (Proc.devRef .tc main_arg6) : S2x512x64.Idx → EReal) (ix3 1 k h) := by
  dsimp only [hostW6]
  rw [s5_v85, s4_keep _ main_arg6 mem_carried_arg6, carried3 _ main_arg6 mem_carried_arg6, s0_keep _ main_arg6 (by simp)]
  exact slab_apply (1 : Fin 2) _ slices_S2x512x64_S1x512x64_1_0_0 shapeCasts_S1x512x64_S512x64 k h

/-- Under the range hypothesis no entry of the symmetrised source list is negative. -/
theorem ssArr_nonneg (x2 : IVec S2x64000 32)
    (hr : ∀ (a : Fin 2) (e : Fin 64000), 0 ≤ (x2 (ix2 a e)).toInt ∧ (x2 (ix2 a e)).toInt < 2000) (e : Fin 128000) :
    0 ≤ (ssArr x2 (ix1 e)).toInt := by
  obtain ⟨a, i, h⟩ := ssArr_mem x2 e
  rw [h]; exact (hr a i).1

/-- Nor is any entry of the symmetrised target list. -/
theorem ddArr_nonneg (x2 : IVec S2x64000 32)
    (hr : ∀ (a : Fin 2) (e : Fin 64000), 0 ≤ (x2 (ix2 a e)).toInt ∧ (x2 (ix2 a e)).toInt < 2000) (e : Fin 128000) :
    0 ≤ (ddArr x2 (ix1 e)).toInt := by
  obtain ⟨a, i, h⟩ := ddArr_mem x2 e
  rw [h]; exact (hr a i).1

/-- The real matrix of the operator: the reference's real edge values accumulated at (target, source). -/
theorem P3_v76 (W : Valuation τ sig (Elt Ideal))
    (hr : ∀ (a : Fin 2) (e : Fin 64000), 0 ≤ ((W (Proc.devRef .tc main_arg2) : S2x64000.Idx → BitVec 32) (ix2 a e)).toInt
      ∧ ((W (Proc.devRef .tc main_arg2) : S2x64000.Idx → BitVec 32) (ix2 a e)).toInt < 2000)
    (n s : Fin 2000) :
    (hostW6 W (Proc.devRef .tc main_v76) : S2000x2000.Idx → EReal) (ix2 n s)
      = Spec.adj (dI (W (Proc.devRef .tc main_arg2))) (sI (W (Proc.devRef .tc main_arg2)))
          (fun e => ReferenceIdeal.ReadP.val_main_v41 (F := Ideal) (W (Proc.devRef .tc main_arg2)) (W (Proc.devRef .tc main_arg5)) (ix1 e)) n s := by
  rw [hostW6_v76, dinvArr_eq_ref, ← cr_bridge,
    adjArr_apply _ _ _ (ssArr_nonneg _ hr) (ddArr_nonneg _ hr)]
  rfl

/-- The imaginary matrix of the operator: the reference's imaginary edge values accumulated at (target, source). -/
theorem P3_v77 (W : Valuation τ sig (Elt Ideal))
    (hr : ∀ (a : Fin 2) (e : Fin 64000), 0 ≤ ((W (Proc.devRef .tc main_arg2) : S2x64000.Idx → BitVec 32) (ix2 a e)).toInt
      ∧ ((W (Proc.devRef .tc main_arg2) : S2x64000.Idx → BitVec 32) (ix2 a e)).toInt < 2000)
    (n s : Fin 2000) :
    (hostW6 W (Proc.devRef .tc main_v77) : S2000x2000.Idx → EReal) (ix2 n s)
      = Spec.adj (dI (W (Proc.devRef .tc main_arg2))) (sI (W (Proc.devRef .tc main_arg2)))
          (fun e => ReferenceIdeal.ReadP.val_main_v44 (F := Ideal) (W (Proc.devRef .tc main_arg2)) (W (Proc.devRef .tc main_arg5)) (ix1 e)) n s := by
  rw [hostW6_v77, dinvArr_eq_ref, ← ci_bridge,
    adjArr_apply _ _ _ (ssArr_nonneg _ hr) (ddArr_nonneg _ hr)]
  rfl

end Cert.Prelude

end
-- ==== Proof.HeadSpec.lean ====
/-
  Small facts the head's two readings share.

  * A start index of a row gather names the row it is read as: signed, clamped into the table's range.
  * The word `0xFF800000` is `−∞`; a fold of `max` over an axis of extent two from `b` is `max (f 0) (max (f 1) b)`.
  * Reducing the lane axis of an `n × 2` array: the reduced index `r` with lane `k` put back is `(r, k)`, so a fold of
    `max` along the lanes is the larger of the row's two entries (and the start), and a sum along the lanes is the two added.
-/
import Idealize.ShloMosaic.PureOps.Ideal.Laws
import Idealize.ShloMosaic.Lib.ValueIdx
import Mathlib.Algebra.BigOperators.Fin

noncomputable section

namespace Cert.Head

open Idealize.ShloMosaic Idealize.ShloMosaic.ValueIdx
open scoped BigOperators

/-- The node a query's start index names: the index read signed and clamped into `[0, 1999]`. -/
def nodeOf (idx : IVec ⟨2, ![200000, 1]⟩ 32) (q : Fin 200000) : Fin 2000 :=
  ⟨min (idx (ix2 q (0 : Fin 1))).toInt.toNat (2000 - 1), by omega⟩

/-- The word `0xFF800000` is `−∞`. -/
theorem ofBits_neg_inf : Ideal.ofBits .f32 0xFF800000#32 = (⊥ : EReal) := by
  simp [Ideal.ofBits, Ideal.ieee]

/-- A fold of `max` over the two coordinates of an axis of extent two. -/
theorem fold_max_two (b : EReal) (f : Fin 2 → EReal) :
    (Finset.univ : Finset (Fin 2)).fold max b f = max (f 0) (max (f 1) b) := by
  rw [show (Finset.univ : Finset (Fin 2)) = insert 0 {1} from by decide,
    Finset.fold_insert (by decide), Finset.fold_singleton]

section Lanes
variable {n : ℕ}

/-- The reduced index `r` with lane `k` put back is `(r, k)`. -/
theorem lift_row (h : (⟨2, ![n, 2]⟩ : Shape).Reduces [1] ⟨1, ![n]⟩) (r : Fin n) (k : Fin ((⟨2, ![n, 2]⟩ : Shape).size 1)) :
    h.lift (ix1 r) k = ix2 r (⟨k.val, k.isLt⟩ : Fin 2) := by
  funext c; apply Fin.ext
  match c with
  | ⟨0, _⟩ => rfl
  | ⟨1, _⟩ => rfl

/-- A fold of `max` along the lanes of a row: the larger of the row's two entries and the starting value. -/
theorem fold_max_lane (h : (⟨2, ![n, 2]⟩ : Shape).Reduces [1] ⟨1, ![n]⟩) (b : EReal) (Z : (⟨2, ![n, 2]⟩ : Shape).Idx → EReal) (r : Fin n) :
    (Finset.univ : Finset (Fin ((⟨2, ![n, 2]⟩ : Shape).size 1))).fold max b (Z ∘ h.lift (ix1 r)) = max (Z (ix2 r 0)) (max (Z (ix2 r 1)) b) := by
  have hf : (Z ∘ h.lift (ix1 r)) = fun k : Fin 2 => Z (ix2 r k) := funext fun k => congrArg Z (lift_row h r k)
  exact (congrArg (fun f => Finset.fold max b f (Finset.univ : Finset (Fin 2))) hf).trans (fold_max_two b _)

/-- A sum along the lanes of a row: the row's two entries added. -/
theorem sum_lane (h : (⟨2, ![n, 2]⟩ : Shape).Reduces [1] ⟨1, ![n]⟩) (Y : (⟨2, ![n, 2]⟩ : Shape).Idx → EReal) (r : Fin n) :
    (∑ k : Fin ((⟨2, ![n, 2]⟩ : Shape).size 1), Y (h.lift (ix1 r) k)) = Y (ix2 r 0) + Y (ix2 r 1) :=
  (Finset.sum_congr rfl fun k _ => congrArg Y (lift_row h r k)).trans (Fin.sum_univ_two (fun k : Fin 2 => Y (ix2 r k)))

end Lanes

end Cert.Head

end
-- ==== Proof.HeadRegion.lean ====
/-
  The last region of the kernel, read as one function of the three arrays it finds.

  The region walks fifty row blocks of 4000 queries. At a block it takes the block's 4000 × 64 embedding rows `S`, the whole
  64 × 2 weight block `We` and the block's 4000 × 2 base logits `B`, and writes, for each row `r` and label `l`,

      z l − m − log (exp (z 0 − m) + exp (z 1 − m)),   z l' = Σ_k S (r, k) · We (k, l') + B (r, l'),   m = max (z 0) (z 1),

  the logarithm of the softmax over the two labels. The row maximum is taken from `−∞` and once more against `−∞`, which
  changes nothing: `max ⊥ x = x`. Row `q` of the result array lies in block `q / 4000`, the blocks tile the array, so the
  array ends holding that function of the whole arrays at every index.
-/
import proofs.«405959_j54778012893400_3_alg».proof.Proof.KI.Region2
import proofs.«405959_j54778012893400_3_alg».proof.Proof.Spec
import proofs.«405959_j54778012893400_3_alg».proof.Proof.HeadSpec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.Head

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-! ## Small readings used below -/

theorem hz : (![0, 0] : Fin 2 → Nat) = fun _ => 0 := funext fun a => by fin_cases a <;> rfl

/-- A vector of `a` entries viewed as a column `[a, 1]`, read at `(r, 0)`, is entry `r`. -/
theorem column_apply {α : Type} (x : S4000.Idx → α) (h : S4000.ShapeCasts S4000x1) (r : Fin 4000) (z : Fin 1) :
    shapeCast S4000x1 x h (ix2 r z) = x (ix1 r) :=
  shapeCast_apply x h (ix2 r z) (ix1 r) (by
    rw [Shape.rowMajor_val_two, Shape.rowMajor_val_one]
    show r.val = r.val * 1 + z.val
    have := z.isLt; omega)

/-- A column `[a, 1]` spread over two lanes, read at `(r, l)`, is the column's entry `(r, 0)`. -/
theorem spread_apply {α : Type} (x : S4000x1.Idx → α) (h : S4000x1.Broadcasts S4000x2) (r : Fin 4000) (l : Fin 2) :
    broadcastTo S4000x2 x h (ix2 r l) = x (ix2 r (0 : Fin 1)) :=
  broadcastTo_apply x h (ix2 r l) (ix2 r (0 : Fin 1)) (fun a => match a with
    | ⟨0, _⟩ => by show r.val = if (4000 : Nat) = 1 then 0 else r.val; rw [if_neg (by decide)]
    | ⟨1, _⟩ => by show 0 = if (1 : Nat) = 1 then 0 else l.val; rw [if_pos rfl])

/-! ## The block product at an index -/

theorem lhs_blk_0 (i : S4000x2.Idx) (q : dot_S4000x64_S64x2_S4000x2_1_0_0_1_n_n.contr.Idx) :
    (dot_S4000x64_S64x2_S4000x2_1_0_0_1_n_n.lhsIdx i q 0).val = (i 0).val := by
  unfold DotDims.lhsIdx
  rw [dif_neg (show ¬(0 : Fin S4000x64.rank) ∈ dot_S4000x64_S64x2_S4000x2_1_0_0_1_n_n.lhsBatch by decide), dif_pos (show (0 : Fin S4000x64.rank) ∈ dot_S4000x64_S64x2_S4000x2_1_0_0_1_n_n.lhsNonContracting by decide)]
  rfl
theorem lhs_blk_1 (i : S4000x2.Idx) (q : dot_S4000x64_S64x2_S4000x2_1_0_0_1_n_n.contr.Idx) :
    (dot_S4000x64_S64x2_S4000x2_1_0_0_1_n_n.lhsIdx i q 1).val = (q ⟨0, by decide⟩).val :=
  dot_S4000x64_S64x2_S4000x2_1_0_0_1_n_n.lhsIdx_val_of_single rfl i q
theorem rhs_blk_0 (i : S4000x2.Idx) (q : dot_S4000x64_S64x2_S4000x2_1_0_0_1_n_n.contr.Idx) :
    (dot_S4000x64_S64x2_S4000x2_1_0_0_1_n_n.rhsIdx i q 0).val = (q ⟨0, by decide⟩).val :=
  dot_S4000x64_S64x2_S4000x2_1_0_0_1_n_n.rhsIdx_val_of_single rfl i q
theorem rhs_blk_1 (i : S4000x2.Idx) (q : dot_S4000x64_S64x2_S4000x2_1_0_0_1_n_n.contr.Idx) :
    (dot_S4000x64_S64x2_S4000x2_1_0_0_1_n_n.rhsIdx i q 1).val = (i 1).val := by
  unfold DotDims.rhsIdx
  rw [dif_neg (show ¬(1 : Fin S64x2.rank) ∈ dot_S4000x64_S64x2_S4000x2_1_0_0_1_n_n.rhsBatch by decide), dif_pos (show (1 : Fin S64x2.rank) ∈ dot_S4000x64_S64x2_S4000x2_1_0_0_1_n_n.rhsNonContracting by decide)]
  rfl

/-- The block's product with the weight block, accumulated into zero, at `(r, l)`: the sum over the 64 columns. -/
theorem blockProduct_apply (S : FVec Ideal S4000x64 .bf16) (We : FVec Ideal S64x2 .bf16) (r : Fin 4000) (l : Fin 2) :
    matmul dot_S4000x64_S64x2_S4000x2_1_0_0_1_n_n none S We (constant (F := Ideal) S4000x2 .f32 0x00000000#32) (ix2 r l)
      = ∑ k : Fin 64, S (ix2 r k) * We (ix2 k l) := by
  simp only [matmul]
  rw [Ideal.matmul_constant_zero_apply, ← Equiv.sum_comp (ValueIdx.contrEquiv1 dot_S4000x64_S64x2_S4000x2_1_0_0_1_n_n 64 rfl rfl).symm]
  refine Finset.sum_congr rfl fun k _ => ?_
  have hk := ValueIdx.contrEquiv1_symm_val dot_S4000x64_S64x2_S4000x2_1_0_0_1_n_n 64 rfl rfl k
  have el : dot_S4000x64_S64x2_S4000x2_1_0_0_1_n_n.lhsIdx (ix2 r l) ((ValueIdx.contrEquiv1 dot_S4000x64_S64x2_S4000x2_1_0_0_1_n_n 64 rfl rfl).symm k) = ix2 r k := funext fun a => Fin.ext (by
    match a with
    | ⟨0, _⟩ => exact lhs_blk_0 _ _
    | ⟨1, _⟩ => exact (lhs_blk_1 _ _).trans hk)
  have er : dot_S4000x64_S64x2_S4000x2_1_0_0_1_n_n.rhsIdx (ix2 r l) ((ValueIdx.contrEquiv1 dot_S4000x64_S64x2_S4000x2_1_0_0_1_n_n 64 rfl rfl).symm k) = ix2 k l := funext fun a => Fin.ext (by
    match a with
    | ⟨0, _⟩ => exact (rhs_blk_0 _ _).trans hk
    | ⟨1, _⟩ => exact rhs_blk_1 _ _)
  rw [el, er]

/-! ## The log-softmax of a block of logits, at an index -/

/-- The row maximum, seen as a column: from `-∞`, and once more against `-∞`, it is the larger of the row's two logits. -/
theorem rowMax_apply (Z : FVec Ideal S4000x2 .f32) (hφ : FTy.f32 = FTy.f32 ∨ FTy.f32 = FTy.bf16)
    (hmax : (0xFF800000#32 : BitVec 32) = 0xFF800000#32) (r : Fin 4000) (z : Fin 1) :
    shapeCast S4000x1 (maximumf (broadcast S4000 (FloatOps.ofBits (F := Ideal) .f32 0xFF800000#32))
        (multiReduction .maximumf [1] S4000 Z 0xFF800000#32 reduces_S4000x2_S4000 hφ hmax)) shapeCasts_S4000_S4000x1 (ix2 r z)
      = max (Z (ix2 r 0)) (Z (ix2 r 1)) := by
  refine (column_apply _ _ r z).trans ?_
  refine (maximumf_apply _ _ _).trans ?_
  refine (congrArg (max _) (Ideal.multiReduction_maximumf_single Z 0xFF800000#32 reduces_S4000x2_S4000 hφ hmax (ix1 r))).trans ?_
  refine (congrArg (max _) (fold_max_lane reduces_S4000x2_S4000 _ Z r)).trans ?_
  show max (Ideal.ofBits .f32 0xFF800000#32) (max (Z (ix2 r 0)) (max (Z (ix2 r 1)) (Ideal.ofBits .f32 0xFF800000#32))) = _
  rw [ofBits_neg_inf, max_bot_left, max_bot_right]

/-- The lane sum of a block, seen as a column: the two lanes added. -/
theorem rowSum_apply (Y : FVec Ideal S4000x2 .f32) (hφ : FTy.f32 = FTy.f32 ∨ FTy.f32 = FTy.bf16)
    (hadd : (0x00000000#32 : BitVec 32) = 0x00000000#32) (r : Fin 4000) (z : Fin 1) :
    shapeCast S4000x1 (multiReduction .add [1] S4000 Y 0x00000000#32 reduces_S4000x2_S4000 hφ hadd) shapeCasts_S4000_S4000x1 (ix2 r z)
      = Y (ix2 r 0) + Y (ix2 r 1) := by
  refine (column_apply _ _ r z).trans ?_
  refine (Ideal.multiReduction_add_single Y 0x00000000#32 reduces_S4000x2_S4000 hφ hadd (ix1 r)).trans ?_
  exact sum_lane reduces_S4000x2_S4000 Y r

/-- Shifted by the row maximum, less the logarithm of the sum of the exponentials of the shifted row: at `(r, l)`. -/
theorem logSoftmaxBlock_apply (Z : FVec Ideal S4000x2 .f32) (hφ : FTy.f32 = FTy.f32 ∨ FTy.f32 = FTy.bf16)
    (hmax : (0xFF800000#32 : BitVec 32) = 0xFF800000#32) (hadd : (0x00000000#32 : BitVec 32) = 0x00000000#32) (r : Fin 4000) (l : Fin 2) :
    subf (subf Z (broadcastTo S4000x2 (shapeCast S4000x1 (maximumf (broadcast S4000 (FloatOps.ofBits (F := Ideal) .f32 0xFF800000#32))
            (multiReduction .maximumf [1] S4000 Z 0xFF800000#32 reduces_S4000x2_S4000 hφ hmax)) shapeCasts_S4000_S4000x1) broadcasts_S4000x1_S4000x2))
        (broadcastTo S4000x2 (log (shapeCast S4000x1 (multiReduction .add [1] S4000
            (exp (subf Z (broadcastTo S4000x2 (shapeCast S4000x1 (maximumf (broadcast S4000 (FloatOps.ofBits (F := Ideal) .f32 0xFF800000#32))
              (multiReduction .maximumf [1] S4000 Z 0xFF800000#32 reduces_S4000x2_S4000 hφ hmax)) shapeCasts_S4000_S4000x1) broadcasts_S4000x1_S4000x2)))
            0x00000000#32 reduces_S4000x2_S4000 hφ hadd) shapeCasts_S4000_S4000x1)) broadcasts_S4000x1_S4000x2) (ix2 r l)
      = Spec.logSoftmax2 Ideal.exp Ideal.log (fun l' => Z (ix2 r l')) l := by
  -- the shifted row
  have hshift : ∀ l' : Fin 2, subf Z (broadcastTo S4000x2 (shapeCast S4000x1 (maximumf (broadcast S4000 (FloatOps.ofBits (F := Ideal) .f32 0xFF800000#32))
      (multiReduction .maximumf [1] S4000 Z 0xFF800000#32 reduces_S4000x2_S4000 hφ hmax)) shapeCasts_S4000_S4000x1) broadcasts_S4000x1_S4000x2) (ix2 r l')
      = Z (ix2 r l') - max (Z (ix2 r 0)) (Z (ix2 r 1)) := by
    intro l'
    refine (subf_apply _ _ _).trans ?_
    refine congrArg (Z (ix2 r l') - ·) ?_
    exact (spread_apply _ _ r l').trans (rowMax_apply Z hφ hmax r 0)
  refine (subf_apply _ _ _).trans ?_
  unfold Spec.logSoftmax2
  refine congrArg₂ (· - ·) (hshift l) ?_
  refine (spread_apply _ _ r l).trans ?_
  show Ideal.log (shapeCast S4000x1 _ shapeCasts_S4000_S4000x1 (ix2 r 0)) = _
  refine congrArg Ideal.log ?_
  refine (rowSum_apply _ hφ hadd r 0).trans ?_
  show Ideal.exp _ + Ideal.exp _ = _
  rw [hshift 0, hshift 1]

/-! ## The body's payload at an index -/

/-- The logits of a block: the block's product with the weight block, plus the base block. -/
def blockLogit (S : FVec Ideal S4000x64 .bf16) (We : FVec Ideal S64x2 .bf16) (B : FVec Ideal S4000x2 .f32) (r : Fin 4000) (l : Fin 2) : EReal :=
  (∑ k : Fin 64, S (ix2 r k) * We (ix2 k l)) + B (ix2 r l)

/-- What the body stores, at row `r` and label `l` of the block: the log-softmax over the two labels of the row's logits. -/
theorem payload_apply (S : FVec Ideal S4000x64 .bf16) (We : FVec Ideal S64x2 .bf16) (B : FVec Ideal S4000x2 .f32) (r : Fin 4000) (l : Fin 2) :
    k2_pay1 (F := Ideal) S We B (ix2 r l) = Spec.logSoftmax2 Ideal.exp Ideal.log (blockLogit S We B r) l := by
  unfold k2_pay1
  simp only [shapeCast_self]
  have hlog : ∀ l' : Fin 2, addf (matmul dot_S4000x64_S64x2_S4000x2_1_0_0_1_n_n none S We (constant (F := Ideal) S4000x2 .f32 0x00000000#32)) B (ix2 r l') = blockLogit S We B r l' := by
    intro l'
    rw [addf_apply, blockProduct_apply]; rfl
  refine (logSoftmaxBlock_apply _ _ _ _ r l).trans ?_
  exact congrArg (fun z => Spec.logSoftmax2 Ideal.exp Ideal.log z l) (funext hlog)

/-! ## From the blocks to the array -/

/-- The head's result as ONE function of the three arrays the region reads: at query `q` and label `l`, the log-softmax over
    the two labels of the query's logits `Σ_k S (q, k) · We (k, ·) + B (q, ·)`. -/
def headOut (S : FVec Ideal S200000x64 .bf16) (We : FVec Ideal S64x2 .bf16) (B : FVec Ideal S200000x2 .f32) : FVec Ideal S200000x2 .f32 :=
  fun i => Spec.logSoftmax2 Ideal.exp Ideal.log (fun l' => (∑ k : Fin 64, S (ix2 (i 0) k) * We (ix2 k l')) + B (ix2 (i 0) l')) (i 1)

/-- One entry of one block: when the three loaded blocks are rows `4000 n … 4000 n + 3999` of the embedding rows and of the
    base logits, and the whole weight block, the body's payload at `y` is the head's result at row `4000 n + y₀`, label `y₁`. -/
theorem payload_eq_headOut (S : FVec Ideal S200000x64 .bf16) (We : FVec Ideal S64x2 .bf16) (B : FVec Ideal S200000x2 .f32)
    (s : FVec Ideal S4000x64 .bf16) (we : FVec Ideal S64x2 .bf16) (b : FVec Ideal S4000x2 .f32) (n : ℕ)
    (hs : ∀ (p : Fin 4000) (k : Fin 64) (i : S200000x64.Idx), (i 0).val = n * 4000 + p.val → (i 1).val = k.val → s (ix2 p k) = S i)
    (hw : ∀ (k : Fin 64) (l : Fin 2), we (ix2 k l) = We (ix2 k l))
    (hb : ∀ (p : Fin 4000) (l : Fin 2) (i : S200000x2.Idx), (i 0).val = n * 4000 + p.val → (i 1).val = l.val → b (ix2 p l) = B i)
    (y : S4000x2.Idx) (i : S200000x2.Idx) (hi0 : (i 0).val = n * 4000 + (y 0).val) (hi1 : (i 1).val = (y 1).val) :
    k2_pay1 (F := Ideal) s we b y = headOut S We B i := by
  obtain ⟨p, q, rfl⟩ : ∃ (p : Fin 4000) (q : Fin 2), y = ix2 p q := ⟨y 0, y 1, eq_ix2 y⟩
  rw [payload_apply]
  unfold headOut
  have h1 : (i 1 : Fin 2) = q := Fin.ext hi1
  rw [h1]
  refine congrArg (fun z => Spec.logSoftmax2 Ideal.exp Ideal.log z q) (funext fun l' => ?_)
  unfold blockLogit
  refine congrArg₂ (· + ·) (Finset.sum_congr rfl fun k _ => ?_) ?_
  · rw [hs p k (ix2 (i 0) k) hi0 rfl, hw]
  · exact hb p l' (ix2 (i 0) l') hi0 rfl

section Array
variable (V : (c : Dev nD) → (b : Ref sig .tc) → Buf (Elt Ideal) ((c : Thread nD τ).loc b))

/-- The three arrays the region reads, as it finds them: the gathered embedding rows, the base logits, the weight block. -/
abbrev simArr (c : Dev nD) : FVec Ideal S200000x64 .bf16 := V c main_v139
abbrev baseArr (c : Dev nD) : FVec Ideal S200000x2 .f32 := V c main_v138
abbrev weArr (c : Dev nD) : FVec Ideal S64x2 .bf16 := V c main_v140

/-- The printed index maps over the grid: point `t` reads and writes row block `t`; the weight block is block `(0, 0)` throughout. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the head's result of the three arrays. -/
theorem flushed_eq (c : Dev nD) (t : Fin cfg2.N) :
    (dat2 (F := Ideal) V c).flushed 3 t = ((cfg2.win 3).blk t).view.read (Elt Ideal) (headOut (simArr V c) (weArr V c) (baseArr V c)) := by
  show (cfg2.win 3).cut (grid2.coords t) ((dat2 V c).after 3 t) = _
  rw [after2_3]
  unfold out2_3
  rw [View.canon_unit_zero hz]
  simp only [View.ld_unit_zero (S := S4000x64) hz, View.ld_unit_zero (S := S64x2) hz, View.ld_unit_zero (S := S4000x2) hz]
  obtain ⟨e0, e1, e2, e3, e4, e5, e6, e7⟩ := idx_facts t
  funext j
  show k2_pay1 (iblk2 V c 0 t) (iblk2 V c 2 t) (iblk2 V c 1 t) j = headOut (simArr V c) (weArr V c) (baseArr V c) (((cfg2.win 3).blk t).view.emb j)
  refine payload_eq_headOut (simArr V c) (weArr V c) (baseArr V c) _ _ _ t.val ?_ ?_ ?_ j _ ?_ ?_
  · intro p k i hi0 hi1
    unfold iblk2
    rw [View.read_apply]
    show V c main_v139 _ = V c main_v139 _
    congr 1
    funext a
    apply Fin.ext
    match a with
    | ⟨0, _⟩ => show win2_0.index t (0 : Fin 2) * 4000 + 1 * p.val = (i 0).val; rw [e0, hi0]; omega
    | ⟨1, _⟩ => show win2_0.index t (1 : Fin 2) * 64 + 1 * k.val = (i 1).val; rw [e1, hi1]; omega
  · intro k l
    unfold iblk2
    rw [View.read_apply]
    show V c main_v140 _ = V c main_v140 _
    congr 1
    funext a
    apply Fin.ext
    match a with
    | ⟨0, _⟩ => show win2_2.index t (0 : Fin 2) * 64 + 1 * k.val = k.val; rw [e4]; omega
    | ⟨1, _⟩ => show win2_2.index t (1 : Fin 2) * 2 + 1 * l.val = l.val; rw [e5]; omega
  · intro p l i hi0 hi1
    unfold iblk2
    rw [View.read_apply]
    show V c main_v138 _ = V c main_v138 _
    congr 1
    funext a
    apply Fin.ext
    match a with
    | ⟨0, _⟩ => show win2_1.index t (0 : Fin 2) * 4000 + 1 * p.val = (i 0).val; rw [e2, hi0]; omega
    | ⟨1, _⟩ => show win2_1.index t (1 : Fin 2) * 2 + 1 * l.val = (i 1).val; rw [e3, hi1]; omega
  · show win2_3.index t (0 : Fin 2) * 4000 + 1 * (j 0).val = t.val * 4000 + (j 0).val; rw [e6]; omega
  · show win2_3.index t (1 : Fin 2) * 2 + 1 * (j 1).val = (j 1).val; rw [e7]; omega

end Array

section Array2
variable (V : (c : Dev nD) → (b : Ref sig .tc) → Buf (Elt Ideal) ((c : Thread nD τ).loc b))

/-- The grid has fifty points. -/
theorem N_eq : cfg2.N = 50 := by decide +kernel

/-- An index of the result array is in point `t`'s block iff each coordinate is in the block's range on its axis. -/
theorem mem_blk (t : Fin cfg2.N) (i : S200000x2.Idx) :
    i ∈ ((cfg2.win 3).blk t).view.set ↔ ∀ a : Fin 2, win2_3.index t a * S4000x2.size a ≤ (i a).val ∧ (i a).val < win2_3.index t a * S4000x2.size a + S4000x2.size a := by
  show i ∈ ((View.whole main_v141).slice (win2_3.rect t)).set ↔ _
  rw [View.set_slice_whole, Rect.mem_set_unit]
  exact Iff.rfl

/-- THE ARRAY after the region: the head's result of the three arrays it read (row `q` is written by point `q / 4000`). -/
theorem region_array (c : Dev nD) :
    (dat2 (F := Ideal) V c).arrAt 3 cfg2.N = headOut (simArr V c) (weArr V c) (baseArr V c) :=
  (dat2 (F := Ideal) V c).arrAt_eq_of_cover 3 (headOut (simArr V c) (weArr V c) (baseArr V c)) (fun t _ => flushed_eq V c t) (fun i => by
    have hi0 : (i 0).val < 200000 := (i 0).isLt
    have hi1 : (i 1).val < 2 := (i 1).isLt
    have ht : (i 0).val / 4000 < cfg2.N := by rw [N_eq]; omega
    refine ⟨⟨(i 0).val / 4000, ht⟩, flush2_3 _, ?_⟩
    rw [mem_blk]
    obtain ⟨-, -, -, -, -, -, e6, e7⟩ := idx_facts ⟨(i 0).val / 4000, ht⟩
    intro a
    match a with
    | ⟨0, _⟩ =>
      show win2_3.index ⟨(i 0).val / 4000, ht⟩ (0 : Fin 2) * 4000 ≤ (i 0).val ∧ (i 0).val < win2_3.index ⟨(i 0).val / 4000, ht⟩ (0 : Fin 2) * 4000 + 4000
      rw [e6]; show (i 0).val / 4000 * 4000 ≤ (i 0).val ∧ (i 0).val < (i 0).val / 4000 * 4000 + 4000; omega
    | ⟨1, _⟩ =>
      show win2_3.index ⟨(i 0).val / 4000, ht⟩ (1 : Fin 2) * 2 ≤ (i 1).val ∧ (i 1).val < win2_3.index ⟨(i 0).val / 4000, ht⟩ (1 : Fin 2) * 2 + 2
      rw [e7]; omega)

end Array2

end Cert.Head

end
-- ==== Proof.HeadRef.lean ====
/-
  The reference's result, read at one query `q` and one label `l`.

  The reference lays five 64-column pieces side by side into a 320-column row — the real features of the node the query's
  first end names, those of its second end's node, the imaginary features of the same two nodes, and the query's gathered
  embedding row —, multiplies the row by the 320 × 2 linear map and adds the bias: the logit of label `l` is the sum of
  320 products plus `b l`. A gather of node rows reads, at `(q, k)`, column `k` of the row whose number is the query's
  start index read signed and clamped into the table's range; the start indices for the imaginary features are computed a
  second time by the same operations from the same column, so they are the same arrays.

  The result is the logarithm of the softmax over the two labels: with `m` the larger of the two logits (the maximum is
  folded from `−∞` and taken once more against `−∞`, which changes nothing), `z l − m − log (0 + (exp (z 0 − m) + exp (z 1 − m)))`.
-/
import proofs.«405959_j54778012893400_3_alg».proof.Proof.RefReadP
import proofs.«405959_j54778012893400_3_alg».proof.Proof.LibTakeRows
import proofs.«405959_j54778012893400_3_alg».proof.Proof.Spec
import proofs.«405959_j54778012893400_3_alg».proof.Proof.HeadSpec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.Head

open Cert.ReferenceIdeal Cert.ReferenceIdeal.Gen Cert.ReferenceIdeal.ReadP
open Idealize.ShloMosaic Idealize.ShloMosaic.TcCoe Idealize.ShloMosaic.ValueIdx Idealize.ShloMosaic.TakeRows
open scoped BigOperators

/-! ## The gathers -/

/-- A gather of node rows read at `(q, k)`: column `k` of the row of the node the query's start index names. -/
theorem nodeRows_apply (x : FVec Ideal S2000x64 .f32) (idx : IVec S200000x1 32) (q : Fin 200000) (k : Fin 64) :
    Host.gather gather_S2000x64_S200000x1_S200000x64_1_0_n_n_0_1_164 x idx (ix2 q k) = x (ix2 (nodeOf idx q) k) := by
  have e : gather_S2000x64_S200000x1_S200000x64_1_0_n_n_0_1_164 = rowDims 2000 64 200000 Facts₀.gather_S2000x64_S200000x1_S200000x64_1_0_n_n_0_1_164_wf := rfl
  rw [e]
  exact rowTake_apply (by decide) _ x idx q k

/-! ## The concatenated row -/

/-- Columns `0 … 63` of five 64-column pieces laid side by side are piece 0. -/
theorem cat_piece0 (y0 y1 y2 y3 y4 : FVec Ideal S200000x64 .f32)
    (h : Shape.Concatenates [S200000x64, S200000x64, S200000x64, S200000x64, S200000x64] S200000x320 1) (q : Fin 200000) (k : Fin 64) :
    concatenate S200000x320 1 [⟨S200000x64, y0⟩, ⟨S200000x64, y1⟩, ⟨S200000x64, y2⟩, ⟨S200000x64, y3⟩, ⟨S200000x64, y4⟩] h
      (ix2 q (⟨k.val, by have := k.isLt; omega⟩ : Fin 320)) = y0 (ix2 q k) :=
  concatenate_apply_piece (1 : Fin S200000x320.rank) [⟨S200000x64, y0⟩, ⟨S200000x64, y1⟩, ⟨S200000x64, y2⟩, ⟨S200000x64, y3⟩, ⟨S200000x64, y4⟩] h
    (ix2 q (⟨k.val, by have := k.isLt; omega⟩ : Fin 320)) 0 (by show (0 : ℕ) < 5; omega) S200000x64 y0 rfl rfl 0 (by rfl) (ix2 q k)
    (fun b hb => match b with
      | ⟨0, _⟩ => rfl
      | ⟨1, _⟩ => absurd rfl hb)
    (Nat.zero_add _)

/-- Columns `64 … 127` of five 64-column pieces laid side by side are piece 1. -/
theorem cat_piece1 (y0 y1 y2 y3 y4 : FVec Ideal S200000x64 .f32)
    (h : Shape.Concatenates [S200000x64, S200000x64, S200000x64, S200000x64, S200000x64] S200000x320 1) (q : Fin 200000) (k : Fin 64) :
    concatenate S200000x320 1 [⟨S200000x64, y0⟩, ⟨S200000x64, y1⟩, ⟨S200000x64, y2⟩, ⟨S200000x64, y3⟩, ⟨S200000x64, y4⟩] h
      (ix2 q (⟨64 + k.val, by have := k.isLt; omega⟩ : Fin 320)) = y1 (ix2 q k) :=
  concatenate_apply_piece (1 : Fin S200000x320.rank) [⟨S200000x64, y0⟩, ⟨S200000x64, y1⟩, ⟨S200000x64, y2⟩, ⟨S200000x64, y3⟩, ⟨S200000x64, y4⟩] h
    (ix2 q (⟨64 + k.val, by have := k.isLt; omega⟩ : Fin 320)) 1 (by show (1 : ℕ) < 5; omega) S200000x64 y1 rfl rfl 64 (by rfl) (ix2 q k)
    (fun b hb => match b with
      | ⟨0, _⟩ => rfl
      | ⟨1, _⟩ => absurd rfl hb)
    rfl

/-- Columns `128 … 191` of five 64-column pieces laid side by side are piece 2. -/
theorem cat_piece2 (y0 y1 y2 y3 y4 : FVec Ideal S200000x64 .f32)
    (h : Shape.Concatenates [S200000x64, S200000x64, S200000x64, S200000x64, S200000x64] S200000x320 1) (q : Fin 200000) (k : Fin 64) :
    concatenate S200000x320 1 [⟨S200000x64, y0⟩, ⟨S200000x64, y1⟩, ⟨S200000x64, y2⟩, ⟨S200000x64, y3⟩, ⟨S200000x64, y4⟩] h
      (ix2 q (⟨128 + k.val, by have := k.isLt; omega⟩ : Fin 320)) = y2 (ix2 q k) :=
  concatenate_apply_piece (1 : Fin S200000x320.rank) [⟨S200000x64, y0⟩, ⟨S200000x64, y1⟩, ⟨S200000x64, y2⟩, ⟨S200000x64, y3⟩, ⟨S200000x64, y4⟩] h
    (ix2 q (⟨128 + k.val, by have := k.isLt; omega⟩ : Fin 320)) 2 (by show (2 : ℕ) < 5; omega) S200000x64 y2 rfl rfl 128 (by rfl) (ix2 q k)
    (fun b hb => match b with
      | ⟨0, _⟩ => rfl
      | ⟨1, _⟩ => absurd rfl hb)
    rfl

/-- Columns `192 … 255` of five 64-column pieces laid side by side are piece 3. -/
theorem cat_piece3 (y0 y1 y2 y3 y4 : FVec Ideal S200000x64 .f32)
    (h : Shape.Concatenates [S200000x64, S200000x64, S200000x64, S200000x64, S200000x64] S200000x320 1) (q : Fin 200000) (k : Fin 64) :
    concatenate S200000x320 1 [⟨S200000x64, y0⟩, ⟨S200000x64, y1⟩, ⟨S200000x64, y2⟩, ⟨S200000x64, y3⟩, ⟨S200000x64, y4⟩] h
      (ix2 q (⟨192 + k.val, by have := k.isLt; omega⟩ : Fin 320)) = y3 (ix2 q k) :=
  concatenate_apply_piece (1 : Fin S200000x320.rank) [⟨S200000x64, y0⟩, ⟨S200000x64, y1⟩, ⟨S200000x64, y2⟩, ⟨S200000x64, y3⟩, ⟨S200000x64, y4⟩] h
    (ix2 q (⟨192 + k.val, by have := k.isLt; omega⟩ : Fin 320)) 3 (by show (3 : ℕ) < 5; omega) S200000x64 y3 rfl rfl 192 (by rfl) (ix2 q k)
    (fun b hb => match b with
      | ⟨0, _⟩ => rfl
      | ⟨1, _⟩ => absurd rfl hb)
    rfl

/-- Columns `256 … 319` of five 64-column pieces laid side by side are piece 4. -/
theorem cat_piece4 (y0 y1 y2 y3 y4 : FVec Ideal S200000x64 .f32)
    (h : Shape.Concatenates [S200000x64, S200000x64, S200000x64, S200000x64, S200000x64] S200000x320 1) (q : Fin 200000) (k : Fin 64) :
    concatenate S200000x320 1 [⟨S200000x64, y0⟩, ⟨S200000x64, y1⟩, ⟨S200000x64, y2⟩, ⟨S200000x64, y3⟩, ⟨S200000x64, y4⟩] h
      (ix2 q (⟨256 + k.val, by have := k.isLt; omega⟩ : Fin 320)) = y4 (ix2 q k) :=
  concatenate_apply_piece (1 : Fin S200000x320.rank) [⟨S200000x64, y0⟩, ⟨S200000x64, y1⟩, ⟨S200000x64, y2⟩, ⟨S200000x64, y3⟩, ⟨S200000x64, y4⟩] h
    (ix2 q (⟨256 + k.val, by have := k.isLt; omega⟩ : Fin 320)) 4 (by show (4 : ℕ) < 5; omega) S200000x64 y4 rfl rfl 256 (by rfl) (ix2 q k)
    (fun b hb => match b with
      | ⟨0, _⟩ => rfl
      | ⟨1, _⟩ => absurd rfl hb)
    rfl

/-! ## The concatenated row of a query, block by block -/

section Row
variable (x0 x1 : (⟨S2000x512, .f32⟩ : BufTy).Contents (Elt Ideal)) (x2 : (⟨S2x64000, .i32⟩ : BufTy).Contents (Elt Ideal)) (x3 : (⟨S200000x2, .i32⟩ : BufTy).Contents (Elt Ideal)) (x4 : (⟨S4000000x64, .f32⟩ : BufTy).Contents (Elt Ideal)) (x5 : (⟨S64000, .f32⟩ : BufTy).Contents (Elt Ideal)) (x6 : (⟨S2x512x64, .f32⟩ : BufTy).Contents (Elt Ideal)) (x7 : (⟨S2x64x64, .f32⟩ : BufTy).Contents (Elt Ideal))

/-- Columns `0 … 63`: the real features of the node the query's first end names. -/
theorem catRow_re_i (q : Fin 200000) (k : Fin 64) :
    val_main_v234 (F := Ideal) x0 x1 x2 x3 x4 x5 x6 x7 (ix2 q (⟨k.val, by have := k.isLt; omega⟩ : Fin 320))
      = val_main_v190 (F := Ideal) x0 x1 x2 x5 x6 x7 (ix2 (nodeOf (val_main_v211 (F := Ideal) x3) q) k) := by
  unfold val_main_v234
  rw [cat_piece0]
  exact nodeRows_apply _ _ q k

/-- Columns `64 … 127`: the real features of the node the query's second end names. -/
theorem catRow_re_j (q : Fin 200000) (k : Fin 64) :
    val_main_v234 (F := Ideal) x0 x1 x2 x3 x4 x5 x6 x7 (ix2 q (⟨64 + k.val, by have := k.isLt; omega⟩ : Fin 320))
      = val_main_v190 (F := Ideal) x0 x1 x2 x5 x6 x7 (ix2 (nodeOf (val_main_v218 (F := Ideal) x3) q) k) := by
  unfold val_main_v234
  rw [cat_piece1]
  exact nodeRows_apply _ _ q k

/-- Columns `128 … 191`: the imaginary features of the first end's node (the same normalised start indices, computed again). -/
theorem catRow_im_i (q : Fin 200000) (k : Fin 64) :
    val_main_v234 (F := Ideal) x0 x1 x2 x3 x4 x5 x6 x7 (ix2 q (⟨128 + k.val, by have := k.isLt; omega⟩ : Fin 320))
      = val_main_v191 (F := Ideal) x0 x1 x2 x5 x6 x7 (ix2 (nodeOf (val_main_v211 (F := Ideal) x3) q) k) := by
  unfold val_main_v234
  rw [cat_piece2]
  exact nodeRows_apply _ (val_main_v225 (F := Ideal) x3) q k

/-- Columns `192 … 255`: the imaginary features of the second end's node. -/
theorem catRow_im_j (q : Fin 200000) (k : Fin 64) :
    val_main_v234 (F := Ideal) x0 x1 x2 x3 x4 x5 x6 x7 (ix2 q (⟨192 + k.val, by have := k.isLt; omega⟩ : Fin 320))
      = val_main_v191 (F := Ideal) x0 x1 x2 x5 x6 x7 (ix2 (nodeOf (val_main_v218 (F := Ideal) x3) q) k) := by
  unfold val_main_v234
  rw [cat_piece3]
  exact nodeRows_apply _ (val_main_v232 (F := Ideal) x3) q k

/-- Columns `256 … 319`: the query's gathered embedding row. -/
theorem catRow_emb (q : Fin 200000) (k : Fin 64) :
    val_main_v234 (F := Ideal) x0 x1 x2 x3 x4 x5 x6 x7 (ix2 q (⟨256 + k.val, by have := k.isLt; omega⟩ : Fin 320))
      = val_main_v205 (F := Ideal) x3 x4 (ix2 q k) := by
  unfold val_main_v234
  rw [cat_piece4]

end Row

/-! ## The reference's result at an index -/

section Ref
variable (x0 x1 : (⟨S2000x512, .f32⟩ : BufTy).Contents (Elt Ideal)) (x2 : (⟨S2x64000, .i32⟩ : BufTy).Contents (Elt Ideal)) (x3 : (⟨S200000x2, .i32⟩ : BufTy).Contents (Elt Ideal)) (x4 : (⟨S4000000x64, .f32⟩ : BufTy).Contents (Elt Ideal)) (x5 : (⟨S64000, .f32⟩ : BufTy).Contents (Elt Ideal)) (x6 : (⟨S2x512x64, .f32⟩ : BufTy).Contents (Elt Ideal)) (x7 : (⟨S2x64x64, .f32⟩ : BufTy).Contents (Elt Ideal)) (x8 : (⟨S320x2, .f32⟩ : BufTy).Contents (Elt Ideal)) (x9 : (⟨S2, .f32⟩ : BufTy).Contents (Elt Ideal))

/-- The reference's logits at query `q`, label `l`: the sum of the 320 products of the concatenated row with column `l` of the
    linear map, plus the bias. -/
theorem logits_apply (q : Fin 200000) (l : Fin 2) :
    val_main_v238 (F := Ideal) x0 x1 x2 x3 x4 x5 x6 x7 x8 x9 (ix2 q l)
      = Spec.logitCat (fun k : Fin 320 => val_main_v234 (F := Ideal) x0 x1 x2 x3 x4 x5 x6 x7 (ix2 q k) * x8 (ix2 k l)) (x9 (ix1 l)) := by
  rw [val_main_v238_apply, val_main_v235_apply, val_main_v237_apply, val_main_v236_apply]
  unfold Spec.logitCat
  refine congrArg₂ (· + ·) (Finset.sum_congr rfl fun k _ => ?_) ?_
  · have el : lidx_main_v235 (ix2 q l) k = ix2 q k := funext fun a => Fin.ext (by match a with | ⟨0, _⟩ => rfl | ⟨1, _⟩ => rfl)
    have er : ridx_main_v235 (ix2 q l) k = ix2 k l := funext fun a => Fin.ext (by match a with | ⟨0, _⟩ => rfl | ⟨1, _⟩ => rfl)
    rw [el, er]
  · exact congrArg x9 (funext fun a => Fin.ext (by match a with | ⟨0, _⟩ => rfl))

/-- The host's maximum over the two labels of a row, from `−∞`: the larger of the row's two entries. -/
theorem hostRowMax_apply (Z : FVec Ideal S200000x2 .f32) (h' : S200000x2.ReducesTo [1] S200000) (hu : 0 < S_.numel) (q : Fin 200000) :
    Host.reduce FloatOps.maximumf Z (constant (F := Ideal) S_ .f32 0xFF800000#32) h' hu (ix1 q) = max (Z (ix2 q 0)) (Z (ix2 q 1)) := by
  have hR : S200000x2.Reduces [1] S200000 := by decide
  rw [Host.reduce_eq_fold_single FloatOps.maximumf Z _ h' hR hu]
  refine (fold_max_lane hR _ Z q).trans ?_
  show max (Z (ix2 q 0)) (max (Z (ix2 q 1)) (Ideal.ofBits .f32 0xFF800000#32)) = _
  rw [ofBits_neg_inf, max_bot_right]

/-- The reference's row maximum, spread back over the two labels: the larger of the row's two logits. -/
theorem refMax_apply (q : Fin 200000) (l : Fin 2) :
    val_main_call2_v4 (F := Ideal) x0 x1 x2 x3 x4 x5 x6 x7 x8 x9 (ix2 q l)
      = max (val_main_v238 (F := Ideal) x0 x1 x2 x3 x4 x5 x6 x7 x8 x9 (ix2 q 0)) (val_main_v238 (F := Ideal) x0 x1 x2 x3 x4 x5 x6 x7 x8 x9 (ix2 q 1)) := by
  rw [val_main_call2_v4_apply, val_main_call2_v3_apply, val_main_call2_v2_apply, val_main_call2_v1_apply, val_main_call2_cst_0_apply]
  have ei : idx_main_call2_v3 (idx_main_call2_v4 (ix2 q l)) = ix1 q := funext fun a => Fin.ext (by match a with | ⟨0, _⟩ => rfl)
  rw [ei]
  unfold val_main_call2_v0
  refine (congrArg (max (Ideal.ofBits .f32 0xFF800000#32)) (hostRowMax_apply _ reducesTo_S200000x2_S200000_d1 h_S_ q)).trans ?_
  rw [ofBits_neg_inf, max_bot_left]

/-- The reference's shifted logits. -/
theorem refShift_apply (q : Fin 200000) (l : Fin 2) :
    val_main_call2_v5 (F := Ideal) x0 x1 x2 x3 x4 x5 x6 x7 x8 x9 (ix2 q l)
      = val_main_v238 (F := Ideal) x0 x1 x2 x3 x4 x5 x6 x7 x8 x9 (ix2 q l)
        - max (val_main_v238 (F := Ideal) x0 x1 x2 x3 x4 x5 x6 x7 x8 x9 (ix2 q 0)) (val_main_v238 (F := Ideal) x0 x1 x2 x3 x4 x5 x6 x7 x8 x9 (ix2 q 1)) := by
  rw [val_main_call2_v5_apply, refMax_apply]; rfl

/-- THE REFERENCE'S RESULT at query `q`, label `l`: the log-softmax over the two labels of the query's logits. -/
theorem ref_apply (q : Fin 200000) (l : Fin 2) :
    val_main_v239 (F := Ideal) x0 x1 x2 x3 x4 x5 x6 x7 x8 x9 (ix2 q l)
      = Spec.logSoftmax2 Ideal.exp Ideal.log (fun l' => val_main_v238 (F := Ideal) x0 x1 x2 x3 x4 x5 x6 x7 x8 x9 (ix2 q l')) l := by
  rw [val_main_v239_apply, refShift_apply, val_main_call2_v10_apply, val_main_call2_v9_apply, val_main_call2_v8_apply, val_main_call2_v7_apply]
  have ei : idx_main_call2_v8 (idx_main_call2_v10 (ix2 q l)) = ix1 q := funext fun a => Fin.ext (by match a with | ⟨0, _⟩ => rfl)
  rw [ei, Fin.sum_univ_two]
  have e0 : idx_main_call2_v7 (ix1 q) 0 = ix2 q 0 := funext fun a => Fin.ext (by match a with | ⟨0, _⟩ => rfl | ⟨1, _⟩ => rfl)
  have e1 : idx_main_call2_v7 (ix1 q) 1 = ix2 q 1 := funext fun a => Fin.ext (by match a with | ⟨0, _⟩ => rfl | ⟨1, _⟩ => rfl)
  rw [e0, e1, val_main_call2_v6_apply, val_main_call2_v6_apply, refShift_apply, refShift_apply]
  unfold Spec.logSoftmax2
  show (_ - _) - Ideal.log (Ideal.ofBits .f32 0x00000000#32 + (Ideal.exp _ + Ideal.exp _)) = _
  rw [Ideal.ofBits_zero_f32, zero_add]

end Ref

end Cert.Head

end
-- ==== Proof.HeadHost.lean ====
/-
  The host operations between the second region and the last, read at an index.

  They slice the two columns of the query edges, form the flat index `i · 2000 + j`, normalise each of the three index
  vectors (a negative index has the extent added) and gather: the embedding table's rows at the flat index, and, at the
  query's two ends, the rows of two 2000 × 2 node tables `re · Wa + im · Wc` and `re · Wb + im · Wd`, where `Wa, Wb, Wc, Wd, We`
  are rows `0…63`, `64…127`, `128…191`, `192…255`, `256…319` of the linear map. The base logits are the two gathered table
  rows added, plus the bias. The index arrays are, operation for operation, the reference's normalised start indices of the
  same columns, so they are taken as those arrays and never opened: a gather reads the row its clamped start index names,
  whatever that index is. The casts to bf16 change no value over the extended reals.
-/
import proofs.«405959_j54778012893400_3_alg».proof.Proof.Gen.KernelIdeal.Launch
import proofs.«405959_j54778012893400_3_alg».proof.Proof.RefReadP
import proofs.«405959_j54778012893400_3_alg».proof.Proof.LibTakeRows
import proofs.«405959_j54778012893400_3_alg».proof.Proof.HeadSpec
import Idealize.ShloMosaic.Lib.StableHlo.Run
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.Head

open Cert.KernelIdeal Cert.KernelIdeal.Gen
open Idealize.ShloMosaic Idealize.ShloMosaic.TcCoe Idealize.ShloMosaic.ValueIdx Idealize.ShloMosaic.TakeRows
open Cert.ReferenceIdeal.ReadP
open scoped BigOperators

/-! ## The host operations' pieces, read at an index -/

/-- A gather of rows of a node table `[2000, 2]` read at `(q, l)`: entry `l` of the row of the node the query's start index names. -/
theorem nodePair_apply (p : FVec Ideal S2000x2 .f32) (idx : IVec S200000x1 32) (q : Fin 200000) (l : Fin 2) :
    Host.gather gather_S2000x2_S200000x1_S200000x2_1_0_n_n_0_1_12 p idx (ix2 q l) = p (ix2 (nodeOf idx q) l) := by
  have e : gather_S2000x2_S200000x1_S200000x2_1_0_n_n_0_1_12 = rowDims 2000 2 200000 Facts₀.gather_S2000x2_S200000x1_S200000x2_1_0_n_n_0_1_12_wf := rfl
  rw [e]
  exact rowTake_apply (by decide) _ p idx q l

/-- Rows `o … o + 63` of the linear map, read at `(k, l)`. -/
theorem mapRows_apply (o : ℕ) (ho : o + 64 ≤ 320) (x8 : FVec Ideal S320x2 .f32) (h : S320x2.Slices ![o, 0] S64x2) (k : Fin 64) (l : Fin 2) :
    extractStridedSlice S64x2 ![o, 0] x8 h (ix2 k l) = x8 (ix2 (⟨o + k.val, by have := k.isLt; omega⟩ : Fin 320) l) :=
  extractStridedSlice_apply ![o, 0] x8 h (ix2 k l) (ix2 (⟨o + k.val, by have := k.isLt; omega⟩ : Fin 320) l) (fun a => match a with
    | ⟨0, _⟩ => rfl
    | ⟨1, _⟩ => by show l.val = 0 + l.val; omega)

theorem lhs_tab_0 (i : S2000x2.Idx) (q : dot_S2000x64_S64x2_S2000x2_1_0_0_1_n_n.contr.Idx) :
    (dot_S2000x64_S64x2_S2000x2_1_0_0_1_n_n.lhsIdx i q 0).val = (i 0).val := by
  unfold DotDims.lhsIdx
  rw [dif_neg (show ¬(0 : Fin S2000x64.rank) ∈ dot_S2000x64_S64x2_S2000x2_1_0_0_1_n_n.lhsBatch by decide), dif_pos (show (0 : Fin S2000x64.rank) ∈ dot_S2000x64_S64x2_S2000x2_1_0_0_1_n_n.lhsNonContracting by decide)]
  rfl
theorem lhs_tab_1 (i : S2000x2.Idx) (q : dot_S2000x64_S64x2_S2000x2_1_0_0_1_n_n.contr.Idx) :
    (dot_S2000x64_S64x2_S2000x2_1_0_0_1_n_n.lhsIdx i q 1).val = (q ⟨0, by decide⟩).val :=
  dot_S2000x64_S64x2_S2000x2_1_0_0_1_n_n.lhsIdx_val_of_single rfl i q
theorem rhs_tab_0 (i : S2000x2.Idx) (q : dot_S2000x64_S64x2_S2000x2_1_0_0_1_n_n.contr.Idx) :
    (dot_S2000x64_S64x2_S2000x2_1_0_0_1_n_n.rhsIdx i q 0).val = (q ⟨0, by decide⟩).val :=
  dot_S2000x64_S64x2_S2000x2_1_0_0_1_n_n.rhsIdx_val_of_single rfl i q
theorem rhs_tab_1 (i : S2000x2.Idx) (q : dot_S2000x64_S64x2_S2000x2_1_0_0_1_n_n.contr.Idx) :
    (dot_S2000x64_S64x2_S2000x2_1_0_0_1_n_n.rhsIdx i q 1).val = (i 1).val := by
  unfold DotDims.rhsIdx
  rw [dif_neg (show ¬(1 : Fin S64x2.rank) ∈ dot_S2000x64_S64x2_S2000x2_1_0_0_1_n_n.rhsBatch by decide), dif_pos (show (1 : Fin S64x2.rank) ∈ dot_S2000x64_S64x2_S2000x2_1_0_0_1_n_n.rhsNonContracting by decide)]
  rfl

/-- A node table's product with a 64 × 2 block of the linear map, at node `n`, label `l`: the sum over the 64 features. -/
theorem tableProduct_apply (x : FVec Ideal S2000x64 .f32) (w : FVec Ideal S64x2 .f32) (n : Fin 2000) (l : Fin 2) :
    Host.dotGeneral dot_S2000x64_S64x2_S2000x2_1_0_0_1_n_n none x w (ix2 n l) = ∑ k : Fin 64, x (ix2 n k) * w (ix2 k l) := by
  simp only [Host.dotGeneral]
  rw [Ideal.dotGeneral_apply, ← Equiv.sum_comp (ValueIdx.contrEquiv1 dot_S2000x64_S64x2_S2000x2_1_0_0_1_n_n 64 rfl rfl).symm]
  refine Finset.sum_congr rfl fun k _ => ?_
  have hk := ValueIdx.contrEquiv1_symm_val dot_S2000x64_S64x2_S2000x2_1_0_0_1_n_n 64 rfl rfl k
  have el : dot_S2000x64_S64x2_S2000x2_1_0_0_1_n_n.lhsIdx (ix2 n l) ((ValueIdx.contrEquiv1 dot_S2000x64_S64x2_S2000x2_1_0_0_1_n_n 64 rfl rfl).symm k) = ix2 n k := funext fun a => Fin.ext (by
    match a with
    | ⟨0, _⟩ => exact lhs_tab_0 _ _
    | ⟨1, _⟩ => exact (lhs_tab_1 _ _).trans hk)
  have er : dot_S2000x64_S64x2_S2000x2_1_0_0_1_n_n.rhsIdx (ix2 n l) ((ValueIdx.contrEquiv1 dot_S2000x64_S64x2_S2000x2_1_0_0_1_n_n 64 rfl rfl).symm k) = ix2 k l := funext fun a => Fin.ext (by
    match a with
    | ⟨0, _⟩ => exact (rhs_tab_0 _ _).trans hk
    | ⟨1, _⟩ => exact rhs_tab_1 _ _)
  rw [el, er]

/-- One end's node table `re · Wr + im · Wi`, at node `n`, label `l`, with `Wr`, `Wi` the rows `o …`, `o' …` of the linear map. -/
theorem nodeTable_apply (re im : FVec Ideal S2000x64 .f32) (x8 : FVec Ideal S320x2 .f32) (o o' : ℕ) (ho : o + 64 ≤ 320) (ho' : o' + 64 ≤ 320)
    (h : S320x2.Slices ![o, 0] S64x2) (h' : S320x2.Slices ![o', 0] S64x2) (n : Fin 2000) (l : Fin 2) :
    addf (Host.dotGeneral dot_S2000x64_S64x2_S2000x2_1_0_0_1_n_n none re (extractStridedSlice S64x2 ![o, 0] x8 h))
        (Host.dotGeneral dot_S2000x64_S64x2_S2000x2_1_0_0_1_n_n none im (extractStridedSlice S64x2 ![o', 0] x8 h')) (ix2 n l)
      = (∑ k : Fin 64, re (ix2 n k) * x8 (ix2 (⟨o + k.val, by have := k.isLt; omega⟩ : Fin 320) l))
        + ∑ k : Fin 64, im (ix2 n k) * x8 (ix2 (⟨o' + k.val, by have := k.isLt; omega⟩ : Fin 320) l) := by
  rw [addf_apply, tableProduct_apply, tableProduct_apply]
  refine congrArg₂ (· + ·) (Finset.sum_congr rfl fun k _ => ?_) (Finset.sum_congr rfl fun k _ => ?_)
  · rw [mapRows_apply o ho]
  · rw [mapRows_apply o' ho']

/-- The bias spread over the queries, at `(q, l)`. -/
theorem bias_apply (x9 : FVec Ideal S2 .f32) (h1 : S2.BroadcastsInDim S1x2 ![1]) (h2 : S1x2.BroadcastsInDim S200000x2 ![0, 1]) (q : Fin 200000) (l : Fin 2) :
    broadcastInDim S200000x2 ![0, 1] h2 (broadcastInDim S1x2 ![1] h1 x9) (ix2 q l) = x9 (ix1 l) := by
  refine (broadcastInDim_apply _ h2 _ (ix2 q l) (ix2 (0 : Fin 1) l) (fun a => match a with
    | ⟨0, _⟩ => by show 0 = if (1 : Nat) = 1 then 0 else q.val; rw [if_pos rfl]
    | ⟨1, _⟩ => by show l.val = if (2 : Nat) = 1 then 0 else l.val; rw [if_neg (by decide)])).trans ?_
  exact broadcastInDim_apply _ h1 x9 (ix2 (0 : Fin 1) l) (ix1 l) (fun a => match a with
    | ⟨0, _⟩ => by show l.val = if (2 : Nat) = 1 then 0 else l.val; rw [if_neg (by decide)])

/-! ## The buffers the last region finds -/

section Host
variable (W9 : Valuation τ sig (Elt Ideal))

/-- The buffers after the host operations between the second region and the last. -/
abbrev W11 : Valuation τ sig (Elt Ideal) := StableHlo.after main_part2_ops0 (StableHlo.after main_part1_ops2 W9)

/-- What those operations read, at its literal type: the layer-2 node features, the query edges, the embedding table, the
    linear map and the bias. -/
abbrev reArr : FVec Ideal S2000x64 .f32 := W9 (Proc.devRef .tc main_v95_0)
abbrev imArr : FVec Ideal S2000x64 .f32 := W9 (Proc.devRef .tc main_v95_1)
abbrev qArr : IVec S200000x2 32 := W9 (Proc.devRef .tc main_arg3)
abbrev embArr : FVec Ideal S4000000x64 .f32 := W9 (Proc.devRef .tc main_arg4)
abbrev mapArr : FVec Ideal S320x2 .f32 := W9 (Proc.devRef .tc main_arg8)
abbrev biasArr : FVec Ideal S2 .f32 := W9 (Proc.devRef .tc main_arg9)

/-- The embedding rows the region reads are the reference's gathered rows (the same flat index `i · 2000 + j`, normalised and
    gathered by the same operations), narrowed to bf16, which changes no value here. -/
theorem sim_eq : (W11 W9 (Proc.devRef .tc main_v139) : FVec Ideal S200000x64 .bf16)
    = (truncf (F := Ideal) .bf16 (val_main_v205 (F := Ideal) (qArr W9) (embArr W9) : FVec Ideal S200000x64 .f32) bitsLt_bf16_f32 : FVec Ideal S200000x64 .bf16) := by
  show StableHlo.after main_part2_ops0 (StableHlo.after main_part1_ops2 W9) (Proc.devRef .tc main_v139) = _
  after_results_simp
  rfl

/-- The weight block is rows `256 … 319` of the linear map, narrowed to bf16. -/
theorem we_eq : (W11 W9 (Proc.devRef .tc main_v140) : FVec Ideal S64x2 .bf16)
    = (truncf (F := Ideal) .bf16 (extractStridedSlice S64x2 ![256, 0] (mapArr W9) slices_S320x2_S64x2_256_0 : FVec Ideal S64x2 .f32) bitsLt_bf16_f32 : FVec Ideal S64x2 .bf16) := by
  show StableHlo.after main_part2_ops0 (StableHlo.after main_part1_ops2 W9) (Proc.devRef .tc main_v140) = _
  after_results_simp

/-- The base logits: the two node tables gathered at the query's two ends (the start indices normalised as the reference
    normalises them), added, plus the bias. -/
theorem base_eq : (W11 W9 (Proc.devRef .tc main_v138) : FVec Ideal S200000x2 .f32)
    = addf (addf
        (Host.gather gather_S2000x2_S200000x1_S200000x2_1_0_n_n_0_1_12
          (addf (Host.dotGeneral dot_S2000x64_S64x2_S2000x2_1_0_0_1_n_n none (reArr W9) (extractStridedSlice S64x2 ![0, 0] (mapArr W9) slices_S320x2_S64x2_0_0))
            (Host.dotGeneral dot_S2000x64_S64x2_S2000x2_1_0_0_1_n_n none (imArr W9) (extractStridedSlice S64x2 ![128, 0] (mapArr W9) slices_S320x2_S64x2_128_0)))
          (val_main_v211 (F := Ideal) (qArr W9)))
        (Host.gather gather_S2000x2_S200000x1_S200000x2_1_0_n_n_0_1_12
          (addf (Host.dotGeneral dot_S2000x64_S64x2_S2000x2_1_0_0_1_n_n none (reArr W9) (extractStridedSlice S64x2 ![64, 0] (mapArr W9) slices_S320x2_S64x2_64_0))
            (Host.dotGeneral dot_S2000x64_S64x2_S2000x2_1_0_0_1_n_n none (imArr W9) (extractStridedSlice S64x2 ![192, 0] (mapArr W9) slices_S320x2_S64x2_192_0)))
          (val_main_v218 (F := Ideal) (qArr W9))))
      (broadcastInDim S200000x2 ![0, 1] bcast_S1x2_S200000x2_0_1 (broadcastInDim S1x2 ![1] bcast_S2_S1x2_1 (biasArr W9))) := by
  show StableHlo.after main_part2_ops0 (StableHlo.after main_part1_ops2 W9) (Proc.devRef .tc main_v138) = _
  after_results_simp
  rfl

/-- The embedding rows at `(q, k)`. -/
theorem sim_apply (q : Fin 200000) (k : Fin 64) :
    (W11 W9 (Proc.devRef .tc main_v139) : FVec Ideal S200000x64 .bf16) (ix2 q k) = val_main_v205 (F := Ideal) (qArr W9) (embArr W9) (ix2 q k) := by
  rw [sim_eq]; rfl

/-- The weight block at `(k, l)`. -/
theorem we_apply (k : Fin 64) (l : Fin 2) :
    (W11 W9 (Proc.devRef .tc main_v140) : FVec Ideal S64x2 .bf16) (ix2 k l) = mapArr W9 (ix2 (⟨256 + k.val, by have := k.isLt; omega⟩ : Fin 320) l) := by
  rw [we_eq]
  show extractStridedSlice S64x2 ![256, 0] (mapArr W9) slices_S320x2_S64x2_256_0 (ix2 k l) = _
  exact mapRows_apply 256 (by decide) (mapArr W9) slices_S320x2_S64x2_256_0 k l

/-- The base logits at `(q, l)`, `gi`, `gj` the nodes the query's two ends name. -/
theorem base_apply (q : Fin 200000) (l : Fin 2) :
    (W11 W9 (Proc.devRef .tc main_v138) : FVec Ideal S200000x2 .f32) (ix2 q l)
      = (((∑ k : Fin 64, reArr W9 (ix2 (nodeOf (val_main_v211 (F := Ideal) (qArr W9)) q) k) * mapArr W9 (ix2 (⟨k.val, by have := k.isLt; omega⟩ : Fin 320) l))
            + ∑ k : Fin 64, imArr W9 (ix2 (nodeOf (val_main_v211 (F := Ideal) (qArr W9)) q) k) * mapArr W9 (ix2 (⟨128 + k.val, by have := k.isLt; omega⟩ : Fin 320) l))
          + ((∑ k : Fin 64, reArr W9 (ix2 (nodeOf (val_main_v218 (F := Ideal) (qArr W9)) q) k) * mapArr W9 (ix2 (⟨64 + k.val, by have := k.isLt; omega⟩ : Fin 320) l))
            + ∑ k : Fin 64, imArr W9 (ix2 (nodeOf (val_main_v218 (F := Ideal) (qArr W9)) q) k) * mapArr W9 (ix2 (⟨192 + k.val, by have := k.isLt; omega⟩ : Fin 320) l)))
        + biasArr W9 (ix1 l) := by
  rw [base_eq, addf_apply, addf_apply, nodePair_apply, nodePair_apply, bias_apply,
    nodeTable_apply _ _ _ 0 128 (by decide) (by decide), nodeTable_apply _ _ _ 64 192 (by decide) (by decide)]
  simp only [Nat.zero_add]

end Host

end Cert.Head

end
-- ==== Proof.Head.lean ====
/-
  The head: the kernel's last region writes the reference's result.

  Both sides compute, for each query `q` and label `l`, the logarithm of the softmax over the two labels of a logit
  that is the sum of 320 products and a bias: 64 products of the query's embedding row with rows `256…319` of the
  linear map, and 4 × 64 products of the real and imaginary features of the two nodes the query's ends name with rows
  `0…255`. The reference sums the 320 products of the concatenated row in one sum and adds the bias; the kernel adds the
  embedding block's sum to (the two ends' node-table entries added, plus the bias). Addition on the extended reals is
  associative and commutative, so the two logits are equal with no finiteness assumed; the nodes are named by the same
  clamped start indices on both sides, so the query edges need no range assumption.
-/
import proofs.«405959_j54778012893400_3_alg».proof.Proof.HeadRegion
import proofs.«405959_j54778012893400_3_alg».proof.Proof.HeadRef
import proofs.«405959_j54778012893400_3_alg».proof.Proof.HeadHost
import proofs.«405959_j54778012893400_3_alg».proof.Proof.SpecLemmas

set_option maxRecDepth 16384

noncomputable section

namespace Cert.Head

open Cert.KernelIdeal Cert.KernelIdeal.Gen Cert.KernelIdeal.Hand
open Idealize.ShloMosaic Idealize.ShloMosaic.TcCoe Idealize.ShloMosaic.ValueIdx
open Cert.ReferenceIdeal.ReadP
open scoped BigOperators

/-- THE HEAD: when the last region finds, in its three input arrays, what the host operations after the second region
    leave there (from buffers `W9` whose layer-2 node features are the reference's and whose arguments are `x3, x4, x8, x9`),
    its result array is the reference's result. The two sides' logits are the same 320 products and the bias, summed in
    two different bracketings. -/
theorem head_eq (W9 : Valuation τ sig (Elt Ideal)) (c : Dev nD)
    (V : (c : Dev nD) → (b : Ref sig .tc) → Buf (Elt Ideal) ((c : Thread nD τ).loc b))
    (x0 x1 : (⟨Cert.ReferenceIdeal.S2000x512, .f32⟩ : BufTy).Contents (Elt Ideal)) (x2 : (⟨Cert.ReferenceIdeal.S2x64000, .i32⟩ : BufTy).Contents (Elt Ideal)) (x3 : (⟨Cert.ReferenceIdeal.S200000x2, .i32⟩ : BufTy).Contents (Elt Ideal)) (x4 : (⟨Cert.ReferenceIdeal.S4000000x64, .f32⟩ : BufTy).Contents (Elt Ideal)) (x5 : (⟨Cert.ReferenceIdeal.S64000, .f32⟩ : BufTy).Contents (Elt Ideal)) (x6 : (⟨Cert.ReferenceIdeal.S2x512x64, .f32⟩ : BufTy).Contents (Elt Ideal)) (x7 : (⟨Cert.ReferenceIdeal.S2x64x64, .f32⟩ : BufTy).Contents (Elt Ideal)) (x8 : (⟨Cert.ReferenceIdeal.S320x2, .f32⟩ : BufTy).Contents (Elt Ideal)) (x9 : (⟨Cert.ReferenceIdeal.S2, .f32⟩ : BufTy).Contents (Elt Ideal))
    (hre : W9 (Proc.devRef .tc main_v95_0) = val_main_v190 (F := Ideal) x0 x1 x2 x5 x6 x7)
    (him : W9 (Proc.devRef .tc main_v95_1) = val_main_v191 (F := Ideal) x0 x1 x2 x5 x6 x7)
    (h3 : W9 (Proc.devRef .tc main_arg3) = x3) (h4 : W9 (Proc.devRef .tc main_arg4) = x4)
    (h8 : W9 (Proc.devRef .tc main_arg8) = x8) (h9 : W9 (Proc.devRef .tc main_arg9) = x9)
    (hS : V c main_v139 = W11 W9 (Proc.devRef .tc main_v139)) (hB : V c main_v138 = W11 W9 (Proc.devRef .tc main_v138))
    (hW : V c main_v140 = W11 W9 (Proc.devRef .tc main_v140)) :
    (dat2 (F := Ideal) V c).arrAt 3 cfg2.N = val_main_v239 (F := Ideal) x0 x1 x2 x3 x4 x5 x6 x7 x8 x9 := by
  subst h3 h4 h8 h9
  rw [region_array]
  funext i
  obtain ⟨q, l, rfl⟩ : ∃ (q : Fin 200000) (l : Fin 2), i = ix2 q l := ⟨i 0, i 1, eq_ix2 i⟩
  rw [ref_apply]
  unfold headOut
  refine congrArg (fun z => Spec.logSoftmax2 Ideal.exp Ideal.log z l) (funext fun l' => ?_)
  show (∑ k : Fin 64, simArr V c (ix2 q k) * weArr V c (ix2 k l')) + baseArr V c (ix2 q l') = _
  rw [logits_apply, Spec.logitCat_eq_logitSplit]
  unfold Spec.logitSplit
  beta_reduce
  have eS : ∀ k : Fin 64, simArr V c (ix2 q k) = val_main_v205 (F := Ideal) (qArr W9) (embArr W9) (ix2 q k) :=
    fun k => (congrFun hS (ix2 q k)).trans (sim_apply W9 q k)
  have eW : ∀ k : Fin 64, weArr V c (ix2 k l') = mapArr W9 (ix2 (⟨256 + k.val, by have := k.isLt; omega⟩ : Fin 320) l') :=
    fun k => (congrFun hW (ix2 k l')).trans (we_apply W9 k l')
  have eB := (congrFun hB (ix2 q l')).trans (base_apply W9 q l')
  refine congrArg₂ (· + ·) (Finset.sum_congr rfl fun k _ => ?_) (eB.trans ?_)
  · rw [eS, eW, catRow_emb]
  · refine congrArg₂ (· + ·) (congrArg₂ (· + ·) (congrArg₂ (· + ·) (Finset.sum_congr rfl fun k _ => ?_) (Finset.sum_congr rfl fun k _ => ?_))
      (congrArg₂ (· + ·) (Finset.sum_congr rfl fun k _ => ?_) (Finset.sum_congr rfl fun k _ => ?_))) rfl
    · rw [catRow_re_i, ← hre]
    · rw [catRow_im_i, ← him]
    · rw [catRow_re_j, ← hre]
    · rw [catRow_im_j, ← him]

end Cert.Head

end
-- ==== Proof.Bridge.lean ====
/-
  The kernel program's result is the reference's result.

  The kernel program is twelve segments: host stretches and three Pallas calls. Read back from its end: the result
  buffer is the last call's output array; that call's inputs are what the last host stretch makes of the second
  call's two output arrays and of the argument arrays; the second call's outputs are the reference's second-layer
  results because its inputs are the dense operator matrices (left by the first stretches and untouched since), the
  first call's outputs (the reference's first-layer results) and the second layer's weights; and the argument arrays
  pass every segment unchanged. The precondition supplies that every floating-point input is a real number and that
  every entry of the edge index is a node.
-/
import proofs.«405959_j54778012893400_3_alg».proof.Defs
import proofs.«405959_j54778012893400_3_alg».proof.Proof.Bridge0
import proofs.«405959_j54778012893400_3_alg».proof.Proof.PreFacts
import proofs.«405959_j54778012893400_3_alg».proof.Proof.Layer2
import proofs.«405959_j54778012893400_3_alg».proof.Proof.Prelude1
import proofs.«405959_j54778012893400_3_alg».proof.Proof.PreludeRef
import proofs.«405959_j54778012893400_3_alg».proof.Proof.Layer1
import proofs.«405959_j54778012893400_3_alg».proof.Proof.Prelude2
import proofs.«405959_j54778012893400_3_alg».proof.Proof.Head

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.Layer2
open Cert.ReferenceIdeal.ReadP (val_main_v4 val_main_v5 val_main_v41 val_main_v44 val_main_v96 val_main_v97 val_main_v98 val_main_v99 val_main_v135 val_main_v138 val_main_v190 val_main_v191 val_main_v239)

variable (m : (ℓ : Loc nD τ sig) → Buf (Elt Ideal) ℓ) (ρ : Dev nD → PrngReg)

/-! ## The argument arrays of core `c` -/

abbrev x0 (c : Dev nD) := m ((c.tc : Thread nD τ).loc main_arg0)
abbrev x1 (c : Dev nD) := m ((c.tc : Thread nD τ).loc main_arg1)
abbrev x2 (c : Dev nD) := m ((c.tc : Thread nD τ).loc main_arg2)
abbrev x3 (c : Dev nD) := m ((c.tc : Thread nD τ).loc main_arg3)
abbrev x4 (c : Dev nD) := m ((c.tc : Thread nD τ).loc main_arg4)
abbrev x5 (c : Dev nD) := m ((c.tc : Thread nD τ).loc main_arg5)
abbrev x6 (c : Dev nD) := m ((c.tc : Thread nD τ).loc main_arg6)
abbrev x7 (c : Dev nD) := m ((c.tc : Thread nD τ).loc main_arg7)
abbrev x8 (c : Dev nD) := m ((c.tc : Thread nD τ).loc main_arg8)
abbrev x9 (c : Dev nD) := m ((c.tc : Thread nD τ).loc main_arg9)

/-! ## The second call's outputs are the reference's second-layer results -/

section Second
variable (c : Dev nD)
  -- what the stretch between the two calls does
  (P87 : (W8 m ρ c (Proc.devRef .tc main_v87) : S2000x64.Idx → EReal) = W7 m ρ c (Proc.devRef .tc main_v86_0))
  (P88 : (W8 m ρ c (Proc.devRef .tc main_v88) : S2000x64.Idx → EReal) = W7 m ρ c (Proc.devRef .tc main_v86_1))
  (P91 : ∀ k h : Fin 64, (W8 m ρ c (Proc.devRef .tc main_v91) : S64x64.Idx → EReal) (ix2 k h)
      = (W7 m ρ c (Proc.devRef .tc main_arg7) : S2x64x64.Idx → EReal) (ix3 (0 : Fin 2) k h))
  (P94 : ∀ k h : Fin 64, (W8 m ρ c (Proc.devRef .tc main_v94) : S64x64.Idx → EReal) (ix2 k h)
      = (W7 m ρ c (Proc.devRef .tc main_arg7) : S2x64x64.Idx → EReal) (ix3 (1 : Fin 2) k h))
  (P76 : W8 m ρ c (Proc.devRef .tc main_v76) = W7 m ρ c (Proc.devRef .tc main_v76))
  (P77 : W8 m ρ c (Proc.devRef .tc main_v77) = W7 m ρ c (Proc.devRef .tc main_v77))
  -- what the stretches before the first call leave in the two operator arrays
  (A76 : ∀ n s : Fin 2000, (W6 m ρ c (Proc.devRef .tc main_v76) : S2000x2000.Idx → EReal) (ix2 n s)
      = Spec.adj (dstI (x2 m c)) (srcI (x2 m c)) (edgeRe (x2 m c) (x5 m c)) n s)
  (A77 : ∀ n s : Fin 2000, (W6 m ρ c (Proc.devRef .tc main_v77) : S2000x2000.Idx → EReal) (ix2 n s)
      = Spec.adj (dstI (x2 m c)) (srcI (x2 m c)) (edgeIm (x2 m c) (x5 m c)) n s)
  (hcr : ∀ e : Fin 128000, ∃ r : ℝ, val_main_v135 (F := Ideal) (x2 m c) (x5 m c) (ix1 e) = (r : EReal))
  (hci : ∀ e : Fin 128000, ∃ r : ℝ, val_main_v138 (F := Ideal) (x2 m c) (x5 m c) (ix1 e) = (r : EReal))
  -- the first call's outputs
  (L96 : ((dat0 (F := Ideal) (V6 m ρ) c).arrAt 8 cfg0.N : S2000x64.Idx → EReal) = val_main_v96 (F := Ideal) (x0 m c) (x1 m c) (x2 m c) (x5 m c) (x6 m c))
  (L97 : ((dat0 (F := Ideal) (V6 m ρ) c).arrAt 9 cfg0.N : S2000x64.Idx → EReal) = val_main_v97 (F := Ideal) (x0 m c) (x1 m c) (x2 m c) (x5 m c) (x6 m c))
  (R96 : ∀ i, ∃ r : ℝ, val_main_v96 (F := Ideal) (x0 m c) (x1 m c) (x2 m c) (x5 m c) (x6 m c) i = (r : EReal))
  (R97 : ∀ i, ∃ r : ℝ, val_main_v97 (F := Ideal) (x0 m c) (x1 m c) (x2 m c) (x5 m c) (x6 m c) i = (r : EReal))
  -- the precondition's facts
  (hr : ∀ a : Fin 2, ∀ e : Fin 64000, 0 ≤ ((x2 m c : S2x64000.Idx → BitVec 32) (ix2 a e)).toInt ∧ ((x2 m c : S2x64000.Idx → BitVec 32) (ix2 a e)).toInt < 2000)
  (h7 : ∀ i, ∃ r : ℝ, (x7 m c : S2x64x64.Idx → EReal) i = (r : EReal))
include P87 P88 P91 P94 P76 P77 A76 A77 hcr hci L96 L97 R96 R97 hr h7

/-- The second call's two output arrays, as the last stretch finds them, are the reference's second-layer results. -/
theorem second_layer :
    (W9 m ρ c (Proc.devRef .tc main_v95_0) : S2000x64.Idx → EReal)
        = val_main_v190 (F := Ideal) (x0 m c) (x1 m c) (x2 m c) (x5 m c) (x6 m c) (x7 m c)
    ∧ (W9 m ρ c (Proc.devRef .tc main_v95_1) : S2000x64.Idx → EReal)
        = val_main_v191 (F := Ideal) (x0 m c) (x1 m c) (x2 m c) (x5 m c) (x6 m c) (x7 m c) := by
  have hA : ∀ n s : Fin 2000, (V8 m ρ c main_v76 : S2000x2000.Idx → EReal) (ix2 n s)
      = Spec.adj (dstI (x2 m c)) (srcI (x2 m c)) (edgeRe (x2 m c) (x5 m c)) n s := fun n s => by
    show (W8 m ρ c (Proc.devRef .tc main_v76) : S2000x2000.Idx → EReal) (ix2 n s) = _
    rw [P76, W7_keep m ρ c main_v76 (by decide) (by decide)]
    exact A76 n s
  have hB : ∀ n s : Fin 2000, (V8 m ρ c main_v77 : S2000x2000.Idx → EReal) (ix2 n s)
      = Spec.adj (dstI (x2 m c)) (srcI (x2 m c)) (edgeIm (x2 m c) (x5 m c)) n s := fun n s => by
    show (W8 m ρ c (Proc.devRef .tc main_v77) : S2000x2000.Idx → EReal) (ix2 n s) = _
    rw [P77, W7_keep m ρ c main_v77 (by decide) (by decide)]
    exact A77 n s
  have hX : (V8 m ρ c main_v87 : S2000x64.Idx → EReal) = val_main_v96 (F := Ideal) (x0 m c) (x1 m c) (x2 m c) (x5 m c) (x6 m c) :=
    (P87.trans (W7_out0 m ρ c)).trans L96
  have hY : (V8 m ρ c main_v88 : S2000x64.Idx → EReal) = val_main_v97 (F := Ideal) (x0 m c) (x1 m c) (x2 m c) (x5 m c) (x6 m c) :=
    (P88.trans (W7_out1 m ρ c)).trans L97
  have h7arg : W7 m ρ c (Proc.devRef .tc main_arg7) = x7 m c :=
    W7_arg m ρ c main_arg7 (by simp [argRefs]) (by decide) (by decide)
  have hw0 : ∀ k h : Fin 64, (V8 m ρ c main_v91 : S64x64.Idx → EReal) (ix2 k h) = (x7 m c : S2x64x64.Idx → EReal) (ix3 (0 : Fin 2) k h) :=
    fun k h => (P91 k h).trans (by rw [h7arg])
  have hw1 : ∀ k h : Fin 64, (V8 m ρ c main_v94 : S64x64.Idx → EReal) (ix2 k h) = (x7 m c : S2x64x64.Idx → EReal) (ix3 (1 : Fin 2) k h) :=
    fun k h => (P94 k h).trans (by rw [h7arg])
  obtain ⟨e8, e9, -, -⟩ := layer2 (V8 m ρ) c (x0 m c) (x1 m c) (x2 m c) (x5 m c) (x6 m c) (x7 m c) hA hB hX hY hw0 hw1 hr hcr hci
    (fun n k => R96 (ix2 n k)) (fun n k => R97 (ix2 n k)) (fun k h => h7 (ix3 (0 : Fin 2) k h)) (fun k h => h7 (ix3 (1 : Fin 2) k h))
  exact ⟨(W9_out0 m ρ c).trans e8, (W9_out1 m ρ c).trans e9⟩

end Second

/-! ## The whole program -/

/-- The kernel program's result buffer at the end of @main, on every core, is the reference's result stage of the
    argument arrays: the claim's value half. -/
theorem result_eq [Cert.Pre_finite_inputs.Facts] (hpre : Cert.Pre_KernelIdeal m) (c : Dev nD) :
    W12 m ρ c (Proc.devRef .tc main_v141)
      = val_main_v239 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  obtain ⟨h0, h1, h4, h5, h6, h7, h8, h9, hE⟩ := Cert.PreFacts.facts_of_pre _ _ _ _ _ _ _ _ _ _ (hpre c)
  -- the stretch between the first two calls
  have P87 : (W8 m ρ c (Proc.devRef .tc main_v87) : S2000x64.Idx → EReal) = W7 m ρ c (Proc.devRef .tc main_v86_0) := Cert.Prelude.P6_v87 (W7 m ρ c)
  have P88 : (W8 m ρ c (Proc.devRef .tc main_v88) : S2000x64.Idx → EReal) = W7 m ρ c (Proc.devRef .tc main_v86_1) := Cert.Prelude.P6_v88 (W7 m ρ c)
  have P91 : ∀ k h : Fin 64, (W8 m ρ c (Proc.devRef .tc main_v91) : S64x64.Idx → EReal) (ix2 k h)
      = (W7 m ρ c (Proc.devRef .tc main_arg7) : S2x64x64.Idx → EReal) (ix3 (0 : Fin 2) k h) := Cert.Prelude.P6_v91 (W7 m ρ c)
  have P94 : ∀ k h : Fin 64, (W8 m ρ c (Proc.devRef .tc main_v94) : S64x64.Idx → EReal) (ix2 k h)
      = (W7 m ρ c (Proc.devRef .tc main_arg7) : S2x64x64.Idx → EReal) (ix3 (1 : Fin 2) k h) := Cert.Prelude.P6_v94 (W7 m ρ c)
  have P76 : W8 m ρ c (Proc.devRef .tc main_v76) = W7 m ρ c (Proc.devRef .tc main_v76) := Cert.Prelude.P6_v76 (W7 m ρ c)
  have P77 : W8 m ρ c (Proc.devRef .tc main_v77) = W7 m ρ c (Proc.devRef .tc main_v77) := Cert.Prelude.P6_v77 (W7 m ρ c)
  -- the reference's two spellings of the symmetrised lists and of the edge weights' parts agree; the parts are real
  have Sss : val_main_v98 (F := Ideal) (x2 m c) = val_main_v4 (F := Ideal) (x2 m c) := Cert.Prelude.P5_ss (x2 m c)
  have Sdd : val_main_v99 (F := Ideal) (x2 m c) = val_main_v5 (F := Ideal) (x2 m c) := Cert.Prelude.P5_dd (x2 m c)
  have Scr : val_main_v135 (F := Ideal) (x2 m c) (x5 m c) = val_main_v41 (F := Ideal) (x2 m c) (x5 m c) := Cert.Prelude.P5_cr (x2 m c) (x5 m c)
  have Sci : val_main_v138 (F := Ideal) (x2 m c) (x5 m c) = val_main_v44 (F := Ideal) (x2 m c) (x5 m c) := Cert.Prelude.P5_ci (x2 m c) (x5 m c)
  have Rcr : ∀ e : Fin 128000, ∃ r : ℝ, val_main_v41 (F := Ideal) (x2 m c) (x5 m c) (ix1 e) = (r : EReal) := Cert.Prelude.P4_cr (x2 m c) (x5 m c) h5
  have Rci : ∀ e : Fin 128000, ∃ r : ℝ, val_main_v44 (F := Ideal) (x2 m c) (x5 m c) (ix1 e) = (r : EReal) := Cert.Prelude.P4_ci (x2 m c) (x5 m c) h5
  -- the stretches before the first call
  have Q78 : (W6 m ρ c (Proc.devRef .tc main_v78) : S2000x512.Idx → EReal) = x0 m c := Cert.Prelude.P1_v78 (W0 m ρ c)
  have Q79 : (W6 m ρ c (Proc.devRef .tc main_v79) : S2000x512.Idx → EReal) = x1 m c := Cert.Prelude.P1_v79 (W0 m ρ c)
  have Q82 : ∀ (k : Fin 512) (h : Fin 64), (W6 m ρ c (Proc.devRef .tc main_v82) : S512x64.Idx → EReal) (ix2 k h)
      = (x6 m c : S2x512x64.Idx → EReal) (ix3 (0 : Fin 2) k h) := Cert.Prelude.P2_v82 (W0 m ρ c)
  have Q85 : ∀ (k : Fin 512) (h : Fin 64), (W6 m ρ c (Proc.devRef .tc main_v85) : S512x64.Idx → EReal) (ix2 k h)
      = (x6 m c : S2x512x64.Idx → EReal) (ix3 (1 : Fin 2) k h) := Cert.Prelude.P2_v85 (W0 m ρ c)
  have Q76 : ∀ n s : Fin 2000, (W6 m ρ c (Proc.devRef .tc main_v76) : S2000x2000.Idx → EReal) (ix2 n s)
      = Spec.adj (fun e : Fin 128000 => (val_main_v5 (F := Ideal) (x2 m c) (ix1 e)).toInt) (fun e : Fin 128000 => (val_main_v4 (F := Ideal) (x2 m c) (ix1 e)).toInt) (fun e : Fin 128000 => val_main_v41 (F := Ideal) (x2 m c) (x5 m c) (ix1 e)) n s := fun n s => Cert.Prelude.P3_v76 (W0 m ρ c) hE n s
  have Q77 : ∀ n s : Fin 2000, (W6 m ρ c (Proc.devRef .tc main_v77) : S2000x2000.Idx → EReal) (ix2 n s)
      = Spec.adj (fun e : Fin 128000 => (val_main_v5 (F := Ideal) (x2 m c) (ix1 e)).toInt) (fun e : Fin 128000 => (val_main_v4 (F := Ideal) (x2 m c) (ix1 e)).toInt) (fun e : Fin 128000 => val_main_v44 (F := Ideal) (x2 m c) (x5 m c) (ix1 e)) n s := fun n s => Cert.Prelude.P3_v77 (W0 m ρ c) hE n s
  -- the first call
  have LAY1 : (∀ n s : Fin 2000, (V6 m ρ c main_v76 : S2000x2000.Idx → EReal) (ix2 n s) = Spec.adj (fun e : Fin 128000 => (val_main_v5 (F := Ideal) (x2 m c) (ix1 e)).toInt) (fun e : Fin 128000 => (val_main_v4 (F := Ideal) (x2 m c) (ix1 e)).toInt) (fun e : Fin 128000 => val_main_v41 (F := Ideal) (x2 m c) (x5 m c) (ix1 e)) n s)
      → (∀ n s : Fin 2000, (V6 m ρ c main_v77 : S2000x2000.Idx → EReal) (ix2 n s) = Spec.adj (fun e : Fin 128000 => (val_main_v5 (F := Ideal) (x2 m c) (ix1 e)).toInt) (fun e : Fin 128000 => (val_main_v4 (F := Ideal) (x2 m c) (ix1 e)).toInt) (fun e : Fin 128000 => val_main_v44 (F := Ideal) (x2 m c) (x5 m c) (ix1 e)) n s)
      → (∀ (n : Fin 2000) (k : Fin 512), (V6 m ρ c main_v78 : S2000x512.Idx → EReal) (ix2 n k) = (x0 m c : S2000x512.Idx → EReal) (ix2 n k))
      → (∀ (n : Fin 2000) (k : Fin 512), (V6 m ρ c main_v79 : S2000x512.Idx → EReal) (ix2 n k) = (x1 m c : S2000x512.Idx → EReal) (ix2 n k))
      → (∀ (k : Fin 512) (h : Fin 64), (V6 m ρ c main_v82 : S512x64.Idx → EReal) (ix2 k h) = (x6 m c : S2x512x64.Idx → EReal) (ix3 (0 : Fin 2) k h))
      → (∀ (k : Fin 512) (h : Fin 64), (V6 m ρ c main_v85 : S512x64.Idx → EReal) (ix2 k h) = (x6 m c : S2x512x64.Idx → EReal) (ix3 (1 : Fin 2) k h))
      → (∀ a : Fin 2, ∀ e : Fin 64000, 0 ≤ ((x2 m c : S2x64000.Idx → BitVec 32) (ix2 a e)).toInt ∧ ((x2 m c : S2x64000.Idx → BitVec 32) (ix2 a e)).toInt < 2000)
      → (∀ e : Fin 128000, ∃ r : ℝ, val_main_v41 (F := Ideal) (x2 m c) (x5 m c) (ix1 e) = (r : EReal))
      → (∀ e : Fin 128000, ∃ r : ℝ, val_main_v44 (F := Ideal) (x2 m c) (x5 m c) (ix1 e) = (r : EReal))
      → (∀ (n : Fin 2000) (k : Fin 512), ∃ r : ℝ, (x0 m c : S2000x512.Idx → EReal) (ix2 n k) = (r : EReal))
      → (∀ (n : Fin 2000) (k : Fin 512), ∃ r : ℝ, (x1 m c : S2000x512.Idx → EReal) (ix2 n k) = (r : EReal))
      → ((dat0 (F := Ideal) (V6 m ρ) c).arrAt 8 cfg0.N : S2000x64.Idx → EReal) = val_main_v96 (F := Ideal) (x0 m c) (x1 m c) (x2 m c) (x5 m c) (x6 m c)
        ∧ ((dat0 (F := Ideal) (V6 m ρ) c).arrAt 9 cfg0.N : S2000x64.Idx → EReal) = val_main_v97 (F := Ideal) (x0 m c) (x1 m c) (x2 m c) (x5 m c) (x6 m c) := Cert.Layer1.layer1 (x0 m c) (x1 m c) (x2 m c) (x5 m c) (x6 m c) (V6 m ρ) c
  have REAL96 : (∀ e : Fin 128000, ∃ r : ℝ, val_main_v41 (F := Ideal) (x2 m c) (x5 m c) (ix1 e) = (r : EReal))
      → (∀ e : Fin 128000, ∃ r : ℝ, val_main_v44 (F := Ideal) (x2 m c) (x5 m c) (ix1 e) = (r : EReal))
      → (∀ (n : Fin 2000) (k : Fin 512), ∃ r : ℝ, (x0 m c : S2000x512.Idx → EReal) (ix2 n k) = (r : EReal))
      → (∀ (n : Fin 2000) (k : Fin 512), ∃ r : ℝ, (x1 m c : S2000x512.Idx → EReal) (ix2 n k) = (r : EReal))
      → (∀ (k : Fin 512) (h : Fin 64), ∃ r : ℝ, (x6 m c : S2x512x64.Idx → EReal) (ix3 (0 : Fin 2) k h) = (r : EReal))
      → (∀ (k : Fin 512) (h : Fin 64), ∃ r : ℝ, (x6 m c : S2x512x64.Idx → EReal) (ix3 (1 : Fin 2) k h) = (r : EReal))
      → ∀ i, ∃ r : ℝ, val_main_v96 (F := Ideal) (x0 m c) (x1 m c) (x2 m c) (x5 m c) (x6 m c) i = (r : EReal) := Cert.Layer1.ref96_real (x0 m c) (x1 m c) (x2 m c) (x5 m c) (x6 m c)
  have REAL97 : (∀ e : Fin 128000, ∃ r : ℝ, val_main_v41 (F := Ideal) (x2 m c) (x5 m c) (ix1 e) = (r : EReal))
      → (∀ e : Fin 128000, ∃ r : ℝ, val_main_v44 (F := Ideal) (x2 m c) (x5 m c) (ix1 e) = (r : EReal))
      → (∀ (n : Fin 2000) (k : Fin 512), ∃ r : ℝ, (x0 m c : S2000x512.Idx → EReal) (ix2 n k) = (r : EReal))
      → (∀ (n : Fin 2000) (k : Fin 512), ∃ r : ℝ, (x1 m c : S2000x512.Idx → EReal) (ix2 n k) = (r : EReal))
      → (∀ (k : Fin 512) (h : Fin 64), ∃ r : ℝ, (x6 m c : S2x512x64.Idx → EReal) (ix3 (0 : Fin 2) k h) = (r : EReal))
      → (∀ (k : Fin 512) (h : Fin 64), ∃ r : ℝ, (x6 m c : S2x512x64.Idx → EReal) (ix3 (1 : Fin 2) k h) = (r : EReal))
      → ∀ i, ∃ r : ℝ, val_main_v97 (F := Ideal) (x0 m c) (x1 m c) (x2 m c) (x5 m c) (x6 m c) i = (r : EReal) := Cert.Layer1.ref97_real (x0 m c) (x1 m c) (x2 m c) (x5 m c) (x6 m c)
  -- the last stretch and the last call
  have HEAD : (W9 m ρ c (Proc.devRef .tc main_v95_0) : S2000x64.Idx → EReal) = val_main_v190 (F := Ideal) (x0 m c) (x1 m c) (x2 m c) (x5 m c) (x6 m c) (x7 m c)
      → (W9 m ρ c (Proc.devRef .tc main_v95_1) : S2000x64.Idx → EReal) = val_main_v191 (F := Ideal) (x0 m c) (x1 m c) (x2 m c) (x5 m c) (x6 m c) (x7 m c)
      → (dat2 (F := Ideal) (V11 m ρ) c).arrAt 3 cfg2.N = val_main_v239 (F := Ideal) (x0 m c) (x1 m c) (x2 m c) (x3 m c) (x4 m c) (x5 m c) (x6 m c) (x7 m c) (x8 m c) (x9 m c) := fun hre him => Cert.Head.head_eq (W9 m ρ c) c (V11 m ρ) (x0 m c) (x1 m c) (x2 m c) (x3 m c) (x4 m c) (x5 m c) (x6 m c) (x7 m c) (x8 m c) (x9 m c) hre him
      (W9_arg m ρ c main_arg3 (by simp [argRefs]) (by decide) (by decide) (by decide) (by decide)) (W9_arg m ρ c main_arg4 (by simp [argRefs]) (by decide) (by decide) (by decide) (by decide))
      (W9_arg m ρ c main_arg8 (by simp [argRefs]) (by decide) (by decide) (by decide) (by decide)) (W9_arg m ρ c main_arg9 (by simp [argRefs]) (by decide) (by decide) (by decide) (by decide)) rfl rfl rfl
  -- from here on everything is derived
  have hx0 : ∀ (n : Fin 2000) (k : Fin 512), ∃ r : ℝ, (x0 m c : S2000x512.Idx → EReal) (ix2 n k) = (r : EReal) := fun n k => h0 _
  have hx1 : ∀ (n : Fin 2000) (k : Fin 512), ∃ r : ℝ, (x1 m c : S2000x512.Idx → EReal) (ix2 n k) = (r : EReal) := fun n k => h1 _
  have hw60 : ∀ (k : Fin 512) (h : Fin 64), ∃ r : ℝ, (x6 m c : S2x512x64.Idx → EReal) (ix3 (0 : Fin 2) k h) = (r : EReal) := fun k h => h6 _
  have hw61 : ∀ (k : Fin 512) (h : Fin 64), ∃ r : ℝ, (x6 m c : S2x512x64.Idx → EReal) (ix3 (1 : Fin 2) k h) = (r : EReal) := fun k h => h6 _
  obtain ⟨L96, L97⟩ := LAY1 Q76 Q77 (fun n k => congrFun Q78 (ix2 n k)) (fun n k => congrFun Q79 (ix2 n k)) Q82 Q85 hE Rcr Rci hx0 hx1
  have R96 := REAL96 Rcr Rci hx0 hx1 hw60 hw61
  have R97 := REAL97 Rcr Rci hx0 hx1 hw60 hw61
  -- the operator matrices and the edge weights' parts in the second layer's spelling
  have edI : dstI (x2 m c) = (fun e : Fin 128000 => (val_main_v5 (F := Ideal) (x2 m c) (ix1 e)).toInt) := funext fun e => by show (val_main_v99 (F := Ideal) (x2 m c) (ix1 e)).toInt = _; rw [Sdd]
  have esI : srcI (x2 m c) = (fun e : Fin 128000 => (val_main_v4 (F := Ideal) (x2 m c) (ix1 e)).toInt) := funext fun e => by show (val_main_v98 (F := Ideal) (x2 m c) (ix1 e)).toInt = _; rw [Sss]
  have ecr : edgeRe (x2 m c) (x5 m c) = (fun e : Fin 128000 => val_main_v41 (F := Ideal) (x2 m c) (x5 m c) (ix1 e)) := funext fun e => by show val_main_v135 (F := Ideal) (x2 m c) (x5 m c) (ix1 e) = _; rw [Scr]
  have eci : edgeIm (x2 m c) (x5 m c) = (fun e : Fin 128000 => val_main_v44 (F := Ideal) (x2 m c) (x5 m c) (ix1 e)) := funext fun e => by show val_main_v138 (F := Ideal) (x2 m c) (x5 m c) (ix1 e) = _; rw [Sci]
  have A76 : ∀ n s : Fin 2000, (W6 m ρ c (Proc.devRef .tc main_v76) : S2000x2000.Idx → EReal) (ix2 n s)
      = Spec.adj (dstI (x2 m c)) (srcI (x2 m c)) (edgeRe (x2 m c) (x5 m c)) n s := fun n s => by rw [edI, esI, ecr]; exact Q76 n s
  have A77 : ∀ n s : Fin 2000, (W6 m ρ c (Proc.devRef .tc main_v77) : S2000x2000.Idx → EReal) (ix2 n s)
      = Spec.adj (dstI (x2 m c)) (srcI (x2 m c)) (edgeIm (x2 m c) (x5 m c)) n s := fun n s => by rw [edI, esI, eci]; exact Q77 n s
  have hcr : ∀ e : Fin 128000, ∃ r : ℝ, val_main_v135 (F := Ideal) (x2 m c) (x5 m c) (ix1 e) = (r : EReal) := fun e => by rw [Scr]; exact Rcr e
  have hci : ∀ e : Fin 128000, ∃ r : ℝ, val_main_v138 (F := Ideal) (x2 m c) (x5 m c) (ix1 e) = (r : EReal) := fun e => by rw [Sci]; exact Rci e
  -- the second call
  obtain ⟨e190, e191⟩ := second_layer m ρ c P87 P88 P91 P94 P76 P77 A76 A77 hcr hci L96 L97 R96 R97 hE h7
  rw [W12_out]
  exact HEAD e190 e191

end Cert.Bridge

end
-- ==== Proof.lean ====
/-
  A two-layer complex graph convolution (the magnetic-Laplacian operator of a directed graph given edge by edge) followed
  by a linear head and a log-softmax, computed two ways. The reference aggregates sparsely: per layer it gathers the
  source node's features along every edge, weights them by the edge's complex coefficient and sums them into the target
  node. The kernel first accumulates the coefficients into a dense 2000 × 2000 complex matrix and then multiplies
  it by the feature matrix in three kernel regions (two convolution layers over row blocks of 200 nodes, one head over
  row blocks of 4000 queries), with the head's 320-column linear map split into its five 64-column blocks so that
  only two-column tables are gathered per query.

  Over the extended reals the two agree wherever every float input is finite and every edge endpoint is a node index in
  [0, 2000): distributing a feature over a sum of coefficients is valid for finite values, the reciprocal square root of
  a positive degree is one over its square root, a change of float format is the identity, and a sum over 320 columns
  is the sum of its five blocks. Outside [0, 2000) the reference itself indexes out of range.

  The frames: each kernel program is twelve segments (nine stretches of host operations, three regions) run from the
  launch memory, and the reference is one list of host operations; no operation and no region writes an argument array.
-/
import proofs.«405959_j54778012893400_3_alg».proof.Defs
import proofs.«405959_j54778012893400_3_alg».proof.Proof.Gen.Kernel
import proofs.«405959_j54778012893400_3_alg».proof.Proof.Gen.KernelIdeal
import proofs.«405959_j54778012893400_3_alg».proof.Proof.Gen.ReferenceIdeal
import proofs.«405959_j54778012893400_3_alg».proof.Proof.Gen.Pre_finite_inputs
import proofs.«405959_j54778012893400_3_alg».proof.Proof.KB.Run
import proofs.«405959_j54778012893400_3_alg».proof.Proof.KI.Run
import proofs.«405959_j54778012893400_3_alg».proof.Proof.RefRun
import proofs.«405959_j54778012893400_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- The reference is a list of host operations: it runs, and none of them writes an argument. -/
theorem frame_ri : Cert.frame_ReferenceIdeal := fun m ρ _ =>
  (θ_run Cert.ReferenceIdeal.defs _ _).mono (fun _ h c => (h c).2) (Cert.ReferenceIdeal.Hand.run (F := Ideal) m ρ)

/-- At the ideal instance both programs end with the reference's result stage of the shared arguments. -/
theorem algebraic : Cert.algebraic_KernelIdeal_ReferenceIdeal := by
  intro m ρ m' ρ' hpre hagree
  refine ⟨fun c => Cert.KernelIdeal.Hand.W12 m ρ c (Proc.devRef .tc Cert.KernelIdeal.main_v141),
    Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.Bridge.result_eq m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
